-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v132)) (v1 : (c : Dev Cert.KernelIdeal.nD) → Buf (Elt Ideal) ((c.tc : Thread Cert.KernelIdeal.nD Cert.KernelIdeal.τ).loc Cert.KernelIdeal.main_v159)) (v2 : (c : Dev Cert.KernelIdeal.nD) → Buf (Elt Ideal) ((c.tc : Thread Cert.KernelIdeal.nD Cert.KernelIdeal.τ).loc Cert.KernelIdeal.main_v52)) (v3 : (c : Dev Cert.KernelIdeal.nD) → Buf (Elt Ideal) ((c.tc : Thread Cert.KernelIdeal.nD Cert.KernelIdeal.τ).loc Cert.KernelIdeal.main_v105)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v132) = v0 c
          ∧ r.2.mem ((c.tc : Thread Cert.KernelIdeal.nD Cert.KernelIdeal.τ).loc Cert.KernelIdeal.main_v159) = v1 c
          ∧ r.2.mem ((c.tc : Thread Cert.KernelIdeal.nD Cert.KernelIdeal.τ).loc Cert.KernelIdeal.main_v52) = v2 c
          ∧ r.2.mem ((c.tc : Thread Cert.KernelIdeal.nD Cert.KernelIdeal.τ).loc Cert.KernelIdeal.main_v105) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v214) = v0 c
          ∧ r.2.mem ((c.tc : Thread Cert.ReferenceIdeal.nD Cert.ReferenceIdeal.τ).loc Cert.ReferenceIdeal.main_v215) = v1 c
          ∧ r.2.mem ((c.tc : Thread Cert.ReferenceIdeal.nD Cert.ReferenceIdeal.τ).loc Cert.ReferenceIdeal.main_v80) = v2 c
          ∧ r.2.mem ((c.tc : Thread Cert.ReferenceIdeal.nD Cert.ReferenceIdeal.τ).loc Cert.ReferenceIdeal.main_v161) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S2x200000 : Shape := ⟨2, ![2, 200000]⟩
abbrev S128x128 : Shape := ⟨2, ![128, 128]⟩
abbrev S128 : Shape := ⟨1, ![128]⟩
abbrev S384x128 : Shape := ⟨2, ![384, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S384x128 : S_.BroadcastsInDim S384x128 (![] : Fin 0 → Fin S384x128.rank)
  reducesTo_S384x128_S_d0_1 : S384x128.ReducesTo [0, 1] S_

variable [Facts]

def fn_part2 {F : FTy → Type} [FloatOps F] (main_arg11 : FVec F S128 .f32) (main_arg12 : FVec F S384x128 .f32) (main_arg13 : FVec F S128 .f32) (main_v33 : IVec S_ 1) : IVec S_ 1 :=
  let main_v34 : FVec F S128 .f32 := Host.absf main_arg11
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S384x128 .f32 := Host.absf main_arg12
  let main_cst_14 : FVec F S_ .f32 := constant S_ .f32 0x7F800000#32
  let main_v40 : FVec F S384x128 .f32 := broadcastInDim S384x128 ![] bcast_S_S384x128 main_cst_14
  let main_v41 : IVec S384x128 1 := cmpf .olt main_v39 main_v40
  let main_c_15 : IVec S_ 1 := constantI S_ 1 1#1
  let main_v42 : IVec S_ 1 := (fun x v => Host.reduce IntOp.andi x v reducesTo_S384x128_S_d0_1 h_S_) main_v41 main_c_15
  let main_v43 : IVec S_ 1 := andi main_v38 main_v42
  let main_v44 : FVec F S128 .f32 := Host.absf main_arg13
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg8 : FVec F S128x128 .f32) (main_arg9 : FVec F S128 .f32) (main_arg10 : FVec F S384x128 .f32) (main_arg11 : FVec F S128 .f32) (main_arg12 : FVec F S384x128 .f32) (main_arg13 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg8
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg9
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S384x128 .f32 := Host.absf main_arg10
  let main_cst_10 : FVec F S_ .f32 := constant S_ .f32 0x7F800000#32
  let main_v30 : FVec F S384x128 .f32 := broadcastInDim S384x128 ![] bcast_S_S384x128 main_cst_10
  let main_v31 : IVec S384x128 1 := cmpf .olt main_v29 main_v30
  let main_c_11 : IVec S_ 1 := constantI S_ 1 1#1
  let main_v32 : IVec S_ 1 := (fun x v => Host.reduce IntOp.andi x v reducesTo_S384x128_S_d0_1 h_S_) main_v31 main_c_11
  let main_v33 : IVec S_ 1 := andi main_v28 main_v32
  fn_part2 (F := F) main_arg11 main_arg12 main_arg13 main_v33

def fn {F : FTy → Type} [FloatOps F] (main_arg0 : FVec F S50000x128 .f32) (main_arg1 : FVec F S50000x128 .f32) (main_arg2 : IVec S2x600000 32) (main_arg3 : IVec S2x600000 32) (main_arg4 : IVec S2x200000 32) (main_arg5 : IVec S2x200000 32) (main_arg6 : FVec F S128x128 .f32) (main_arg7 : FVec F S128 .f32) (main_arg8 : FVec F S128x128 .f32) (main_arg9 : FVec F S128 .f32) (main_arg10 : FVec F S384x128 .f32) (main_arg11 : FVec F S128 .f32) (main_arg12 : FVec F S384x128 .f32) (main_arg13 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x128 .f32 := Host.absf main_arg6
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg7
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg8 main_arg9 main_arg10 main_arg11 main_arg12 main_arg13 main_v13 main_v16
-- ==== Kernel.lean ====
abbrev S50000x128 : Shape := ⟨2, ![50000, 128]⟩
abbrev S2x600000 : Shape := ⟨2, ![2, 600000]⟩
abbrev S2x200000 : Shape := ⟨2, ![2, 200000]⟩
abbrev S128x128 : Shape := ⟨2, ![128, 128]⟩
abbrev S128 : Shape := ⟨1, ![128]⟩
abbrev S384x128 : Shape := ⟨2, ![384, 128]⟩
abbrev S1x600000 : Shape := ⟨2, ![1, 600000]⟩
abbrev S600000 : Shape := ⟨1, ![600000]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S5000x128 : Shape := ⟨2, ![5000, 128]⟩
abbrev S5000x1 : Shape := ⟨2, ![5000, 1]⟩
abbrev S600000x128 : Shape := ⟨2, ![600000, 128]⟩
abbrev S1x128 : Shape := ⟨2, ![1, 128]⟩
abbrev S2000x128 : Shape := ⟨2, ![2000, 128]⟩
abbrev S2000x1 : Shape := ⟨2, ![2000, 1]⟩
abbrev S2000x384 : Shape := ⟨2, ![2000, 384]⟩
abbrev S1x200000 : Shape := ⟨2, ![1, 200000]⟩
abbrev S200000 : Shape := ⟨1, ![200000]⟩
abbrev S200000x1 : Shape := ⟨2, ![200000, 1]⟩
abbrev S200000x128 : Shape := ⟨2, ![200000, 128]⟩

abbrev nBuf : Space → Nat
  | .hbm => 236
  | .vmem => 64
  | .smem => 0
  | _ => 0

abbrev hbmTy0_0 (i : Nat) : BufTy := match i % 128 with
  | 0 => ⟨S50000x128, .f32⟩
  | 1 => ⟨S50000x128, .f32⟩
  | 2 => ⟨S2x600000, .i32⟩
  | 3 => ⟨S2x600000, .i32⟩
  | 4 => ⟨S2x200000, .i32⟩
  | 5 => ⟨S2x200000, .i32⟩
  | 6 => ⟨S128x128, .f32⟩
  | 7 => ⟨S128, .f32⟩
  | 8 => ⟨S128x128, .f32⟩
  | 9 => ⟨S128, .f32⟩
  | 10 => ⟨S384x128, .f32⟩
  | 11 => ⟨S128, .f32⟩
  | 12 => ⟨S384x128, .f32⟩
  | 13 => ⟨S128, .f32⟩
  | 14 => ⟨S1x600000, .i32⟩
  | 15 => ⟨S600000, .i32⟩
  | 16 => ⟨S1x600000, .i32⟩
  | 17 => ⟨S600000, .i32⟩
  | 18 => ⟨S_, .f32⟩
  | 19 => ⟨S600000, .f32⟩
  | 20 => ⟨S_, .f32⟩
  | 21 => ⟨S50000, .f32⟩
  | 22 => ⟨S600000x1, .i32⟩
  | 23 => ⟨S50000, .f32⟩
  | 24 => ⟨S_, .f32⟩
  | 25 => ⟨S50000, .f32⟩
  | 26 => ⟨S600000x1, .i32⟩
  | 27 => ⟨S50000, .f32⟩
  | 28 => ⟨S_, .f32⟩
  | 29 => ⟨S_, .f32⟩
  | 30 => ⟨S50000, .f32⟩
  | 31 => ⟨S50000, .f32⟩
  | 32 => ⟨S_, .f32⟩
  | 33 => ⟨S50000, .f32⟩
  | 34 => ⟨S50000, .f32⟩
  | 35 => ⟨S_, .f32⟩
  | 36 => ⟨S_, .f32⟩
  | 37 => ⟨S50000, .f32⟩
  | 38 => ⟨S50000, .f32⟩
  | 39 => ⟨S_, .f32⟩
  | 40 => ⟨S50000, .f32⟩
  | 41 => ⟨S50000, .f32⟩
  | 42 => ⟨S1x600000, .i32⟩
  | 43 => ⟨S600000, .i32⟩
  | 44 => ⟨S1x600000, .i32⟩
  | 45 => ⟨S600000, .i32⟩
  | 46 => ⟨S50000x1, .f32⟩
  | 47 => ⟨S50000x128, .bf16⟩
  | 48 => ⟨S_, .i32⟩
  | 49 => ⟨S600000, .i32⟩
  | 50 => ⟨S600000, .i1⟩
  | 51 => ⟨S_, .i32⟩
  | 52 => ⟨S600000, .i32⟩
  | 53 => ⟨S600000, .i32⟩
  | 54 => ⟨S600000, .i32⟩
  | 55 => ⟨S600000x1, .i32⟩
  | 56 => ⟨S600000x128, .bf16⟩
  | 57 => ⟨S600000x128, .f32⟩
  | 58 => ⟨S_, .f32⟩
  | 59 => ⟨S50000x128, .f32⟩
  | 60 => ⟨S600000x1, .i32⟩
  | 61 => ⟨S50000x128, .f32⟩
  | 62 => ⟨S50000x1, .f32⟩
  | 63 => ⟨S50000x1, .f32⟩
  | 64 => ⟨S1x128, .f32⟩
  | 65 => ⟨S50000x128, .f32⟩
  | 66 => ⟨S50000x128, .bf16⟩
  | 67 => ⟨S_, .i32⟩
  | 68 => ⟨S600000, .i32⟩
  | 69 => ⟨S600000, .i1⟩
  | 70 => ⟨S_, .i32⟩
  | 71 => ⟨S600000, .i32⟩
  | 72 => ⟨S600000, .i32⟩
  | 73 => ⟨S600000, .i32⟩
  | 74 => ⟨S600000x1, .i32⟩
  | 75 => ⟨S600000x128, .bf16⟩
  | 76 => ⟨S600000x128, .f32⟩
  | 77 => ⟨S_, .f32⟩
  | 78 => ⟨S50000x128, .f32⟩
  | 79 => ⟨S600000x1, .i32⟩
  | 80 => ⟨S50000x128, .f32⟩
  | 81 => ⟨S50000x1, .f32⟩
  | 82 => ⟨S1x128, .f32⟩
  | 83 => ⟨S1x128, .f32⟩
  | 84 => ⟨S50000x128, .f32⟩
  | 85 => ⟨S1x600000, .i32⟩
  | 86 => ⟨S600000, .i32⟩
  | 87 => ⟨S1x600000, .i32⟩
  | 88 => ⟨S600000, .i32⟩
  | 89 => ⟨S_, .f32⟩
  | 90 => ⟨S600000, .f32⟩
  | 91 => ⟨S_, .f32⟩
  | 92 => ⟨S50000, .f32⟩
  | 93 => ⟨S600000x1, .i32⟩
  | 94 => ⟨S50000, .f32⟩
  | 95 => ⟨S_, .f32⟩
  | 96 => ⟨S50000, .f32⟩
  | 97 => ⟨S600000x1, .i32⟩
  | 98 => ⟨S50000, .f32⟩
  | 99 => ⟨S_, .f32⟩
  | 100 => ⟨S_, .f32⟩
  | 101 => ⟨S50000, .f32⟩
  | 102 => ⟨S50000, .f32⟩
  | 103 => ⟨S_, .f32⟩
  | 104 => ⟨S50000, .f32⟩
  | 105 => ⟨S50000, .f32⟩
  | 106 => ⟨S_, .f32⟩
  | 107 => ⟨S_, .f32⟩
  | 108 => ⟨S50000, .f32⟩
  | 109 => ⟨S50000, .f32⟩
  | 110 => ⟨S_, .f32⟩
  | 111 => ⟨S50000, .f32⟩
  | 112 => ⟨S50000, .f32⟩
  | 113 => ⟨S1x600000, .i32⟩
  | 114 => ⟨S600000, .i32⟩
  | 115 => ⟨S1x600000, .i32⟩
  | 116 => ⟨S600000, .i32⟩
  | 117 => ⟨S50000x1, .f32⟩
  | 118 => ⟨S50000x128, .bf16⟩
  | 119 => ⟨S_, .i32⟩
  | 120 => ⟨S600000, .i32⟩
  | 121 => ⟨S600000, .i1⟩
  | 122 => ⟨S_, .i32⟩
  | 123 => ⟨S600000, .i32⟩
  | 124 => ⟨S600000, .i32⟩
  | 125 => ⟨S600000, .i32⟩
  | 126 => ⟨S600000x1, .i32⟩
  | 127 => ⟨S600000x128, .bf16⟩
  | _ => ⟨S50000x128, .f32⟩

abbrev hbmTy0_1 (i : Nat) : BufTy := match i % 128 with
  | 0 => ⟨S600000x128, .f32⟩
  | 1 => ⟨S_, .f32⟩
  | 2 => ⟨S50000x128, .f32⟩
  | 3 => ⟨S600000x1, .i32⟩
  | 4 => ⟨S50000x128, .f32⟩
  | 5 => ⟨S50000x1, .f32⟩
  | 6 => ⟨S50000x1, .f32⟩
  | 7 => ⟨S1x128, .f32⟩
  | 8 => ⟨S50000x128, .f32⟩
  | 9 => ⟨S50000x128, .bf16⟩
  | 10 => ⟨S_, .i32⟩
  | 11 => ⟨S600000, .i32⟩
  | 12 => ⟨S600000, .i1⟩
  | 13 => ⟨S_, .i32⟩
  | 14 => ⟨S600000, .i32⟩
  | 15 => ⟨S600000, .i32⟩
  | 16 => ⟨S600000, .i32⟩
  | 17 => ⟨S600000x1, .i32⟩
  | 18 => ⟨S600000x128, .bf16⟩
  | 19 => ⟨S600000x128, .f32⟩
  | 20 => ⟨S_, .f32⟩
  | 21 => ⟨S50000x128, .f32⟩
  | 22 => ⟨S600000x1, .i32⟩
  | 23 => ⟨S50000x128, .f32⟩
  | 24 => ⟨S50000x1, .f32⟩
  | 25 => ⟨S1x128, .f32⟩
  | 26 => ⟨S1x128, .f32⟩
  | 27 => ⟨S50000x128, .f32⟩
  | 28 => ⟨S1x200000, .i32⟩
  | 29 => ⟨S200000, .i32⟩
  | 30 => ⟨S_, .i32⟩
  | 31 => ⟨S200000, .i32⟩
  | 32 => ⟨S200000, .i1⟩
  | 33 => ⟨S_, .i32⟩
  | 34 => ⟨S200000, .i32⟩
  | 35 => ⟨S200000, .i32⟩
  | 36 => ⟨S200000, .i32⟩
  | 37 => ⟨S200000x1, .i32⟩
  | 38 => ⟨S200000x128, .f32⟩
  | 39 => ⟨S1x200000, .i32⟩
  | 40 => ⟨S200000, .i32⟩
  | 41 => ⟨S_, .i32⟩
  | 42 => ⟨S200000, .i32⟩
  | 43 => ⟨S200000, .i1⟩
  | 44 => ⟨S_, .i32⟩
  | 45 => ⟨S200000, .i32⟩
  | 46 => ⟨S200000, .i32⟩
  | 47 => ⟨S200000, .i32⟩
  | 48 => ⟨S200000x1, .i32⟩
  | 49 => ⟨S200000x128, .f32⟩
  | 50 => ⟨S200000x128, .f32⟩
  | 51 => ⟨S_, .f32⟩
  | 52 => ⟨S200000, .f32⟩
  | 53 => ⟨S200000x1, .f32⟩
  | 54 => ⟨S200000x1, .f32⟩
  | 55 => ⟨S200000x128, .f32⟩
  | 56 => ⟨S200000x128, .f32⟩
  | 57 => ⟨S200000x128, .f32⟩
  | 58 => ⟨S_, .f32⟩
  | 59 => ⟨S200000, .f32⟩
  | 60 => ⟨S200000x1, .f32⟩
  | 61 => ⟨S200000x1, .f32⟩
  | 62 => ⟨S200000x128, .f32⟩
  | 63 => ⟨S200000x128, .f32⟩
  | 64 => ⟨S200000x128, .f32⟩
  | 65 => ⟨S_, .f32⟩
  | 66 => ⟨S200000, .f32⟩
  | 67 => ⟨S200000x1, .f32⟩
  | 68 => ⟨S1x200000, .i32⟩
  | 69 => ⟨S200000, .i32⟩
  | 70 => ⟨S_, .i32⟩
  | 71 => ⟨S200000, .i32⟩
  | 72 => ⟨S200000, .i1⟩
  | 73 => ⟨S_, .i32⟩
  | 74 => ⟨S200000, .i32⟩
  | 75 => ⟨S200000, .i32⟩
  | 76 => ⟨S200000, .i32⟩
  | 77 => ⟨S200000x1, .i32⟩
  | 78 => ⟨S200000x128, .f32⟩
  | 79 => ⟨S1x200000, .i32⟩
  | 80 => ⟨S200000, .i32⟩
  | 81 => ⟨S_, .i32⟩
  | 82 => ⟨S200000, .i32⟩
  | 83 => ⟨S200000, .i1⟩
  | 84 => ⟨S_, .i32⟩
  | 85 => ⟨S200000, .i32⟩
  | 86 => ⟨S200000, .i32⟩
  | 87 => ⟨S200000, .i32⟩
  | 88 => ⟨S200000x1, .i32⟩
  | 89 => ⟨S200000x128, .f32⟩
  | 90 => ⟨S200000x128, .f32⟩
  | 91 => ⟨S_, .f32⟩
  | 92 => ⟨S200000, .f32⟩
  | 93 => ⟨S200000x1, .f32⟩
  | 94 => ⟨S200000x1, .f32⟩
  | 95 => ⟨S200000x128, .f32⟩
  | 96 => ⟨S200000x128, .f32⟩
  | 97 => ⟨S200000x128, .f32⟩
  | 98 => ⟨S_, .f32⟩
  | 99 => ⟨S200000, .f32⟩
  | 100 => ⟨S200000x1, .f32⟩
  | 101 => ⟨S200000x1, .f32⟩
  | 102 => ⟨S200000x128, .f32⟩
  | 103 => ⟨S200000x128, .f32⟩
  | 104 => ⟨S200000x128, .f32⟩
  | 105 => ⟨S_, .f32⟩
  | 106 => ⟨S200000, .f32⟩
  | 107 => ⟨S200000x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S128x128, .f32⟩
  | .local _ .vmem, ⟨5, _⟩ => ⟨S5000x128, .bf16⟩
  | .local _ .vmem, ⟨6, _⟩ => ⟨S5000x128, .bf16⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x1, .f32⟩
  | .local _ .vmem, ⟨13, _⟩ => ⟨S5000x1, .f32⟩
  | .local _ .vmem, ⟨14, _⟩ => ⟨S128x128, .f32⟩
  | .local _ .vmem, ⟨15, _⟩ => ⟨S5000x128, .f32⟩
  | .local _ .vmem, ⟨16, _⟩ => ⟨S5000x128, .f32⟩
  | .local _ .vmem, ⟨17, _⟩ => ⟨S5000x128, .bf16⟩
  | .local _ .vmem, ⟨18, _⟩ => ⟨S5000x128, .bf16⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x1, .f32⟩
  | .local _ .vmem, ⟨26, _⟩ => ⟨S2000x1, .f32⟩
  | .local _ .vmem, ⟨27, _⟩ => ⟨S1x128, .f32⟩
  | .local _ .vmem, ⟨28, _⟩ => ⟨S384x128, .f32⟩
  | .local _ .vmem, ⟨29, _⟩ => ⟨S1x128, .f32⟩
  | .local _ .vmem, ⟨30, _⟩ => ⟨S2000x128, .f32⟩
  | .local _ .vmem, ⟨31, _⟩ => ⟨S2000x128, .f32⟩
  | .local _ .vmem, ⟨32, _⟩ => ⟨S5000x128, .f32⟩
  | .local _ .vmem, ⟨33, _⟩ => ⟨S5000x128, .f32⟩
  | .local _ .vmem, ⟨34, _⟩ => ⟨S5000x1, .f32⟩
  | .local _ .vmem, ⟨35, _⟩ => ⟨S5000x1, .f32⟩
  | .local _ .vmem, ⟨36, _⟩ => ⟨S128x128, .f32⟩
  | .local _ .vmem, ⟨37, _⟩ => ⟨S5000x128, .bf16⟩
  | .local _ .vmem, ⟨38, _⟩ => ⟨S5000x128, .bf16⟩
  | .local _ .vmem, ⟨39, _⟩ => ⟨S5000x128, .f32⟩
  | .local _ .vmem, ⟨40, _⟩ => ⟨S5000x128, .f32⟩
  | .local _ .vmem, ⟨41, _⟩ => ⟨S5000x1, .f32⟩
  | .local _ .vmem, ⟨42, _⟩ => ⟨S5000x1, .f32⟩
  | .local _ .vmem, ⟨43, _⟩ => ⟨S1x128, .f32⟩
  | .local _ .vmem, ⟨44, _⟩ => ⟨S5000x1, .f32⟩
  | .local _ .vmem, ⟨45, _⟩ => ⟨S5000x1, .f32⟩
  | .local _ .vmem, ⟨46, _⟩ => ⟨S128x128, .f32⟩
  | .local _ .vmem, ⟨47, _⟩ => ⟨S5000x128, .f32⟩
  | .local _ .vmem, ⟨48, _⟩ => ⟨S5000x128, .f32⟩
  | .local _ .vmem, ⟨49, _⟩ => ⟨S5000x128, .bf16⟩
  | .local _ .vmem, ⟨50, _⟩ => ⟨S5000x128, .bf16⟩
  | .local _ .vmem, ⟨51, _⟩ => ⟨S2000x128, .f32⟩
  | .local _ .vmem, ⟨52, _⟩ => ⟨S2000x128, .f32⟩
  | .local _ .vmem, ⟨53, _⟩ => ⟨S2000x128, .f32⟩
  | .local _ .vmem, ⟨54, _⟩ => ⟨S2000x128, .f32⟩
  | .local _ .vmem, ⟨55, _⟩ => ⟨S2000x128, .f32⟩
  | .local _ .vmem, ⟨56, _⟩ => ⟨S2000x128, .f32⟩
  | .local _ .vmem, ⟨57, _⟩ => ⟨S2000x1, .f32⟩
  | .local _ .vmem, ⟨58, _⟩ => ⟨S2000x1, .f32⟩
  | .local _ .vmem, ⟨59, _⟩ => ⟨S1x128, .f32⟩
  | .local _ .vmem, ⟨60, _⟩ => ⟨S384x128, .f32⟩
  | .local _ .vmem, ⟨61, _⟩ => ⟨S1x128, .f32⟩
  | .local _ .vmem, ⟨62, _⟩ => ⟨S2000x128, .f32⟩
  | .local _ .vmem, ⟨63, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v11 : Ref sig .tc := ⟨.hbm, 31, rfl⟩
abbrev main_cst_3 : Ref sig .tc := ⟨.hbm, 32, rfl⟩
abbrev main_v12 : Ref sig .tc := ⟨.hbm, 33, rfl⟩
abbrev main_v13 : Ref sig .tc := ⟨.hbm, 34, rfl⟩
abbrev main_cst_4 : Ref sig .tc := ⟨.hbm, 35, rfl⟩
abbrev main_call1_v0 : Ref sig .tc := ⟨.hbm, 36, rfl⟩
abbrev main_call1_v1 : Ref sig .tc := ⟨.hbm, 37, rfl⟩
abbrev main_v14 : Ref sig .tc := ⟨.hbm, 38, rfl⟩
abbrev main_cst_5 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_c : Ref sig .tc := ⟨.hbm, 48, rfl⟩
abbrev main_v23 : Ref sig .tc := ⟨.hbm, 49, rfl⟩
abbrev main_v24 : Ref sig .tc := ⟨.hbm, 50, rfl⟩
abbrev main_c_6 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_cst_7 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37_0 : Ref sig .tc := ⟨.hbm, 65, rfl⟩
abbrev main_v37_1 : Ref sig .tc := ⟨.hbm, 66, rfl⟩
abbrev main_c_8 : Ref sig .tc := ⟨.hbm, 67, rfl⟩
abbrev main_v38 : Ref sig .tc := ⟨.hbm, 68, rfl⟩
abbrev main_v39 : Ref sig .tc := ⟨.hbm, 69, rfl⟩
abbrev main_c_9 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_cst_10 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_cst_11 : Ref sig .tc := ⟨.hbm, 89, rfl⟩
abbrev main_v57 : Ref sig .tc := ⟨.hbm, 90, rfl⟩
abbrev main_cst_12 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_cst_13 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_cst_14 : Ref sig .tc := ⟨.hbm, 99, rfl⟩
abbrev main_call2_v0 : Ref sig .tc := ⟨.hbm, 100, rfl⟩
abbrev main_call2_v1 : Ref sig .tc := ⟨.hbm, 101, rfl⟩
abbrev main_v64 : Ref sig .tc := ⟨.hbm, 102, rfl⟩
abbrev main_cst_15 : Ref sig .tc := ⟨.hbm, 103, rfl⟩
abbrev main_v65 : Ref sig .tc := ⟨.hbm, 104, rfl⟩
abbrev main_v66 : Ref sig .tc := ⟨.hbm, 105, rfl⟩
abbrev main_cst_16 : Ref sig .tc := ⟨.hbm, 106, rfl⟩
abbrev main_call3_v0 : Ref sig .tc := ⟨.hbm, 107, rfl⟩
abbrev main_call3_v1 : Ref sig .tc := ⟨.hbm, 108, rfl⟩
abbrev main_v67 : Ref sig .tc := ⟨.hbm, 109, rfl⟩
abbrev main_cst_17 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_c_18 : Ref sig .tc := ⟨.hbm, 119, rfl⟩
abbrev main_v76 : Ref sig .tc := ⟨.hbm, 120, rfl⟩
abbrev main_v77 : Ref sig .tc := ⟨.hbm, 121, rfl⟩
abbrev main_c_19 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_cst_20 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90_0 : Ref sig .tc := ⟨.hbm, 136, rfl⟩
abbrev main_v90_1 : Ref sig .tc := ⟨.hbm, 137, rfl⟩
abbrev main_c_21 : Ref sig .tc := ⟨.hbm, 138, rfl⟩
abbrev main_v91 : Ref sig .tc := ⟨.hbm, 139, rfl⟩
abbrev main_v92 : Ref sig .tc := ⟨.hbm, 140, rfl⟩
abbrev main_c_22 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_cst_23 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_c_24 : Ref sig .tc := ⟨.hbm, 158, rfl⟩
abbrev main_v108 : Ref sig .tc := ⟨.hbm, 159, rfl⟩
abbrev main_v109 : Ref sig .tc := ⟨.hbm, 160, rfl⟩
abbrev main_c_25 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_c_26 : Ref sig .tc := ⟨.hbm, 169, rfl⟩
abbrev main_v117 : Ref sig .tc := ⟨.hbm, 170, rfl⟩
abbrev main_v118 : Ref sig .tc := ⟨.hbm, 171, rfl⟩
abbrev main_c_27 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_call4_v0 : Ref sig .tc := ⟨.hbm, 178, rfl⟩
abbrev main_call4_cst : Ref sig .tc := ⟨.hbm, 179, rfl⟩
abbrev main_call4_v1 : Ref sig .tc := ⟨.hbm, 180, rfl⟩
abbrev main_call4_v2 : Ref sig .tc := ⟨.hbm, 181, rfl⟩
abbrev main_v124 : Ref sig .tc := ⟨.hbm, 182, rfl⟩
abbrev main_v125 : Ref sig .tc := ⟨.hbm, 183, rfl⟩
abbrev main_v126 : Ref sig .tc := ⟨.hbm, 184, rfl⟩
abbrev main_call5_v0 : Ref sig .tc := ⟨.hbm, 185, rfl⟩
abbrev main_call5_cst : Ref sig .tc := ⟨.hbm, 186, rfl⟩
abbrev main_call5_v1 : Ref sig .tc := ⟨.hbm, 187, rfl⟩
abbrev main_call5_v2 : Ref sig .tc := ⟨.hbm, 188, rfl⟩
abbrev main_v127 : Ref sig .tc := ⟨.hbm, 189, rfl⟩
abbrev main_v128 : Ref sig .tc := ⟨.hbm, 190, rfl⟩
abbrev main_v129 : Ref sig .tc := ⟨.hbm, 191, rfl⟩
abbrev main_v130 : Ref sig .tc := ⟨.hbm, 192, rfl⟩
abbrev main_cst_28 : Ref sig .tc := ⟨.hbm, 193, rfl⟩
abbrev main_v131 : Ref sig .tc := ⟨.hbm, 194, rfl⟩
abbrev main_v132 : Ref sig .tc := ⟨.hbm, 195, rfl⟩
abbrev main_v133 : Ref sig .tc := ⟨.hbm, 196, rfl⟩
abbrev main_v134 : Ref sig .tc := ⟨.hbm, 197, rfl⟩
abbrev main_c_29 : Ref sig .tc := ⟨.hbm, 198, rfl⟩
abbrev main_v135 : Ref sig .tc := ⟨.hbm, 199, rfl⟩
abbrev main_v136 : Ref sig .tc := ⟨.hbm, 200, rfl⟩
abbrev main_c_30 : Ref sig .tc := ⟨.hbm, 201, rfl⟩
abbrev main_v137 : Ref sig .tc := ⟨.hbm, 202, rfl⟩
abbrev main_v138 : Ref sig .tc := ⟨.hbm, 203, rfl⟩
abbrev main_v139 : Ref sig .tc := ⟨.hbm, 204, rfl⟩
abbrev main_v140 : Ref sig .tc := ⟨.hbm, 205, rfl⟩
abbrev main_v141 : Ref sig .tc := ⟨.hbm, 206, rfl⟩
abbrev main_v142 : Ref sig .tc := ⟨.hbm, 207, rfl⟩
abbrev main_v143 : Ref sig .tc := ⟨.hbm, 208, rfl⟩
abbrev main_c_31 : Ref sig .tc := ⟨.hbm, 209, rfl⟩
abbrev main_v144 : Ref sig .tc := ⟨.hbm, 210, rfl⟩
abbrev main_v145 : Ref sig .tc := ⟨.hbm, 211, rfl⟩
abbrev main_c_32 : Ref sig .tc := ⟨.hbm, 212, rfl⟩
abbrev main_v146 : Ref sig .tc := ⟨.hbm, 213, rfl⟩
abbrev main_v147 : Ref sig .tc := ⟨.hbm, 214, rfl⟩
abbrev main_v148 : Ref sig .tc := ⟨.hbm, 215, rfl⟩
abbrev main_v149 : Ref sig .tc := ⟨.hbm, 216, rfl⟩
abbrev main_v150 : Ref sig .tc := ⟨.hbm, 217, rfl⟩
abbrev main_call6_v0 : Ref sig .tc := ⟨.hbm, 218, rfl⟩
abbrev main_call6_cst : Ref sig .tc := ⟨.hbm, 219, rfl⟩
abbrev main_call6_v1 : Ref sig .tc := ⟨.hbm, 220, rfl⟩
abbrev main_call6_v2 : Ref sig .tc := ⟨.hbm, 221, rfl⟩
abbrev main_v151 : Ref sig .tc := ⟨.hbm, 222, rfl⟩
abbrev main_v152 : Ref sig .tc := ⟨.hbm, 223, rfl⟩
abbrev main_v153 : Ref sig .tc := ⟨.hbm, 224, rfl⟩
abbrev main_call7_v0 : Ref sig .tc := ⟨.hbm, 225, rfl⟩
abbrev main_call7_cst : Ref sig .tc := ⟨.hbm, 226, rfl⟩
abbrev main_call7_v1 : Ref sig .tc := ⟨.hbm, 227, rfl⟩
abbrev main_call7_v2 : Ref sig .tc := ⟨.hbm, 228, rfl⟩
abbrev main_v154 : Ref sig .tc := ⟨.hbm, 229, rfl⟩
abbrev main_v155 : Ref sig .tc := ⟨.hbm, 230, rfl⟩
abbrev main_v156 : Ref sig .tc := ⟨.hbm, 231, rfl⟩
abbrev main_v157 : Ref sig .tc := ⟨.hbm, 232, rfl⟩
abbrev main_cst_33 : Ref sig .tc := ⟨.hbm, 233, rfl⟩
abbrev main_v158 : Ref sig .tc := ⟨.hbm, 234, rfl⟩
abbrev main_v159 : Ref sig .tc := ⟨.hbm, 235, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc1_stg6_0 : Ref sig .tc := ⟨.vmem, 17, rfl⟩
abbrev cc1_stg6_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg3_1 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg6_0 : Ref sig .tc := ⟨.vmem, 29, rfl⟩
abbrev cc2_stg7_0 : Ref sig .tc := ⟨.vmem, 30, rfl⟩
abbrev cc2_stg7_1 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg1_1 : Ref sig .tc := ⟨.vmem, 35, rfl⟩
abbrev cc3_stg2_0 : Ref sig .tc := ⟨.vmem, 36, rfl⟩
abbrev cc3_stg3_0 : Ref sig .tc := ⟨.vmem, 37, rfl⟩
abbrev cc3_stg3_1 : Ref sig .tc := ⟨.vmem, 38, rfl⟩
abbrev cc4_stg0_0 : Ref sig .tc := ⟨.vmem, 39, rfl⟩
abbrev cc4_stg0_1 : Ref sig .tc := ⟨.vmem, 40, rfl⟩
abbrev cc4_stg1_0 : Ref sig .tc := ⟨.vmem, 41, rfl⟩
abbrev cc4_stg1_1 : Ref sig .tc := ⟨.vmem, 42, rfl⟩
abbrev cc4_stg2_0 : Ref sig .tc := ⟨.vmem, 43, rfl⟩
abbrev cc4_stg3_0 : Ref sig .tc := ⟨.vmem, 44, rfl⟩
abbrev cc4_stg3_1 : Ref sig .tc := ⟨.vmem, 45, rfl⟩
abbrev cc4_stg4_0 : Ref sig .tc := ⟨.vmem, 46, rfl⟩
abbrev cc4_stg5_0 : Ref sig .tc := ⟨.vmem, 47, rfl⟩
abbrev cc4_stg5_1 : Ref sig .tc := ⟨.vmem, 48, rfl⟩
abbrev cc4_stg6_0 : Ref sig .tc := ⟨.vmem, 49, rfl⟩
abbrev cc4_stg6_1 : Ref sig .tc := ⟨.vmem, 50, rfl⟩
abbrev cc5_stg0_0 : Ref sig .tc := ⟨.vmem, 51, rfl⟩
abbrev cc5_stg0_1 : Ref sig .tc := ⟨.vmem, 52, rfl⟩
abbrev cc5_stg1_0 : Ref sig .tc := ⟨.vmem, 53, rfl⟩
abbrev cc5_stg1_1 : Ref sig .tc := ⟨.vmem, 54, rfl⟩
abbrev cc5_stg2_0 : Ref sig .tc := ⟨.vmem, 55, rfl⟩
abbrev cc5_stg2_1 : Ref sig .tc := ⟨.vmem, 56, rfl⟩
abbrev cc5_stg3_0 : Ref sig .tc := ⟨.vmem, 57, rfl⟩
abbrev cc5_stg3_1 : Ref sig .tc := ⟨.vmem, 58, rfl⟩
abbrev cc5_stg4_0 : Ref sig .tc := ⟨.vmem, 59, rfl⟩
abbrev cc5_stg5_0 : Ref sig .tc := ⟨.vmem, 60, rfl⟩
abbrev cc5_stg6_0 : Ref sig .tc := ⟨.vmem, 61, rfl⟩
abbrev cc5_stg7_0 : Ref sig .tc := ⟨.vmem, 62, rfl⟩
abbrev cc5_stg7_1 : Ref sig .tc := ⟨.vmem, 63, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem5_0 : DmaSem sig := 15
abbrev cc1_sem5_1 : DmaSem sig := 16
abbrev cc1_sem6_0 : DmaSem sig := 17
abbrev cc1_sem6_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem2_1 : DmaSem sig := 24
abbrev cc2_sem3_0 : DmaSem sig := 25
abbrev cc2_sem3_1 : DmaSem sig := 26
abbrev cc2_sem4_0 : DmaSem sig := 27
abbrev cc2_sem5_0 : DmaSem sig := 28
abbrev cc2_sem6_0 : DmaSem sig := 29
abbrev cc2_sem7_0 : DmaSem sig := 30
abbrev cc2_sem7_1 : DmaSem sig := 31
abbrev cc3_sem0_0 : DmaSem sig := 32
abbrev cc3_sem0_1 : DmaSem sig := 33
abbrev cc3_sem1_0 : DmaSem sig := 34
abbrev cc3_sem1_1 : DmaSem sig := 35
abbrev cc3_sem2_0 : DmaSem sig := 36
abbrev cc3_sem3_0 : DmaSem sig := 37
abbrev cc3_sem3_1 : DmaSem sig := 38
abbrev cc4_sem0_0 : DmaSem sig := 39
abbrev cc4_sem0_1 : DmaSem sig := 40
abbrev cc4_sem1_0 : DmaSem sig := 41
abbrev cc4_sem1_1 : DmaSem sig := 42
abbrev cc4_sem2_0 : DmaSem sig := 43
abbrev cc4_sem3_0 : DmaSem sig := 44
abbrev cc4_sem3_1 : DmaSem sig := 45
abbrev cc4_sem4_0 : DmaSem sig := 46
abbrev cc4_sem5_0 : DmaSem sig := 47
abbrev cc4_sem5_1 : DmaSem sig := 48
abbrev cc4_sem6_0 : DmaSem sig := 49
abbrev cc4_sem6_1 : DmaSem sig := 50
abbrev cc5_sem0_0 : DmaSem sig := 51
abbrev cc5_sem0_1 : DmaSem sig := 52
abbrev cc5_sem1_0 : DmaSem sig := 53
abbrev cc5_sem1_1 : DmaSem sig := 54
abbrev cc5_sem2_0 : DmaSem sig := 55
abbrev cc5_sem2_1 : DmaSem sig := 56
abbrev cc5_sem3_0 : DmaSem sig := 57
abbrev cc5_sem3_1 : DmaSem sig := 58
abbrev cc5_sem4_0 : DmaSem sig := 59
abbrev cc5_sem5_0 : DmaSem sig := 60
abbrev cc5_sem6_0 : DmaSem sig := 61
abbrev cc5_sem7_0 : DmaSem sig := 62
abbrev cc5_sem7_1 : DmaSem sig := 63

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S5000x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S384x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S2000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x1 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S5000x128 .bf16 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S2000x1 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S384x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 2 → Memref sig .tc .vmem S2000x128 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  shapeCasts_S50000_S50000x1 : S50000.ShapeCasts S50000x1
  inb_S5000x128_S5000x128_0_0 : ∀ a, (![0, 0] : Fin 2 → Nat) a + S5000x128.size a ≤ S5000x128.size a
  h_S5000x128 : 0 < S5000x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  packedbf16_S5000x128_S5000x128_0_0 : (Rect.unit (s := S5000x128) ![0, 0] S5000x128.size inb_S5000x128_S5000x128_0_0).PackedRows (EltTy.packing .bf16)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  broadcasts_S1x128_S2000x128 : S1x128.Broadcasts S2000x128
  concatenates_S2000x128_S2000x128_S2000x128_S2000x384_d1 : Shape.Concatenates [S2000x128, S2000x128, S2000x128] S2000x384 1
  inb_S384x128_S384x128_0_0 : ∀ a, (![0, 0] : Fin 2 → Nat) a + S384x128.size a ≤ S384x128.size a
  h_S384x128 : 0 < S384x128.numel
  slices_S2x200000_S1x200000_0_0 : S2x200000.Slices ![0, 0] S1x200000
  shapeCasts_S1x200000_S200000 : S1x200000.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S2x200000_S1x200000_1_0 : S2x200000.Slices ![1, 0] S1x200000
  reducesTo_S200000x128_S200000_d1 : S200000x128.ReducesTo [1] S200000
  h_S_ : 0 < S_.numel
  bcast_S200000x1_S200000x128_0_1 : S200000x1.BroadcastsInDim S200000x128 (![0, 1] : Fin 2 → Fin S200000x128.rank)
  scatter_S50000_S600000x1_S600000_n_0_0_1_wf : ScatterDims.WF S50000 S600000x1 S600000 [] [0] [0] 1
  dot_S5000x128_S128x128_S5000x128_1_0_0_1_n_n_wf : DotDims.WF S5000x128 S128x128 S5000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S2000x384_S384x128_S2000x128_1_0_0_1_n_n_wf : DotDims.WF S2000x384 S384x128 S2000x128 [1] [0] [0] [1] [] []
  gather_S50000x128_S200000x1_S200000x128_1_0_n_n_0_1_1128_wf : GatherDims.WF S50000x128 S200000x1 S200000x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .bf16 = 32 ∨ (Rect.block (s := S50000x128) S5000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x1.size a ≤ S50000x1.size a
  hwx1_3 : ∀ i : grid1.Coords, EltTy.bits .f32 = 32 ∨ (Rect.block (s := S50000x1) S5000x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .bf16 = 32 ∨ (Rect.block (s := S50000x128) S5000x128.size (cc1_transform_6 i) (hinb1_6 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x1.size a ≤ S50000x1.size a
  hwx2_3 : ∀ i : grid2.Coords, EltTy.bits .f32 = 32 ∨ (Rect.block (s := S50000x1) S2000x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S384x128.size a ≤ S384x128.size a
  hwx2_5 : ∀ i : grid2.Coords, EltTy.bits .f32 = 32 ∨ (Rect.block (s := S384x128) S384x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x128.size a ≤ S50000x128.size a
  hwx2_7 : ∀ i : grid2.Coords, EltTy.bits .f32 = 32 ∨ (Rect.block (s := S50000x128) S2000x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S50000x1.size a
  hwx3_1 : ∀ i : grid3.Coords, EltTy.bits .f32 = 32 ∨ (Rect.block (s := S50000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S50000x128.size a
  hwx3_3 : ∀ i : grid3.Coords, EltTy.bits .bf16 = 32 ∨ (Rect.block (s := S50000x128) S5000x128.size (cc3_transform_3 i) (hinb3_3 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S50000x1.size a
  hwx4_1 : ∀ i : grid4.Coords, EltTy.bits .f32 = 32 ∨ (Rect.block (s := S50000x1) S5000x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x1.size a ≤ S50000x1.size a
  hwx4_3 : ∀ i : grid4.Coords, EltTy.bits .f32 = 32 ∨ (Rect.block (s := S50000x1) S5000x1.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .f32 = 32 ∨ (Rect.block (s := S128x128) S128x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x128.size a ≤ S50000x128.size a
  hwx4_5 : ∀ i : grid4.Coords, EltTy.bits .f32 = 32 ∨ (Rect.block (s := S50000x128) S5000x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x128.size a ≤ S50000x128.size a
  hwx4_6 : ∀ i : grid4.Coords, EltTy.bits .bf16 = 32 ∨ (Rect.block (s := S50000x128) S5000x128.size (cc4_transform_6 i) (hinb4_6 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S50000x128.size a
  hwx5_0 : ∀ i : grid5.Coords, EltTy.bits .f32 = 32 ∨ (Rect.block (s := S50000x128) S2000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x128.size a ≤ S50000x128.size a
  hwx5_1 : ∀ i : grid5.Coords, EltTy.bits .f32 = 32 ∨ (Rect.block (s := S50000x128) S2000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x128.size a ≤ S50000x128.size a
  hwx5_2 : ∀ i : grid5.Coords, EltTy.bits .f32 = 32 ∨ (Rect.block (s := S50000x128) S2000x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x1.size a ≤ S50000x1.size a
  hwx5_3 : ∀ i : grid5.Coords, EltTy.bits .f32 = 32 ∨ (Rect.block (s := S50000x1) S2000x1.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S384x128.size a ≤ S384x128.size a
  hwx5_5 : ∀ i : grid5.Coords, EltTy.bits .f32 = 32 ∨ (Rect.block (s := S384x128) S384x128.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x128.size a ≤ S1x128.size a
  hwx5_6 : ∀ i : grid5.Coords, EltTy.bits .f32 = 32 ∨ (Rect.block (s := S1x128) S1x128.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S2000x128.size a ≤ S50000x128.size a
  hwx5_7 : ∀ i : grid5.Coords, EltTy.bits .f32 = 32 ∨ (Rect.block (s := S50000x128) S2000x128.size (cc5_transform_7 i) (hinb5_7 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S2000x384_S384x128_S2000x128_1_0_0_1_n_n : DotDims S2000x384 S384x128 S2000x128 where
  lhsContracting := [1]
  rhsContracting := [0]
  lhsNonContracting := [0]
  rhsNonContracting := [1]
  lhsBatch := []
  rhsBatch := []
  wf := dot_S2000x384_S384x128_S2000x128_1_0_0_1_n_n_wf
def gather_S50000x128_S200000x1_S200000x128_1_0_n_n_0_1_1128 : GatherDims S50000x128 S200000x1 S200000x128 where
  offsetDims := [1]
  collapsedSliceDims := [0]
  operandBatchingDims := []
  startIndicesBatchingDims := []
  startIndexMap := [0]
  indexVectorDim := 1
  sliceSizes := ![1, 128]
  wf := gather_S50000x128_S200000x1_S200000x128_1_0_n_n_0_1_1128_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v33) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v36) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v35) S5000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v37_0) S5000x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v37_1) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_arg0) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v37_0) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v48) S2000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v49) S2000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v50) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg10) S384x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v51) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v52) S2000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_arg1) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v74) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg6) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v75) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v86) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v87) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v89) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v88) S5000x1.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_arg8) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v90_0) S5000x128.size cc4_transform_5 reads4_5 true false 2 stage4_5 sem4_5
    hrank4 hreads4_5 hinb4_5 nbuf4_5 (Memref.isWhole_whole _) hwx4_5 hstage4_5

abbrev win4_6 : Pipeline.Window sig grid4 :=
  Pipeline.Window.ofSpec (Memref.whole main_v90_1) S5000x128.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_arg1) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v90_0) S2000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v101) S2000x128.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v102) S2000x1.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_v103) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_arg12) S384x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v104) S1x128.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v105) S2000x128.size cc5_transform_7 reads5_7 true false 2 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S2x200000 : Shape := ⟨2, ![2, 200000]⟩
abbrev S128x128 : Shape := ⟨2, ![128, 128]⟩
abbrev S128 : Shape := ⟨1, ![128]⟩
abbrev S384x128 : Shape := ⟨2, ![384, 128]⟩
abbrev S1x600000 : Shape := ⟨2, ![1, 600000]⟩
abbrev S600000 : Shape := ⟨1, ![600000]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S600000x128 : Shape := ⟨2, ![600000, 128]⟩
abbrev S1x128 : Shape := ⟨2, ![1, 128]⟩
abbrev S50000x384 : Shape := ⟨2, ![50000, 384]⟩
abbrev S1x200000 : Shape := ⟨2, ![1, 200000]⟩
abbrev S200000 : Shape := ⟨1, ![200000]⟩
abbrev S200000x1 : Shape := ⟨2, ![200000, 1]⟩
abbrev S200000x128 : Shape := ⟨2, ![200000, 128]⟩

abbrev nBuf : Space → Nat
  | .hbm => 320
  | .vmem => 0
  | .smem => 0
  | _ => 0

abbrev hbmTy0_0 (i : Nat) : BufTy := match i % 128 with
  | 0 => ⟨S50000x128, .f32⟩
  | 1 => ⟨S50000x128, .f32⟩
  | 2 => ⟨S2x600000, .i32⟩
  | 3 => ⟨S2x600000, .i32⟩
  | 4 => ⟨S2x200000, .i32⟩
  | 5 => ⟨S2x200000, .i32⟩
  | 6 => ⟨S128x128, .f32⟩
  | 7 => ⟨S128, .f32⟩
  | 8 => ⟨S128x128, .f32⟩
  | 9 => ⟨S128, .f32⟩
  | 10 => ⟨S384x128, .f32⟩
  | 11 => ⟨S128, .f32⟩
  | 12 => ⟨S384x128, .f32⟩
  | 13 => ⟨S128, .f32⟩
  | 14 => ⟨S1x600000, .i32⟩
  | 15 => ⟨S600000, .i32⟩
  | 16 => ⟨S1x600000, .i32⟩
  | 17 => ⟨S600000, .i32⟩
  | 18 => ⟨S_, .f32⟩
  | 19 => ⟨S600000, .f32⟩
  | 20 => ⟨S_, .f32⟩
  | 21 => ⟨S50000, .f32⟩
  | 22 => ⟨S600000x1, .i32⟩
  | 23 => ⟨S50000, .f32⟩
  | 24 => ⟨S_, .f32⟩
  | 25 => ⟨S50000, .f32⟩
  | 26 => ⟨S600000x1, .i32⟩
  | 27 => ⟨S50000, .f32⟩
  | 28 => ⟨S_, .f32⟩
  | 29 => ⟨S_, .f32⟩
  | 30 => ⟨S50000, .f32⟩
  | 31 => ⟨S50000, .f32⟩
  | 32 => ⟨S_, .f32⟩
  | 33 => ⟨S50000, .f32⟩
  | 34 => ⟨S50000, .f32⟩
  | 35 => ⟨S_, .f32⟩
  | 36 => ⟨S_, .f32⟩
  | 37 => ⟨S50000, .f32⟩
  | 38 => ⟨S50000, .f32⟩
  | 39 => ⟨S_, .f32⟩
  | 40 => ⟨S50000, .f32⟩
  | 41 => ⟨S50000, .f32⟩
  | 42 => ⟨S50000x1, .f32⟩
  | 43 => ⟨S50000x128, .f32⟩
  | 44 => ⟨S50000x128, .f32⟩
  | 45 => ⟨S50000x128, .f32⟩
  | 46 => ⟨S_, .i32⟩
  | 47 => ⟨S600000, .i32⟩
  | 48 => ⟨S600000, .i1⟩
  | 49 => ⟨S_, .i32⟩
  | 50 => ⟨S600000, .i32⟩
  | 51 => ⟨S600000, .i32⟩
  | 52 => ⟨S600000, .i32⟩
  | 53 => ⟨S600000x1, .i32⟩
  | 54 => ⟨S600000x128, .f32⟩
  | 55 => ⟨S_, .f32⟩
  | 56 => ⟨S50000x128, .f32⟩
  | 57 => ⟨S600000x1, .i32⟩
  | 58 => ⟨S50000x128, .f32⟩
  | 59 => ⟨S50000x1, .f32⟩
  | 60 => ⟨S50000x128, .f32⟩
  | 61 => ⟨S50000x128, .f32⟩
  | 62 => ⟨S1x128, .f32⟩
  | 63 => ⟨S50000x128, .f32⟩
  | 64 => ⟨S50000x128, .f32⟩
  | 65 => ⟨S_, .f32⟩
  | 66 => ⟨S50000x128, .f32⟩
  | 67 => ⟨S50000x128, .f32⟩
  | 68 => ⟨S1x600000, .i32⟩
  | 69 => ⟨S600000, .i32⟩
  | 70 => ⟨S1x600000, .i32⟩
  | 71 => ⟨S600000, .i32⟩
  | 72 => ⟨S_, .f32⟩
  | 73 => ⟨S600000, .f32⟩
  | 74 => ⟨S_, .f32⟩
  | 75 => ⟨S50000, .f32⟩
  | 76 => ⟨S600000x1, .i32⟩
  | 77 => ⟨S50000, .f32⟩
  | 78 => ⟨S_, .f32⟩
  | 79 => ⟨S50000, .f32⟩
  | 80 => ⟨S600000x1, .i32⟩
  | 81 => ⟨S50000, .f32⟩
  | 82 => ⟨S_, .f32⟩
  | 83 => ⟨S_, .f32⟩
  | 84 => ⟨S50000, .f32⟩
  | 85 => ⟨S50000, .f32⟩
  | 86 => ⟨S_, .f32⟩
  | 87 => ⟨S50000, .f32⟩
  | 88 => ⟨S50000, .f32⟩
  | 89 => ⟨S_, .f32⟩
  | 90 => ⟨S_, .f32⟩
  | 91 => ⟨S50000, .f32⟩
  | 92 => ⟨S50000, .f32⟩
  | 93 => ⟨S_, .f32⟩
  | 94 => ⟨S50000, .f32⟩
  | 95 => ⟨S50000, .f32⟩
  | 96 => ⟨S50000x1, .f32⟩
  | 97 => ⟨S50000x128, .f32⟩
  | 98 => ⟨S50000x128, .f32⟩
  | 99 => ⟨S50000x128, .f32⟩
  | 100 => ⟨S_, .i32⟩
  | 101 => ⟨S600000, .i32⟩
  | 102 => ⟨S600000, .i1⟩
  | 103 => ⟨S_, .i32⟩
  | 104 => ⟨S600000, .i32⟩
  | 105 => ⟨S600000, .i32⟩
  | 106 => ⟨S600000, .i32⟩
  | 107 => ⟨S600000x1, .i32⟩
  | 108 => ⟨S600000x128, .f32⟩
  | 109 => ⟨S_, .f32⟩
  | 110 => ⟨S50000x128, .f32⟩
  | 111 => ⟨S600000x1, .i32⟩
  | 112 => ⟨S50000x128, .f32⟩
  | 113 => ⟨S50000x1, .f32⟩
  | 114 => ⟨S50000x128, .f32⟩
  | 115 => ⟨S50000x128, .f32⟩
  | 116 => ⟨S1x128, .f32⟩
  | 117 => ⟨S50000x128, .f32⟩
  | 118 => ⟨S50000x128, .f32⟩
  | 119 => ⟨S_, .f32⟩
  | 120 => ⟨S50000x128, .f32⟩
  | 121 => ⟨S50000x128, .f32⟩
  | 122 => ⟨S50000x384, .f32⟩
  | 123 => ⟨S50000x128, .f32⟩
  | 124 => ⟨S1x128, .f32⟩
  | 125 => ⟨S50000x128, .f32⟩
  | 126 => ⟨S50000x128, .f32⟩
  | 127 => ⟨S1x600000, .i32⟩
  | _ => ⟨S50000x128, .f32⟩

abbrev hbmTy0_1 (i : Nat) : BufTy := match i % 128 with
  | 0 => ⟨S600000, .i32⟩
  | 1 => ⟨S1x600000, .i32⟩
  | 2 => ⟨S600000, .i32⟩
  | 3 => ⟨S_, .f32⟩
  | 4 => ⟨S600000, .f32⟩
  | 5 => ⟨S_, .f32⟩
  | 6 => ⟨S50000, .f32⟩
  | 7 => ⟨S600000x1, .i32⟩
  | 8 => ⟨S50000, .f32⟩
  | 9 => ⟨S_, .f32⟩
  | 10 => ⟨S50000, .f32⟩
  | 11 => ⟨S600000x1, .i32⟩
  | 12 => ⟨S50000, .f32⟩
  | 13 => ⟨S_, .f32⟩
  | 14 => ⟨S_, .f32⟩
  | 15 => ⟨S50000, .f32⟩
  | 16 => ⟨S50000, .f32⟩
  | 17 => ⟨S_, .f32⟩
  | 18 => ⟨S50000, .f32⟩
  | 19 => ⟨S50000, .f32⟩
  | 20 => ⟨S_, .f32⟩
  | 21 => ⟨S_, .f32⟩
  | 22 => ⟨S50000, .f32⟩
  | 23 => ⟨S50000, .f32⟩
  | 24 => ⟨S_, .f32⟩
  | 25 => ⟨S50000, .f32⟩
  | 26 => ⟨S50000, .f32⟩
  | 27 => ⟨S50000x1, .f32⟩
  | 28 => ⟨S50000x128, .f32⟩
  | 29 => ⟨S50000x128, .f32⟩
  | 30 => ⟨S50000x128, .f32⟩
  | 31 => ⟨S_, .i32⟩
  | 32 => ⟨S600000, .i32⟩
  | 33 => ⟨S600000, .i1⟩
  | 34 => ⟨S_, .i32⟩
  | 35 => ⟨S600000, .i32⟩
  | 36 => ⟨S600000, .i32⟩
  | 37 => ⟨S600000, .i32⟩
  | 38 => ⟨S600000x1, .i32⟩
  | 39 => ⟨S600000x128, .f32⟩
  | 40 => ⟨S_, .f32⟩
  | 41 => ⟨S50000x128, .f32⟩
  | 42 => ⟨S600000x1, .i32⟩
  | 43 => ⟨S50000x128, .f32⟩
  | 44 => ⟨S50000x1, .f32⟩
  | 45 => ⟨S50000x128, .f32⟩
  | 46 => ⟨S50000x128, .f32⟩
  | 47 => ⟨S1x128, .f32⟩
  | 48 => ⟨S50000x128, .f32⟩
  | 49 => ⟨S50000x128, .f32⟩
  | 50 => ⟨S_, .f32⟩
  | 51 => ⟨S50000x128, .f32⟩
  | 52 => ⟨S50000x128, .f32⟩
  | 53 => ⟨S1x600000, .i32⟩
  | 54 => ⟨S600000, .i32⟩
  | 55 => ⟨S1x600000, .i32⟩
  | 56 => ⟨S600000, .i32⟩
  | 57 => ⟨S_, .f32⟩
  | 58 => ⟨S600000, .f32⟩
  | 59 => ⟨S_, .f32⟩
  | 60 => ⟨S50000, .f32⟩
  | 61 => ⟨S600000x1, .i32⟩
  | 62 => ⟨S50000, .f32⟩
  | 63 => ⟨S_, .f32⟩
  | 64 => ⟨S50000, .f32⟩
  | 65 => ⟨S600000x1, .i32⟩
  | 66 => ⟨S50000, .f32⟩
  | 67 => ⟨S_, .f32⟩
  | 68 => ⟨S_, .f32⟩
  | 69 => ⟨S50000, .f32⟩
  | 70 => ⟨S50000, .f32⟩
  | 71 => ⟨S_, .f32⟩
  | 72 => ⟨S50000, .f32⟩
  | 73 => ⟨S50000, .f32⟩
  | 74 => ⟨S_, .f32⟩
  | 75 => ⟨S_, .f32⟩
  | 76 => ⟨S50000, .f32⟩
  | 77 => ⟨S50000, .f32⟩
  | 78 => ⟨S_, .f32⟩
  | 79 => ⟨S50000, .f32⟩
  | 80 => ⟨S50000, .f32⟩
  | 81 => ⟨S50000x1, .f32⟩
  | 82 => ⟨S50000x128, .f32⟩
  | 83 => ⟨S50000x128, .f32⟩
  | 84 => ⟨S50000x128, .f32⟩
  | 85 => ⟨S_, .i32⟩
  | 86 => ⟨S600000, .i32⟩
  | 87 => ⟨S600000, .i1⟩
  | 88 => ⟨S_, .i32⟩
  | 89 => ⟨S600000, .i32⟩
  | 90 => ⟨S600000, .i32⟩
  | 91 => ⟨S600000, .i32⟩
  | 92 => ⟨S600000x1, .i32⟩
  | 93 => ⟨S600000x128, .f32⟩
  | 94 => ⟨S_, .f32⟩
  | 95 => ⟨S50000x128, .f32⟩
  | 96 => ⟨S600000x1, .i32⟩
  | 97 => ⟨S50000x128, .f32⟩
  | 98 => ⟨S50000x1, .f32⟩
  | 99 => ⟨S50000x128, .f32⟩
  | 100 => ⟨S50000x128, .f32⟩
  | 101 => ⟨S1x128, .f32⟩
  | 102 => ⟨S50000x128, .f32⟩
  | 103 => ⟨S50000x128, .f32⟩
  | 104 => ⟨S_, .f32⟩
  | 105 => ⟨S50000x128, .f32⟩
  | 106 => ⟨S50000x128, .f32⟩
  | 107 => ⟨S50000x384, .f32⟩
  | 108 => ⟨S50000x128, .f32⟩
  | 109 => ⟨S1x128, .f32⟩
  | 110 => ⟨S50000x128, .f32⟩
  | 111 => ⟨S50000x128, .f32⟩
  | 112 => ⟨S1x200000, .i32⟩
  | 113 => ⟨S200000, .i32⟩
  | 114 => ⟨S_, .i32⟩
  | 115 => ⟨S200000, .i32⟩
  | 116 => ⟨S200000, .i1⟩
  | 117 => ⟨S_, .i32⟩
  | 118 => ⟨S200000, .i32⟩
  | 119 => ⟨S200000, .i32⟩
  | 120 => ⟨S200000, .i32⟩
  | 121 => ⟨S200000x1, .i32⟩
  | 122 => ⟨S200000x128, .f32⟩
  | 123 => ⟨S1x200000, .i32⟩
  | 124 => ⟨S200000, .i32⟩
  | 125 => ⟨S_, .i32⟩
  | 126 => ⟨S200000, .i32⟩
  | 127 => ⟨S200000, .i1⟩
  | _ => ⟨S50000x128, .f32⟩

abbrev hbmTy0_2 (i : Nat) : BufTy := match i % 128 with
  | 0 => ⟨S_, .i32⟩
  | 1 => ⟨S200000, .i32⟩
  | 2 => ⟨S200000, .i32⟩
  | 3 => ⟨S200000, .i32⟩
  | 4 => ⟨S200000x1, .i32⟩
  | 5 => ⟨S200000x128, .f32⟩
  | 6 => ⟨S200000x128, .f32⟩
  | 7 => ⟨S_, .f32⟩
  | 8 => ⟨S200000, .f32⟩
  | 9 => ⟨S200000x1, .f32⟩
  | 10 => ⟨S200000x1, .f32⟩
  | 11 => ⟨S200000x128, .f32⟩
  | 12 => ⟨S200000x128, .f32⟩
  | 13 => ⟨S200000x128, .f32⟩
  | 14 => ⟨S_, .f32⟩
  | 15 => ⟨S200000, .f32⟩
  | 16 => ⟨S200000x1, .f32⟩
  | 17 => ⟨S200000x1, .f32⟩
  | 18 => ⟨S200000x128, .f32⟩
  | 19 => ⟨S200000x128, .f32⟩
  | 20 => ⟨S200000x128, .f32⟩
  | 21 => ⟨S_, .f32⟩
  | 22 => ⟨S200000, .f32⟩
  | 23 => ⟨S1x200000, .i32⟩
  | 24 => ⟨S200000, .i32⟩
  | 25 => ⟨S_, .i32⟩
  | 26 => ⟨S200000, .i32⟩
  | 27 => ⟨S200000, .i1⟩
  | 28 => ⟨S_, .i32⟩
  | 29 => ⟨S200000, .i32⟩
  | 30 => ⟨S200000, .i32⟩
  | 31 => ⟨S200000, .i32⟩
  | 32 => ⟨S200000x1, .i32⟩
  | 33 => ⟨S200000x128, .f32⟩
  | 34 => ⟨S1x200000, .i32⟩
  | 35 => ⟨S200000, .i32⟩
  | 36 => ⟨S_, .i32⟩
  | 37 => ⟨S200000, .i32⟩
  | 38 => ⟨S200000, .i1⟩
  | 39 => ⟨S_, .i32⟩
  | 40 => ⟨S200000, .i32⟩
  | 41 => ⟨S200000, .i32⟩
  | 42 => ⟨S200000, .i32⟩
  | 43 => ⟨S200000x1, .i32⟩
  | 44 => ⟨S200000x128, .f32⟩
  | 45 => ⟨S200000x128, .f32⟩
  | 46 => ⟨S_, .f32⟩
  | 47 => ⟨S200000, .f32⟩
  | 48 => ⟨S200000x1, .f32⟩
  | 49 => ⟨S200000x1, .f32⟩
  | 50 => ⟨S200000x128, .f32⟩
  | 51 => ⟨S200000x128, .f32⟩
  | 52 => ⟨S200000x128, .f32⟩
  | 53 => ⟨S_, .f32⟩
  | 54 => ⟨S200000, .f32⟩
  | 55 => ⟨S200000x1, .f32⟩
  | 56 => ⟨S200000x1, .f32⟩
  | 57 => ⟨S200000x128, .f32⟩
  | 58 => ⟨S200000x128, .f32⟩
  | 59 => ⟨S200000x128, .f32⟩
  | 60 => ⟨S_, .f32⟩
  | 61 => ⟨S200000, .f32⟩
  | 62 => ⟨S200000x1, .f32⟩
  | 63 => ⟨S200000x1, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v11 : Ref sig .tc := ⟨.hbm, 31, rfl⟩
abbrev main_cst_3 : Ref sig .tc := ⟨.hbm, 32, rfl⟩
abbrev main_v12 : Ref sig .tc := ⟨.hbm, 33, rfl⟩
abbrev main_v13 : Ref sig .tc := ⟨.hbm, 34, rfl⟩
abbrev main_cst_4 : Ref sig .tc := ⟨.hbm, 35, rfl⟩
abbrev main_call1_v0 : Ref sig .tc := ⟨.hbm, 36, rfl⟩
abbrev main_call1_v1 : Ref sig .tc := ⟨.hbm, 37, rfl⟩
abbrev main_v14 : Ref sig .tc := ⟨.hbm, 38, rfl⟩
abbrev main_cst_5 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_c : Ref sig .tc := ⟨.hbm, 46, rfl⟩
abbrev main_v21 : Ref sig .tc := ⟨.hbm, 47, rfl⟩
abbrev main_v22 : Ref sig .tc := ⟨.hbm, 48, rfl⟩
abbrev main_c_6 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_cst_7 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_call2_cst : Ref sig .tc := ⟨.hbm, 65, rfl⟩
abbrev main_call2_v0 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_cst_8 : Ref sig .tc := ⟨.hbm, 72, rfl⟩
abbrev main_v42 : Ref sig .tc := ⟨.hbm, 73, rfl⟩
abbrev main_cst_9 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_cst_10 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_cst_11 : Ref sig .tc := ⟨.hbm, 82, rfl⟩
abbrev main_call3_v0 : Ref sig .tc := ⟨.hbm, 83, rfl⟩
abbrev main_call3_v1 : Ref sig .tc := ⟨.hbm, 84, rfl⟩
abbrev main_v49 : Ref sig .tc := ⟨.hbm, 85, rfl⟩
abbrev main_cst_12 : Ref sig .tc := ⟨.hbm, 86, rfl⟩
abbrev main_v50 : Ref sig .tc := ⟨.hbm, 87, rfl⟩
abbrev main_v51 : Ref sig .tc := ⟨.hbm, 88, rfl⟩
abbrev main_cst_13 : Ref sig .tc := ⟨.hbm, 89, rfl⟩
abbrev main_call4_v0 : Ref sig .tc := ⟨.hbm, 90, rfl⟩
abbrev main_call4_v1 : Ref sig .tc := ⟨.hbm, 91, rfl⟩
abbrev main_v52 : Ref sig .tc := ⟨.hbm, 92, rfl⟩
abbrev main_cst_14 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_c_15 : Ref sig .tc := ⟨.hbm, 100, rfl⟩
abbrev main_v59 : Ref sig .tc := ⟨.hbm, 101, rfl⟩
abbrev main_v60 : Ref sig .tc := ⟨.hbm, 102, rfl⟩
abbrev main_c_16 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_cst_17 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_call5_cst : Ref sig .tc := ⟨.hbm, 119, rfl⟩
abbrev main_call5_v0 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_cst_18 : Ref sig .tc := ⟨.hbm, 131, rfl⟩
abbrev main_v85 : Ref sig .tc := ⟨.hbm, 132, rfl⟩
abbrev main_cst_19 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_cst_20 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_cst_21 : Ref sig .tc := ⟨.hbm, 141, rfl⟩
abbrev main_call6_v0 : Ref sig .tc := ⟨.hbm, 142, rfl⟩
abbrev main_call6_v1 : Ref sig .tc := ⟨.hbm, 143, rfl⟩
abbrev main_v92 : Ref sig .tc := ⟨.hbm, 144, rfl⟩
abbrev main_cst_22 : Ref sig .tc := ⟨.hbm, 145, rfl⟩
abbrev main_v93 : Ref sig .tc := ⟨.hbm, 146, rfl⟩
abbrev main_v94 : Ref sig .tc := ⟨.hbm, 147, rfl⟩
abbrev main_cst_23 : Ref sig .tc := ⟨.hbm, 148, rfl⟩
abbrev main_call7_v0 : Ref sig .tc := ⟨.hbm, 149, rfl⟩
abbrev main_call7_v1 : Ref sig .tc := ⟨.hbm, 150, rfl⟩
abbrev main_v95 : Ref sig .tc := ⟨.hbm, 151, rfl⟩
abbrev main_cst_24 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_v99 : Ref sig .tc := ⟨.hbm, 156, rfl⟩
abbrev main_v100 : Ref sig .tc := ⟨.hbm, 157, rfl⟩
abbrev main_v101 : Ref sig .tc := ⟨.hbm, 158, rfl⟩
abbrev main_c_25 : Ref sig .tc := ⟨.hbm, 159, rfl⟩
abbrev main_v102 : Ref sig .tc := ⟨.hbm, 160, rfl⟩
abbrev main_v103 : Ref sig .tc := ⟨.hbm, 161, rfl⟩
abbrev main_c_26 : Ref sig .tc := ⟨.hbm, 162, rfl⟩
abbrev main_v104 : Ref sig .tc := ⟨.hbm, 163, rfl⟩
abbrev main_v105 : Ref sig .tc := ⟨.hbm, 164, rfl⟩
abbrev main_v106 : Ref sig .tc := ⟨.hbm, 165, rfl⟩
abbrev main_v107 : Ref sig .tc := ⟨.hbm, 166, rfl⟩
abbrev main_v108 : Ref sig .tc := ⟨.hbm, 167, rfl⟩
abbrev main_cst_27 : Ref sig .tc := ⟨.hbm, 168, rfl⟩
abbrev main_v109 : Ref sig .tc := ⟨.hbm, 169, rfl⟩
abbrev main_v110 : Ref sig .tc := ⟨.hbm, 170, rfl⟩
abbrev main_v111 : Ref sig .tc := ⟨.hbm, 171, rfl⟩
abbrev main_v112 : Ref sig .tc := ⟨.hbm, 172, rfl⟩
abbrev main_v113 : Ref sig .tc := ⟨.hbm, 173, rfl⟩
abbrev main_v114 : Ref sig .tc := ⟨.hbm, 174, rfl⟩
abbrev main_v115 : Ref sig .tc := ⟨.hbm, 175, rfl⟩
abbrev main_v116 : Ref sig .tc := ⟨.hbm, 176, rfl⟩
abbrev main_v117 : Ref sig .tc := ⟨.hbm, 177, rfl⟩
abbrev main_call8_cst : Ref sig .tc := ⟨.hbm, 178, rfl⟩
abbrev main_call8_v0 : Ref sig .tc := ⟨.hbm, 179, rfl⟩
abbrev main_v118 : Ref sig .tc := ⟨.hbm, 180, rfl⟩
abbrev main_v119 : Ref sig .tc := ⟨.hbm, 181, rfl⟩
abbrev main_v120 : Ref sig .tc := ⟨.hbm, 182, rfl⟩
abbrev main_v121 : Ref sig .tc := ⟨.hbm, 183, rfl⟩
abbrev main_v122 : Ref sig .tc := ⟨.hbm, 184, rfl⟩
abbrev main_cst_28 : Ref sig .tc := ⟨.hbm, 185, rfl⟩
abbrev main_v123 : Ref sig .tc := ⟨.hbm, 186, rfl⟩
abbrev main_cst_29 : Ref sig .tc := ⟨.hbm, 187, rfl⟩
abbrev main_v124 : Ref sig .tc := ⟨.hbm, 188, rfl⟩
abbrev main_v125 : Ref sig .tc := ⟨.hbm, 189, rfl⟩
abbrev main_v126 : Ref sig .tc := ⟨.hbm, 190, rfl⟩
abbrev main_cst_30 : Ref sig .tc := ⟨.hbm, 191, rfl⟩
abbrev main_v127 : Ref sig .tc := ⟨.hbm, 192, rfl⟩
abbrev main_v128 : Ref sig .tc := ⟨.hbm, 193, rfl⟩
abbrev main_v129 : Ref sig .tc := ⟨.hbm, 194, rfl⟩
abbrev main_cst_31 : Ref sig .tc := ⟨.hbm, 195, rfl⟩
abbrev main_call9_v0 : Ref sig .tc := ⟨.hbm, 196, rfl⟩
abbrev main_call9_v1 : Ref sig .tc := ⟨.hbm, 197, rfl⟩
abbrev main_v130 : Ref sig .tc := ⟨.hbm, 198, rfl⟩
abbrev main_cst_32 : Ref sig .tc := ⟨.hbm, 199, rfl⟩
abbrev main_v131 : Ref sig .tc := ⟨.hbm, 200, rfl⟩
abbrev main_v132 : Ref sig .tc := ⟨.hbm, 201, rfl⟩
abbrev main_cst_33 : Ref sig .tc := ⟨.hbm, 202, rfl⟩
abbrev main_call10_v0 : Ref sig .tc := ⟨.hbm, 203, rfl⟩
abbrev main_call10_v1 : Ref sig .tc := ⟨.hbm, 204, rfl⟩
abbrev main_v133 : Ref sig .tc := ⟨.hbm, 205, rfl⟩
abbrev main_cst_34 : Ref sig .tc := ⟨.hbm, 206, rfl⟩
abbrev main_v134 : Ref sig .tc := ⟨.hbm, 207, rfl⟩
abbrev main_v135 : Ref sig .tc := ⟨.hbm, 208, rfl⟩
abbrev main_v136 : Ref sig .tc := ⟨.hbm, 209, rfl⟩
abbrev main_v137 : Ref sig .tc := ⟨.hbm, 210, rfl⟩
abbrev main_v138 : Ref sig .tc := ⟨.hbm, 211, rfl⟩
abbrev main_v139 : Ref sig .tc := ⟨.hbm, 212, rfl⟩
abbrev main_c_35 : Ref sig .tc := ⟨.hbm, 213, rfl⟩
abbrev main_v140 : Ref sig .tc := ⟨.hbm, 214, rfl⟩
abbrev main_v141 : Ref sig .tc := ⟨.hbm, 215, rfl⟩
abbrev main_c_36 : Ref sig .tc := ⟨.hbm, 216, rfl⟩
abbrev main_v142 : Ref sig .tc := ⟨.hbm, 217, rfl⟩
abbrev main_v143 : Ref sig .tc := ⟨.hbm, 218, rfl⟩
abbrev main_v144 : Ref sig .tc := ⟨.hbm, 219, rfl⟩
abbrev main_v145 : Ref sig .tc := ⟨.hbm, 220, rfl⟩
abbrev main_v146 : Ref sig .tc := ⟨.hbm, 221, rfl⟩
abbrev main_cst_37 : Ref sig .tc := ⟨.hbm, 222, rfl⟩
abbrev main_v147 : Ref sig .tc := ⟨.hbm, 223, rfl⟩
abbrev main_v148 : Ref sig .tc := ⟨.hbm, 224, rfl⟩
abbrev main_v149 : Ref sig .tc := ⟨.hbm, 225, rfl⟩
abbrev main_v150 : Ref sig .tc := ⟨.hbm, 226, rfl⟩
abbrev main_v151 : Ref sig .tc := ⟨.hbm, 227, rfl⟩
abbrev main_v152 : Ref sig .tc := ⟨.hbm, 228, rfl⟩
abbrev main_v153 : Ref sig .tc := ⟨.hbm, 229, rfl⟩
abbrev main_v154 : Ref sig .tc := ⟨.hbm, 230, rfl⟩
abbrev main_v155 : Ref sig .tc := ⟨.hbm, 231, rfl⟩
abbrev main_call11_cst : Ref sig .tc := ⟨.hbm, 232, rfl⟩
abbrev main_call11_v0 : Ref sig .tc := ⟨.hbm, 233, rfl⟩
abbrev main_v156 : Ref sig .tc := ⟨.hbm, 234, rfl⟩
abbrev main_v157 : Ref sig .tc := ⟨.hbm, 235, rfl⟩
abbrev main_v158 : Ref sig .tc := ⟨.hbm, 236, rfl⟩
abbrev main_v159 : Ref sig .tc := ⟨.hbm, 237, rfl⟩
abbrev main_v160 : Ref sig .tc := ⟨.hbm, 238, rfl⟩
abbrev main_v161 : Ref sig .tc := ⟨.hbm, 239, rfl⟩
abbrev main_v162 : Ref sig .tc := ⟨.hbm, 240, rfl⟩
abbrev main_v163 : Ref sig .tc := ⟨.hbm, 241, rfl⟩
abbrev main_c_38 : Ref sig .tc := ⟨.hbm, 242, rfl⟩
abbrev main_v164 : Ref sig .tc := ⟨.hbm, 243, rfl⟩
abbrev main_v165 : Ref sig .tc := ⟨.hbm, 244, rfl⟩
abbrev main_c_39 : Ref sig .tc := ⟨.hbm, 245, rfl⟩
abbrev main_v166 : Ref sig .tc := ⟨.hbm, 246, rfl⟩
abbrev main_v167 : Ref sig .tc := ⟨.hbm, 247, rfl⟩
abbrev main_v168 : Ref sig .tc := ⟨.hbm, 248, rfl⟩
abbrev main_v169 : Ref sig .tc := ⟨.hbm, 249, rfl⟩
abbrev main_v170 : Ref sig .tc := ⟨.hbm, 250, rfl⟩
abbrev main_v171 : Ref sig .tc := ⟨.hbm, 251, rfl⟩
abbrev main_v172 : Ref sig .tc := ⟨.hbm, 252, rfl⟩
abbrev main_c_40 : Ref sig .tc := ⟨.hbm, 253, rfl⟩
abbrev main_v173 : Ref sig .tc := ⟨.hbm, 254, rfl⟩
abbrev main_v174 : Ref sig .tc := ⟨.hbm, 255, rfl⟩
abbrev main_c_41 : Ref sig .tc := ⟨.hbm, 256, rfl⟩
abbrev main_v175 : Ref sig .tc := ⟨.hbm, 257, rfl⟩
abbrev main_v176 : Ref sig .tc := ⟨.hbm, 258, rfl⟩
abbrev main_v177 : Ref sig .tc := ⟨.hbm, 259, rfl⟩
abbrev main_v178 : Ref sig .tc := ⟨.hbm, 260, rfl⟩
abbrev main_v179 : Ref sig .tc := ⟨.hbm, 261, rfl⟩
abbrev main_call12_v0 : Ref sig .tc := ⟨.hbm, 262, rfl⟩
abbrev main_call12_cst : Ref sig .tc := ⟨.hbm, 263, rfl⟩
abbrev main_call12_v1 : Ref sig .tc := ⟨.hbm, 264, rfl⟩
abbrev main_call12_v2 : Ref sig .tc := ⟨.hbm, 265, rfl⟩
abbrev main_v180 : Ref sig .tc := ⟨.hbm, 266, rfl⟩
abbrev main_v181 : Ref sig .tc := ⟨.hbm, 267, rfl⟩
abbrev main_v182 : Ref sig .tc := ⟨.hbm, 268, rfl⟩
abbrev main_call13_v0 : Ref sig .tc := ⟨.hbm, 269, rfl⟩
abbrev main_call13_cst : Ref sig .tc := ⟨.hbm, 270, rfl⟩
abbrev main_call13_v1 : Ref sig .tc := ⟨.hbm, 271, rfl⟩
abbrev main_call13_v2 : Ref sig .tc := ⟨.hbm, 272, rfl⟩
abbrev main_v183 : Ref sig .tc := ⟨.hbm, 273, rfl⟩
abbrev main_v184 : Ref sig .tc := ⟨.hbm, 274, rfl⟩
abbrev main_v185 : Ref sig .tc := ⟨.hbm, 275, rfl⟩
abbrev main_v186 : Ref sig .tc := ⟨.hbm, 276, rfl⟩
abbrev main_cst_42 : Ref sig .tc := ⟨.hbm, 277, rfl⟩
abbrev main_v187 : Ref sig .tc := ⟨.hbm, 278, rfl⟩
abbrev main_v188 : Ref sig .tc := ⟨.hbm, 279, rfl⟩
abbrev main_v189 : Ref sig .tc := ⟨.hbm, 280, rfl⟩
abbrev main_c_43 : Ref sig .tc := ⟨.hbm, 281, rfl⟩
abbrev main_v190 : Ref sig .tc := ⟨.hbm, 282, rfl⟩
abbrev main_v191 : Ref sig .tc := ⟨.hbm, 283, rfl⟩
abbrev main_c_44 : Ref sig .tc := ⟨.hbm, 284, rfl⟩
abbrev main_v192 : Ref sig .tc := ⟨.hbm, 285, rfl⟩
abbrev main_v193 : Ref sig .tc := ⟨.hbm, 286, rfl⟩
abbrev main_v194 : Ref sig .tc := ⟨.hbm, 287, rfl⟩
abbrev main_v195 : Ref sig .tc := ⟨.hbm, 288, rfl⟩
abbrev main_v196 : Ref sig .tc := ⟨.hbm, 289, rfl⟩
abbrev main_v197 : Ref sig .tc := ⟨.hbm, 290, rfl⟩
abbrev main_v198 : Ref sig .tc := ⟨.hbm, 291, rfl⟩
abbrev main_c_45 : Ref sig .tc := ⟨.hbm, 292, rfl⟩
abbrev main_v199 : Ref sig .tc := ⟨.hbm, 293, rfl⟩
abbrev main_v200 : Ref sig .tc := ⟨.hbm, 294, rfl⟩
abbrev main_c_46 : Ref sig .tc := ⟨.hbm, 295, rfl⟩
abbrev main_v201 : Ref sig .tc := ⟨.hbm, 296, rfl⟩
abbrev main_v202 : Ref sig .tc := ⟨.hbm, 297, rfl⟩
abbrev main_v203 : Ref sig .tc := ⟨.hbm, 298, rfl⟩
abbrev main_v204 : Ref sig .tc := ⟨.hbm, 299, rfl⟩
abbrev main_v205 : Ref sig .tc := ⟨.hbm, 300, rfl⟩
abbrev main_call14_v0 : Ref sig .tc := ⟨.hbm, 301, rfl⟩
abbrev main_call14_cst : Ref sig .tc := ⟨.hbm, 302, rfl⟩
abbrev main_call14_v1 : Ref sig .tc := ⟨.hbm, 303, rfl⟩
abbrev main_call14_v2 : Ref sig .tc := ⟨.hbm, 304, rfl⟩
abbrev main_v206 : Ref sig .tc := ⟨.hbm, 305, rfl⟩
abbrev main_v207 : Ref sig .tc := ⟨.hbm, 306, rfl⟩
abbrev main_v208 : Ref sig .tc := ⟨.hbm, 307, rfl⟩
abbrev main_call15_v0 : Ref sig .tc := ⟨.hbm, 308, rfl⟩
abbrev main_call15_cst : Ref sig .tc := ⟨.hbm, 309, rfl⟩
abbrev main_call15_v1 : Ref sig .tc := ⟨.hbm, 310, rfl⟩
abbrev main_call15_v2 : Ref sig .tc := ⟨.hbm, 311, rfl⟩
abbrev main_v209 : Ref sig .tc := ⟨.hbm, 312, rfl⟩
abbrev main_v210 : Ref sig .tc := ⟨.hbm, 313, rfl⟩
abbrev main_v211 : Ref sig .tc := ⟨.hbm, 314, rfl⟩
abbrev main_v212 : Ref sig .tc := ⟨.hbm, 315, rfl⟩
abbrev main_cst_47 : Ref sig .tc := ⟨.hbm, 316, rfl⟩
abbrev main_v213 : Ref sig .tc := ⟨.hbm, 317, rfl⟩
abbrev main_v214 : Ref sig .tc := ⟨.hbm, 318, rfl⟩
abbrev main_v215 : Ref sig .tc := ⟨.hbm, 319, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  concatenates_S50000x128_S50000x128_S50000x128_S50000x384_d1 : Shape.Concatenates [S50000x128, S50000x128, S50000x128] S50000x384 1
  slices_S2x200000_S1x200000_0_0 : S2x200000.Slices ![0, 0] S1x200000
  shapeCasts_S1x200000_S200000 : S1x200000.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S2x200000_S1x200000_1_0 : S2x200000.Slices ![1, 0] S1x200000
  reducesTo_S200000x128_S200000_d1 : S200000x128.ReducesTo [1] S200000
  h_S_ : 0 < S_.numel
  bcast_S200000x1_S200000x128_0_1 : S200000x1.BroadcastsInDim S200000x128 (![0, 1] : Fin 2 → Fin S200000x128.rank)
  shapeCasts_S200000_S200000x1 : S200000.ShapeCasts S200000x1
  scatter_S50000_S600000x1_S600000_n_0_0_1_wf : ScatterDims.WF S50000 S600000x1 S600000 [] [0] [0] 1
  dot_S50000x128_S128x128_S50000x128_1_0_0_1_n_n_wf : DotDims.WF S50000x128 S128x128 S50000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x384_S384x128_S50000x128_1_0_0_1_n_n_wf : DotDims.WF S50000x384 S384x128 S50000x128 [1] [0] [0] [1] [] []
  gather_S50000x128_S200000x1_S200000x128_1_0_n_n_0_1_1128_wf : GatherDims.WF S50000x128 S200000x1 S200000x128 [1] [0] [] [0] [] 1 ![1, 128]

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x384_S384x128_S50000x128_1_0_0_1_n_n : DotDims S50000x384 S384x128 S50000x128 where
  lhsContracting := [1]
  rhsContracting := [0]
  lhsNonContracting := [0]
  rhsNonContracting := [1]
  lhsBatch := []
  rhsBatch := []
  wf := dot_S50000x384_S384x128_S50000x128_1_0_0_1_n_n_wf
def gather_S50000x128_S200000x1_S200000x128_1_0_n_n_0_1_1128 : GatherDims S50000x128 S200000x1 S200000x128 where
  offsetDims := [1]
  collapsedSliceDims := [0]
  operandBatchingDims := []
  startIndicesBatchingDims := []
  startIndexMap := [0]
  indexVectorDim := 1
  sliceSizes := ![1, 128]
  wf := gather_S50000x128_S200000x1_S200000x128_1_0_n_n_0_1_1128_wf

class Facts : Prop extends Facts₀ where

variable [Facts]
-- ==== Proof.Carry.lean ====
import proofs.«418930_j66125316489906_3_alg».proof.Proof.Gen.KernelIdeal.Frame

set_option maxRecDepth 16384

noncomputable section

namespace Cert.KernelIdeal.Vals

open Idealize.ShloMosaic Idealize.ShloMosaic.TcCoe Idealize.SL.Sem
open Idealize.ShloMosaic.Pipeline (Dat Cfg Window)
open Cert.KernelIdeal Cert.KernelIdeal.Gen

variable {F : FTy → Type} [FloatOps F]
variable (m : (ℓ : Loc nD τ sig) → Buf (Elt F) ℓ) (ρ : Dev nD → PrngReg)

/-- The buffers the stretch hostOps0 writes. -/
abbrev hostOps0_W : List (Ref sig .tc) := [main_v0, main_v1, main_v2, main_v3, main_cst, main_v4, main_cst_0, main_v5, main_v6, main_v7, main_cst_1, main_v8, main_v9, main_v10, main_cst_2]
theorem hostOps0_writes : (hostOps0 : List (HloOp τ sig (Elt F))).Forall fun op => op.writes ⊆ (hostOps0_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer the stretch hostOps0 does not write holds after it what it held before. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h

/-- The buffers the stretch hostOps0_1 writes. -/
abbrev hostOps0_1_W : List (Ref sig .tc) := [main_call0_v0, main_call0_v1, main_v11]
theorem hostOps0_1_writes : (hostOps0_1 : List (HloOp τ sig (Elt F))).Forall fun op => op.writes ⊆ (hostOps0_1_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer the stretch hostOps0_1 does not write holds after it what it held before. -/
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h

/-- The buffers the stretch hostOps0_2 writes. -/
abbrev hostOps0_2_W : List (Ref sig .tc) := [main_cst_3, main_v12, main_v13, main_cst_4]
theorem hostOps0_2_writes : (hostOps0_2 : List (HloOp τ sig (Elt F))).Forall fun op => op.writes ⊆ (hostOps0_2_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer the stretch hostOps0_2 does not write holds after it what it held before. -/
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h

/-- The buffers the stretch hostOps0_3 writes. -/
abbrev hostOps0_3_W : List (Ref sig .tc) := [main_call1_v0, main_call1_v1, main_v14]
theorem hostOps0_3_writes : (hostOps0_3 : List (HloOp τ sig (Elt F))).Forall fun op => op.writes ⊆ (hostOps0_3_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer the stretch hostOps0_3 does not write holds after it what it held before. -/
theorem W4_of (c : Dev nD) (r : Ref sig .tc) (h : r ∉ hostOps0_3_W) : W4 m ρ c (Proc.devRef .tc r) = W3 m ρ c (Proc.devRef .tc r) :=
  StableHlo.after_of_writes_sub hostOps0_3 _ hostOps0_3_writes h

/-- The buffers the stretch hostOps0_4 writes. -/
abbrev hostOps0_4_W : List (Ref sig .tc) := [main_cst_5, main_v15, main_v16, main_v17, main_v18, main_v19, main_v20, main_v21]
theorem hostOps0_4_writes : (hostOps0_4 : List (HloOp τ sig (Elt F))).Forall fun op => op.writes ⊆ (hostOps0_4_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer the stretch hostOps0_4 does not write holds after it what it held before. -/
theorem W5_of (c : Dev nD) (r : Ref sig .tc) (h : r ∉ hostOps0_4_W) : W5 m ρ c (Proc.devRef .tc r) = W4 m ρ c (Proc.devRef .tc r) :=
  StableHlo.after_of_writes_sub hostOps0_4 _ hostOps0_4_writes h

/-! Region 0: entered at boundary 5, left at boundary 6. An input window's array is as entered; an output window's is what the grid's write-backs leave. -/
theorem W6_in0 (c : Dev nD) : W6 m ρ c (Proc.devRef .tc main_arg0) = W5 m ρ c (Proc.devRef .tc main_arg0) :=
  (W6_arr m ρ c 0).trans (((dat0 (V5 m ρ) c).arrAt_in 0 rfl _).trans (A_eq0 (V5 m ρ) c 0))
theorem W6_in1 (c : Dev nD) : W6 m ρ c (Proc.devRef .tc main_v21) = W5 m ρ c (Proc.devRef .tc main_v21) :=
  (W6_arr m ρ c 1).trans (((dat0 (V5 m ρ) c).arrAt_in 1 rfl _).trans (A_eq0 (V5 m ρ) c 1))
theorem W6_in2 (c : Dev nD) : W6 m ρ c (Proc.devRef .tc main_arg6) = W5 m ρ c (Proc.devRef .tc main_arg6) :=
  (W6_arr m ρ c 2).trans (((dat0 (V5 m ρ) c).arrAt_in 2 rfl _).trans (A_eq0 (V5 m ρ) c 2))
theorem W6_out3 (c : Dev nD) : W6 m ρ c (Proc.devRef .tc main_v22) = (dat0 (V5 m ρ) c).arrAt 3 cfg0.N :=
  W6_arr m ρ c 3

/-- The buffers the stretch hostOps1 writes. -/
abbrev hostOps1_W : List (Ref sig .tc) := [main_c, main_v23, main_v24, main_c_6, main_v25, main_v26, main_v27, main_v28, main_v29, main_v30, main_cst_7, main_v31, main_v32, main_v33, main_v34, main_v35, main_v36]
theorem hostOps1_writes : (hostOps1 : List (HloOp τ sig (Elt F))).Forall fun op => op.writes ⊆ (hostOps1_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer the stretch hostOps1 does not write holds after it what it held before. -/
theorem W7_of (c : Dev nD) (r : Ref sig .tc) (h : r ∉ hostOps1_W) : W7 m ρ c (Proc.devRef .tc r) = W6 m ρ c (Proc.devRef .tc r) :=
  StableHlo.after_of_writes_sub hostOps1 _ hostOps1_writes h

/-! Region 1: entered at boundary 7, left at boundary 8. An input window's array is as entered; an output window's is what the grid's write-backs leave. -/
theorem W8_in0 (c : Dev nD) : W8 m ρ c (Proc.devRef .tc main_v33) = W7 m ρ c (Proc.devRef .tc main_v33) :=
  (W8_arr m ρ c 0).trans (((dat1 (V7 m ρ) c).arrAt_in 0 rfl _).trans (A_eq1 (V7 m ρ) c 0))
theorem W8_in1 (c : Dev nD) : W8 m ρ c (Proc.devRef .tc main_v34) = W7 m ρ c (Proc.devRef .tc main_v34) :=
  (W8_arr m ρ c 1).trans (((dat1 (V7 m ρ) c).arrAt_in 1 rfl _).trans (A_eq1 (V7 m ρ) c 1))
theorem W8_in2 (c : Dev nD) : W8 m ρ c (Proc.devRef .tc main_v36) = W7 m ρ c (Proc.devRef .tc main_v36) :=
  (W8_arr m ρ c 2).trans (((dat1 (V7 m ρ) c).arrAt_in 2 rfl _).trans (A_eq1 (V7 m ρ) c 2))
theorem W8_in3 (c : Dev nD) : W8 m ρ c (Proc.devRef .tc main_v35) = W7 m ρ c (Proc.devRef .tc main_v35) :=
  (W8_arr m ρ c 3).trans (((dat1 (V7 m ρ) c).arrAt_in 3 rfl _).trans (A_eq1 (V7 m ρ) c 3))
theorem W8_in4 (c : Dev nD) : W8 m ρ c (Proc.devRef .tc main_arg8) = W7 m ρ c (Proc.devRef .tc main_arg8) :=
  (W8_arr m ρ c 4).trans (((dat1 (V7 m ρ) c).arrAt_in 4 rfl _).trans (A_eq1 (V7 m ρ) c 4))
theorem W8_out5 (c : Dev nD) : W8 m ρ c (Proc.devRef .tc main_v37_0) = (dat1 (V7 m ρ) c).arrAt 5 cfg1.N :=
  W8_arr m ρ c 5
theorem W8_out6 (c : Dev nD) : W8 m ρ c (Proc.devRef .tc main_v37_1) = (dat1 (V7 m ρ) c).arrAt 6 cfg1.N :=
  W8_arr m ρ c 6

/-- The buffers the stretch hostOps2 writes. -/
abbrev hostOps2_W : List (Ref sig .tc) := [main_c_8, main_v38, main_v39, main_c_9, main_v40, main_v41, main_v42, main_v43, main_v44, main_v45, main_cst_10, main_v46, main_v47, main_v48, main_v49, main_v50, main_v51]
theorem hostOps2_writes : (hostOps2 : List (HloOp τ sig (Elt F))).Forall fun op => op.writes ⊆ (hostOps2_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer the stretch hostOps2 does not write holds after it what it held before. -/
theorem W9_of (c : Dev nD) (r : Ref sig .tc) (h : r ∉ hostOps2_W) : W9 m ρ c (Proc.devRef .tc r) = W8 m ρ c (Proc.devRef .tc r) :=
  StableHlo.after_of_writes_sub hostOps2 _ hostOps2_writes h

/-! Region 2: entered at boundary 9, left at boundary 10. An input window's array is as entered; an output window's is what the grid's write-backs leave. -/
theorem W10_in0 (c : Dev nD) : W10 m ρ c (Proc.devRef .tc main_arg0) = W9 m ρ c (Proc.devRef .tc main_arg0) :=
  (W10_arr m ρ c 0).trans (((dat2 (V9 m ρ) c).arrAt_in 0 rfl _).trans (A_eq2 (V9 m ρ) c 0))
theorem W10_in1 (c : Dev nD) : W10 m ρ c (Proc.devRef .tc main_v37_0) = W9 m ρ c (Proc.devRef .tc main_v37_0) :=
  (W10_arr m ρ c 1).trans (((dat2 (V9 m ρ) c).arrAt_in 1 rfl _).trans (A_eq2 (V9 m ρ) c 1))
theorem W10_in2 (c : Dev nD) : W10 m ρ c (Proc.devRef .tc main_v48) = W9 m ρ c (Proc.devRef .tc main_v48) :=
  (W10_arr m ρ c 2).trans (((dat2 (V9 m ρ) c).arrAt_in 2 rfl _).trans (A_eq2 (V9 m ρ) c 2))
theorem W10_in3 (c : Dev nD) : W10 m ρ c (Proc.devRef .tc main_v49) = W9 m ρ c (Proc.devRef .tc main_v49) :=
  (W10_arr m ρ c 3).trans (((dat2 (V9 m ρ) c).arrAt_in 3 rfl _).trans (A_eq2 (V9 m ρ) c 3))
theorem W10_in4 (c : Dev nD) : W10 m ρ c (Proc.devRef .tc main_v50) = W9 m ρ c (Proc.devRef .tc main_v50) :=
  (W10_arr m ρ c 4).trans (((dat2 (V9 m ρ) c).arrAt_in 4 rfl _).trans (A_eq2 (V9 m ρ) c 4))
theorem W10_in5 (c : Dev nD) : W10 m ρ c (Proc.devRef .tc main_arg10) = W9 m ρ c (Proc.devRef .tc main_arg10) :=
  (W10_arr m ρ c 5).trans (((dat2 (V9 m ρ) c).arrAt_in 5 rfl _).trans (A_eq2 (V9 m ρ) c 5))
theorem W10_in6 (c : Dev nD) : W10 m ρ c (Proc.devRef .tc main_v51) = W9 m ρ c (Proc.devRef .tc main_v51) :=
  (W10_arr m ρ c 6).trans (((dat2 (V9 m ρ) c).arrAt_in 6 rfl _).trans (A_eq2 (V9 m ρ) c 6))
theorem W10_out7 (c : Dev nD) : W10 m ρ c (Proc.devRef .tc main_v52) = (dat2 (V9 m ρ) c).arrAt 7 cfg2.N :=
  W10_arr m ρ c 7

/-- The buffers the stretch hostOps3 writes. -/
abbrev hostOps3_W : List (Ref sig .tc) := [main_v53, main_v54, main_v55, main_v56, main_cst_11, main_v57, main_cst_12, main_v58, main_v59, main_v60, main_cst_13, main_v61, main_v62, main_v63, main_cst_14]
theorem hostOps3_writes : (hostOps3 : List (HloOp τ sig (Elt F))).Forall fun op => op.writes ⊆ (hostOps3_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer the stretch hostOps3 does not write holds after it what it held before. -/
theorem W11_of (c : Dev nD) (r : Ref sig .tc) (h : r ∉ hostOps3_W) : W11 m ρ c (Proc.devRef .tc r) = W10 m ρ c (Proc.devRef .tc r) :=
  StableHlo.after_of_writes_sub hostOps3 _ hostOps3_writes h

/-- The buffers the stretch hostOps3_1 writes. -/
abbrev hostOps3_1_W : List (Ref sig .tc) := [main_call2_v0, main_call2_v1, main_v64]
theorem hostOps3_1_writes : (hostOps3_1 : List (HloOp τ sig (Elt F))).Forall fun op => op.writes ⊆ (hostOps3_1_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer the stretch hostOps3_1 does not write holds after it what it held before. -/
theorem W12_of (c : Dev nD) (r : Ref sig .tc) (h : r ∉ hostOps3_1_W) : W12 m ρ c (Proc.devRef .tc r) = W11 m ρ c (Proc.devRef .tc r) :=
  StableHlo.after_of_writes_sub hostOps3_1 _ hostOps3_1_writes h

/-- The buffers the stretch hostOps3_2 writes. -/
abbrev hostOps3_2_W : List (Ref sig .tc) := [main_cst_15, main_v65, main_v66, main_cst_16]
theorem hostOps3_2_writes : (hostOps3_2 : List (HloOp τ sig (Elt F))).Forall fun op => op.writes ⊆ (hostOps3_2_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer the stretch hostOps3_2 does not write holds after it what it held before. -/
theorem W13_of (c : Dev nD) (r : Ref sig .tc) (h : r ∉ hostOps3_2_W) : W13 m ρ c (Proc.devRef .tc r) = W12 m ρ c (Proc.devRef .tc r) :=
  StableHlo.after_of_writes_sub hostOps3_2 _ hostOps3_2_writes h

/-- The buffers the stretch hostOps3_3 writes. -/
abbrev hostOps3_3_W : List (Ref sig .tc) := [main_call3_v0, main_call3_v1, main_v67]
theorem hostOps3_3_writes : (hostOps3_3 : List (HloOp τ sig (Elt F))).Forall fun op => op.writes ⊆ (hostOps3_3_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer the stretch hostOps3_3 does not write holds after it what it held before. -/
theorem W14_of (c : Dev nD) (r : Ref sig .tc) (h : r ∉ hostOps3_3_W) : W14 m ρ c (Proc.devRef .tc r) = W13 m ρ c (Proc.devRef .tc r) :=
  StableHlo.after_of_writes_sub hostOps3_3 _ hostOps3_3_writes h

/-- The buffers the stretch hostOps3_4 writes. -/
abbrev hostOps3_4_W : List (Ref sig .tc) := [main_cst_17, main_v68, main_v69, main_v70, main_v71, main_v72, main_v73, main_v74]
theorem hostOps3_4_writes : (hostOps3_4 : List (HloOp τ sig (Elt F))).Forall fun op => op.writes ⊆ (hostOps3_4_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer the stretch hostOps3_4 does not write holds after it what it held before. -/
theorem W15_of (c : Dev nD) (r : Ref sig .tc) (h : r ∉ hostOps3_4_W) : W15 m ρ c (Proc.devRef .tc r) = W14 m ρ c (Proc.devRef .tc r) :=
  StableHlo.after_of_writes_sub hostOps3_4 _ hostOps3_4_writes h

/-! Region 3: entered at boundary 15, left at boundary 16. An input window's array is as entered; an output window's is what the grid's write-backs leave. -/
theorem W16_in0 (c : Dev nD) : W16 m ρ c (Proc.devRef .tc main_arg1) = W15 m ρ c (Proc.devRef .tc main_arg1) :=
  (W16_arr m ρ c 0).trans (((dat3 (V15 m ρ) c).arrAt_in 0 rfl _).trans (A_eq3 (V15 m ρ) c 0))
theorem W16_in1 (c : Dev nD) : W16 m ρ c (Proc.devRef .tc main_v74) = W15 m ρ c (Proc.devRef .tc main_v74) :=
  (W16_arr m ρ c 1).trans (((dat3 (V15 m ρ) c).arrAt_in 1 rfl _).trans (A_eq3 (V15 m ρ) c 1))
theorem W16_in2 (c : Dev nD) : W16 m ρ c (Proc.devRef .tc main_arg6) = W15 m ρ c (Proc.devRef .tc main_arg6) :=
  (W16_arr m ρ c 2).trans (((dat3 (V15 m ρ) c).arrAt_in 2 rfl _).trans (A_eq3 (V15 m ρ) c 2))
theorem W16_out3 (c : Dev nD) : W16 m ρ c (Proc.devRef .tc main_v75) = (dat3 (V15 m ρ) c).arrAt 3 cfg3.N :=
  W16_arr m ρ c 3

/-- The buffers the stretch hostOps4 writes. -/
abbrev hostOps4_W : List (Ref sig .tc) := [main_c_18, main_v76, main_v77, main_c_19, main_v78, main_v79, main_v80, main_v81, main_v82, main_v83, main_cst_20, main_v84, main_v85, main_v86, main_v87, main_v88, main_v89]
theorem hostOps4_writes : (hostOps4 : List (HloOp τ sig (Elt F))).Forall fun op => op.writes ⊆ (hostOps4_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer the stretch hostOps4 does not write holds after it what it held before. -/
theorem W17_of (c : Dev nD) (r : Ref sig .tc) (h : r ∉ hostOps4_W) : W17 m ρ c (Proc.devRef .tc r) = W16 m ρ c (Proc.devRef .tc r) :=
  StableHlo.after_of_writes_sub hostOps4 _ hostOps4_writes h

/-! Region 4: entered at boundary 17, left at boundary 18. An input window's array is as entered; an output window's is what the grid's write-backs leave. -/
theorem W18_in0 (c : Dev nD) : W18 m ρ c (Proc.devRef .tc main_v86) = W17 m ρ c (Proc.devRef .tc main_v86) :=
  (W18_arr m ρ c 0).trans (((dat4 (V17 m ρ) c).arrAt_in 0 rfl _).trans (A_eq4 (V17 m ρ) c 0))
theorem W18_in1 (c : Dev nD) : W18 m ρ c (Proc.devRef .tc main_v87) = W17 m ρ c (Proc.devRef .tc main_v87) :=
  (W18_arr m ρ c 1).trans (((dat4 (V17 m ρ) c).arrAt_in 1 rfl _).trans (A_eq4 (V17 m ρ) c 1))
theorem W18_in2 (c : Dev nD) : W18 m ρ c (Proc.devRef .tc main_v89) = W17 m ρ c (Proc.devRef .tc main_v89) :=
  (W18_arr m ρ c 2).trans (((dat4 (V17 m ρ) c).arrAt_in 2 rfl _).trans (A_eq4 (V17 m ρ) c 2))
theorem W18_in3 (c : Dev nD) : W18 m ρ c (Proc.devRef .tc main_v88) = W17 m ρ c (Proc.devRef .tc main_v88) :=
  (W18_arr m ρ c 3).trans (((dat4 (V17 m ρ) c).arrAt_in 3 rfl _).trans (A_eq4 (V17 m ρ) c 3))
theorem W18_in4 (c : Dev nD) : W18 m ρ c (Proc.devRef .tc main_arg8) = W17 m ρ c (Proc.devRef .tc main_arg8) :=
  (W18_arr m ρ c 4).trans (((dat4 (V17 m ρ) c).arrAt_in 4 rfl _).trans (A_eq4 (V17 m ρ) c 4))
theorem W18_out5 (c : Dev nD) : W18 m ρ c (Proc.devRef .tc main_v90_0) = (dat4 (V17 m ρ) c).arrAt 5 cfg4.N :=
  W18_arr m ρ c 5
theorem W18_out6 (c : Dev nD) : W18 m ρ c (Proc.devRef .tc main_v90_1) = (dat4 (V17 m ρ) c).arrAt 6 cfg4.N :=
  W18_arr m ρ c 6

/-- The buffers the stretch hostOps5 writes. -/
abbrev hostOps5_W : List (Ref sig .tc) := [main_c_21, main_v91, main_v92, main_c_22, main_v93, main_v94, main_v95, main_v96, main_v97, main_v98, main_cst_23, main_v99, main_v100, main_v101, main_v102, main_v103, main_v104]
theorem hostOps5_writes : (hostOps5 : List (HloOp τ sig (Elt F))).Forall fun op => op.writes ⊆ (hostOps5_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer the stretch hostOps5 does not write holds after it what it held before. -/
theorem W19_of (c : Dev nD) (r : Ref sig .tc) (h : r ∉ hostOps5_W) : W19 m ρ c (Proc.devRef .tc r) = W18 m ρ c (Proc.devRef .tc r) :=
  StableHlo.after_of_writes_sub hostOps5 _ hostOps5_writes h

/-! Region 5: entered at boundary 19, left at boundary 20. An input window's array is as entered; an output window's is what the grid's write-backs leave. -/
theorem W20_in0 (c : Dev nD) : W20 m ρ c (Proc.devRef .tc main_arg1) = W19 m ρ c (Proc.devRef .tc main_arg1) :=
  (W20_arr m ρ c 0).trans (((dat5 (V19 m ρ) c).arrAt_in 0 rfl _).trans (A_eq5 (V19 m ρ) c 0))
theorem W20_in1 (c : Dev nD) : W20 m ρ c (Proc.devRef .tc main_v90_0) = W19 m ρ c (Proc.devRef .tc main_v90_0) :=
  (W20_arr m ρ c 1).trans (((dat5 (V19 m ρ) c).arrAt_in 1 rfl _).trans (A_eq5 (V19 m ρ) c 1))
theorem W20_in2 (c : Dev nD) : W20 m ρ c (Proc.devRef .tc main_v101) = W19 m ρ c (Proc.devRef .tc main_v101) :=
  (W20_arr m ρ c 2).trans (((dat5 (V19 m ρ) c).arrAt_in 2 rfl _).trans (A_eq5 (V19 m ρ) c 2))
theorem W20_in3 (c : Dev nD) : W20 m ρ c (Proc.devRef .tc main_v102) = W19 m ρ c (Proc.devRef .tc main_v102) :=
  (W20_arr m ρ c 3).trans (((dat5 (V19 m ρ) c).arrAt_in 3 rfl _).trans (A_eq5 (V19 m ρ) c 3))
theorem W20_in4 (c : Dev nD) : W20 m ρ c (Proc.devRef .tc main_v103) = W19 m ρ c (Proc.devRef .tc main_v103) :=
  (W20_arr m ρ c 4).trans (((dat5 (V19 m ρ) c).arrAt_in 4 rfl _).trans (A_eq5 (V19 m ρ) c 4))
theorem W20_in5 (c : Dev nD) : W20 m ρ c (Proc.devRef .tc main_arg12) = W19 m ρ c (Proc.devRef .tc main_arg12) :=
  (W20_arr m ρ c 5).trans (((dat5 (V19 m ρ) c).arrAt_in 5 rfl _).trans (A_eq5 (V19 m ρ) c 5))
theorem W20_in6 (c : Dev nD) : W20 m ρ c (Proc.devRef .tc main_v104) = W19 m ρ c (Proc.devRef .tc main_v104) :=
  (W20_arr m ρ c 6).trans (((dat5 (V19 m ρ) c).arrAt_in 6 rfl _).trans (A_eq5 (V19 m ρ) c 6))
theorem W20_out7 (c : Dev nD) : W20 m ρ c (Proc.devRef .tc main_v105) = (dat5 (V19 m ρ) c).arrAt 7 cfg5.N :=
  W20_arr m ρ c 7

/-- The buffers the stretch hostOps6 writes. -/
abbrev hostOps6_W : List (Ref sig .tc) := [main_v106, main_v107, main_c_24, main_v108, main_v109, main_c_25, main_v110, main_v111, main_v112, main_v113, main_v114, main_v115, main_v116, main_c_26, main_v117, main_v118, main_c_27, main_v119, main_v120, main_v121, main_v122, main_v123]
theorem hostOps6_writes : (hostOps6 : List (HloOp τ sig (Elt F))).Forall fun op => op.writes ⊆ (hostOps6_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer the stretch hostOps6 does not write holds after it what it held before. -/
theorem W21_of (c : Dev nD) (r : Ref sig .tc) (h : r ∉ hostOps6_W) : W21 m ρ c (Proc.devRef .tc r) = W20 m ρ c (Proc.devRef .tc r) :=
  StableHlo.after_of_writes_sub hostOps6 _ hostOps6_writes h

/-- The buffers the stretch hostOps6_1 writes. -/
abbrev hostOps6_1_W : List (Ref sig .tc) := [main_call4_v0, main_call4_cst, main_call4_v1, main_call4_v2, main_v124]
theorem hostOps6_1_writes : (hostOps6_1 : List (HloOp τ sig (Elt F))).Forall fun op => op.writes ⊆ (hostOps6_1_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer the stretch hostOps6_1 does not write holds after it what it held before. -/
theorem W22_of (c : Dev nD) (r : Ref sig .tc) (h : r ∉ hostOps6_1_W) : W22 m ρ c (Proc.devRef .tc r) = W21 m ρ c (Proc.devRef .tc r) :=
  StableHlo.after_of_writes_sub hostOps6_1 _ hostOps6_1_writes h

/-- The buffers the stretch hostOps6_2 writes. -/
abbrev hostOps6_2_W : List (Ref sig .tc) := [main_v125, main_v126]
theorem hostOps6_2_writes : (hostOps6_2 : List (HloOp τ sig (Elt F))).Forall fun op => op.writes ⊆ (hostOps6_2_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer the stretch hostOps6_2 does not write holds after it what it held before. -/
theorem W23_of (c : Dev nD) (r : Ref sig .tc) (h : r ∉ hostOps6_2_W) : W23 m ρ c (Proc.devRef .tc r) = W22 m ρ c (Proc.devRef .tc r) :=
  StableHlo.after_of_writes_sub hostOps6_2 _ hostOps6_2_writes h

/-- The buffers the stretch hostOps6_3 writes. -/
abbrev hostOps6_3_W : List (Ref sig .tc) := [main_call5_v0, main_call5_cst, main_call5_v1, main_call5_v2, main_v127]
theorem hostOps6_3_writes : (hostOps6_3 : List (HloOp τ sig (Elt F))).Forall fun op => op.writes ⊆ (hostOps6_3_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer the stretch hostOps6_3 does not write holds after it what it held before. -/
theorem W24_of (c : Dev nD) (r : Ref sig .tc) (h : r ∉ hostOps6_3_W) : W24 m ρ c (Proc.devRef .tc r) = W23 m ρ c (Proc.devRef .tc r) :=
  StableHlo.after_of_writes_sub hostOps6_3 _ hostOps6_3_writes h

/-- The buffers the stretch hostOps6_4 writes. -/
abbrev hostOps6_4_W : List (Ref sig .tc) := [main_v128, main_v129, main_v130, main_cst_28, main_v131, main_v132, main_v133, main_v134, main_c_29, main_v135, main_v136, main_c_30, main_v137, main_v138, main_v139, main_v140, main_v141, main_v142, main_v143, main_c_31, main_v144, main_v145, main_c_32, main_v146, main_v147, main_v148, main_v149, main_v150]
theorem hostOps6_4_writes : (hostOps6_4 : List (HloOp τ sig (Elt F))).Forall fun op => op.writes ⊆ (hostOps6_4_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer the stretch hostOps6_4 does not write holds after it what it held before. -/
theorem W25_of (c : Dev nD) (r : Ref sig .tc) (h : r ∉ hostOps6_4_W) : W25 m ρ c (Proc.devRef .tc r) = W24 m ρ c (Proc.devRef .tc r) :=
  StableHlo.after_of_writes_sub hostOps6_4 _ hostOps6_4_writes h

/-- The buffers the stretch hostOps6_5 writes. -/
abbrev hostOps6_5_W : List (Ref sig .tc) := [main_call6_v0, main_call6_cst, main_call6_v1, main_call6_v2, main_v151]
theorem hostOps6_5_writes : (hostOps6_5 : List (HloOp τ sig (Elt F))).Forall fun op => op.writes ⊆ (hostOps6_5_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer the stretch hostOps6_5 does not write holds after it what it held before. -/
theorem W26_of (c : Dev nD) (r : Ref sig .tc) (h : r ∉ hostOps6_5_W) : W26 m ρ c (Proc.devRef .tc r) = W25 m ρ c (Proc.devRef .tc r) :=
  StableHlo.after_of_writes_sub hostOps6_5 _ hostOps6_5_writes h

/-- The buffers the stretch hostOps6_6 writes. -/
abbrev hostOps6_6_W : List (Ref sig .tc) := [main_v152, main_v153]
theorem hostOps6_6_writes : (hostOps6_6 : List (HloOp τ sig (Elt F))).Forall fun op => op.writes ⊆ (hostOps6_6_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer the stretch hostOps6_6 does not write holds after it what it held before. -/
theorem W27_of (c : Dev nD) (r : Ref sig .tc) (h : r ∉ hostOps6_6_W) : W27 m ρ c (Proc.devRef .tc r) = W26 m ρ c (Proc.devRef .tc r) :=
  StableHlo.after_of_writes_sub hostOps6_6 _ hostOps6_6_writes h

/-- The buffers the stretch hostOps6_7 writes. -/
abbrev hostOps6_7_W : List (Ref sig .tc) := [main_call7_v0, main_call7_cst, main_call7_v1, main_call7_v2, main_v154]
theorem hostOps6_7_writes : (hostOps6_7 : List (HloOp τ sig (Elt F))).Forall fun op => op.writes ⊆ (hostOps6_7_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer the stretch hostOps6_7 does not write holds after it what it held before. -/
theorem W28_of (c : Dev nD) (r : Ref sig .tc) (h : r ∉ hostOps6_7_W) : W28 m ρ c (Proc.devRef .tc r) = W27 m ρ c (Proc.devRef .tc r) :=
  StableHlo.after_of_writes_sub hostOps6_7 _ hostOps6_7_writes h

/-- The buffers the stretch hostOps6_8 writes. -/
abbrev hostOps6_8_W : List (Ref sig .tc) := [main_v155, main_v156, main_v157, main_cst_33, main_v158, main_v159]
theorem hostOps6_8_writes : (hostOps6_8 : List (HloOp τ sig (Elt F))).Forall fun op => op.writes ⊆ (hostOps6_8_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer the stretch hostOps6_8 does not write holds after it what it held before. -/
theorem W29_of (c : Dev nD) (r : Ref sig .tc) (h : r ∉ hostOps6_8_W) : W29 m ρ c (Proc.devRef .tc r) = W28 m ρ c (Proc.devRef .tc r) :=
  StableHlo.after_of_writes_sub hostOps6_8 _ hostOps6_8_writes h

/-! Each argument array at every boundary is the launch memory's: no host operation and no region writes one. -/
theorem W0_arg0 (c : Dev nD) : W0 m ρ c (Proc.devRef .tc main_arg0) = m ((c : Thread nD τ).loc main_arg0) := rfl
theorem W1_arg0 (c : Dev nD) : W1 m ρ c (Proc.devRef .tc main_arg0) = m ((c : Thread nD τ).loc main_arg0) := (W1_of m ρ c main_arg0 (by decide)).trans (W0_arg0 m ρ c)
theorem W2_arg0 (c : Dev nD) : W2 m ρ c (Proc.devRef .tc main_arg0) = m ((c : Thread nD τ).loc main_arg0) := (W2_of m ρ c main_arg0 (by decide)).trans (W1_arg0 m ρ c)
theorem W3_arg0 (c : Dev nD) : W3 m ρ c (Proc.devRef .tc main_arg0) = m ((c : Thread nD τ).loc main_arg0) := (W3_of m ρ c main_arg0 (by decide)).trans (W2_arg0 m ρ c)
theorem W4_arg0 (c : Dev nD) : W4 m ρ c (Proc.devRef .tc main_arg0) = m ((c : Thread nD τ).loc main_arg0) := (W4_of m ρ c main_arg0 (by decide)).trans (W3_arg0 m ρ c)
theorem W5_arg0 (c : Dev nD) : W5 m ρ c (Proc.devRef .tc main_arg0) = m ((c : Thread nD τ).loc main_arg0) := (W5_of m ρ c main_arg0 (by decide)).trans (W4_arg0 m ρ c)
theorem W6_arg0 (c : Dev nD) : W6 m ρ c (Proc.devRef .tc main_arg0) = m ((c : Thread nD τ).loc main_arg0) := (W6_in0 m ρ c).trans (W5_arg0 m ρ c)
theorem W7_arg0 (c : Dev nD) : W7 m ρ c (Proc.devRef .tc main_arg0) = m ((c : Thread nD τ).loc main_arg0) := (W7_of m ρ c main_arg0 (by decide)).trans (W6_arg0 m ρ c)
theorem W8_arg0 (c : Dev nD) : W8 m ρ c (Proc.devRef .tc main_arg0) = m ((c : Thread nD τ).loc main_arg0) := (W8_of_ne m ρ c main_arg0 (by decide)).trans (W7_arg0 m ρ c)
theorem W9_arg0 (c : Dev nD) : W9 m ρ c (Proc.devRef .tc main_arg0) = m ((c : Thread nD τ).loc main_arg0) := (W9_of m ρ c main_arg0 (by decide)).trans (W8_arg0 m ρ c)
theorem W10_arg0 (c : Dev nD) : W10 m ρ c (Proc.devRef .tc main_arg0) = m ((c : Thread nD τ).loc main_arg0) := (W10_in0 m ρ c).trans (W9_arg0 m ρ c)
theorem W11_arg0 (c : Dev nD) : W11 m ρ c (Proc.devRef .tc main_arg0) = m ((c : Thread nD τ).loc main_arg0) := (W11_of m ρ c main_arg0 (by decide)).trans (W10_arg0 m ρ c)
theorem W12_arg0 (c : Dev nD) : W12 m ρ c (Proc.devRef .tc main_arg0) = m ((c : Thread nD τ).loc main_arg0) := (W12_of m ρ c main_arg0 (by decide)).trans (W11_arg0 m ρ c)
theorem W13_arg0 (c : Dev nD) : W13 m ρ c (Proc.devRef .tc main_arg0) = m ((c : Thread nD τ).loc main_arg0) := (W13_of m ρ c main_arg0 (by decide)).trans (W12_arg0 m ρ c)
theorem W14_arg0 (c : Dev nD) : W14 m ρ c (Proc.devRef .tc main_arg0) = m ((c : Thread nD τ).loc main_arg0) := (W14_of m ρ c main_arg0 (by decide)).trans (W13_arg0 m ρ c)
theorem W15_arg0 (c : Dev nD) : W15 m ρ c (Proc.devRef .tc main_arg0) = m ((c : Thread nD τ).loc main_arg0) := (W15_of m ρ c main_arg0 (by decide)).trans (W14_arg0 m ρ c)
theorem W16_arg0 (c : Dev nD) : W16 m ρ c (Proc.devRef .tc main_arg0) = m ((c : Thread nD τ).loc main_arg0) := (W16_of_ne m ρ c main_arg0 (by decide)).trans (W15_arg0 m ρ c)
theorem W17_arg0 (c : Dev nD) : W17 m ρ c (Proc.devRef .tc main_arg0) = m ((c : Thread nD τ).loc main_arg0) := (W17_of m ρ c main_arg0 (by decide)).trans (W16_arg0 m ρ c)
theorem W18_arg0 (c : Dev nD) : W18 m ρ c (Proc.devRef .tc main_arg0) = m ((c : Thread nD τ).loc main_arg0) := (W18_of_ne m ρ c main_arg0 (by decide)).trans (W17_arg0 m ρ c)
theorem W19_arg0 (c : Dev nD) : W19 m ρ c (Proc.devRef .tc main_arg0) = m ((c : Thread nD τ).loc main_arg0) := (W19_of m ρ c main_arg0 (by decide)).trans (W18_arg0 m ρ c)
theorem W20_arg0 (c : Dev nD) : W20 m ρ c (Proc.devRef .tc main_arg0) = m ((c : Thread nD τ).loc main_arg0) := (W20_of_ne m ρ c main_arg0 (by decide)).trans (W19_arg0 m ρ c)
theorem W21_arg0 (c : Dev nD) : W21 m ρ c (Proc.devRef .tc main_arg0) = m ((c : Thread nD τ).loc main_arg0) := (W21_of m ρ c main_arg0 (by decide)).trans (W20_arg0 m ρ c)
theorem W22_arg0 (c : Dev nD) : W22 m ρ c (Proc.devRef .tc main_arg0) = m ((c : Thread nD τ).loc main_arg0) := (W22_of m ρ c main_arg0 (by decide)).trans (W21_arg0 m ρ c)
theorem W23_arg0 (c : Dev nD) : W23 m ρ c (Proc.devRef .tc main_arg0) = m ((c : Thread nD τ).loc main_arg0) := (W23_of m ρ c main_arg0 (by decide)).trans (W22_arg0 m ρ c)
theorem W24_arg0 (c : Dev nD) : W24 m ρ c (Proc.devRef .tc main_arg0) = m ((c : Thread nD τ).loc main_arg0) := (W24_of m ρ c main_arg0 (by decide)).trans (W23_arg0 m ρ c)
theorem W25_arg0 (c : Dev nD) : W25 m ρ c (Proc.devRef .tc main_arg0) = m ((c : Thread nD τ).loc main_arg0) := (W25_of m ρ c main_arg0 (by decide)).trans (W24_arg0 m ρ c)
theorem W26_arg0 (c : Dev nD) : W26 m ρ c (Proc.devRef .tc main_arg0) = m ((c : Thread nD τ).loc main_arg0) := (W26_of m ρ c main_arg0 (by decide)).trans (W25_arg0 m ρ c)
theorem W27_arg0 (c : Dev nD) : W27 m ρ c (Proc.devRef .tc main_arg0) = m ((c : Thread nD τ).loc main_arg0) := (W27_of m ρ c main_arg0 (by decide)).trans (W26_arg0 m ρ c)
theorem W28_arg0 (c : Dev nD) : W28 m ρ c (Proc.devRef .tc main_arg0) = m ((c : Thread nD τ).loc main_arg0) := (W28_of m ρ c main_arg0 (by decide)).trans (W27_arg0 m ρ c)
theorem W29_arg0 (c : Dev nD) : W29 m ρ c (Proc.devRef .tc main_arg0) = m ((c : Thread nD τ).loc main_arg0) := (W29_of m ρ c main_arg0 (by decide)).trans (W28_arg0 m ρ c)

theorem W0_arg1 (c : Dev nD) : W0 m ρ c (Proc.devRef .tc main_arg1) = m ((c : Thread nD τ).loc main_arg1) := rfl
theorem W1_arg1 (c : Dev nD) : W1 m ρ c (Proc.devRef .tc main_arg1) = m ((c : Thread nD τ).loc main_arg1) := (W1_of m ρ c main_arg1 (by decide)).trans (W0_arg1 m ρ c)
theorem W2_arg1 (c : Dev nD) : W2 m ρ c (Proc.devRef .tc main_arg1) = m ((c : Thread nD τ).loc main_arg1) := (W2_of m ρ c main_arg1 (by decide)).trans (W1_arg1 m ρ c)
theorem W3_arg1 (c : Dev nD) : W3 m ρ c (Proc.devRef .tc main_arg1) = m ((c : Thread nD τ).loc main_arg1) := (W3_of m ρ c main_arg1 (by decide)).trans (W2_arg1 m ρ c)
theorem W4_arg1 (c : Dev nD) : W4 m ρ c (Proc.devRef .tc main_arg1) = m ((c : Thread nD τ).loc main_arg1) := (W4_of m ρ c main_arg1 (by decide)).trans (W3_arg1 m ρ c)
theorem W5_arg1 (c : Dev nD) : W5 m ρ c (Proc.devRef .tc main_arg1) = m ((c : Thread nD τ).loc main_arg1) := (W5_of m ρ c main_arg1 (by decide)).trans (W4_arg1 m ρ c)
theorem W6_arg1 (c : Dev nD) : W6 m ρ c (Proc.devRef .tc main_arg1) = m ((c : Thread nD τ).loc main_arg1) := (W6_of_ne m ρ c main_arg1 (by decide)).trans (W5_arg1 m ρ c)
theorem W7_arg1 (c : Dev nD) : W7 m ρ c (Proc.devRef .tc main_arg1) = m ((c : Thread nD τ).loc main_arg1) := (W7_of m ρ c main_arg1 (by decide)).trans (W6_arg1 m ρ c)
theorem W8_arg1 (c : Dev nD) : W8 m ρ c (Proc.devRef .tc main_arg1) = m ((c : Thread nD τ).loc main_arg1) := (W8_of_ne m ρ c main_arg1 (by decide)).trans (W7_arg1 m ρ c)
theorem W9_arg1 (c : Dev nD) : W9 m ρ c (Proc.devRef .tc main_arg1) = m ((c : Thread nD τ).loc main_arg1) := (W9_of m ρ c main_arg1 (by decide)).trans (W8_arg1 m ρ c)
theorem W10_arg1 (c : Dev nD) : W10 m ρ c (Proc.devRef .tc main_arg1) = m ((c : Thread nD τ).loc main_arg1) := (W10_of_ne m ρ c main_arg1 (by decide)).trans (W9_arg1 m ρ c)
theorem W11_arg1 (c : Dev nD) : W11 m ρ c (Proc.devRef .tc main_arg1) = m ((c : Thread nD τ).loc main_arg1) := (W11_of m ρ c main_arg1 (by decide)).trans (W10_arg1 m ρ c)
theorem W12_arg1 (c : Dev nD) : W12 m ρ c (Proc.devRef .tc main_arg1) = m ((c : Thread nD τ).loc main_arg1) := (W12_of m ρ c main_arg1 (by decide)).trans (W11_arg1 m ρ c)
theorem W13_arg1 (c : Dev nD) : W13 m ρ c (Proc.devRef .tc main_arg1) = m ((c : Thread nD τ).loc main_arg1) := (W13_of m ρ c main_arg1 (by decide)).trans (W12_arg1 m ρ c)
theorem W14_arg1 (c : Dev nD) : W14 m ρ c (Proc.devRef .tc main_arg1) = m ((c : Thread nD τ).loc main_arg1) := (W14_of m ρ c main_arg1 (by decide)).trans (W13_arg1 m ρ c)
theorem W15_arg1 (c : Dev nD) : W15 m ρ c (Proc.devRef .tc main_arg1) = m ((c : Thread nD τ).loc main_arg1) := (W15_of m ρ c main_arg1 (by decide)).trans (W14_arg1 m ρ c)
theorem W16_arg1 (c : Dev nD) : W16 m ρ c (Proc.devRef .tc main_arg1) = m ((c : Thread nD τ).loc main_arg1) := (W16_in0 m ρ c).trans (W15_arg1 m ρ c)
theorem W17_arg1 (c : Dev nD) : W17 m ρ c (Proc.devRef .tc main_arg1) = m ((c : Thread nD τ).loc main_arg1) := (W17_of m ρ c main_arg1 (by decide)).trans (W16_arg1 m ρ c)
theorem W18_arg1 (c : Dev nD) : W18 m ρ c (Proc.devRef .tc main_arg1) = m ((c : Thread nD τ).loc main_arg1) := (W18_of_ne m ρ c main_arg1 (by decide)).trans (W17_arg1 m ρ c)
theorem W19_arg1 (c : Dev nD) : W19 m ρ c (Proc.devRef .tc main_arg1) = m ((c : Thread nD τ).loc main_arg1) := (W19_of m ρ c main_arg1 (by decide)).trans (W18_arg1 m ρ c)
theorem W20_arg1 (c : Dev nD) : W20 m ρ c (Proc.devRef .tc main_arg1) = m ((c : Thread nD τ).loc main_arg1) := (W20_in0 m ρ c).trans (W19_arg1 m ρ c)
theorem W21_arg1 (c : Dev nD) : W21 m ρ c (Proc.devRef .tc main_arg1) = m ((c : Thread nD τ).loc main_arg1) := (W21_of m ρ c main_arg1 (by decide)).trans (W20_arg1 m ρ c)
theorem W22_arg1 (c : Dev nD) : W22 m ρ c (Proc.devRef .tc main_arg1) = m ((c : Thread nD τ).loc main_arg1) := (W22_of m ρ c main_arg1 (by decide)).trans (W21_arg1 m ρ c)
theorem W23_arg1 (c : Dev nD) : W23 m ρ c (Proc.devRef .tc main_arg1) = m ((c : Thread nD τ).loc main_arg1) := (W23_of m ρ c main_arg1 (by decide)).trans (W22_arg1 m ρ c)
theorem W24_arg1 (c : Dev nD) : W24 m ρ c (Proc.devRef .tc main_arg1) = m ((c : Thread nD τ).loc main_arg1) := (W24_of m ρ c main_arg1 (by decide)).trans (W23_arg1 m ρ c)
theorem W25_arg1 (c : Dev nD) : W25 m ρ c (Proc.devRef .tc main_arg1) = m ((c : Thread nD τ).loc main_arg1) := (W25_of m ρ c main_arg1 (by decide)).trans (W24_arg1 m ρ c)
theorem W26_arg1 (c : Dev nD) : W26 m ρ c (Proc.devRef .tc main_arg1) = m ((c : Thread nD τ).loc main_arg1) := (W26_of m ρ c main_arg1 (by decide)).trans (W25_arg1 m ρ c)
theorem W27_arg1 (c : Dev nD) : W27 m ρ c (Proc.devRef .tc main_arg1) = m ((c : Thread nD τ).loc main_arg1) := (W27_of m ρ c main_arg1 (by decide)).trans (W26_arg1 m ρ c)
theorem W28_arg1 (c : Dev nD) : W28 m ρ c (Proc.devRef .tc main_arg1) = m ((c : Thread nD τ).loc main_arg1) := (W28_of m ρ c main_arg1 (by decide)).trans (W27_arg1 m ρ c)
theorem W29_arg1 (c : Dev nD) : W29 m ρ c (Proc.devRef .tc main_arg1) = m ((c : Thread nD τ).loc main_arg1) := (W29_of m ρ c main_arg1 (by decide)).trans (W28_arg1 m ρ c)

theorem W0_arg2 (c : Dev nD) : W0 m ρ c (Proc.devRef .tc main_arg2) = m ((c : Thread nD τ).loc main_arg2) := rfl
theorem W1_arg2 (c : Dev nD) : W1 m ρ c (Proc.devRef .tc main_arg2) = m ((c : Thread nD τ).loc main_arg2) := (W1_of m ρ c main_arg2 (by decide)).trans (W0_arg2 m ρ c)
theorem W2_arg2 (c : Dev nD) : W2 m ρ c (Proc.devRef .tc main_arg2) = m ((c : Thread nD τ).loc main_arg2) := (W2_of m ρ c main_arg2 (by decide)).trans (W1_arg2 m ρ c)
theorem W3_arg2 (c : Dev nD) : W3 m ρ c (Proc.devRef .tc main_arg2) = m ((c : Thread nD τ).loc main_arg2) := (W3_of m ρ c main_arg2 (by decide)).trans (W2_arg2 m ρ c)
theorem W4_arg2 (c : Dev nD) : W4 m ρ c (Proc.devRef .tc main_arg2) = m ((c : Thread nD τ).loc main_arg2) := (W4_of m ρ c main_arg2 (by decide)).trans (W3_arg2 m ρ c)
theorem W5_arg2 (c : Dev nD) : W5 m ρ c (Proc.devRef .tc main_arg2) = m ((c : Thread nD τ).loc main_arg2) := (W5_of m ρ c main_arg2 (by decide)).trans (W4_arg2 m ρ c)
theorem W6_arg2 (c : Dev nD) : W6 m ρ c (Proc.devRef .tc main_arg2) = m ((c : Thread nD τ).loc main_arg2) := (W6_of_ne m ρ c main_arg2 (by decide)).trans (W5_arg2 m ρ c)
theorem W7_arg2 (c : Dev nD) : W7 m ρ c (Proc.devRef .tc main_arg2) = m ((c : Thread nD τ).loc main_arg2) := (W7_of m ρ c main_arg2 (by decide)).trans (W6_arg2 m ρ c)
theorem W8_arg2 (c : Dev nD) : W8 m ρ c (Proc.devRef .tc main_arg2) = m ((c : Thread nD τ).loc main_arg2) := (W8_of_ne m ρ c main_arg2 (by decide)).trans (W7_arg2 m ρ c)
theorem W9_arg2 (c : Dev nD) : W9 m ρ c (Proc.devRef .tc main_arg2) = m ((c : Thread nD τ).loc main_arg2) := (W9_of m ρ c main_arg2 (by decide)).trans (W8_arg2 m ρ c)
theorem W10_arg2 (c : Dev nD) : W10 m ρ c (Proc.devRef .tc main_arg2) = m ((c : Thread nD τ).loc main_arg2) := (W10_of_ne m ρ c main_arg2 (by decide)).trans (W9_arg2 m ρ c)
theorem W11_arg2 (c : Dev nD) : W11 m ρ c (Proc.devRef .tc main_arg2) = m ((c : Thread nD τ).loc main_arg2) := (W11_of m ρ c main_arg2 (by decide)).trans (W10_arg2 m ρ c)
theorem W12_arg2 (c : Dev nD) : W12 m ρ c (Proc.devRef .tc main_arg2) = m ((c : Thread nD τ).loc main_arg2) := (W12_of m ρ c main_arg2 (by decide)).trans (W11_arg2 m ρ c)
theorem W13_arg2 (c : Dev nD) : W13 m ρ c (Proc.devRef .tc main_arg2) = m ((c : Thread nD τ).loc main_arg2) := (W13_of m ρ c main_arg2 (by decide)).trans (W12_arg2 m ρ c)
theorem W14_arg2 (c : Dev nD) : W14 m ρ c (Proc.devRef .tc main_arg2) = m ((c : Thread nD τ).loc main_arg2) := (W14_of m ρ c main_arg2 (by decide)).trans (W13_arg2 m ρ c)
theorem W15_arg2 (c : Dev nD) : W15 m ρ c (Proc.devRef .tc main_arg2) = m ((c : Thread nD τ).loc main_arg2) := (W15_of m ρ c main_arg2 (by decide)).trans (W14_arg2 m ρ c)
theorem W16_arg2 (c : Dev nD) : W16 m ρ c (Proc.devRef .tc main_arg2) = m ((c : Thread nD τ).loc main_arg2) := (W16_of_ne m ρ c main_arg2 (by decide)).trans (W15_arg2 m ρ c)
theorem W17_arg2 (c : Dev nD) : W17 m ρ c (Proc.devRef .tc main_arg2) = m ((c : Thread nD τ).loc main_arg2) := (W17_of m ρ c main_arg2 (by decide)).trans (W16_arg2 m ρ c)
theorem W18_arg2 (c : Dev nD) : W18 m ρ c (Proc.devRef .tc main_arg2) = m ((c : Thread nD τ).loc main_arg2) := (W18_of_ne m ρ c main_arg2 (by decide)).trans (W17_arg2 m ρ c)
theorem W19_arg2 (c : Dev nD) : W19 m ρ c (Proc.devRef .tc main_arg2) = m ((c : Thread nD τ).loc main_arg2) := (W19_of m ρ c main_arg2 (by decide)).trans (W18_arg2 m ρ c)
theorem W20_arg2 (c : Dev nD) : W20 m ρ c (Proc.devRef .tc main_arg2) = m ((c : Thread nD τ).loc main_arg2) := (W20_of_ne m ρ c main_arg2 (by decide)).trans (W19_arg2 m ρ c)
theorem W21_arg2 (c : Dev nD) : W21 m ρ c (Proc.devRef .tc main_arg2) = m ((c : Thread nD τ).loc main_arg2) := (W21_of m ρ c main_arg2 (by decide)).trans (W20_arg2 m ρ c)
theorem W22_arg2 (c : Dev nD) : W22 m ρ c (Proc.devRef .tc main_arg2) = m ((c : Thread nD τ).loc main_arg2) := (W22_of m ρ c main_arg2 (by decide)).trans (W21_arg2 m ρ c)
theorem W23_arg2 (c : Dev nD) : W23 m ρ c (Proc.devRef .tc main_arg2) = m ((c : Thread nD τ).loc main_arg2) := (W23_of m ρ c main_arg2 (by decide)).trans (W22_arg2 m ρ c)
theorem W24_arg2 (c : Dev nD) : W24 m ρ c (Proc.devRef .tc main_arg2) = m ((c : Thread nD τ).loc main_arg2) := (W24_of m ρ c main_arg2 (by decide)).trans (W23_arg2 m ρ c)
theorem W25_arg2 (c : Dev nD) : W25 m ρ c (Proc.devRef .tc main_arg2) = m ((c : Thread nD τ).loc main_arg2) := (W25_of m ρ c main_arg2 (by decide)).trans (W24_arg2 m ρ c)
theorem W26_arg2 (c : Dev nD) : W26 m ρ c (Proc.devRef .tc main_arg2) = m ((c : Thread nD τ).loc main_arg2) := (W26_of m ρ c main_arg2 (by decide)).trans (W25_arg2 m ρ c)
theorem W27_arg2 (c : Dev nD) : W27 m ρ c (Proc.devRef .tc main_arg2) = m ((c : Thread nD τ).loc main_arg2) := (W27_of m ρ c main_arg2 (by decide)).trans (W26_arg2 m ρ c)
theorem W28_arg2 (c : Dev nD) : W28 m ρ c (Proc.devRef .tc main_arg2) = m ((c : Thread nD τ).loc main_arg2) := (W28_of m ρ c main_arg2 (by decide)).trans (W27_arg2 m ρ c)
theorem W29_arg2 (c : Dev nD) : W29 m ρ c (Proc.devRef .tc main_arg2) = m ((c : Thread nD τ).loc main_arg2) := (W29_of m ρ c main_arg2 (by decide)).trans (W28_arg2 m ρ c)

theorem W0_arg3 (c : Dev nD) : W0 m ρ c (Proc.devRef .tc main_arg3) = m ((c : Thread nD τ).loc main_arg3) := rfl
theorem W1_arg3 (c : Dev nD) : W1 m ρ c (Proc.devRef .tc main_arg3) = m ((c : Thread nD τ).loc main_arg3) := (W1_of m ρ c main_arg3 (by decide)).trans (W0_arg3 m ρ c)
theorem W2_arg3 (c : Dev nD) : W2 m ρ c (Proc.devRef .tc main_arg3) = m ((c : Thread nD τ).loc main_arg3) := (W2_of m ρ c main_arg3 (by decide)).trans (W1_arg3 m ρ c)
theorem W3_arg3 (c : Dev nD) : W3 m ρ c (Proc.devRef .tc main_arg3) = m ((c : Thread nD τ).loc main_arg3) := (W3_of m ρ c main_arg3 (by decide)).trans (W2_arg3 m ρ c)
theorem W4_arg3 (c : Dev nD) : W4 m ρ c (Proc.devRef .tc main_arg3) = m ((c : Thread nD τ).loc main_arg3) := (W4_of m ρ c main_arg3 (by decide)).trans (W3_arg3 m ρ c)
theorem W5_arg3 (c : Dev nD) : W5 m ρ c (Proc.devRef .tc main_arg3) = m ((c : Thread nD τ).loc main_arg3) := (W5_of m ρ c main_arg3 (by decide)).trans (W4_arg3 m ρ c)
theorem W6_arg3 (c : Dev nD) : W6 m ρ c (Proc.devRef .tc main_arg3) = m ((c : Thread nD τ).loc main_arg3) := (W6_of_ne m ρ c main_arg3 (by decide)).trans (W5_arg3 m ρ c)
theorem W7_arg3 (c : Dev nD) : W7 m ρ c (Proc.devRef .tc main_arg3) = m ((c : Thread nD τ).loc main_arg3) := (W7_of m ρ c main_arg3 (by decide)).trans (W6_arg3 m ρ c)
theorem W8_arg3 (c : Dev nD) : W8 m ρ c (Proc.devRef .tc main_arg3) = m ((c : Thread nD τ).loc main_arg3) := (W8_of_ne m ρ c main_arg3 (by decide)).trans (W7_arg3 m ρ c)
theorem W9_arg3 (c : Dev nD) : W9 m ρ c (Proc.devRef .tc main_arg3) = m ((c : Thread nD τ).loc main_arg3) := (W9_of m ρ c main_arg3 (by decide)).trans (W8_arg3 m ρ c)
theorem W10_arg3 (c : Dev nD) : W10 m ρ c (Proc.devRef .tc main_arg3) = m ((c : Thread nD τ).loc main_arg3) := (W10_of_ne m ρ c main_arg3 (by decide)).trans (W9_arg3 m ρ c)
theorem W11_arg3 (c : Dev nD) : W11 m ρ c (Proc.devRef .tc main_arg3) = m ((c : Thread nD τ).loc main_arg3) := (W11_of m ρ c main_arg3 (by decide)).trans (W10_arg3 m ρ c)
theorem W12_arg3 (c : Dev nD) : W12 m ρ c (Proc.devRef .tc main_arg3) = m ((c : Thread nD τ).loc main_arg3) := (W12_of m ρ c main_arg3 (by decide)).trans (W11_arg3 m ρ c)
theorem W13_arg3 (c : Dev nD) : W13 m ρ c (Proc.devRef .tc main_arg3) = m ((c : Thread nD τ).loc main_arg3) := (W13_of m ρ c main_arg3 (by decide)).trans (W12_arg3 m ρ c)
theorem W14_arg3 (c : Dev nD) : W14 m ρ c (Proc.devRef .tc main_arg3) = m ((c : Thread nD τ).loc main_arg3) := (W14_of m ρ c main_arg3 (by decide)).trans (W13_arg3 m ρ c)
theorem W15_arg3 (c : Dev nD) : W15 m ρ c (Proc.devRef .tc main_arg3) = m ((c : Thread nD τ).loc main_arg3) := (W15_of m ρ c main_arg3 (by decide)).trans (W14_arg3 m ρ c)
theorem W16_arg3 (c : Dev nD) : W16 m ρ c (Proc.devRef .tc main_arg3) = m ((c : Thread nD τ).loc main_arg3) := (W16_of_ne m ρ c main_arg3 (by decide)).trans (W15_arg3 m ρ c)
theorem W17_arg3 (c : Dev nD) : W17 m ρ c (Proc.devRef .tc main_arg3) = m ((c : Thread nD τ).loc main_arg3) := (W17_of m ρ c main_arg3 (by decide)).trans (W16_arg3 m ρ c)
theorem W18_arg3 (c : Dev nD) : W18 m ρ c (Proc.devRef .tc main_arg3) = m ((c : Thread nD τ).loc main_arg3) := (W18_of_ne m ρ c main_arg3 (by decide)).trans (W17_arg3 m ρ c)
theorem W19_arg3 (c : Dev nD) : W19 m ρ c (Proc.devRef .tc main_arg3) = m ((c : Thread nD τ).loc main_arg3) := (W19_of m ρ c main_arg3 (by decide)).trans (W18_arg3 m ρ c)
theorem W20_arg3 (c : Dev nD) : W20 m ρ c (Proc.devRef .tc main_arg3) = m ((c : Thread nD τ).loc main_arg3) := (W20_of_ne m ρ c main_arg3 (by decide)).trans (W19_arg3 m ρ c)
theorem W21_arg3 (c : Dev nD) : W21 m ρ c (Proc.devRef .tc main_arg3) = m ((c : Thread nD τ).loc main_arg3) := (W21_of m ρ c main_arg3 (by decide)).trans (W20_arg3 m ρ c)
theorem W22_arg3 (c : Dev nD) : W22 m ρ c (Proc.devRef .tc main_arg3) = m ((c : Thread nD τ).loc main_arg3) := (W22_of m ρ c main_arg3 (by decide)).trans (W21_arg3 m ρ c)
theorem W23_arg3 (c : Dev nD) : W23 m ρ c (Proc.devRef .tc main_arg3) = m ((c : Thread nD τ).loc main_arg3) := (W23_of m ρ c main_arg3 (by decide)).trans (W22_arg3 m ρ c)
theorem W24_arg3 (c : Dev nD) : W24 m ρ c (Proc.devRef .tc main_arg3) = m ((c : Thread nD τ).loc main_arg3) := (W24_of m ρ c main_arg3 (by decide)).trans (W23_arg3 m ρ c)
theorem W25_arg3 (c : Dev nD) : W25 m ρ c (Proc.devRef .tc main_arg3) = m ((c : Thread nD τ).loc main_arg3) := (W25_of m ρ c main_arg3 (by decide)).trans (W24_arg3 m ρ c)
theorem W26_arg3 (c : Dev nD) : W26 m ρ c (Proc.devRef .tc main_arg3) = m ((c : Thread nD τ).loc main_arg3) := (W26_of m ρ c main_arg3 (by decide)).trans (W25_arg3 m ρ c)
theorem W27_arg3 (c : Dev nD) : W27 m ρ c (Proc.devRef .tc main_arg3) = m ((c : Thread nD τ).loc main_arg3) := (W27_of m ρ c main_arg3 (by decide)).trans (W26_arg3 m ρ c)
theorem W28_arg3 (c : Dev nD) : W28 m ρ c (Proc.devRef .tc main_arg3) = m ((c : Thread nD τ).loc main_arg3) := (W28_of m ρ c main_arg3 (by decide)).trans (W27_arg3 m ρ c)
theorem W29_arg3 (c : Dev nD) : W29 m ρ c (Proc.devRef .tc main_arg3) = m ((c : Thread nD τ).loc main_arg3) := (W29_of m ρ c main_arg3 (by decide)).trans (W28_arg3 m ρ c)

theorem W0_arg4 (c : Dev nD) : W0 m ρ c (Proc.devRef .tc main_arg4) = m ((c : Thread nD τ).loc main_arg4) := rfl
theorem W1_arg4 (c : Dev nD) : W1 m ρ c (Proc.devRef .tc main_arg4) = m ((c : Thread nD τ).loc main_arg4) := (W1_of m ρ c main_arg4 (by decide)).trans (W0_arg4 m ρ c)
theorem W2_arg4 (c : Dev nD) : W2 m ρ c (Proc.devRef .tc main_arg4) = m ((c : Thread nD τ).loc main_arg4) := (W2_of m ρ c main_arg4 (by decide)).trans (W1_arg4 m ρ c)
theorem W3_arg4 (c : Dev nD) : W3 m ρ c (Proc.devRef .tc main_arg4) = m ((c : Thread nD τ).loc main_arg4) := (W3_of m ρ c main_arg4 (by decide)).trans (W2_arg4 m ρ c)
theorem W4_arg4 (c : Dev nD) : W4 m ρ c (Proc.devRef .tc main_arg4) = m ((c : Thread nD τ).loc main_arg4) := (W4_of m ρ c main_arg4 (by decide)).trans (W3_arg4 m ρ c)
theorem W5_arg4 (c : Dev nD) : W5 m ρ c (Proc.devRef .tc main_arg4) = m ((c : Thread nD τ).loc main_arg4) := (W5_of m ρ c main_arg4 (by decide)).trans (W4_arg4 m ρ c)
theorem W6_arg4 (c : Dev nD) : W6 m ρ c (Proc.devRef .tc main_arg4) = m ((c : Thread nD τ).loc main_arg4) := (W6_of_ne m ρ c main_arg4 (by decide)).trans (W5_arg4 m ρ c)
theorem W7_arg4 (c : Dev nD) : W7 m ρ c (Proc.devRef .tc main_arg4) = m ((c : Thread nD τ).loc main_arg4) := (W7_of m ρ c main_arg4 (by decide)).trans (W6_arg4 m ρ c)
theorem W8_arg4 (c : Dev nD) : W8 m ρ c (Proc.devRef .tc main_arg4) = m ((c : Thread nD τ).loc main_arg4) := (W8_of_ne m ρ c main_arg4 (by decide)).trans (W7_arg4 m ρ c)
theorem W9_arg4 (c : Dev nD) : W9 m ρ c (Proc.devRef .tc main_arg4) = m ((c : Thread nD τ).loc main_arg4) := (W9_of m ρ c main_arg4 (by decide)).trans (W8_arg4 m ρ c)
theorem W10_arg4 (c : Dev nD) : W10 m ρ c (Proc.devRef .tc main_arg4) = m ((c : Thread nD τ).loc main_arg4) := (W10_of_ne m ρ c main_arg4 (by decide)).trans (W9_arg4 m ρ c)
theorem W11_arg4 (c : Dev nD) : W11 m ρ c (Proc.devRef .tc main_arg4) = m ((c : Thread nD τ).loc main_arg4) := (W11_of m ρ c main_arg4 (by decide)).trans (W10_arg4 m ρ c)
theorem W12_arg4 (c : Dev nD) : W12 m ρ c (Proc.devRef .tc main_arg4) = m ((c : Thread nD τ).loc main_arg4) := (W12_of m ρ c main_arg4 (by decide)).trans (W11_arg4 m ρ c)
theorem W13_arg4 (c : Dev nD) : W13 m ρ c (Proc.devRef .tc main_arg4) = m ((c : Thread nD τ).loc main_arg4) := (W13_of m ρ c main_arg4 (by decide)).trans (W12_arg4 m ρ c)
theorem W14_arg4 (c : Dev nD) : W14 m ρ c (Proc.devRef .tc main_arg4) = m ((c : Thread nD τ).loc main_arg4) := (W14_of m ρ c main_arg4 (by decide)).trans (W13_arg4 m ρ c)
theorem W15_arg4 (c : Dev nD) : W15 m ρ c (Proc.devRef .tc main_arg4) = m ((c : Thread nD τ).loc main_arg4) := (W15_of m ρ c main_arg4 (by decide)).trans (W14_arg4 m ρ c)
theorem W16_arg4 (c : Dev nD) : W16 m ρ c (Proc.devRef .tc main_arg4) = m ((c : Thread nD τ).loc main_arg4) := (W16_of_ne m ρ c main_arg4 (by decide)).trans (W15_arg4 m ρ c)
theorem W17_arg4 (c : Dev nD) : W17 m ρ c (Proc.devRef .tc main_arg4) = m ((c : Thread nD τ).loc main_arg4) := (W17_of m ρ c main_arg4 (by decide)).trans (W16_arg4 m ρ c)
theorem W18_arg4 (c : Dev nD) : W18 m ρ c (Proc.devRef .tc main_arg4) = m ((c : Thread nD τ).loc main_arg4) := (W18_of_ne m ρ c main_arg4 (by decide)).trans (W17_arg4 m ρ c)
theorem W19_arg4 (c : Dev nD) : W19 m ρ c (Proc.devRef .tc main_arg4) = m ((c : Thread nD τ).loc main_arg4) := (W19_of m ρ c main_arg4 (by decide)).trans (W18_arg4 m ρ c)
theorem W20_arg4 (c : Dev nD) : W20 m ρ c (Proc.devRef .tc main_arg4) = m ((c : Thread nD τ).loc main_arg4) := (W20_of_ne m ρ c main_arg4 (by decide)).trans (W19_arg4 m ρ c)
theorem W21_arg4 (c : Dev nD) : W21 m ρ c (Proc.devRef .tc main_arg4) = m ((c : Thread nD τ).loc main_arg4) := (W21_of m ρ c main_arg4 (by decide)).trans (W20_arg4 m ρ c)
theorem W22_arg4 (c : Dev nD) : W22 m ρ c (Proc.devRef .tc main_arg4) = m ((c : Thread nD τ).loc main_arg4) := (W22_of m ρ c main_arg4 (by decide)).trans (W21_arg4 m ρ c)
theorem W23_arg4 (c : Dev nD) : W23 m ρ c (Proc.devRef .tc main_arg4) = m ((c : Thread nD τ).loc main_arg4) := (W23_of m ρ c main_arg4 (by decide)).trans (W22_arg4 m ρ c)
theorem W24_arg4 (c : Dev nD) : W24 m ρ c (Proc.devRef .tc main_arg4) = m ((c : Thread nD τ).loc main_arg4) := (W24_of m ρ c main_arg4 (by decide)).trans (W23_arg4 m ρ c)
theorem W25_arg4 (c : Dev nD) : W25 m ρ c (Proc.devRef .tc main_arg4) = m ((c : Thread nD τ).loc main_arg4) := (W25_of m ρ c main_arg4 (by decide)).trans (W24_arg4 m ρ c)
theorem W26_arg4 (c : Dev nD) : W26 m ρ c (Proc.devRef .tc main_arg4) = m ((c : Thread nD τ).loc main_arg4) := (W26_of m ρ c main_arg4 (by decide)).trans (W25_arg4 m ρ c)
theorem W27_arg4 (c : Dev nD) : W27 m ρ c (Proc.devRef .tc main_arg4) = m ((c : Thread nD τ).loc main_arg4) := (W27_of m ρ c main_arg4 (by decide)).trans (W26_arg4 m ρ c)
theorem W28_arg4 (c : Dev nD) : W28 m ρ c (Proc.devRef .tc main_arg4) = m ((c : Thread nD τ).loc main_arg4) := (W28_of m ρ c main_arg4 (by decide)).trans (W27_arg4 m ρ c)
theorem W29_arg4 (c : Dev nD) : W29 m ρ c (Proc.devRef .tc main_arg4) = m ((c : Thread nD τ).loc main_arg4) := (W29_of m ρ c main_arg4 (by decide)).trans (W28_arg4 m ρ c)

theorem W0_arg5 (c : Dev nD) : W0 m ρ c (Proc.devRef .tc main_arg5) = m ((c : Thread nD τ).loc main_arg5) := rfl
theorem W1_arg5 (c : Dev nD) : W1 m ρ c (Proc.devRef .tc main_arg5) = m ((c : Thread nD τ).loc main_arg5) := (W1_of m ρ c main_arg5 (by decide)).trans (W0_arg5 m ρ c)
theorem W2_arg5 (c : Dev nD) : W2 m ρ c (Proc.devRef .tc main_arg5) = m ((c : Thread nD τ).loc main_arg5) := (W2_of m ρ c main_arg5 (by decide)).trans (W1_arg5 m ρ c)
theorem W3_arg5 (c : Dev nD) : W3 m ρ c (Proc.devRef .tc main_arg5) = m ((c : Thread nD τ).loc main_arg5) := (W3_of m ρ c main_arg5 (by decide)).trans (W2_arg5 m ρ c)
theorem W4_arg5 (c : Dev nD) : W4 m ρ c (Proc.devRef .tc main_arg5) = m ((c : Thread nD τ).loc main_arg5) := (W4_of m ρ c main_arg5 (by decide)).trans (W3_arg5 m ρ c)
theorem W5_arg5 (c : Dev nD) : W5 m ρ c (Proc.devRef .tc main_arg5) = m ((c : Thread nD τ).loc main_arg5) := (W5_of m ρ c main_arg5 (by decide)).trans (W4_arg5 m ρ c)
theorem W6_arg5 (c : Dev nD) : W6 m ρ c (Proc.devRef .tc main_arg5) = m ((c : Thread nD τ).loc main_arg5) := (W6_of_ne m ρ c main_arg5 (by decide)).trans (W5_arg5 m ρ c)
theorem W7_arg5 (c : Dev nD) : W7 m ρ c (Proc.devRef .tc main_arg5) = m ((c : Thread nD τ).loc main_arg5) := (W7_of m ρ c main_arg5 (by decide)).trans (W6_arg5 m ρ c)
theorem W8_arg5 (c : Dev nD) : W8 m ρ c (Proc.devRef .tc main_arg5) = m ((c : Thread nD τ).loc main_arg5) := (W8_of_ne m ρ c main_arg5 (by decide)).trans (W7_arg5 m ρ c)
theorem W9_arg5 (c : Dev nD) : W9 m ρ c (Proc.devRef .tc main_arg5) = m ((c : Thread nD τ).loc main_arg5) := (W9_of m ρ c main_arg5 (by decide)).trans (W8_arg5 m ρ c)
theorem W10_arg5 (c : Dev nD) : W10 m ρ c (Proc.devRef .tc main_arg5) = m ((c : Thread nD τ).loc main_arg5) := (W10_of_ne m ρ c main_arg5 (by decide)).trans (W9_arg5 m ρ c)
theorem W11_arg5 (c : Dev nD) : W11 m ρ c (Proc.devRef .tc main_arg5) = m ((c : Thread nD τ).loc main_arg5) := (W11_of m ρ c main_arg5 (by decide)).trans (W10_arg5 m ρ c)
theorem W12_arg5 (c : Dev nD) : W12 m ρ c (Proc.devRef .tc main_arg5) = m ((c : Thread nD τ).loc main_arg5) := (W12_of m ρ c main_arg5 (by decide)).trans (W11_arg5 m ρ c)
theorem W13_arg5 (c : Dev nD) : W13 m ρ c (Proc.devRef .tc main_arg5) = m ((c : Thread nD τ).loc main_arg5) := (W13_of m ρ c main_arg5 (by decide)).trans (W12_arg5 m ρ c)
theorem W14_arg5 (c : Dev nD) : W14 m ρ c (Proc.devRef .tc main_arg5) = m ((c : Thread nD τ).loc main_arg5) := (W14_of m ρ c main_arg5 (by decide)).trans (W13_arg5 m ρ c)
theorem W15_arg5 (c : Dev nD) : W15 m ρ c (Proc.devRef .tc main_arg5) = m ((c : Thread nD τ).loc main_arg5) := (W15_of m ρ c main_arg5 (by decide)).trans (W14_arg5 m ρ c)
theorem W16_arg5 (c : Dev nD) : W16 m ρ c (Proc.devRef .tc main_arg5) = m ((c : Thread nD τ).loc main_arg5) := (W16_of_ne m ρ c main_arg5 (by decide)).trans (W15_arg5 m ρ c)
theorem W17_arg5 (c : Dev nD) : W17 m ρ c (Proc.devRef .tc main_arg5) = m ((c : Thread nD τ).loc main_arg5) := (W17_of m ρ c main_arg5 (by decide)).trans (W16_arg5 m ρ c)
theorem W18_arg5 (c : Dev nD) : W18 m ρ c (Proc.devRef .tc main_arg5) = m ((c : Thread nD τ).loc main_arg5) := (W18_of_ne m ρ c main_arg5 (by decide)).trans (W17_arg5 m ρ c)
theorem W19_arg5 (c : Dev nD) : W19 m ρ c (Proc.devRef .tc main_arg5) = m ((c : Thread nD τ).loc main_arg5) := (W19_of m ρ c main_arg5 (by decide)).trans (W18_arg5 m ρ c)
theorem W20_arg5 (c : Dev nD) : W20 m ρ c (Proc.devRef .tc main_arg5) = m ((c : Thread nD τ).loc main_arg5) := (W20_of_ne m ρ c main_arg5 (by decide)).trans (W19_arg5 m ρ c)
theorem W21_arg5 (c : Dev nD) : W21 m ρ c (Proc.devRef .tc main_arg5) = m ((c : Thread nD τ).loc main_arg5) := (W21_of m ρ c main_arg5 (by decide)).trans (W20_arg5 m ρ c)
theorem W22_arg5 (c : Dev nD) : W22 m ρ c (Proc.devRef .tc main_arg5) = m ((c : Thread nD τ).loc main_arg5) := (W22_of m ρ c main_arg5 (by decide)).trans (W21_arg5 m ρ c)
theorem W23_arg5 (c : Dev nD) : W23 m ρ c (Proc.devRef .tc main_arg5) = m ((c : Thread nD τ).loc main_arg5) := (W23_of m ρ c main_arg5 (by decide)).trans (W22_arg5 m ρ c)
theorem W24_arg5 (c : Dev nD) : W24 m ρ c (Proc.devRef .tc main_arg5) = m ((c : Thread nD τ).loc main_arg5) := (W24_of m ρ c main_arg5 (by decide)).trans (W23_arg5 m ρ c)
theorem W25_arg5 (c : Dev nD) : W25 m ρ c (Proc.devRef .tc main_arg5) = m ((c : Thread nD τ).loc main_arg5) := (W25_of m ρ c main_arg5 (by decide)).trans (W24_arg5 m ρ c)
theorem W26_arg5 (c : Dev nD) : W26 m ρ c (Proc.devRef .tc main_arg5) = m ((c : Thread nD τ).loc main_arg5) := (W26_of m ρ c main_arg5 (by decide)).trans (W25_arg5 m ρ c)
theorem W27_arg5 (c : Dev nD) : W27 m ρ c (Proc.devRef .tc main_arg5) = m ((c : Thread nD τ).loc main_arg5) := (W27_of m ρ c main_arg5 (by decide)).trans (W26_arg5 m ρ c)
theorem W28_arg5 (c : Dev nD) : W28 m ρ c (Proc.devRef .tc main_arg5) = m ((c : Thread nD τ).loc main_arg5) := (W28_of m ρ c main_arg5 (by decide)).trans (W27_arg5 m ρ c)
theorem W29_arg5 (c : Dev nD) : W29 m ρ c (Proc.devRef .tc main_arg5) = m ((c : Thread nD τ).loc main_arg5) := (W29_of m ρ c main_arg5 (by decide)).trans (W28_arg5 m ρ c)

theorem W0_arg6 (c : Dev nD) : W0 m ρ c (Proc.devRef .tc main_arg6) = m ((c : Thread nD τ).loc main_arg6) := rfl
theorem W1_arg6 (c : Dev nD) : W1 m ρ c (Proc.devRef .tc main_arg6) = m ((c : Thread nD τ).loc main_arg6) := (W1_of m ρ c main_arg6 (by decide)).trans (W0_arg6 m ρ c)
theorem W2_arg6 (c : Dev nD) : W2 m ρ c (Proc.devRef .tc main_arg6) = m ((c : Thread nD τ).loc main_arg6) := (W2_of m ρ c main_arg6 (by decide)).trans (W1_arg6 m ρ c)
theorem W3_arg6 (c : Dev nD) : W3 m ρ c (Proc.devRef .tc main_arg6) = m ((c : Thread nD τ).loc main_arg6) := (W3_of m ρ c main_arg6 (by decide)).trans (W2_arg6 m ρ c)
theorem W4_arg6 (c : Dev nD) : W4 m ρ c (Proc.devRef .tc main_arg6) = m ((c : Thread nD τ).loc main_arg6) := (W4_of m ρ c main_arg6 (by decide)).trans (W3_arg6 m ρ c)
theorem W5_arg6 (c : Dev nD) : W5 m ρ c (Proc.devRef .tc main_arg6) = m ((c : Thread nD τ).loc main_arg6) := (W5_of m ρ c main_arg6 (by decide)).trans (W4_arg6 m ρ c)
theorem W6_arg6 (c : Dev nD) : W6 m ρ c (Proc.devRef .tc main_arg6) = m ((c : Thread nD τ).loc main_arg6) := (W6_in2 m ρ c).trans (W5_arg6 m ρ c)
theorem W7_arg6 (c : Dev nD) : W7 m ρ c (Proc.devRef .tc main_arg6) = m ((c : Thread nD τ).loc main_arg6) := (W7_of m ρ c main_arg6 (by decide)).trans (W6_arg6 m ρ c)
theorem W8_arg6 (c : Dev nD) : W8 m ρ c (Proc.devRef .tc main_arg6) = m ((c : Thread nD τ).loc main_arg6) := (W8_of_ne m ρ c main_arg6 (by decide)).trans (W7_arg6 m ρ c)
theorem W9_arg6 (c : Dev nD) : W9 m ρ c (Proc.devRef .tc main_arg6) = m ((c : Thread nD τ).loc main_arg6) := (W9_of m ρ c main_arg6 (by decide)).trans (W8_arg6 m ρ c)
theorem W10_arg6 (c : Dev nD) : W10 m ρ c (Proc.devRef .tc main_arg6) = m ((c : Thread nD τ).loc main_arg6) := (W10_of_ne m ρ c main_arg6 (by decide)).trans (W9_arg6 m ρ c)
theorem W11_arg6 (c : Dev nD) : W11 m ρ c (Proc.devRef .tc main_arg6) = m ((c : Thread nD τ).loc main_arg6) := (W11_of m ρ c main_arg6 (by decide)).trans (W10_arg6 m ρ c)
theorem W12_arg6 (c : Dev nD) : W12 m ρ c (Proc.devRef .tc main_arg6) = m ((c : Thread nD τ).loc main_arg6) := (W12_of m ρ c main_arg6 (by decide)).trans (W11_arg6 m ρ c)
theorem W13_arg6 (c : Dev nD) : W13 m ρ c (Proc.devRef .tc main_arg6) = m ((c : Thread nD τ).loc main_arg6) := (W13_of m ρ c main_arg6 (by decide)).trans (W12_arg6 m ρ c)
theorem W14_arg6 (c : Dev nD) : W14 m ρ c (Proc.devRef .tc main_arg6) = m ((c : Thread nD τ).loc main_arg6) := (W14_of m ρ c main_arg6 (by decide)).trans (W13_arg6 m ρ c)
theorem W15_arg6 (c : Dev nD) : W15 m ρ c (Proc.devRef .tc main_arg6) = m ((c : Thread nD τ).loc main_arg6) := (W15_of m ρ c main_arg6 (by decide)).trans (W14_arg6 m ρ c)
theorem W16_arg6 (c : Dev nD) : W16 m ρ c (Proc.devRef .tc main_arg6) = m ((c : Thread nD τ).loc main_arg6) := (W16_in2 m ρ c).trans (W15_arg6 m ρ c)
theorem W17_arg6 (c : Dev nD) : W17 m ρ c (Proc.devRef .tc main_arg6) = m ((c : Thread nD τ).loc main_arg6) := (W17_of m ρ c main_arg6 (by decide)).trans (W16_arg6 m ρ c)
theorem W18_arg6 (c : Dev nD) : W18 m ρ c (Proc.devRef .tc main_arg6) = m ((c : Thread nD τ).loc main_arg6) := (W18_of_ne m ρ c main_arg6 (by decide)).trans (W17_arg6 m ρ c)
theorem W19_arg6 (c : Dev nD) : W19 m ρ c (Proc.devRef .tc main_arg6) = m ((c : Thread nD τ).loc main_arg6) := (W19_of m ρ c main_arg6 (by decide)).trans (W18_arg6 m ρ c)
theorem W20_arg6 (c : Dev nD) : W20 m ρ c (Proc.devRef .tc main_arg6) = m ((c : Thread nD τ).loc main_arg6) := (W20_of_ne m ρ c main_arg6 (by decide)).trans (W19_arg6 m ρ c)
theorem W21_arg6 (c : Dev nD) : W21 m ρ c (Proc.devRef .tc main_arg6) = m ((c : Thread nD τ).loc main_arg6) := (W21_of m ρ c main_arg6 (by decide)).trans (W20_arg6 m ρ c)
theorem W22_arg6 (c : Dev nD) : W22 m ρ c (Proc.devRef .tc main_arg6) = m ((c : Thread nD τ).loc main_arg6) := (W22_of m ρ c main_arg6 (by decide)).trans (W21_arg6 m ρ c)
theorem W23_arg6 (c : Dev nD) : W23 m ρ c (Proc.devRef .tc main_arg6) = m ((c : Thread nD τ).loc main_arg6) := (W23_of m ρ c main_arg6 (by decide)).trans (W22_arg6 m ρ c)
theorem W24_arg6 (c : Dev nD) : W24 m ρ c (Proc.devRef .tc main_arg6) = m ((c : Thread nD τ).loc main_arg6) := (W24_of m ρ c main_arg6 (by decide)).trans (W23_arg6 m ρ c)
theorem W25_arg6 (c : Dev nD) : W25 m ρ c (Proc.devRef .tc main_arg6) = m ((c : Thread nD τ).loc main_arg6) := (W25_of m ρ c main_arg6 (by decide)).trans (W24_arg6 m ρ c)
theorem W26_arg6 (c : Dev nD) : W26 m ρ c (Proc.devRef .tc main_arg6) = m ((c : Thread nD τ).loc main_arg6) := (W26_of m ρ c main_arg6 (by decide)).trans (W25_arg6 m ρ c)
theorem W27_arg6 (c : Dev nD) : W27 m ρ c (Proc.devRef .tc main_arg6) = m ((c : Thread nD τ).loc main_arg6) := (W27_of m ρ c main_arg6 (by decide)).trans (W26_arg6 m ρ c)
theorem W28_arg6 (c : Dev nD) : W28 m ρ c (Proc.devRef .tc main_arg6) = m ((c : Thread nD τ).loc main_arg6) := (W28_of m ρ c main_arg6 (by decide)).trans (W27_arg6 m ρ c)
theorem W29_arg6 (c : Dev nD) : W29 m ρ c (Proc.devRef .tc main_arg6) = m ((c : Thread nD τ).loc main_arg6) := (W29_of m ρ c main_arg6 (by decide)).trans (W28_arg6 m ρ c)

theorem W0_arg7 (c : Dev nD) : W0 m ρ c (Proc.devRef .tc main_arg7) = m ((c : Thread nD τ).loc main_arg7) := rfl
theorem W1_arg7 (c : Dev nD) : W1 m ρ c (Proc.devRef .tc main_arg7) = m ((c : Thread nD τ).loc main_arg7) := (W1_of m ρ c main_arg7 (by decide)).trans (W0_arg7 m ρ c)
theorem W2_arg7 (c : Dev nD) : W2 m ρ c (Proc.devRef .tc main_arg7) = m ((c : Thread nD τ).loc main_arg7) := (W2_of m ρ c main_arg7 (by decide)).trans (W1_arg7 m ρ c)
theorem W3_arg7 (c : Dev nD) : W3 m ρ c (Proc.devRef .tc main_arg7) = m ((c : Thread nD τ).loc main_arg7) := (W3_of m ρ c main_arg7 (by decide)).trans (W2_arg7 m ρ c)
theorem W4_arg7 (c : Dev nD) : W4 m ρ c (Proc.devRef .tc main_arg7) = m ((c : Thread nD τ).loc main_arg7) := (W4_of m ρ c main_arg7 (by decide)).trans (W3_arg7 m ρ c)
theorem W5_arg7 (c : Dev nD) : W5 m ρ c (Proc.devRef .tc main_arg7) = m ((c : Thread nD τ).loc main_arg7) := (W5_of m ρ c main_arg7 (by decide)).trans (W4_arg7 m ρ c)
theorem W6_arg7 (c : Dev nD) : W6 m ρ c (Proc.devRef .tc main_arg7) = m ((c : Thread nD τ).loc main_arg7) := (W6_of_ne m ρ c main_arg7 (by decide)).trans (W5_arg7 m ρ c)
theorem W7_arg7 (c : Dev nD) : W7 m ρ c (Proc.devRef .tc main_arg7) = m ((c : Thread nD τ).loc main_arg7) := (W7_of m ρ c main_arg7 (by decide)).trans (W6_arg7 m ρ c)
theorem W8_arg7 (c : Dev nD) : W8 m ρ c (Proc.devRef .tc main_arg7) = m ((c : Thread nD τ).loc main_arg7) := (W8_of_ne m ρ c main_arg7 (by decide)).trans (W7_arg7 m ρ c)
theorem W9_arg7 (c : Dev nD) : W9 m ρ c (Proc.devRef .tc main_arg7) = m ((c : Thread nD τ).loc main_arg7) := (W9_of m ρ c main_arg7 (by decide)).trans (W8_arg7 m ρ c)
theorem W10_arg7 (c : Dev nD) : W10 m ρ c (Proc.devRef .tc main_arg7) = m ((c : Thread nD τ).loc main_arg7) := (W10_of_ne m ρ c main_arg7 (by decide)).trans (W9_arg7 m ρ c)
theorem W11_arg7 (c : Dev nD) : W11 m ρ c (Proc.devRef .tc main_arg7) = m ((c : Thread nD τ).loc main_arg7) := (W11_of m ρ c main_arg7 (by decide)).trans (W10_arg7 m ρ c)
theorem W12_arg7 (c : Dev nD) : W12 m ρ c (Proc.devRef .tc main_arg7) = m ((c : Thread nD τ).loc main_arg7) := (W12_of m ρ c main_arg7 (by decide)).trans (W11_arg7 m ρ c)
theorem W13_arg7 (c : Dev nD) : W13 m ρ c (Proc.devRef .tc main_arg7) = m ((c : Thread nD τ).loc main_arg7) := (W13_of m ρ c main_arg7 (by decide)).trans (W12_arg7 m ρ c)
theorem W14_arg7 (c : Dev nD) : W14 m ρ c (Proc.devRef .tc main_arg7) = m ((c : Thread nD τ).loc main_arg7) := (W14_of m ρ c main_arg7 (by decide)).trans (W13_arg7 m ρ c)
theorem W15_arg7 (c : Dev nD) : W15 m ρ c (Proc.devRef .tc main_arg7) = m ((c : Thread nD τ).loc main_arg7) := (W15_of m ρ c main_arg7 (by decide)).trans (W14_arg7 m ρ c)
theorem W16_arg7 (c : Dev nD) : W16 m ρ c (Proc.devRef .tc main_arg7) = m ((c : Thread nD τ).loc main_arg7) := (W16_of_ne m ρ c main_arg7 (by decide)).trans (W15_arg7 m ρ c)
theorem W17_arg7 (c : Dev nD) : W17 m ρ c (Proc.devRef .tc main_arg7) = m ((c : Thread nD τ).loc main_arg7) := (W17_of m ρ c main_arg7 (by decide)).trans (W16_arg7 m ρ c)
theorem W18_arg7 (c : Dev nD) : W18 m ρ c (Proc.devRef .tc main_arg7) = m ((c : Thread nD τ).loc main_arg7) := (W18_of_ne m ρ c main_arg7 (by decide)).trans (W17_arg7 m ρ c)
theorem W19_arg7 (c : Dev nD) : W19 m ρ c (Proc.devRef .tc main_arg7) = m ((c : Thread nD τ).loc main_arg7) := (W19_of m ρ c main_arg7 (by decide)).trans (W18_arg7 m ρ c)
theorem W20_arg7 (c : Dev nD) : W20 m ρ c (Proc.devRef .tc main_arg7) = m ((c : Thread nD τ).loc main_arg7) := (W20_of_ne m ρ c main_arg7 (by decide)).trans (W19_arg7 m ρ c)
theorem W21_arg7 (c : Dev nD) : W21 m ρ c (Proc.devRef .tc main_arg7) = m ((c : Thread nD τ).loc main_arg7) := (W21_of m ρ c main_arg7 (by decide)).trans (W20_arg7 m ρ c)
theorem W22_arg7 (c : Dev nD) : W22 m ρ c (Proc.devRef .tc main_arg7) = m ((c : Thread nD τ).loc main_arg7) := (W22_of m ρ c main_arg7 (by decide)).trans (W21_arg7 m ρ c)
theorem W23_arg7 (c : Dev nD) : W23 m ρ c (Proc.devRef .tc main_arg7) = m ((c : Thread nD τ).loc main_arg7) := (W23_of m ρ c main_arg7 (by decide)).trans (W22_arg7 m ρ c)
theorem W24_arg7 (c : Dev nD) : W24 m ρ c (Proc.devRef .tc main_arg7) = m ((c : Thread nD τ).loc main_arg7) := (W24_of m ρ c main_arg7 (by decide)).trans (W23_arg7 m ρ c)
theorem W25_arg7 (c : Dev nD) : W25 m ρ c (Proc.devRef .tc main_arg7) = m ((c : Thread nD τ).loc main_arg7) := (W25_of m ρ c main_arg7 (by decide)).trans (W24_arg7 m ρ c)
theorem W26_arg7 (c : Dev nD) : W26 m ρ c (Proc.devRef .tc main_arg7) = m ((c : Thread nD τ).loc main_arg7) := (W26_of m ρ c main_arg7 (by decide)).trans (W25_arg7 m ρ c)
theorem W27_arg7 (c : Dev nD) : W27 m ρ c (Proc.devRef .tc main_arg7) = m ((c : Thread nD τ).loc main_arg7) := (W27_of m ρ c main_arg7 (by decide)).trans (W26_arg7 m ρ c)
theorem W28_arg7 (c : Dev nD) : W28 m ρ c (Proc.devRef .tc main_arg7) = m ((c : Thread nD τ).loc main_arg7) := (W28_of m ρ c main_arg7 (by decide)).trans (W27_arg7 m ρ c)
theorem W29_arg7 (c : Dev nD) : W29 m ρ c (Proc.devRef .tc main_arg7) = m ((c : Thread nD τ).loc main_arg7) := (W29_of m ρ c main_arg7 (by decide)).trans (W28_arg7 m ρ c)

theorem W0_arg8 (c : Dev nD) : W0 m ρ c (Proc.devRef .tc main_arg8) = m ((c : Thread nD τ).loc main_arg8) := rfl
theorem W1_arg8 (c : Dev nD) : W1 m ρ c (Proc.devRef .tc main_arg8) = m ((c : Thread nD τ).loc main_arg8) := (W1_of m ρ c main_arg8 (by decide)).trans (W0_arg8 m ρ c)
theorem W2_arg8 (c : Dev nD) : W2 m ρ c (Proc.devRef .tc main_arg8) = m ((c : Thread nD τ).loc main_arg8) := (W2_of m ρ c main_arg8 (by decide)).trans (W1_arg8 m ρ c)
theorem W3_arg8 (c : Dev nD) : W3 m ρ c (Proc.devRef .tc main_arg8) = m ((c : Thread nD τ).loc main_arg8) := (W3_of m ρ c main_arg8 (by decide)).trans (W2_arg8 m ρ c)
theorem W4_arg8 (c : Dev nD) : W4 m ρ c (Proc.devRef .tc main_arg8) = m ((c : Thread nD τ).loc main_arg8) := (W4_of m ρ c main_arg8 (by decide)).trans (W3_arg8 m ρ c)
theorem W5_arg8 (c : Dev nD) : W5 m ρ c (Proc.devRef .tc main_arg8) = m ((c : Thread nD τ).loc main_arg8) := (W5_of m ρ c main_arg8 (by decide)).trans (W4_arg8 m ρ c)
theorem W6_arg8 (c : Dev nD) : W6 m ρ c (Proc.devRef .tc main_arg8) = m ((c : Thread nD τ).loc main_arg8) := (W6_of_ne m ρ c main_arg8 (by decide)).trans (W5_arg8 m ρ c)
theorem W7_arg8 (c : Dev nD) : W7 m ρ c (Proc.devRef .tc main_arg8) = m ((c : Thread nD τ).loc main_arg8) := (W7_of m ρ c main_arg8 (by decide)).trans (W6_arg8 m ρ c)
theorem W8_arg8 (c : Dev nD) : W8 m ρ c (Proc.devRef .tc main_arg8) = m ((c : Thread nD τ).loc main_arg8) := (W8_in4 m ρ c).trans (W7_arg8 m ρ c)
theorem W9_arg8 (c : Dev nD) : W9 m ρ c (Proc.devRef .tc main_arg8) = m ((c : Thread nD τ).loc main_arg8) := (W9_of m ρ c main_arg8 (by decide)).trans (W8_arg8 m ρ c)
theorem W10_arg8 (c : Dev nD) : W10 m ρ c (Proc.devRef .tc main_arg8) = m ((c : Thread nD τ).loc main_arg8) := (W10_of_ne m ρ c main_arg8 (by decide)).trans (W9_arg8 m ρ c)
theorem W11_arg8 (c : Dev nD) : W11 m ρ c (Proc.devRef .tc main_arg8) = m ((c : Thread nD τ).loc main_arg8) := (W11_of m ρ c main_arg8 (by decide)).trans (W10_arg8 m ρ c)
theorem W12_arg8 (c : Dev nD) : W12 m ρ c (Proc.devRef .tc main_arg8) = m ((c : Thread nD τ).loc main_arg8) := (W12_of m ρ c main_arg8 (by decide)).trans (W11_arg8 m ρ c)
theorem W13_arg8 (c : Dev nD) : W13 m ρ c (Proc.devRef .tc main_arg8) = m ((c : Thread nD τ).loc main_arg8) := (W13_of m ρ c main_arg8 (by decide)).trans (W12_arg8 m ρ c)
theorem W14_arg8 (c : Dev nD) : W14 m ρ c (Proc.devRef .tc main_arg8) = m ((c : Thread nD τ).loc main_arg8) := (W14_of m ρ c main_arg8 (by decide)).trans (W13_arg8 m ρ c)
theorem W15_arg8 (c : Dev nD) : W15 m ρ c (Proc.devRef .tc main_arg8) = m ((c : Thread nD τ).loc main_arg8) := (W15_of m ρ c main_arg8 (by decide)).trans (W14_arg8 m ρ c)
theorem W16_arg8 (c : Dev nD) : W16 m ρ c (Proc.devRef .tc main_arg8) = m ((c : Thread nD τ).loc main_arg8) := (W16_of_ne m ρ c main_arg8 (by decide)).trans (W15_arg8 m ρ c)
theorem W17_arg8 (c : Dev nD) : W17 m ρ c (Proc.devRef .tc main_arg8) = m ((c : Thread nD τ).loc main_arg8) := (W17_of m ρ c main_arg8 (by decide)).trans (W16_arg8 m ρ c)
theorem W18_arg8 (c : Dev nD) : W18 m ρ c (Proc.devRef .tc main_arg8) = m ((c : Thread nD τ).loc main_arg8) := (W18_in4 m ρ c).trans (W17_arg8 m ρ c)
theorem W19_arg8 (c : Dev nD) : W19 m ρ c (Proc.devRef .tc main_arg8) = m ((c : Thread nD τ).loc main_arg8) := (W19_of m ρ c main_arg8 (by decide)).trans (W18_arg8 m ρ c)
theorem W20_arg8 (c : Dev nD) : W20 m ρ c (Proc.devRef .tc main_arg8) = m ((c : Thread nD τ).loc main_arg8) := (W20_of_ne m ρ c main_arg8 (by decide)).trans (W19_arg8 m ρ c)
theorem W21_arg8 (c : Dev nD) : W21 m ρ c (Proc.devRef .tc main_arg8) = m ((c : Thread nD τ).loc main_arg8) := (W21_of m ρ c main_arg8 (by decide)).trans (W20_arg8 m ρ c)
theorem W22_arg8 (c : Dev nD) : W22 m ρ c (Proc.devRef .tc main_arg8) = m ((c : Thread nD τ).loc main_arg8) := (W22_of m ρ c main_arg8 (by decide)).trans (W21_arg8 m ρ c)
theorem W23_arg8 (c : Dev nD) : W23 m ρ c (Proc.devRef .tc main_arg8) = m ((c : Thread nD τ).loc main_arg8) := (W23_of m ρ c main_arg8 (by decide)).trans (W22_arg8 m ρ c)
theorem W24_arg8 (c : Dev nD) : W24 m ρ c (Proc.devRef .tc main_arg8) = m ((c : Thread nD τ).loc main_arg8) := (W24_of m ρ c main_arg8 (by decide)).trans (W23_arg8 m ρ c)
theorem W25_arg8 (c : Dev nD) : W25 m ρ c (Proc.devRef .tc main_arg8) = m ((c : Thread nD τ).loc main_arg8) := (W25_of m ρ c main_arg8 (by decide)).trans (W24_arg8 m ρ c)
theorem W26_arg8 (c : Dev nD) : W26 m ρ c (Proc.devRef .tc main_arg8) = m ((c : Thread nD τ).loc main_arg8) := (W26_of m ρ c main_arg8 (by decide)).trans (W25_arg8 m ρ c)
theorem W27_arg8 (c : Dev nD) : W27 m ρ c (Proc.devRef .tc main_arg8) = m ((c : Thread nD τ).loc main_arg8) := (W27_of m ρ c main_arg8 (by decide)).trans (W26_arg8 m ρ c)
theorem W28_arg8 (c : Dev nD) : W28 m ρ c (Proc.devRef .tc main_arg8) = m ((c : Thread nD τ).loc main_arg8) := (W28_of m ρ c main_arg8 (by decide)).trans (W27_arg8 m ρ c)
theorem W29_arg8 (c : Dev nD) : W29 m ρ c (Proc.devRef .tc main_arg8) = m ((c : Thread nD τ).loc main_arg8) := (W29_of m ρ c main_arg8 (by decide)).trans (W28_arg8 m ρ c)

theorem W0_arg9 (c : Dev nD) : W0 m ρ c (Proc.devRef .tc main_arg9) = m ((c : Thread nD τ).loc main_arg9) := rfl
theorem W1_arg9 (c : Dev nD) : W1 m ρ c (Proc.devRef .tc main_arg9) = m ((c : Thread nD τ).loc main_arg9) := (W1_of m ρ c main_arg9 (by decide)).trans (W0_arg9 m ρ c)
theorem W2_arg9 (c : Dev nD) : W2 m ρ c (Proc.devRef .tc main_arg9) = m ((c : Thread nD τ).loc main_arg9) := (W2_of m ρ c main_arg9 (by decide)).trans (W1_arg9 m ρ c)
theorem W3_arg9 (c : Dev nD) : W3 m ρ c (Proc.devRef .tc main_arg9) = m ((c : Thread nD τ).loc main_arg9) := (W3_of m ρ c main_arg9 (by decide)).trans (W2_arg9 m ρ c)
theorem W4_arg9 (c : Dev nD) : W4 m ρ c (Proc.devRef .tc main_arg9) = m ((c : Thread nD τ).loc main_arg9) := (W4_of m ρ c main_arg9 (by decide)).trans (W3_arg9 m ρ c)
theorem W5_arg9 (c : Dev nD) : W5 m ρ c (Proc.devRef .tc main_arg9) = m ((c : Thread nD τ).loc main_arg9) := (W5_of m ρ c main_arg9 (by decide)).trans (W4_arg9 m ρ c)
theorem W6_arg9 (c : Dev nD) : W6 m ρ c (Proc.devRef .tc main_arg9) = m ((c : Thread nD τ).loc main_arg9) := (W6_of_ne m ρ c main_arg9 (by decide)).trans (W5_arg9 m ρ c)
theorem W7_arg9 (c : Dev nD) : W7 m ρ c (Proc.devRef .tc main_arg9) = m ((c : Thread nD τ).loc main_arg9) := (W7_of m ρ c main_arg9 (by decide)).trans (W6_arg9 m ρ c)
theorem W8_arg9 (c : Dev nD) : W8 m ρ c (Proc.devRef .tc main_arg9) = m ((c : Thread nD τ).loc main_arg9) := (W8_of_ne m ρ c main_arg9 (by decide)).trans (W7_arg9 m ρ c)
theorem W9_arg9 (c : Dev nD) : W9 m ρ c (Proc.devRef .tc main_arg9) = m ((c : Thread nD τ).loc main_arg9) := (W9_of m ρ c main_arg9 (by decide)).trans (W8_arg9 m ρ c)
theorem W10_arg9 (c : Dev nD) : W10 m ρ c (Proc.devRef .tc main_arg9) = m ((c : Thread nD τ).loc main_arg9) := (W10_of_ne m ρ c main_arg9 (by decide)).trans (W9_arg9 m ρ c)
theorem W11_arg9 (c : Dev nD) : W11 m ρ c (Proc.devRef .tc main_arg9) = m ((c : Thread nD τ).loc main_arg9) := (W11_of m ρ c main_arg9 (by decide)).trans (W10_arg9 m ρ c)
theorem W12_arg9 (c : Dev nD) : W12 m ρ c (Proc.devRef .tc main_arg9) = m ((c : Thread nD τ).loc main_arg9) := (W12_of m ρ c main_arg9 (by decide)).trans (W11_arg9 m ρ c)
theorem W13_arg9 (c : Dev nD) : W13 m ρ c (Proc.devRef .tc main_arg9) = m ((c : Thread nD τ).loc main_arg9) := (W13_of m ρ c main_arg9 (by decide)).trans (W12_arg9 m ρ c)
theorem W14_arg9 (c : Dev nD) : W14 m ρ c (Proc.devRef .tc main_arg9) = m ((c : Thread nD τ).loc main_arg9) := (W14_of m ρ c main_arg9 (by decide)).trans (W13_arg9 m ρ c)
theorem W15_arg9 (c : Dev nD) : W15 m ρ c (Proc.devRef .tc main_arg9) = m ((c : Thread nD τ).loc main_arg9) := (W15_of m ρ c main_arg9 (by decide)).trans (W14_arg9 m ρ c)
theorem W16_arg9 (c : Dev nD) : W16 m ρ c (Proc.devRef .tc main_arg9) = m ((c : Thread nD τ).loc main_arg9) := (W16_of_ne m ρ c main_arg9 (by decide)).trans (W15_arg9 m ρ c)
theorem W17_arg9 (c : Dev nD) : W17 m ρ c (Proc.devRef .tc main_arg9) = m ((c : Thread nD τ).loc main_arg9) := (W17_of m ρ c main_arg9 (by decide)).trans (W16_arg9 m ρ c)
theorem W18_arg9 (c : Dev nD) : W18 m ρ c (Proc.devRef .tc main_arg9) = m ((c : Thread nD τ).loc main_arg9) := (W18_of_ne m ρ c main_arg9 (by decide)).trans (W17_arg9 m ρ c)
theorem W19_arg9 (c : Dev nD) : W19 m ρ c (Proc.devRef .tc main_arg9) = m ((c : Thread nD τ).loc main_arg9) := (W19_of m ρ c main_arg9 (by decide)).trans (W18_arg9 m ρ c)
theorem W20_arg9 (c : Dev nD) : W20 m ρ c (Proc.devRef .tc main_arg9) = m ((c : Thread nD τ).loc main_arg9) := (W20_of_ne m ρ c main_arg9 (by decide)).trans (W19_arg9 m ρ c)
theorem W21_arg9 (c : Dev nD) : W21 m ρ c (Proc.devRef .tc main_arg9) = m ((c : Thread nD τ).loc main_arg9) := (W21_of m ρ c main_arg9 (by decide)).trans (W20_arg9 m ρ c)
theorem W22_arg9 (c : Dev nD) : W22 m ρ c (Proc.devRef .tc main_arg9) = m ((c : Thread nD τ).loc main_arg9) := (W22_of m ρ c main_arg9 (by decide)).trans (W21_arg9 m ρ c)
theorem W23_arg9 (c : Dev nD) : W23 m ρ c (Proc.devRef .tc main_arg9) = m ((c : Thread nD τ).loc main_arg9) := (W23_of m ρ c main_arg9 (by decide)).trans (W22_arg9 m ρ c)
theorem W24_arg9 (c : Dev nD) : W24 m ρ c (Proc.devRef .tc main_arg9) = m ((c : Thread nD τ).loc main_arg9) := (W24_of m ρ c main_arg9 (by decide)).trans (W23_arg9 m ρ c)
theorem W25_arg9 (c : Dev nD) : W25 m ρ c (Proc.devRef .tc main_arg9) = m ((c : Thread nD τ).loc main_arg9) := (W25_of m ρ c main_arg9 (by decide)).trans (W24_arg9 m ρ c)
theorem W26_arg9 (c : Dev nD) : W26 m ρ c (Proc.devRef .tc main_arg9) = m ((c : Thread nD τ).loc main_arg9) := (W26_of m ρ c main_arg9 (by decide)).trans (W25_arg9 m ρ c)
theorem W27_arg9 (c : Dev nD) : W27 m ρ c (Proc.devRef .tc main_arg9) = m ((c : Thread nD τ).loc main_arg9) := (W27_of m ρ c main_arg9 (by decide)).trans (W26_arg9 m ρ c)
theorem W28_arg9 (c : Dev nD) : W28 m ρ c (Proc.devRef .tc main_arg9) = m ((c : Thread nD τ).loc main_arg9) := (W28_of m ρ c main_arg9 (by decide)).trans (W27_arg9 m ρ c)
theorem W29_arg9 (c : Dev nD) : W29 m ρ c (Proc.devRef .tc main_arg9) = m ((c : Thread nD τ).loc main_arg9) := (W29_of m ρ c main_arg9 (by decide)).trans (W28_arg9 m ρ c)

theorem W0_arg10 (c : Dev nD) : W0 m ρ c (Proc.devRef .tc main_arg10) = m ((c : Thread nD τ).loc main_arg10) := rfl
theorem W1_arg10 (c : Dev nD) : W1 m ρ c (Proc.devRef .tc main_arg10) = m ((c : Thread nD τ).loc main_arg10) := (W1_of m ρ c main_arg10 (by decide)).trans (W0_arg10 m ρ c)
theorem W2_arg10 (c : Dev nD) : W2 m ρ c (Proc.devRef .tc main_arg10) = m ((c : Thread nD τ).loc main_arg10) := (W2_of m ρ c main_arg10 (by decide)).trans (W1_arg10 m ρ c)
theorem W3_arg10 (c : Dev nD) : W3 m ρ c (Proc.devRef .tc main_arg10) = m ((c : Thread nD τ).loc main_arg10) := (W3_of m ρ c main_arg10 (by decide)).trans (W2_arg10 m ρ c)
theorem W4_arg10 (c : Dev nD) : W4 m ρ c (Proc.devRef .tc main_arg10) = m ((c : Thread nD τ).loc main_arg10) := (W4_of m ρ c main_arg10 (by decide)).trans (W3_arg10 m ρ c)
theorem W5_arg10 (c : Dev nD) : W5 m ρ c (Proc.devRef .tc main_arg10) = m ((c : Thread nD τ).loc main_arg10) := (W5_of m ρ c main_arg10 (by decide)).trans (W4_arg10 m ρ c)
theorem W6_arg10 (c : Dev nD) : W6 m ρ c (Proc.devRef .tc main_arg10) = m ((c : Thread nD τ).loc main_arg10) := (W6_of_ne m ρ c main_arg10 (by decide)).trans (W5_arg10 m ρ c)
theorem W7_arg10 (c : Dev nD) : W7 m ρ c (Proc.devRef .tc main_arg10) = m ((c : Thread nD τ).loc main_arg10) := (W7_of m ρ c main_arg10 (by decide)).trans (W6_arg10 m ρ c)
theorem W8_arg10 (c : Dev nD) : W8 m ρ c (Proc.devRef .tc main_arg10) = m ((c : Thread nD τ).loc main_arg10) := (W8_of_ne m ρ c main_arg10 (by decide)).trans (W7_arg10 m ρ c)
theorem W9_arg10 (c : Dev nD) : W9 m ρ c (Proc.devRef .tc main_arg10) = m ((c : Thread nD τ).loc main_arg10) := (W9_of m ρ c main_arg10 (by decide)).trans (W8_arg10 m ρ c)
theorem W10_arg10 (c : Dev nD) : W10 m ρ c (Proc.devRef .tc main_arg10) = m ((c : Thread nD τ).loc main_arg10) := (W10_in5 m ρ c).trans (W9_arg10 m ρ c)
theorem W11_arg10 (c : Dev nD) : W11 m ρ c (Proc.devRef .tc main_arg10) = m ((c : Thread nD τ).loc main_arg10) := (W11_of m ρ c main_arg10 (by decide)).trans (W10_arg10 m ρ c)
theorem W12_arg10 (c : Dev nD) : W12 m ρ c (Proc.devRef .tc main_arg10) = m ((c : Thread nD τ).loc main_arg10) := (W12_of m ρ c main_arg10 (by decide)).trans (W11_arg10 m ρ c)
theorem W13_arg10 (c : Dev nD) : W13 m ρ c (Proc.devRef .tc main_arg10) = m ((c : Thread nD τ).loc main_arg10) := (W13_of m ρ c main_arg10 (by decide)).trans (W12_arg10 m ρ c)
theorem W14_arg10 (c : Dev nD) : W14 m ρ c (Proc.devRef .tc main_arg10) = m ((c : Thread nD τ).loc main_arg10) := (W14_of m ρ c main_arg10 (by decide)).trans (W13_arg10 m ρ c)
theorem W15_arg10 (c : Dev nD) : W15 m ρ c (Proc.devRef .tc main_arg10) = m ((c : Thread nD τ).loc main_arg10) := (W15_of m ρ c main_arg10 (by decide)).trans (W14_arg10 m ρ c)
theorem W16_arg10 (c : Dev nD) : W16 m ρ c (Proc.devRef .tc main_arg10) = m ((c : Thread nD τ).loc main_arg10) := (W16_of_ne m ρ c main_arg10 (by decide)).trans (W15_arg10 m ρ c)
theorem W17_arg10 (c : Dev nD) : W17 m ρ c (Proc.devRef .tc main_arg10) = m ((c : Thread nD τ).loc main_arg10) := (W17_of m ρ c main_arg10 (by decide)).trans (W16_arg10 m ρ c)
theorem W18_arg10 (c : Dev nD) : W18 m ρ c (Proc.devRef .tc main_arg10) = m ((c : Thread nD τ).loc main_arg10) := (W18_of_ne m ρ c main_arg10 (by decide)).trans (W17_arg10 m ρ c)
theorem W19_arg10 (c : Dev nD) : W19 m ρ c (Proc.devRef .tc main_arg10) = m ((c : Thread nD τ).loc main_arg10) := (W19_of m ρ c main_arg10 (by decide)).trans (W18_arg10 m ρ c)
theorem W20_arg10 (c : Dev nD) : W20 m ρ c (Proc.devRef .tc main_arg10) = m ((c : Thread nD τ).loc main_arg10) := (W20_of_ne m ρ c main_arg10 (by decide)).trans (W19_arg10 m ρ c)
theorem W21_arg10 (c : Dev nD) : W21 m ρ c (Proc.devRef .tc main_arg10) = m ((c : Thread nD τ).loc main_arg10) := (W21_of m ρ c main_arg10 (by decide)).trans (W20_arg10 m ρ c)
theorem W22_arg10 (c : Dev nD) : W22 m ρ c (Proc.devRef .tc main_arg10) = m ((c : Thread nD τ).loc main_arg10) := (W22_of m ρ c main_arg10 (by decide)).trans (W21_arg10 m ρ c)
theorem W23_arg10 (c : Dev nD) : W23 m ρ c (Proc.devRef .tc main_arg10) = m ((c : Thread nD τ).loc main_arg10) := (W23_of m ρ c main_arg10 (by decide)).trans (W22_arg10 m ρ c)
theorem W24_arg10 (c : Dev nD) : W24 m ρ c (Proc.devRef .tc main_arg10) = m ((c : Thread nD τ).loc main_arg10) := (W24_of m ρ c main_arg10 (by decide)).trans (W23_arg10 m ρ c)
theorem W25_arg10 (c : Dev nD) : W25 m ρ c (Proc.devRef .tc main_arg10) = m ((c : Thread nD τ).loc main_arg10) := (W25_of m ρ c main_arg10 (by decide)).trans (W24_arg10 m ρ c)
theorem W26_arg10 (c : Dev nD) : W26 m ρ c (Proc.devRef .tc main_arg10) = m ((c : Thread nD τ).loc main_arg10) := (W26_of m ρ c main_arg10 (by decide)).trans (W25_arg10 m ρ c)
theorem W27_arg10 (c : Dev nD) : W27 m ρ c (Proc.devRef .tc main_arg10) = m ((c : Thread nD τ).loc main_arg10) := (W27_of m ρ c main_arg10 (by decide)).trans (W26_arg10 m ρ c)
theorem W28_arg10 (c : Dev nD) : W28 m ρ c (Proc.devRef .tc main_arg10) = m ((c : Thread nD τ).loc main_arg10) := (W28_of m ρ c main_arg10 (by decide)).trans (W27_arg10 m ρ c)
theorem W29_arg10 (c : Dev nD) : W29 m ρ c (Proc.devRef .tc main_arg10) = m ((c : Thread nD τ).loc main_arg10) := (W29_of m ρ c main_arg10 (by decide)).trans (W28_arg10 m ρ c)

theorem W0_arg11 (c : Dev nD) : W0 m ρ c (Proc.devRef .tc main_arg11) = m ((c : Thread nD τ).loc main_arg11) := rfl
theorem W1_arg11 (c : Dev nD) : W1 m ρ c (Proc.devRef .tc main_arg11) = m ((c : Thread nD τ).loc main_arg11) := (W1_of m ρ c main_arg11 (by decide)).trans (W0_arg11 m ρ c)
theorem W2_arg11 (c : Dev nD) : W2 m ρ c (Proc.devRef .tc main_arg11) = m ((c : Thread nD τ).loc main_arg11) := (W2_of m ρ c main_arg11 (by decide)).trans (W1_arg11 m ρ c)
theorem W3_arg11 (c : Dev nD) : W3 m ρ c (Proc.devRef .tc main_arg11) = m ((c : Thread nD τ).loc main_arg11) := (W3_of m ρ c main_arg11 (by decide)).trans (W2_arg11 m ρ c)
theorem W4_arg11 (c : Dev nD) : W4 m ρ c (Proc.devRef .tc main_arg11) = m ((c : Thread nD τ).loc main_arg11) := (W4_of m ρ c main_arg11 (by decide)).trans (W3_arg11 m ρ c)
theorem W5_arg11 (c : Dev nD) : W5 m ρ c (Proc.devRef .tc main_arg11) = m ((c : Thread nD τ).loc main_arg11) := (W5_of m ρ c main_arg11 (by decide)).trans (W4_arg11 m ρ c)
theorem W6_arg11 (c : Dev nD) : W6 m ρ c (Proc.devRef .tc main_arg11) = m ((c : Thread nD τ).loc main_arg11) := (W6_of_ne m ρ c main_arg11 (by decide)).trans (W5_arg11 m ρ c)
theorem W7_arg11 (c : Dev nD) : W7 m ρ c (Proc.devRef .tc main_arg11) = m ((c : Thread nD τ).loc main_arg11) := (W7_of m ρ c main_arg11 (by decide)).trans (W6_arg11 m ρ c)
theorem W8_arg11 (c : Dev nD) : W8 m ρ c (Proc.devRef .tc main_arg11) = m ((c : Thread nD τ).loc main_arg11) := (W8_of_ne m ρ c main_arg11 (by decide)).trans (W7_arg11 m ρ c)
theorem W9_arg11 (c : Dev nD) : W9 m ρ c (Proc.devRef .tc main_arg11) = m ((c : Thread nD τ).loc main_arg11) := (W9_of m ρ c main_arg11 (by decide)).trans (W8_arg11 m ρ c)
theorem W10_arg11 (c : Dev nD) : W10 m ρ c (Proc.devRef .tc main_arg11) = m ((c : Thread nD τ).loc main_arg11) := (W10_of_ne m ρ c main_arg11 (by decide)).trans (W9_arg11 m ρ c)
theorem W11_arg11 (c : Dev nD) : W11 m ρ c (Proc.devRef .tc main_arg11) = m ((c : Thread nD τ).loc main_arg11) := (W11_of m ρ c main_arg11 (by decide)).trans (W10_arg11 m ρ c)
theorem W12_arg11 (c : Dev nD) : W12 m ρ c (Proc.devRef .tc main_arg11) = m ((c : Thread nD τ).loc main_arg11) := (W12_of m ρ c main_arg11 (by decide)).trans (W11_arg11 m ρ c)
theorem W13_arg11 (c : Dev nD) : W13 m ρ c (Proc.devRef .tc main_arg11) = m ((c : Thread nD τ).loc main_arg11) := (W13_of m ρ c main_arg11 (by decide)).trans (W12_arg11 m ρ c)
theorem W14_arg11 (c : Dev nD) : W14 m ρ c (Proc.devRef .tc main_arg11) = m ((c : Thread nD τ).loc main_arg11) := (W14_of m ρ c main_arg11 (by decide)).trans (W13_arg11 m ρ c)
theorem W15_arg11 (c : Dev nD) : W15 m ρ c (Proc.devRef .tc main_arg11) = m ((c : Thread nD τ).loc main_arg11) := (W15_of m ρ c main_arg11 (by decide)).trans (W14_arg11 m ρ c)
theorem W16_arg11 (c : Dev nD) : W16 m ρ c (Proc.devRef .tc main_arg11) = m ((c : Thread nD τ).loc main_arg11) := (W16_of_ne m ρ c main_arg11 (by decide)).trans (W15_arg11 m ρ c)
theorem W17_arg11 (c : Dev nD) : W17 m ρ c (Proc.devRef .tc main_arg11) = m ((c : Thread nD τ).loc main_arg11) := (W17_of m ρ c main_arg11 (by decide)).trans (W16_arg11 m ρ c)
theorem W18_arg11 (c : Dev nD) : W18 m ρ c (Proc.devRef .tc main_arg11) = m ((c : Thread nD τ).loc main_arg11) := (W18_of_ne m ρ c main_arg11 (by decide)).trans (W17_arg11 m ρ c)
theorem W19_arg11 (c : Dev nD) : W19 m ρ c (Proc.devRef .tc main_arg11) = m ((c : Thread nD τ).loc main_arg11) := (W19_of m ρ c main_arg11 (by decide)).trans (W18_arg11 m ρ c)
theorem W20_arg11 (c : Dev nD) : W20 m ρ c (Proc.devRef .tc main_arg11) = m ((c : Thread nD τ).loc main_arg11) := (W20_of_ne m ρ c main_arg11 (by decide)).trans (W19_arg11 m ρ c)
theorem W21_arg11 (c : Dev nD) : W21 m ρ c (Proc.devRef .tc main_arg11) = m ((c : Thread nD τ).loc main_arg11) := (W21_of m ρ c main_arg11 (by decide)).trans (W20_arg11 m ρ c)
theorem W22_arg11 (c : Dev nD) : W22 m ρ c (Proc.devRef .tc main_arg11) = m ((c : Thread nD τ).loc main_arg11) := (W22_of m ρ c main_arg11 (by decide)).trans (W21_arg11 m ρ c)
theorem W23_arg11 (c : Dev nD) : W23 m ρ c (Proc.devRef .tc main_arg11) = m ((c : Thread nD τ).loc main_arg11) := (W23_of m ρ c main_arg11 (by decide)).trans (W22_arg11 m ρ c)
theorem W24_arg11 (c : Dev nD) : W24 m ρ c (Proc.devRef .tc main_arg11) = m ((c : Thread nD τ).loc main_arg11) := (W24_of m ρ c main_arg11 (by decide)).trans (W23_arg11 m ρ c)
theorem W25_arg11 (c : Dev nD) : W25 m ρ c (Proc.devRef .tc main_arg11) = m ((c : Thread nD τ).loc main_arg11) := (W25_of m ρ c main_arg11 (by decide)).trans (W24_arg11 m ρ c)
theorem W26_arg11 (c : Dev nD) : W26 m ρ c (Proc.devRef .tc main_arg11) = m ((c : Thread nD τ).loc main_arg11) := (W26_of m ρ c main_arg11 (by decide)).trans (W25_arg11 m ρ c)
theorem W27_arg11 (c : Dev nD) : W27 m ρ c (Proc.devRef .tc main_arg11) = m ((c : Thread nD τ).loc main_arg11) := (W27_of m ρ c main_arg11 (by decide)).trans (W26_arg11 m ρ c)
theorem W28_arg11 (c : Dev nD) : W28 m ρ c (Proc.devRef .tc main_arg11) = m ((c : Thread nD τ).loc main_arg11) := (W28_of m ρ c main_arg11 (by decide)).trans (W27_arg11 m ρ c)
theorem W29_arg11 (c : Dev nD) : W29 m ρ c (Proc.devRef .tc main_arg11) = m ((c : Thread nD τ).loc main_arg11) := (W29_of m ρ c main_arg11 (by decide)).trans (W28_arg11 m ρ c)

theorem W0_arg12 (c : Dev nD) : W0 m ρ c (Proc.devRef .tc main_arg12) = m ((c : Thread nD τ).loc main_arg12) := rfl
theorem W1_arg12 (c : Dev nD) : W1 m ρ c (Proc.devRef .tc main_arg12) = m ((c : Thread nD τ).loc main_arg12) := (W1_of m ρ c main_arg12 (by decide)).trans (W0_arg12 m ρ c)
theorem W2_arg12 (c : Dev nD) : W2 m ρ c (Proc.devRef .tc main_arg12) = m ((c : Thread nD τ).loc main_arg12) := (W2_of m ρ c main_arg12 (by decide)).trans (W1_arg12 m ρ c)
theorem W3_arg12 (c : Dev nD) : W3 m ρ c (Proc.devRef .tc main_arg12) = m ((c : Thread nD τ).loc main_arg12) := (W3_of m ρ c main_arg12 (by decide)).trans (W2_arg12 m ρ c)
theorem W4_arg12 (c : Dev nD) : W4 m ρ c (Proc.devRef .tc main_arg12) = m ((c : Thread nD τ).loc main_arg12) := (W4_of m ρ c main_arg12 (by decide)).trans (W3_arg12 m ρ c)
theorem W5_arg12 (c : Dev nD) : W5 m ρ c (Proc.devRef .tc main_arg12) = m ((c : Thread nD τ).loc main_arg12) := (W5_of m ρ c main_arg12 (by decide)).trans (W4_arg12 m ρ c)
theorem W6_arg12 (c : Dev nD) : W6 m ρ c (Proc.devRef .tc main_arg12) = m ((c : Thread nD τ).loc main_arg12) := (W6_of_ne m ρ c main_arg12 (by decide)).trans (W5_arg12 m ρ c)
theorem W7_arg12 (c : Dev nD) : W7 m ρ c (Proc.devRef .tc main_arg12) = m ((c : Thread nD τ).loc main_arg12) := (W7_of m ρ c main_arg12 (by decide)).trans (W6_arg12 m ρ c)
theorem W8_arg12 (c : Dev nD) : W8 m ρ c (Proc.devRef .tc main_arg12) = m ((c : Thread nD τ).loc main_arg12) := (W8_of_ne m ρ c main_arg12 (by decide)).trans (W7_arg12 m ρ c)
theorem W9_arg12 (c : Dev nD) : W9 m ρ c (Proc.devRef .tc main_arg12) = m ((c : Thread nD τ).loc main_arg12) := (W9_of m ρ c main_arg12 (by decide)).trans (W8_arg12 m ρ c)
theorem W10_arg12 (c : Dev nD) : W10 m ρ c (Proc.devRef .tc main_arg12) = m ((c : Thread nD τ).loc main_arg12) := (W10_of_ne m ρ c main_arg12 (by decide)).trans (W9_arg12 m ρ c)
theorem W11_arg12 (c : Dev nD) : W11 m ρ c (Proc.devRef .tc main_arg12) = m ((c : Thread nD τ).loc main_arg12) := (W11_of m ρ c main_arg12 (by decide)).trans (W10_arg12 m ρ c)
theorem W12_arg12 (c : Dev nD) : W12 m ρ c (Proc.devRef .tc main_arg12) = m ((c : Thread nD τ).loc main_arg12) := (W12_of m ρ c main_arg12 (by decide)).trans (W11_arg12 m ρ c)
theorem W13_arg12 (c : Dev nD) : W13 m ρ c (Proc.devRef .tc main_arg12) = m ((c : Thread nD τ).loc main_arg12) := (W13_of m ρ c main_arg12 (by decide)).trans (W12_arg12 m ρ c)
theorem W14_arg12 (c : Dev nD) : W14 m ρ c (Proc.devRef .tc main_arg12) = m ((c : Thread nD τ).loc main_arg12) := (W14_of m ρ c main_arg12 (by decide)).trans (W13_arg12 m ρ c)
theorem W15_arg12 (c : Dev nD) : W15 m ρ c (Proc.devRef .tc main_arg12) = m ((c : Thread nD τ).loc main_arg12) := (W15_of m ρ c main_arg12 (by decide)).trans (W14_arg12 m ρ c)
theorem W16_arg12 (c : Dev nD) : W16 m ρ c (Proc.devRef .tc main_arg12) = m ((c : Thread nD τ).loc main_arg12) := (W16_of_ne m ρ c main_arg12 (by decide)).trans (W15_arg12 m ρ c)
theorem W17_arg12 (c : Dev nD) : W17 m ρ c (Proc.devRef .tc main_arg12) = m ((c : Thread nD τ).loc main_arg12) := (W17_of m ρ c main_arg12 (by decide)).trans (W16_arg12 m ρ c)
theorem W18_arg12 (c : Dev nD) : W18 m ρ c (Proc.devRef .tc main_arg12) = m ((c : Thread nD τ).loc main_arg12) := (W18_of_ne m ρ c main_arg12 (by decide)).trans (W17_arg12 m ρ c)
theorem W19_arg12 (c : Dev nD) : W19 m ρ c (Proc.devRef .tc main_arg12) = m ((c : Thread nD τ).loc main_arg12) := (W19_of m ρ c main_arg12 (by decide)).trans (W18_arg12 m ρ c)
theorem W20_arg12 (c : Dev nD) : W20 m ρ c (Proc.devRef .tc main_arg12) = m ((c : Thread nD τ).loc main_arg12) := (W20_in5 m ρ c).trans (W19_arg12 m ρ c)
theorem W21_arg12 (c : Dev nD) : W21 m ρ c (Proc.devRef .tc main_arg12) = m ((c : Thread nD τ).loc main_arg12) := (W21_of m ρ c main_arg12 (by decide)).trans (W20_arg12 m ρ c)
theorem W22_arg12 (c : Dev nD) : W22 m ρ c (Proc.devRef .tc main_arg12) = m ((c : Thread nD τ).loc main_arg12) := (W22_of m ρ c main_arg12 (by decide)).trans (W21_arg12 m ρ c)
theorem W23_arg12 (c : Dev nD) : W23 m ρ c (Proc.devRef .tc main_arg12) = m ((c : Thread nD τ).loc main_arg12) := (W23_of m ρ c main_arg12 (by decide)).trans (W22_arg12 m ρ c)
theorem W24_arg12 (c : Dev nD) : W24 m ρ c (Proc.devRef .tc main_arg12) = m ((c : Thread nD τ).loc main_arg12) := (W24_of m ρ c main_arg12 (by decide)).trans (W23_arg12 m ρ c)
theorem W25_arg12 (c : Dev nD) : W25 m ρ c (Proc.devRef .tc main_arg12) = m ((c : Thread nD τ).loc main_arg12) := (W25_of m ρ c main_arg12 (by decide)).trans (W24_arg12 m ρ c)
theorem W26_arg12 (c : Dev nD) : W26 m ρ c (Proc.devRef .tc main_arg12) = m ((c : Thread nD τ).loc main_arg12) := (W26_of m ρ c main_arg12 (by decide)).trans (W25_arg12 m ρ c)
theorem W27_arg12 (c : Dev nD) : W27 m ρ c (Proc.devRef .tc main_arg12) = m ((c : Thread nD τ).loc main_arg12) := (W27_of m ρ c main_arg12 (by decide)).trans (W26_arg12 m ρ c)
theorem W28_arg12 (c : Dev nD) : W28 m ρ c (Proc.devRef .tc main_arg12) = m ((c : Thread nD τ).loc main_arg12) := (W28_of m ρ c main_arg12 (by decide)).trans (W27_arg12 m ρ c)
theorem W29_arg12 (c : Dev nD) : W29 m ρ c (Proc.devRef .tc main_arg12) = m ((c : Thread nD τ).loc main_arg12) := (W29_of m ρ c main_arg12 (by decide)).trans (W28_arg12 m ρ c)

theorem W0_arg13 (c : Dev nD) : W0 m ρ c (Proc.devRef .tc main_arg13) = m ((c : Thread nD τ).loc main_arg13) := rfl
theorem W1_arg13 (c : Dev nD) : W1 m ρ c (Proc.devRef .tc main_arg13) = m ((c : Thread nD τ).loc main_arg13) := (W1_of m ρ c main_arg13 (by decide)).trans (W0_arg13 m ρ c)
theorem W2_arg13 (c : Dev nD) : W2 m ρ c (Proc.devRef .tc main_arg13) = m ((c : Thread nD τ).loc main_arg13) := (W2_of m ρ c main_arg13 (by decide)).trans (W1_arg13 m ρ c)
theorem W3_arg13 (c : Dev nD) : W3 m ρ c (Proc.devRef .tc main_arg13) = m ((c : Thread nD τ).loc main_arg13) := (W3_of m ρ c main_arg13 (by decide)).trans (W2_arg13 m ρ c)
theorem W4_arg13 (c : Dev nD) : W4 m ρ c (Proc.devRef .tc main_arg13) = m ((c : Thread nD τ).loc main_arg13) := (W4_of m ρ c main_arg13 (by decide)).trans (W3_arg13 m ρ c)
theorem W5_arg13 (c : Dev nD) : W5 m ρ c (Proc.devRef .tc main_arg13) = m ((c : Thread nD τ).loc main_arg13) := (W5_of m ρ c main_arg13 (by decide)).trans (W4_arg13 m ρ c)
theorem W6_arg13 (c : Dev nD) : W6 m ρ c (Proc.devRef .tc main_arg13) = m ((c : Thread nD τ).loc main_arg13) := (W6_of_ne m ρ c main_arg13 (by decide)).trans (W5_arg13 m ρ c)
theorem W7_arg13 (c : Dev nD) : W7 m ρ c (Proc.devRef .tc main_arg13) = m ((c : Thread nD τ).loc main_arg13) := (W7_of m ρ c main_arg13 (by decide)).trans (W6_arg13 m ρ c)
theorem W8_arg13 (c : Dev nD) : W8 m ρ c (Proc.devRef .tc main_arg13) = m ((c : Thread nD τ).loc main_arg13) := (W8_of_ne m ρ c main_arg13 (by decide)).trans (W7_arg13 m ρ c)
theorem W9_arg13 (c : Dev nD) : W9 m ρ c (Proc.devRef .tc main_arg13) = m ((c : Thread nD τ).loc main_arg13) := (W9_of m ρ c main_arg13 (by decide)).trans (W8_arg13 m ρ c)
theorem W10_arg13 (c : Dev nD) : W10 m ρ c (Proc.devRef .tc main_arg13) = m ((c : Thread nD τ).loc main_arg13) := (W10_of_ne m ρ c main_arg13 (by decide)).trans (W9_arg13 m ρ c)
theorem W11_arg13 (c : Dev nD) : W11 m ρ c (Proc.devRef .tc main_arg13) = m ((c : Thread nD τ).loc main_arg13) := (W11_of m ρ c main_arg13 (by decide)).trans (W10_arg13 m ρ c)
theorem W12_arg13 (c : Dev nD) : W12 m ρ c (Proc.devRef .tc main_arg13) = m ((c : Thread nD τ).loc main_arg13) := (W12_of m ρ c main_arg13 (by decide)).trans (W11_arg13 m ρ c)
theorem W13_arg13 (c : Dev nD) : W13 m ρ c (Proc.devRef .tc main_arg13) = m ((c : Thread nD τ).loc main_arg13) := (W13_of m ρ c main_arg13 (by decide)).trans (W12_arg13 m ρ c)
theorem W14_arg13 (c : Dev nD) : W14 m ρ c (Proc.devRef .tc main_arg13) = m ((c : Thread nD τ).loc main_arg13) := (W14_of m ρ c main_arg13 (by decide)).trans (W13_arg13 m ρ c)
theorem W15_arg13 (c : Dev nD) : W15 m ρ c (Proc.devRef .tc main_arg13) = m ((c : Thread nD τ).loc main_arg13) := (W15_of m ρ c main_arg13 (by decide)).trans (W14_arg13 m ρ c)
theorem W16_arg13 (c : Dev nD) : W16 m ρ c (Proc.devRef .tc main_arg13) = m ((c : Thread nD τ).loc main_arg13) := (W16_of_ne m ρ c main_arg13 (by decide)).trans (W15_arg13 m ρ c)
theorem W17_arg13 (c : Dev nD) : W17 m ρ c (Proc.devRef .tc main_arg13) = m ((c : Thread nD τ).loc main_arg13) := (W17_of m ρ c main_arg13 (by decide)).trans (W16_arg13 m ρ c)
theorem W18_arg13 (c : Dev nD) : W18 m ρ c (Proc.devRef .tc main_arg13) = m ((c : Thread nD τ).loc main_arg13) := (W18_of_ne m ρ c main_arg13 (by decide)).trans (W17_arg13 m ρ c)
theorem W19_arg13 (c : Dev nD) : W19 m ρ c (Proc.devRef .tc main_arg13) = m ((c : Thread nD τ).loc main_arg13) := (W19_of m ρ c main_arg13 (by decide)).trans (W18_arg13 m ρ c)
theorem W20_arg13 (c : Dev nD) : W20 m ρ c (Proc.devRef .tc main_arg13) = m ((c : Thread nD τ).loc main_arg13) := (W20_of_ne m ρ c main_arg13 (by decide)).trans (W19_arg13 m ρ c)
theorem W21_arg13 (c : Dev nD) : W21 m ρ c (Proc.devRef .tc main_arg13) = m ((c : Thread nD τ).loc main_arg13) := (W21_of m ρ c main_arg13 (by decide)).trans (W20_arg13 m ρ c)
theorem W22_arg13 (c : Dev nD) : W22 m ρ c (Proc.devRef .tc main_arg13) = m ((c : Thread nD τ).loc main_arg13) := (W22_of m ρ c main_arg13 (by decide)).trans (W21_arg13 m ρ c)
theorem W23_arg13 (c : Dev nD) : W23 m ρ c (Proc.devRef .tc main_arg13) = m ((c : Thread nD τ).loc main_arg13) := (W23_of m ρ c main_arg13 (by decide)).trans (W22_arg13 m ρ c)
theorem W24_arg13 (c : Dev nD) : W24 m ρ c (Proc.devRef .tc main_arg13) = m ((c : Thread nD τ).loc main_arg13) := (W24_of m ρ c main_arg13 (by decide)).trans (W23_arg13 m ρ c)
theorem W25_arg13 (c : Dev nD) : W25 m ρ c (Proc.devRef .tc main_arg13) = m ((c : Thread nD τ).loc main_arg13) := (W25_of m ρ c main_arg13 (by decide)).trans (W24_arg13 m ρ c)
theorem W26_arg13 (c : Dev nD) : W26 m ρ c (Proc.devRef .tc main_arg13) = m ((c : Thread nD τ).loc main_arg13) := (W26_of m ρ c main_arg13 (by decide)).trans (W25_arg13 m ρ c)
theorem W27_arg13 (c : Dev nD) : W27 m ρ c (Proc.devRef .tc main_arg13) = m ((c : Thread nD τ).loc main_arg13) := (W27_of m ρ c main_arg13 (by decide)).trans (W26_arg13 m ρ c)
theorem W28_arg13 (c : Dev nD) : W28 m ρ c (Proc.devRef .tc main_arg13) = m ((c : Thread nD τ).loc main_arg13) := (W28_of m ρ c main_arg13 (by decide)).trans (W27_arg13 m ρ c)
theorem W29_arg13 (c : Dev nD) : W29 m ρ c (Proc.devRef .tc main_arg13) = m ((c : Thread nD τ).loc main_arg13) := (W29_of m ρ c main_arg13 (by decide)).trans (W28_arg13 m ρ c)

end Cert.KernelIdeal.Vals

end
-- ==== Proof.Spec.lean ====
/-
  The three dense pieces of the graph network, each as one whole-array function at the extended reals,
  written with the reference program's own host operations so that the reference's stages are these
  functions by unfolding.

  * `linear X n W`     : row i of X scaled by n i, then times W:  (X ⊙ n) · W
  * `epilogue A n b`   : relu (A ⊙ n + b), the row scale n a column, the bias b a row
  * `project f h A n b W bo` : [f | h | epilogue A n b] · W + bo, the three blocks joined along the feature axis
-/
import proofs.«418930_j66125316489906_3_alg».proof.ReferenceIdeal
import proofs.«418930_j66125316489906_3_alg».proof.Proof.Gen.ReferenceIdeal
import Idealize.ShloMosaic.PureOps.Ideal

noncomputable section

namespace Cert.Bridge

open Idealize.ShloMosaic Cert.ReferenceIdeal Cert.ReferenceIdeal.Gen

/-- Each row of `X` scaled by that row's entry of the column `n`, then multiplied by `W`. -/
def linear (X : FVec Ideal S50000x128 .f32) (n : FVec Ideal S50000x1 .f32) (W : FVec Ideal S128x128 .f32) :
    FVec Ideal S50000x128 .f32 :=
  Host.dotGeneral dot_S50000x128_S128x128_S50000x128_1_0_0_1_n_n none
    (mulf X (broadcastInDim S50000x128 ![0, 1] bcast_S50000x1_S50000x128_0_1 n)) W

/-- The layer's epilogue: each row of `A` scaled by the column `n`, the row `b` added, negative entries cut to zero. -/
def epilogue (A : FVec Ideal S50000x128 .f32) (n : FVec Ideal S50000x1 .f32) (b : FVec Ideal S1x128 .f32) :
    FVec Ideal S50000x128 .f32 :=
  maximumf
    (addf (mulf A (broadcastInDim S50000x128 ![0, 1] bcast_S50000x1_S50000x128_0_1 n))
      (broadcastInDim S50000x128 ![0, 1] bcast_S1x128_S50000x128_0_1 b))
    (broadcastInDim S50000x128 ![] bcast_S_S50000x128 (constant (F := Ideal) S_ .f32 0x00000000#32))

/-- The output projection: the input features, the first layer's output and the second layer's epilogue side by
    side (384 columns), times `W`, plus the row `bo`. -/
def project (f h A : FVec Ideal S50000x128 .f32) (n : FVec Ideal S50000x1 .f32) (b : FVec Ideal S1x128 .f32)
    (W : FVec Ideal S384x128 .f32) (bo : FVec Ideal S1x128 .f32) : FVec Ideal S50000x128 .f32 :=
  addf
    (Host.dotGeneral dot_S50000x384_S384x128_S50000x128_1_0_0_1_n_n none
      (concatenate S50000x384 1 [⟨S50000x128, f⟩, ⟨S50000x128, h⟩, ⟨S50000x128, epilogue A n b⟩]
        concatenates_S50000x128_S50000x128_S50000x128_S50000x384_d1) W)
    (broadcastInDim S50000x128 ![0, 1] bcast_S1x128_S50000x128_0_1 bo)

end Cert.Bridge

end
-- ==== Proof.Lemmas.lean ====
/-
  Small layout facts used on the way from the kernel's program to the reference's.
  A rank-1 array viewed as a column [n, 1] or as a row [1, n] keeps its row-major order, so the reshape that
  does it reads the same element as the broadcast along the new unit axis; and at the extended reals a change
  of float format is the identity.
-/
import Idealize.ShloMosaic.Lib.Pipeline.Value
import Idealize.ShloMosaic.Lib.ValueIdx
import Idealize.ShloMosaic.PureOps.Ideal.Laws

noncomputable section

namespace Cert.Bridge

open Idealize.ShloMosaic Idealize.ShloMosaic.ValueIdx

variable {α : Type}

/-- A vector of length `n` reshaped to the column [n, 1] is the vector broadcast along a new trailing unit axis:
    entry (i, 0) of either is entry i. -/
theorem shapeCast_col_eq_broadcastInDim {n : Nat} (v : (⟨1, ![n]⟩ : Shape).Idx → α)
    (h : (⟨1, ![n]⟩ : Shape).ShapeCasts ⟨2, ![n, 1]⟩)
    (h' : (⟨1, ![n]⟩ : Shape).BroadcastsInDim ⟨2, ![n, 1]⟩ ![0]) :
    shapeCast ⟨2, ![n, 1]⟩ v h = broadcastInDim ⟨2, ![n, 1]⟩ ![0] h' v := by
  funext j
  have hj1 : (j 1).val = 0 := by have := (j 1).isLt; simp at this; omega
  rw [shapeCast_apply v h j (ix1 (j 0)) (by
    rw [Shape.rowMajor_val_one, Shape.rowMajor_val_two]
    show (j 0).val = (j 0).val * 1 + (j 1).val
    omega)]
  rw [broadcastInDim_apply ![0] h' v j (ix1 (j 0)) (by
    intro a
    match a with
    | ⟨0, _⟩ =>
      show (j 0).val = if n = 1 then 0 else (j 0).val
      split
      · rename_i hn; have := (j 0).isLt; simp at this; omega
      · rfl)]

/-- A vector of length `n` reshaped to the row [1, n] is the vector broadcast along a new leading unit axis:
    entry (0, i) of either is entry i. -/
theorem shapeCast_row_eq_broadcastInDim {n : Nat} (v : (⟨1, ![n]⟩ : Shape).Idx → α)
    (h : (⟨1, ![n]⟩ : Shape).ShapeCasts ⟨2, ![1, n]⟩)
    (h' : (⟨1, ![n]⟩ : Shape).BroadcastsInDim ⟨2, ![1, n]⟩ ![1]) :
    shapeCast ⟨2, ![1, n]⟩ v h = broadcastInDim ⟨2, ![1, n]⟩ ![1] h' v := by
  funext j
  have hj0 : (j 0).val = 0 := by have := (j 0).isLt; simp at this; omega
  rw [shapeCast_apply v h j (ix1 (j 1)) (by
    rw [Shape.rowMajor_val_one, Shape.rowMajor_val_two]
    show (j 1).val = (j 0).val * n + (j 1).val
    rw [hj0]; omega)]
  rw [broadcastInDim_apply ![1] h' v j (ix1 (j 1)) (by
    intro a
    match a with
    | ⟨0, _⟩ =>
      show (j 1).val = if n = 1 then 0 else (j 1).val
      split
      · rename_i hn; have := (j 1).isLt; simp at this; omega
      · rfl)]

/-- At the extended reals widening a float format changes nothing. -/
theorem extf_ideal {s : Shape} {φ ψ : FTy} (a : FVec Ideal s φ) (h : φ.bits < ψ.bits) :
    (extf ψ a h : FVec Ideal s ψ) = a := rfl

/-- At the extended reals narrowing a float format changes nothing. -/
theorem truncf_ideal {s : Shape} {φ ψ : FTy} (a : FVec Ideal s φ) (h : ψ.bits < φ.bits) :
    (truncf ψ a h : FVec Ideal s ψ) = a := rfl

end Cert.Bridge

end
-- ==== Proof.HostA.lean ====
/-
  The first graph's host operations before its first dense region, read back from the launch memory: the edge list's
  source and destination rows, the two degree norms (out-degree and in-degree, clipped below at 1, to the power -1/2),
  and the source norm as a column. Each is the reference program's own stage of the same argument.
-/
import proofs.«418930_j66125316489906_3_alg».proof.Proof.Gen.KernelIdeal.Frame
import proofs.«418930_j66125316489906_3_alg».proof.Proof.Gen.ReferenceIdeal.Read
import proofs.«418930_j66125316489906_3_alg».proof.Proof.Carry
import proofs.«418930_j66125316489906_3_alg».proof.Proof.Spec
import proofs.«418930_j66125316489906_3_alg».proof.Proof.Lemmas
import Idealize.ShloMosaic.Lib.StableHlo.Run

set_option maxRecDepth 16384

noncomputable section

namespace Cert.KernelIdeal.Vals

open Idealize.ShloMosaic Idealize.ShloMosaic.TcCoe Idealize.SL.Sem Idealize.ShloMosaic.StableHlo
open Cert.KernelIdeal Cert.KernelIdeal.Gen
open Cert.ReferenceIdeal.Read

variable (m : (ℓ : Loc nD τ sig) → Buf (Elt Ideal) ℓ) (ρ : Dev nD → PrngReg)

/-! The five stretches before the first dense region are one straight line of operations from the launch memory, and none
of them overwrites a buffer: what a buffer holds at the region's entry is the composition of the operations that made it,
applied to the edge list as launched. The reference runs the same operations on the same edge list, so each reading is
closed one operation at a time: equal operations on equal operands. The kernel slices the edge list a second time after
the norms (the reference reuses its first slices), and makes the column by a reshape where the reference broadcasts. -/

/-- The first graph's source indices (row 0 of the edge list). -/
theorem A_src (c : Dev nD) :
    W5 m ρ c (Proc.devRef .tc main_v18) = val_main_v1 (F := Ideal) (m ((c : Thread nD τ).loc main_arg2)) := by
  show StableHlo.after hostOps0_4 (W4 m ρ c) (Proc.devRef .tc main_v18) = _
  after_results
  rw [W0_arg2 m ρ c]
  rfl

/-- The first graph's destination indices (row 1 of the edge list). -/
theorem A_dst (c : Dev nD) :
    W5 m ρ c (Proc.devRef .tc main_v20) = val_main_v3 (F := Ideal) (m ((c : Thread nD τ).loc main_arg2)) := by
  show StableHlo.after hostOps0_4 (W4 m ρ c) (Proc.devRef .tc main_v20) = _
  after_results
  rw [W0_arg2 m ρ c]
  rfl

/-- The first graph's source norm: the out-degree clipped below at 1, to the power -1/2. -/
theorem A_ns (c : Dev nD) :
    W5 m ρ c (Proc.devRef .tc main_v13) = val_main_v13 (F := Ideal) (m ((c : Thread nD τ).loc main_arg2)) := by
  show StableHlo.after hostOps0_4 (W4 m ρ c) (Proc.devRef .tc main_v13) = _
  after_results
  rw [W0_arg2 m ρ c]
  -- one operation at a time: the power, the clip, then the degree count and the constants
  unfold val_main_v13
  refine congrArg₂ Host.powf ?_ ?_
  · unfold val_main_v11
    show maximumf _ _ = maximumf _ _
    refine congrArg₂ maximumf ?_ ?_
    · rfl
    · show Host.scatterAdd _ _ _ _ = _
      rfl
  · rfl

/-- The first graph's destination norm: the in-degree clipped below at 1, to the power -1/2. -/
theorem A_nd (c : Dev nD) :
    W5 m ρ c (Proc.devRef .tc main_v16) = val_main_v16 (F := Ideal) (m ((c : Thread nD τ).loc main_arg2)) := by
  show StableHlo.after hostOps0_4 (W4 m ρ c) (Proc.devRef .tc main_v16) = _
  after_results
  rw [W0_arg2 m ρ c]
  -- one operation at a time: the power, the clip, then the degree count and the constants
  unfold val_main_v16
  refine congrArg₂ Host.powf ?_ ?_
  · unfold val_main_v14
    show maximumf _ _ = maximumf _ _
    refine congrArg₂ maximumf ?_ ?_
    · rfl
    · show Host.scatterAdd _ _ _ _ = _
      rfl
  · rfl

/-- The source norm as a column [50000, 1]: the reshape reads what the reference's broadcast along a new unit axis reads. -/
theorem A_ns2 (c : Dev nD) :
    W5 m ρ c (Proc.devRef .tc main_v21) = val_main_v17 (F := Ideal) (m ((c : Thread nD τ).loc main_arg2)) := by
  -- the column is the reshape of the source norm, whatever the contents the last stretch starts from
  have h : W5 m ρ c (Proc.devRef .tc main_v21)
      = shapeCast S50000x1 (W5 m ρ c (Proc.devRef .tc main_v13)) shapeCasts_S50000_S50000x1 := by
    show StableHlo.after hostOps0_4 (W4 m ρ c) (Proc.devRef .tc main_v21)
      = shapeCast S50000x1 (StableHlo.after hostOps0_4 (W4 m ρ c) (Proc.devRef .tc main_v13)) shapeCasts_S50000_S50000x1
    generalize W4 m ρ c = V
    after_results
    rfl
  rw [h, A_ns m ρ c]
  unfold val_main_v17
  exact Cert.Bridge.shapeCast_col_eq_broadcastInDim (n := 50000) _ _ _

end Cert.KernelIdeal.Vals

end
-- ==== Proof.HostB.lean ====
/-
  The first graph between its first and second dense regions: the messages gathered along the edges' sources and
  summed into the edges' destinations, and the second region's small operands (the two norms as columns, the bias as a row).
-/
import proofs.«418930_j66125316489906_3_alg».proof.Proof.Gen.KernelIdeal.Frame
import proofs.«418930_j66125316489906_3_alg».proof.Proof.Gen.ReferenceIdeal.Read
import proofs.«418930_j66125316489906_3_alg».proof.Proof.Carry
import proofs.«418930_j66125316489906_3_alg».proof.Proof.Spec
import proofs.«418930_j66125316489906_3_alg».proof.Proof.Lemmas
import Idealize.ShloMosaic.Lib.StableHlo.Run

set_option maxRecDepth 16384

noncomputable section

namespace Cert.KernelIdeal.Vals

open Idealize.ShloMosaic Idealize.ShloMosaic.TcCoe Idealize.SL.Sem Idealize.ShloMosaic.StableHlo
open Cert.KernelIdeal Cert.KernelIdeal.Gen
open Cert.ReferenceIdeal.Read

variable (m : (ℓ : Loc nD τ sig) → Buf (Elt Ideal) ℓ) (ρ : Dev nD → PrngReg)

/-- The source index row is none of the first dense region's arrays: after the region it is as before it. -/
private theorem B_src6 (c : Dev nD)
    (hsrc : W5 m ρ c (Proc.devRef .tc main_v18) = val_main_v1 (F := Ideal) (m ((c : Thread nD τ).loc main_arg2))) :
    W6 m ρ c (Proc.devRef .tc main_v18) = val_main_v1 (F := Ideal) (m ((c : Thread nD τ).loc main_arg2)) :=
  (W6_of_ne m ρ c main_v18 (by decide)).trans hsrc

/-- Likewise the destination index row. -/
private theorem B_dst6 (c : Dev nD)
    (hdst : W5 m ρ c (Proc.devRef .tc main_v20) = val_main_v3 (F := Ideal) (m ((c : Thread nD τ).loc main_arg2))) :
    W6 m ρ c (Proc.devRef .tc main_v20) = val_main_v3 (F := Ideal) (m ((c : Thread nD τ).loc main_arg2)) :=
  (W6_of_ne m ρ c main_v20 (by decide)).trans hdst

/-- The first layer's aggregated messages: rows of the first region's output gathered at the (wrapped) source indices, widened to f32 (the identity here), scatter-added at the destination indices into zeros. -/
theorem B_agg (c : Dev nD)
    (hx : W6 m ρ c (Proc.devRef .tc main_v22) = val_main_v20 (F := Ideal) (m ((c : Thread nD τ).loc main_arg0)) (m ((c : Thread nD τ).loc main_arg2)) (m ((c : Thread nD τ).loc main_arg6)))
    (hsrc : W5 m ρ c (Proc.devRef .tc main_v18) = val_main_v1 (F := Ideal) (m ((c : Thread nD τ).loc main_arg2)))
    (hdst : W5 m ρ c (Proc.devRef .tc main_v20) = val_main_v3 (F := Ideal) (m ((c : Thread nD τ).loc main_arg2))) :
    W7 m ρ c (Proc.devRef .tc main_v33) = val_main_v30 (F := Ideal) (m ((c : Thread nD τ).loc main_arg0)) (m ((c : Thread nD τ).loc main_arg2)) (m ((c : Thread nD τ).loc main_arg6)) := by
  have h18 := B_src6 m ρ c hsrc
  have h20 := B_dst6 m ρ c hdst
  show StableHlo.after hostOps1 (W6 m ρ c) (Proc.devRef .tc main_v33) = _
  -- each buffer of the stretch as its operation applied to the contents at the stretch's entry
  after_results_simp
  -- the three buffers read from the entry are the reference's; the widening to f32 is the identity at the extended reals
  rw [h18, h20, hx, Cert.Bridge.extf_ideal]
  -- what is left differs from the reference's stages only in where the shape records are declared
  rfl

/-- The destination norm as a column. -/
theorem B_nd2 (c : Dev nD)
    (hnd : W5 m ρ c (Proc.devRef .tc main_v16) = val_main_v16 (F := Ideal) (m ((c : Thread nD τ).loc main_arg2))) :
    W7 m ρ c (Proc.devRef .tc main_v34) = val_main_v31 (F := Ideal) (m ((c : Thread nD τ).loc main_arg2)) := by
  have h16 : W6 m ρ c (Proc.devRef .tc main_v16) = val_main_v16 (F := Ideal) (m ((c : Thread nD τ).loc main_arg2)) :=
    (W6_of_ne m ρ c main_v16 (by decide)).trans hnd
  show StableHlo.after hostOps1 (W6 m ρ c) (Proc.devRef .tc main_v34) = _
  after_results
  rw [h16]
  -- the vector reshaped to a column is the vector broadcast along the new unit axis
  exact Cert.Bridge.shapeCast_col_eq_broadcastInDim (n := 50000) (val_main_v16 (F := Ideal) (m ((c : Thread nD τ).loc main_arg2))) _ _

/-- The source norm as a column, as the reference's second layer recomputes it (the same operations of the same edge list). -/
theorem B_ns2 (c : Dev nD)
    (hns : W5 m ρ c (Proc.devRef .tc main_v13) = val_main_v13 (F := Ideal) (m ((c : Thread nD τ).loc main_arg2))) :
    W7 m ρ c (Proc.devRef .tc main_v35) = val_main_v55 (F := Ideal) (m ((c : Thread nD τ).loc main_arg2)) := by
  -- the reference's second computation of the source norm unfolds to the same term as its first
  have h13 : W6 m ρ c (Proc.devRef .tc main_v13) = val_main_v51 (F := Ideal) (m ((c : Thread nD τ).loc main_arg2)) :=
    (W6_of_ne m ρ c main_v13 (by decide)).trans hns
  show StableHlo.after hostOps1 (W6 m ρ c) (Proc.devRef .tc main_v35) = _
  after_results
  rw [h13]
  exact Cert.Bridge.shapeCast_col_eq_broadcastInDim (n := 50000) (val_main_v51 (F := Ideal) (m ((c : Thread nD τ).loc main_arg2))) _ _

/-- The first layer's bias as a row [1, 128]. -/
theorem B_b2 (c : Dev nD) :
    W7 m ρ c (Proc.devRef .tc main_v36) = val_main_v34 (F := Ideal) (m ((c : Thread nD τ).loc main_arg7)) := by
  show StableHlo.after hostOps1 (W6 m ρ c) (Proc.devRef .tc main_v36) = _
  after_results
  rw [W6_arg7 m ρ c]
  -- the vector reshaped to a row is the vector broadcast along the new leading unit axis
  exact Cert.Bridge.shapeCast_row_eq_broadcastInDim (n := 128) (m ((c : Thread nD τ).loc main_arg7)) _ _

end Cert.KernelIdeal.Vals

end
-- ==== Proof.HostC.lean ====
/-
  The first graph between its second dense region and the projection: the second layer's aggregated messages and the
  projection's small operands; the first layer's output is carried across unchanged.
-/
import proofs.«418930_j66125316489906_3_alg».proof.Proof.Gen.KernelIdeal.Frame
import proofs.«418930_j66125316489906_3_alg».proof.Proof.Gen.ReferenceIdeal.Read
import proofs.«418930_j66125316489906_3_alg».proof.Proof.Carry
import proofs.«418930_j66125316489906_3_alg».proof.Proof.Spec
import proofs.«418930_j66125316489906_3_alg».proof.Proof.Lemmas
import Idealize.ShloMosaic.Lib.StableHlo.Run

set_option maxRecDepth 16384

noncomputable section

namespace Cert.KernelIdeal.Vals

open Idealize.ShloMosaic Idealize.ShloMosaic.TcCoe Idealize.SL.Sem Idealize.ShloMosaic.StableHlo
open Cert.KernelIdeal Cert.KernelIdeal.Gen
open Cert.ReferenceIdeal.Read

variable (m : (ℓ : Loc nD τ sig) → Buf (Elt Ideal) ℓ) (ρ : Dev nD → PrngReg)

/-- From before the first dense region to after the second the source index row is unchanged: neither region has it
    among its arrays and the stretch between them does not write it. The reference's second layer extracts the same
    row of the edge list again, which unfolds to the same term. -/
private theorem C_src8 (c : Dev nD)
    (hsrc : W5 m ρ c (Proc.devRef .tc main_v18) = val_main_v1 (F := Ideal) (m ((c : Thread nD τ).loc main_arg2))) :
    W8 m ρ c (Proc.devRef .tc main_v18) = val_main_v39 (F := Ideal) (m ((c : Thread nD τ).loc main_arg2)) :=
  (W8_of_ne m ρ c main_v18 (by decide)).trans ((W7_of m ρ c main_v18 (by decide)).trans
    ((W6_of_ne m ρ c main_v18 (by decide)).trans hsrc))

/-- Likewise the destination index row. -/
private theorem C_dst8 (c : Dev nD)
    (hdst : W5 m ρ c (Proc.devRef .tc main_v20) = val_main_v3 (F := Ideal) (m ((c : Thread nD τ).loc main_arg2))) :
    W8 m ρ c (Proc.devRef .tc main_v20) = val_main_v41 (F := Ideal) (m ((c : Thread nD τ).loc main_arg2)) :=
  (W8_of_ne m ρ c main_v20 (by decide)).trans ((W7_of m ρ c main_v20 (by decide)).trans
    ((W6_of_ne m ρ c main_v20 (by decide)).trans hdst))

/-- Likewise the destination norm, which the reference's second layer recomputes by the same operations. -/
private theorem C_nd8 (c : Dev nD)
    (hnd : W5 m ρ c (Proc.devRef .tc main_v16) = val_main_v16 (F := Ideal) (m ((c : Thread nD τ).loc main_arg2))) :
    W8 m ρ c (Proc.devRef .tc main_v16) = val_main_v54 (F := Ideal) (m ((c : Thread nD τ).loc main_arg2)) :=
  (W8_of_ne m ρ c main_v16 (by decide)).trans ((W7_of m ρ c main_v16 (by decide)).trans
    ((W6_of_ne m ρ c main_v16 (by decide)).trans hnd))

/-- The second layer's aggregated messages. -/
theorem C_agg (c : Dev nD)
    (hx : W8 m ρ c (Proc.devRef .tc main_v37_1) = val_main_v58 (F := Ideal) (m ((c : Thread nD τ).loc main_arg0)) (m ((c : Thread nD τ).loc main_arg2)) (m ((c : Thread nD τ).loc main_arg6)) (m ((c : Thread nD τ).loc main_arg7)) (m ((c : Thread nD τ).loc main_arg8)))
    (hsrc : W5 m ρ c (Proc.devRef .tc main_v18) = val_main_v1 (F := Ideal) (m ((c : Thread nD τ).loc main_arg2)))
    (hdst : W5 m ρ c (Proc.devRef .tc main_v20) = val_main_v3 (F := Ideal) (m ((c : Thread nD τ).loc main_arg2))) :
    W9 m ρ c (Proc.devRef .tc main_v48) = val_main_v68 (F := Ideal) (m ((c : Thread nD τ).loc main_arg0)) (m ((c : Thread nD τ).loc main_arg2)) (m ((c : Thread nD τ).loc main_arg6)) (m ((c : Thread nD τ).loc main_arg7)) (m ((c : Thread nD τ).loc main_arg8)) := by
  have h18 := C_src8 m ρ c hsrc
  have h20 := C_dst8 m ρ c hdst
  show StableHlo.after hostOps2 (W8 m ρ c) (Proc.devRef .tc main_v48) = _
  -- each buffer of the stretch as its operation applied to the contents at the stretch's entry
  after_results_simp
  -- the three buffers read from the entry are the reference's; the widening to f32 is the identity at the extended reals
  rw [h18, h20, hx, Cert.Bridge.extf_ideal]
  -- what is left differs from the reference's stages only in where the shape records are declared
  rfl

/-- The destination norm as a column, as the reference's second layer recomputes it. -/
theorem C_nd2 (c : Dev nD)
    (hnd : W5 m ρ c (Proc.devRef .tc main_v16) = val_main_v16 (F := Ideal) (m ((c : Thread nD τ).loc main_arg2))) :
    W9 m ρ c (Proc.devRef .tc main_v49) = val_main_v69 (F := Ideal) (m ((c : Thread nD τ).loc main_arg2)) := by
  have h16 := C_nd8 m ρ c hnd
  show StableHlo.after hostOps2 (W8 m ρ c) (Proc.devRef .tc main_v49) = _
  after_results
  rw [h16]
  -- the vector reshaped to a column is the vector broadcast along the new unit axis
  exact Cert.Bridge.shapeCast_col_eq_broadcastInDim (n := 50000) (val_main_v54 (F := Ideal) (m ((c : Thread nD τ).loc main_arg2))) _ _

/-- The second layer's bias as a row. -/
theorem C_b2 (c : Dev nD) :
    W9 m ρ c (Proc.devRef .tc main_v50) = val_main_v72 (F := Ideal) (m ((c : Thread nD τ).loc main_arg9)) := by
  show StableHlo.after hostOps2 (W8 m ρ c) (Proc.devRef .tc main_v50) = _
  after_results
  rw [W8_arg9 m ρ c]
  -- the vector reshaped to a row is the vector broadcast along the new leading unit axis
  exact Cert.Bridge.shapeCast_row_eq_broadcastInDim (n := 128) (m ((c : Thread nD τ).loc main_arg9)) _ _

/-- The first projection's bias as a row. -/
theorem C_bo2 (c : Dev nD) :
    W9 m ρ c (Proc.devRef .tc main_v51) = val_main_v78 (F := Ideal) (m ((c : Thread nD τ).loc main_arg11)) := by
  show StableHlo.after hostOps2 (W8 m ρ c) (Proc.devRef .tc main_v51) = _
  after_results
  rw [W8_arg11 m ρ c]
  exact Cert.Bridge.shapeCast_row_eq_broadcastInDim (n := 128) (m ((c : Thread nD τ).loc main_arg11)) _ _

/-- The first layer's output is not written between the two regions. -/
theorem C_h1 (c : Dev nD)
    (hh : W8 m ρ c (Proc.devRef .tc main_v37_0) = val_main_v37 (F := Ideal) (m ((c : Thread nD τ).loc main_arg0)) (m ((c : Thread nD τ).loc main_arg2)) (m ((c : Thread nD τ).loc main_arg6)) (m ((c : Thread nD τ).loc main_arg7))) :
    W9 m ρ c (Proc.devRef .tc main_v37_0) = val_main_v37 (F := Ideal) (m ((c : Thread nD τ).loc main_arg0)) (m ((c : Thread nD τ).loc main_arg2)) (m ((c : Thread nD τ).loc main_arg6)) (m ((c : Thread nD τ).loc main_arg7)) :=
  (W9_of m ρ c main_v37_0 (by decide)).trans hh

end Cert.KernelIdeal.Vals

end
-- ==== Proof.HostD.lean ====
/-
  The second graph's host operations before its first dense region, read back from the launch memory: source and
  destination indices, the two degree norms, the source norm as a column. Each is the reference's own stage.
-/
import proofs.«418930_j66125316489906_3_alg».proof.Proof.Gen.KernelIdeal.Frame
import proofs.«418930_j66125316489906_3_alg».proof.Proof.Gen.ReferenceIdeal.Read
import proofs.«418930_j66125316489906_3_alg».proof.Proof.Carry
import proofs.«418930_j66125316489906_3_alg».proof.Proof.Spec
import proofs.«418930_j66125316489906_3_alg».proof.Proof.Lemmas
import Idealize.ShloMosaic.Lib.StableHlo.Run

set_option maxRecDepth 16384

noncomputable section

namespace Cert.KernelIdeal.Vals

open Idealize.ShloMosaic Idealize.ShloMosaic.TcCoe Idealize.SL.Sem Idealize.ShloMosaic.StableHlo
open Cert.KernelIdeal Cert.KernelIdeal.Gen
open Cert.ReferenceIdeal.Read

variable (m : (ℓ : Loc nD τ sig) → Buf (Elt Ideal) ℓ) (ρ : Dev nD → PrngReg)

/-! The five stretches before the second graph's first dense region are one straight line of operations from the contents
the third region leaves, and the only thing they read there is the second edge list, which no region and no earlier
stretch writes: it still holds the launch argument. What a buffer holds at the region's entry is the composition of the
operations that made it, applied to that edge list; the reference runs the same operations on it, so each reading is
closed one operation at a time: equal operations on equal operands. As for the first graph, the kernel slices the edge
list a second time after the norms, and makes the column by a reshape where the reference broadcasts. -/

/-- The second graph's source indices. -/
theorem D_src (c : Dev nD) :
    W15 m ρ c (Proc.devRef .tc main_v71) = val_main_v82 (F := Ideal) (m ((c : Thread nD τ).loc main_arg3)) := by
  show StableHlo.after hostOps3_4 (W14 m ρ c) (Proc.devRef .tc main_v71) = _
  after_results
  rw [W10_arg3 m ρ c]
  rfl

/-- The second graph's destination indices. -/
theorem D_dst (c : Dev nD) :
    W15 m ρ c (Proc.devRef .tc main_v73) = val_main_v84 (F := Ideal) (m ((c : Thread nD τ).loc main_arg3)) := by
  show StableHlo.after hostOps3_4 (W14 m ρ c) (Proc.devRef .tc main_v73) = _
  after_results
  rw [W10_arg3 m ρ c]
  rfl

/-- The second graph's source norm. -/
theorem D_ns (c : Dev nD) :
    W15 m ρ c (Proc.devRef .tc main_v66) = val_main_v94 (F := Ideal) (m ((c : Thread nD τ).loc main_arg3)) := by
  show StableHlo.after hostOps3_4 (W14 m ρ c) (Proc.devRef .tc main_v66) = _
  after_results_simp
  rw [W10_arg3 m ρ c]
  -- one operation at a time: the power, the clip, then the degree count and the constants
  unfold val_main_v94
  refine congrArg₂ Host.powf ?_ ?_
  · unfold val_main_v92
    show maximumf _ _ = maximumf _ _
    refine congrArg₂ maximumf ?_ ?_
    · rfl
    · show Host.scatterAdd _ _ _ _ = _
      rfl
  · rfl

/-- The second graph's destination norm. -/
theorem D_nd (c : Dev nD) :
    W15 m ρ c (Proc.devRef .tc main_v69) = val_main_v97 (F := Ideal) (m ((c : Thread nD τ).loc main_arg3)) := by
  show StableHlo.after hostOps3_4 (W14 m ρ c) (Proc.devRef .tc main_v69) = _
  after_results_simp
  rw [W10_arg3 m ρ c]
  -- one operation at a time: the power, the clip, then the degree count and the constants
  unfold val_main_v97
  refine congrArg₂ Host.powf ?_ ?_
  · unfold val_main_v95
    show maximumf _ _ = maximumf _ _
    refine congrArg₂ maximumf ?_ ?_
    · rfl
    · show Host.scatterAdd _ _ _ _ = _
      rfl
  · rfl

/-- The source norm as a column. -/
theorem D_ns2 (c : Dev nD) :
    W15 m ρ c (Proc.devRef .tc main_v74) = val_main_v98 (F := Ideal) (m ((c : Thread nD τ).loc main_arg3)) := by
  -- the column is the reshape of the source norm, whatever the contents the last stretch starts from
  have h : W15 m ρ c (Proc.devRef .tc main_v74)
      = shapeCast S50000x1 (W15 m ρ c (Proc.devRef .tc main_v66)) shapeCasts_S50000_S50000x1 := by
    show StableHlo.after hostOps3_4 (W14 m ρ c) (Proc.devRef .tc main_v74)
      = shapeCast S50000x1 (StableHlo.after hostOps3_4 (W14 m ρ c) (Proc.devRef .tc main_v66)) shapeCasts_S50000_S50000x1
    generalize W14 m ρ c = V
    after_results
    rfl
  rw [h, D_ns m ρ c]
  unfold val_main_v98
  exact Cert.Bridge.shapeCast_col_eq_broadcastInDim (n := 50000) _ _ _

end Cert.KernelIdeal.Vals

end
-- ==== Proof.HostE.lean ====
/-
  The second graph between its first and second dense regions (as the first graph's).
-/
import proofs.«418930_j66125316489906_3_alg».proof.Proof.Gen.KernelIdeal.Frame
import proofs.«418930_j66125316489906_3_alg».proof.Proof.Gen.ReferenceIdeal.Read
import proofs.«418930_j66125316489906_3_alg».proof.Proof.Carry
import proofs.«418930_j66125316489906_3_alg».proof.Proof.Spec
import proofs.«418930_j66125316489906_3_alg».proof.Proof.Lemmas
import Idealize.ShloMosaic.Lib.StableHlo.Run

set_option maxRecDepth 16384

noncomputable section

namespace Cert.KernelIdeal.Vals

open Idealize.ShloMosaic Idealize.ShloMosaic.TcCoe Idealize.SL.Sem Idealize.ShloMosaic.StableHlo
open Cert.KernelIdeal Cert.KernelIdeal.Gen
open Cert.ReferenceIdeal.Read

variable (m : (ℓ : Loc nD τ sig) → Buf (Elt Ideal) ℓ) (ρ : Dev nD → PrngReg)

/-- The source norm the reference's second layer recomputes is the first layer's: the same operations on the
    same edge list. -/
theorem E_ns_again (x3 : (⟨Cert.ReferenceIdeal.S2x600000, .i32⟩ : BufTy).Contents (Elt Ideal)) :
    val_main_v132 (F := Ideal) x3 = val_main_v94 (F := Ideal) x3 := rfl

/-- The first layer's aggregated messages of the second graph. -/
theorem E_agg (c : Dev nD)
    (hx : W16 m ρ c (Proc.devRef .tc main_v75) = val_main_v101 (F := Ideal) (m ((c : Thread nD τ).loc main_arg1)) (m ((c : Thread nD τ).loc main_arg3)) (m ((c : Thread nD τ).loc main_arg6)))
    (hsrc : W15 m ρ c (Proc.devRef .tc main_v71) = val_main_v82 (F := Ideal) (m ((c : Thread nD τ).loc main_arg3)))
    (hdst : W15 m ρ c (Proc.devRef .tc main_v73) = val_main_v84 (F := Ideal) (m ((c : Thread nD τ).loc main_arg3))) :
    W17 m ρ c (Proc.devRef .tc main_v86) = val_main_v111 (F := Ideal) (m ((c : Thread nD τ).loc main_arg1)) (m ((c : Thread nD τ).loc main_arg3)) (m ((c : Thread nD τ).loc main_arg6)) := by
  show StableHlo.after hostOps4 (W16 m ρ c) (Proc.devRef .tc main_v86) = _
  after_results_simp
  -- the index rows are as they were before the region; the gathered rows are the region's output
  rw [W16_of_ne m ρ c main_v71 (by decide), hsrc, W16_of_ne m ρ c main_v73 (by decide), hdst, hx]
  -- widening bf16 to f32 is the identity at the extended reals
  rw [Cert.Bridge.extf_ideal]
  rfl

/-- The destination norm as a column. -/
theorem E_nd2 (c : Dev nD)
    (hnd : W15 m ρ c (Proc.devRef .tc main_v69) = val_main_v97 (F := Ideal) (m ((c : Thread nD τ).loc main_arg3))) :
    W17 m ρ c (Proc.devRef .tc main_v87) = val_main_v112 (F := Ideal) (m ((c : Thread nD τ).loc main_arg3)) := by
  show StableHlo.after hostOps4 (W16 m ρ c) (Proc.devRef .tc main_v87) = _
  after_results_simp
  rw [W16_of_ne m ρ c main_v69 (by decide), hnd]
  -- the reshape to a column reads the same entry as the broadcast along the new unit axis
  exact Cert.Bridge.shapeCast_col_eq_broadcastInDim _ _ _

/-- The source norm as a column, as the reference's second layer recomputes it. -/
theorem E_ns2 (c : Dev nD)
    (hns : W15 m ρ c (Proc.devRef .tc main_v66) = val_main_v94 (F := Ideal) (m ((c : Thread nD τ).loc main_arg3))) :
    W17 m ρ c (Proc.devRef .tc main_v88) = val_main_v136 (F := Ideal) (m ((c : Thread nD τ).loc main_arg3)) := by
  show StableHlo.after hostOps4 (W16 m ρ c) (Proc.devRef .tc main_v88) = _
  after_results_simp
  rw [W16_of_ne m ρ c main_v66 (by decide), hns, ← E_ns_again]
  exact Cert.Bridge.shapeCast_col_eq_broadcastInDim _ _ _

/-- The first layer's bias as a row. -/
theorem E_b2 (c : Dev nD) :
    W17 m ρ c (Proc.devRef .tc main_v89) = val_main_v115 (F := Ideal) (m ((c : Thread nD τ).loc main_arg7)) := by
  show StableHlo.after hostOps4 (W16 m ρ c) (Proc.devRef .tc main_v89) = _
  after_results_simp
  rw [W16_arg7 m ρ c]
  -- the reshape to a row reads the same entry as the broadcast along the new unit axis
  exact Cert.Bridge.shapeCast_row_eq_broadcastInDim _ _ _

end Cert.KernelIdeal.Vals

end
-- ==== Proof.HostF.lean ====
/-
  The second graph between its second dense region and the projection (as the first graph's).
-/
import proofs.«418930_j66125316489906_3_alg».proof.Proof.Gen.KernelIdeal.Frame
import proofs.«418930_j66125316489906_3_alg».proof.Proof.Gen.ReferenceIdeal.Read
import proofs.«418930_j66125316489906_3_alg».proof.Proof.Carry
import proofs.«418930_j66125316489906_3_alg».proof.Proof.Spec
import proofs.«418930_j66125316489906_3_alg».proof.Proof.Lemmas
import Idealize.ShloMosaic.Lib.StableHlo.Run

set_option maxRecDepth 16384

noncomputable section

namespace Cert.KernelIdeal.Vals

open Idealize.ShloMosaic Idealize.ShloMosaic.TcCoe Idealize.SL.Sem Idealize.ShloMosaic.StableHlo
open Cert.KernelIdeal Cert.KernelIdeal.Gen
open Cert.ReferenceIdeal.Read

variable (m : (ℓ : Loc nD τ sig) → Buf (Elt Ideal) ℓ) (ρ : Dev nD → PrngReg)

/-- The source index row the reference's second layer slices again is the first layer's. -/
theorem F_src_again (x3 : (⟨Cert.ReferenceIdeal.S2x600000, .i32⟩ : BufTy).Contents (Elt Ideal)) :
    val_main_v120 (F := Ideal) x3 = val_main_v82 (F := Ideal) x3 := rfl

/-- The destination index row the reference's second layer slices again is the first layer's. -/
theorem F_dst_again (x3 : (⟨Cert.ReferenceIdeal.S2x600000, .i32⟩ : BufTy).Contents (Elt Ideal)) :
    val_main_v122 (F := Ideal) x3 = val_main_v84 (F := Ideal) x3 := rfl

/-- The destination norm the reference's second layer recomputes is the first layer's: the same operations on
    the same edge list. -/
theorem F_nd_again (x3 : (⟨Cert.ReferenceIdeal.S2x600000, .i32⟩ : BufTy).Contents (Elt Ideal)) :
    val_main_v135 (F := Ideal) x3 = val_main_v97 (F := Ideal) x3 := rfl

/-- A buffer written before the second graph's first dense region and touched by neither dense region nor the
    stretch between them still holds at the second region's exit what it held at the first's entry. -/
theorem F_carry (c : Dev nD) (r : Ref sig .tc) (h16 : ∀ w, Pipeline.arrRef spec3 w ≠ r) (h17 : r ∉ hostOps4_W)
    (h18 : ∀ w, Pipeline.arrRef spec4 w ≠ r) :
    W18 m ρ c (Proc.devRef .tc r) = W15 m ρ c (Proc.devRef .tc r) :=
  (W18_of_ne m ρ c r h18).trans ((W17_of m ρ c r h17).trans (W16_of_ne m ρ c r h16))

/-- The second layer's aggregated messages of the second graph. -/
theorem F_agg (c : Dev nD)
    (hx : W18 m ρ c (Proc.devRef .tc main_v90_1) = val_main_v139 (F := Ideal) (m ((c : Thread nD τ).loc main_arg1)) (m ((c : Thread nD τ).loc main_arg3)) (m ((c : Thread nD τ).loc main_arg6)) (m ((c : Thread nD τ).loc main_arg7)) (m ((c : Thread nD τ).loc main_arg8)))
    (hsrc : W15 m ρ c (Proc.devRef .tc main_v71) = val_main_v82 (F := Ideal) (m ((c : Thread nD τ).loc main_arg3)))
    (hdst : W15 m ρ c (Proc.devRef .tc main_v73) = val_main_v84 (F := Ideal) (m ((c : Thread nD τ).loc main_arg3))) :
    W19 m ρ c (Proc.devRef .tc main_v101) = val_main_v149 (F := Ideal) (m ((c : Thread nD τ).loc main_arg1)) (m ((c : Thread nD τ).loc main_arg3)) (m ((c : Thread nD τ).loc main_arg6)) (m ((c : Thread nD τ).loc main_arg7)) (m ((c : Thread nD τ).loc main_arg8)) := by
  show StableHlo.after hostOps5 (W18 m ρ c) (Proc.devRef .tc main_v101) = _
  after_results_simp
  -- the index rows are as they were before the first region; the gathered rows are the second region's output
  rw [F_carry m ρ c main_v71 (by decide) (by decide) (by decide), hsrc, ← F_src_again,
    F_carry m ρ c main_v73 (by decide) (by decide) (by decide), hdst, ← F_dst_again, hx]
  -- widening bf16 to f32 is the identity at the extended reals
  rw [Cert.Bridge.extf_ideal]
  rfl

/-- The destination norm as a column, as the reference's second layer recomputes it. -/
theorem F_nd2 (c : Dev nD)
    (hnd : W15 m ρ c (Proc.devRef .tc main_v69) = val_main_v97 (F := Ideal) (m ((c : Thread nD τ).loc main_arg3))) :
    W19 m ρ c (Proc.devRef .tc main_v102) = val_main_v150 (F := Ideal) (m ((c : Thread nD τ).loc main_arg3)) := by
  show StableHlo.after hostOps5 (W18 m ρ c) (Proc.devRef .tc main_v102) = _
  after_results_simp
  rw [F_carry m ρ c main_v69 (by decide) (by decide) (by decide), hnd, ← F_nd_again]
  -- the reshape to a column reads the same entry as the broadcast along the new unit axis
  exact Cert.Bridge.shapeCast_col_eq_broadcastInDim _ _ _

/-- The second layer's bias as a row. -/
theorem F_b2 (c : Dev nD) :
    W19 m ρ c (Proc.devRef .tc main_v103) = val_main_v153 (F := Ideal) (m ((c : Thread nD τ).loc main_arg9)) := by
  show StableHlo.after hostOps5 (W18 m ρ c) (Proc.devRef .tc main_v103) = _
  after_results_simp
  rw [W18_arg9 m ρ c]
  -- the reshape to a row reads the same entry as the broadcast along the new unit axis
  exact Cert.Bridge.shapeCast_row_eq_broadcastInDim _ _ _

/-- The second projection's bias as a row. -/
theorem F_bo2 (c : Dev nD) :
    W19 m ρ c (Proc.devRef .tc main_v104) = val_main_v159 (F := Ideal) (m ((c : Thread nD τ).loc main_arg13)) := by
  show StableHlo.after hostOps5 (W18 m ρ c) (Proc.devRef .tc main_v104) = _
  after_results_simp
  rw [W18_arg13 m ρ c]
  exact Cert.Bridge.shapeCast_row_eq_broadcastInDim _ _ _

/-- The first layer's output is not written between the two regions. -/
theorem F_h1 (c : Dev nD)
    (hh : W18 m ρ c (Proc.devRef .tc main_v90_0) = val_main_v118 (F := Ideal) (m ((c : Thread nD τ).loc main_arg1)) (m ((c : Thread nD τ).loc main_arg3)) (m ((c : Thread nD τ).loc main_arg6)) (m ((c : Thread nD τ).loc main_arg7))) :
    W19 m ρ c (Proc.devRef .tc main_v90_0) = val_main_v118 (F := Ideal) (m ((c : Thread nD τ).loc main_arg1)) (m ((c : Thread nD τ).loc main_arg3)) (m ((c : Thread nD τ).loc main_arg6)) (m ((c : Thread nD τ).loc main_arg7)) :=
  (W19_of m ρ c main_v90_0 (by decide)).trans hh

end Cert.KernelIdeal.Vals

end
-- ==== Proof.HostG.lean ====
/-
  The link predictor after the last region: rows of the two embeddings gathered at the supervised edges' ends, each
  row divided by its Euclidean norm, the row-wise dot product, as a column [200000, 1]; once for the positive edges and
  once for the negative ones. Both embeddings are carried unchanged to the end of @main.
-/
import proofs.«418930_j66125316489906_3_alg».proof.Proof.Gen.KernelIdeal.Frame
import proofs.«418930_j66125316489906_3_alg».proof.Proof.Gen.ReferenceIdeal.Read
import proofs.«418930_j66125316489906_3_alg».proof.Proof.Carry
import proofs.«418930_j66125316489906_3_alg».proof.Proof.Spec
import proofs.«418930_j66125316489906_3_alg».proof.Proof.Lemmas
import Idealize.ShloMosaic.Lib.StableHlo.Run

set_option maxRecDepth 16384

noncomputable section

namespace Cert.KernelIdeal.Vals

open Idealize.ShloMosaic Idealize.ShloMosaic.TcCoe Idealize.SL.Sem Idealize.ShloMosaic.StableHlo
open Cert.KernelIdeal Cert.KernelIdeal.Gen
open Cert.ReferenceIdeal.Read

variable (m : (ℓ : Loc nD τ sig) → Buf (Elt Ideal) ℓ) (ρ : Dev nD → PrngReg)

/-- The first embedding at the last region's exit: no stretch and no region in between writes it. -/
theorem v52_W20 (c : Dev nD)
    (hf : W10 m ρ c (Proc.devRef .tc main_v52) = val_main_v80 (F := Ideal) (m ((c : Thread nD τ).loc main_arg0)) (m ((c : Thread nD τ).loc main_arg2)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) :
    W20 m ρ c (Proc.devRef .tc main_v52) = val_main_v80 (F := Ideal) (m ((c : Thread nD τ).loc main_arg0)) (m ((c : Thread nD τ).loc main_arg2)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  rw [W20_of_ne m ρ c main_v52 (by decide),
    W19_of m ρ c main_v52 (by decide),
    W18_of_ne m ρ c main_v52 (by decide),
    W17_of m ρ c main_v52 (by decide),
    W16_of_ne m ρ c main_v52 (by decide),
    W15_of m ρ c main_v52 (by decide),
    W14_of m ρ c main_v52 (by decide),
    W13_of m ρ c main_v52 (by decide),
    W12_of m ρ c main_v52 (by decide),
    W11_of m ρ c main_v52 (by decide)]
  exact hf

/-- The first embedding when the negative edges' rows are gathered. -/
theorem v52_W24 (c : Dev nD)
    (hf : W10 m ρ c (Proc.devRef .tc main_v52) = val_main_v80 (F := Ideal) (m ((c : Thread nD τ).loc main_arg0)) (m ((c : Thread nD τ).loc main_arg2)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) :
    W24 m ρ c (Proc.devRef .tc main_v52) = val_main_v80 (F := Ideal) (m ((c : Thread nD τ).loc main_arg0)) (m ((c : Thread nD τ).loc main_arg2)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  rw [W24_of m ρ c main_v52 (by decide),
    W23_of m ρ c main_v52 (by decide),
    W22_of m ρ c main_v52 (by decide),
    W21_of m ρ c main_v52 (by decide)]
  exact v52_W20 m ρ c hf

/-- The second embedding when the negative edges' rows are gathered. -/
theorem v105_W24 (c : Dev nD)
    (hs : W20 m ρ c (Proc.devRef .tc main_v105) = val_main_v161 (F := Ideal) (m ((c : Thread nD τ).loc main_arg1)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg12)) (m ((c : Thread nD τ).loc main_arg13))) :
    W24 m ρ c (Proc.devRef .tc main_v105) = val_main_v161 (F := Ideal) (m ((c : Thread nD τ).loc main_arg1)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg12)) (m ((c : Thread nD τ).loc main_arg13)) := by
  rw [W24_of m ρ c main_v105 (by decide),
    W23_of m ρ c main_v105 (by decide),
    W22_of m ρ c main_v105 (by decide),
    W21_of m ρ c main_v105 (by decide)]
  exact hs

/-- The positive edges' source rows of the first embedding: the same gather at the same (wrapped) row indices. -/
theorem v114_W21 (c : Dev nD)
    (hf : W10 m ρ c (Proc.devRef .tc main_v52) = val_main_v80 (F := Ideal) (m ((c : Thread nD τ).loc main_arg0)) (m ((c : Thread nD τ).loc main_arg2)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) :
    W21 m ρ c (Proc.devRef .tc main_v114) = val_main_v170 (F := Ideal) (m ((c : Thread nD τ).loc main_arg0)) (m ((c : Thread nD τ).loc main_arg2)) (m ((c : Thread nD τ).loc main_arg4)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  -- the stretch's operations read at the result buffer, over the contents V at its entry
  show StableHlo.after hostOps6 (W20 m ρ c) (Proc.devRef .tc main_v114) = _
  generalize hV : W20 m ρ c = V
  after_results_simp
  subst hV
  -- the operands at the stretch's entry are the reference's stages; then both sides are the same operations on them
  rw [v52_W20 m ρ c hf, W20_arg4 m ρ c]
  rfl

/-- The positive edges' target rows of the second embedding. -/
theorem v123_W21 (c : Dev nD)
    (hs : W20 m ρ c (Proc.devRef .tc main_v105) = val_main_v161 (F := Ideal) (m ((c : Thread nD τ).loc main_arg1)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg12)) (m ((c : Thread nD τ).loc main_arg13))) :
    W21 m ρ c (Proc.devRef .tc main_v123) = val_main_v179 (F := Ideal) (m ((c : Thread nD τ).loc main_arg1)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9)) (m ((c : Thread nD τ).loc main_arg12)) (m ((c : Thread nD τ).loc main_arg13)) := by
  -- the stretch's operations read at the result buffer, over the contents V at its entry
  show StableHlo.after hostOps6 (W20 m ρ c) (Proc.devRef .tc main_v123) = _
  generalize hV : W20 m ρ c = V
  after_results_simp
  subst hV
  -- the operands at the stretch's entry are the reference's stages; then both sides are the same operations on them
  rw [hs, W20_arg4 m ρ c]
  rfl

/-- The Euclidean norms of the source rows, as a column. -/
theorem v124_W22 (c : Dev nD)
    (hf : W10 m ρ c (Proc.devRef .tc main_v52) = val_main_v80 (F := Ideal) (m ((c : Thread nD τ).loc main_arg0)) (m ((c : Thread nD τ).loc main_arg2)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) :
    W22 m ρ c (Proc.devRef .tc main_v124) = val_main_v180 (F := Ideal) (m ((c : Thread nD τ).loc main_arg0)) (m ((c : Thread nD τ).loc main_arg2)) (m ((c : Thread nD τ).loc main_arg4)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  -- the stretch's operations read at the result buffer, over the contents V at its entry
  show StableHlo.after hostOps6_1 (W21 m ρ c) (Proc.devRef .tc main_v124) = _
  generalize hV : W21 m ρ c = V
  after_results_simp
  subst hV
  -- the operands at the stretch's entry are the reference's stages; then both sides are the same operations on them
  rw [v114_W21 m ρ c hf]
  rfl

/-- The source rows divided by their norms. -/
theorem v126_W23 (c : Dev nD)
    (hf : W10 m ρ c (Proc.devRef .tc main_v52) = val_main_v80 (F := Ideal) (m ((c : Thread nD τ).loc main_arg0)) (m ((c : Thread nD τ).loc main_arg2)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) :
    W23 m ρ c (Proc.devRef .tc main_v126) = val_main_v182 (F := Ideal) (m ((c : Thread nD τ).loc main_arg0)) (m ((c : Thread nD τ).loc main_arg2)) (m ((c : Thread nD τ).loc main_arg4)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  -- the stretch's operations read at the result buffer, over the contents V at its entry
  show StableHlo.after hostOps6_2 (W22 m ρ c) (Proc.devRef .tc main_v126) = _
  generalize hV : W22 m ρ c = V
  after_results_simp
  subst hV
  -- the operands at the stretch's entry are the reference's stages; then both sides are the same operations on them
  rw [W22_of m ρ c main_v114 (by decide), v114_W21 m ρ c hf, v124_W22 m ρ c hf]
  rfl

/-- The Euclidean norms of the target rows, as a column. -/
theorem v127_W24 (c : Dev nD)
    (hs : W20 m ρ c (Proc.devRef .tc main_v105) = val_main_v161 (F := Ideal) (m ((c : Thread nD τ).loc main_arg1)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg12)) (m ((c : Thread nD τ).loc main_arg13))) :
    W24 m ρ c (Proc.devRef .tc main_v127) = val_main_v183 (F := Ideal) (m ((c : Thread nD τ).loc main_arg1)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9)) (m ((c : Thread nD τ).loc main_arg12)) (m ((c : Thread nD τ).loc main_arg13)) := by
  -- the stretch's operations read at the result buffer, over the contents V at its entry
  show StableHlo.after hostOps6_3 (W23 m ρ c) (Proc.devRef .tc main_v127) = _
  generalize hV : W23 m ρ c = V
  after_results_simp
  subst hV
  -- the operands at the stretch's entry are the reference's stages; then both sides are the same operations on them
  rw [W23_of m ρ c main_v123 (by decide),
    W22_of m ρ c main_v123 (by decide), v123_W21 m ρ c hs]
  rfl

/-- The positive edges' scores once computed: the row sums of the product of the two normalised rows, broadcast along a new unit axis, which reads what the reshape to a column reads. -/
theorem v132_W25 (c : Dev nD)
    (hf : W10 m ρ c (Proc.devRef .tc main_v52) = val_main_v80 (F := Ideal) (m ((c : Thread nD τ).loc main_arg0)) (m ((c : Thread nD τ).loc main_arg2)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)))
    (hs : W20 m ρ c (Proc.devRef .tc main_v105) = val_main_v161 (F := Ideal) (m ((c : Thread nD τ).loc main_arg1)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg12)) (m ((c : Thread nD τ).loc main_arg13))) :
    W25 m ρ c (Proc.devRef .tc main_v132) = val_main_v214 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  -- the stretch's operations read at the result buffer, over the contents V at its entry
  show StableHlo.after hostOps6_4 (W24 m ρ c) (Proc.devRef .tc main_v132) = _
  generalize hV : W24 m ρ c = V
  after_results_simp
  subst hV
  -- the operands at the stretch's entry are the reference's stages; then both sides are the same operations on them
  rw [v127_W24 m ρ c hs,
    W24_of m ρ c main_v123 (by decide),
    W23_of m ρ c main_v123 (by decide),
    W22_of m ρ c main_v123 (by decide), v123_W21 m ρ c hs,
    W24_of m ρ c main_v126 (by decide), v126_W23 m ρ c hf]
  refine Eq.trans ?_ (Cert.Bridge.shapeCast_col_eq_broadcastInDim (n := 200000)
    (val_main_v187 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)))
    Cert.ReferenceIdeal.Facts₀.shapeCasts_S200000_S200000x1 bcast_S200000_S200000x1_0).symm
  rfl

/-- The negative edges' source rows of the first embedding. -/
theorem v141_W25 (c : Dev nD)
    (hf : W10 m ρ c (Proc.devRef .tc main_v52) = val_main_v80 (F := Ideal) (m ((c : Thread nD τ).loc main_arg0)) (m ((c : Thread nD τ).loc main_arg2)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) :
    W25 m ρ c (Proc.devRef .tc main_v141) = val_main_v196 (F := Ideal) (m ((c : Thread nD τ).loc main_arg0)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  -- the stretch's operations read at the result buffer, over the contents V at its entry
  show StableHlo.after hostOps6_4 (W24 m ρ c) (Proc.devRef .tc main_v141) = _
  generalize hV : W24 m ρ c = V
  after_results_simp
  subst hV
  -- the operands at the stretch's entry are the reference's stages; then both sides are the same operations on them
  rw [v52_W24 m ρ c hf, W24_arg5 m ρ c]
  rfl

/-- The negative edges' target rows of the second embedding. -/
theorem v150_W25 (c : Dev nD)
    (hs : W20 m ρ c (Proc.devRef .tc main_v105) = val_main_v161 (F := Ideal) (m ((c : Thread nD τ).loc main_arg1)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg12)) (m ((c : Thread nD τ).loc main_arg13))) :
    W25 m ρ c (Proc.devRef .tc main_v150) = val_main_v205 (F := Ideal) (m ((c : Thread nD τ).loc main_arg1)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg12)) (m ((c : Thread nD τ).loc main_arg13)) := by
  -- the stretch's operations read at the result buffer, over the contents V at its entry
  show StableHlo.after hostOps6_4 (W24 m ρ c) (Proc.devRef .tc main_v150) = _
  generalize hV : W24 m ρ c = V
  after_results_simp
  subst hV
  -- the operands at the stretch's entry are the reference's stages; then both sides are the same operations on them
  rw [v105_W24 m ρ c hs, W24_arg5 m ρ c]
  rfl

/-- The Euclidean norms of the negative edges' source rows, as a column. -/
theorem v151_W26 (c : Dev nD)
    (hf : W10 m ρ c (Proc.devRef .tc main_v52) = val_main_v80 (F := Ideal) (m ((c : Thread nD τ).loc main_arg0)) (m ((c : Thread nD τ).loc main_arg2)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) :
    W26 m ρ c (Proc.devRef .tc main_v151) = val_main_v206 (F := Ideal) (m ((c : Thread nD τ).loc main_arg0)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  -- the stretch's operations read at the result buffer, over the contents V at its entry
  show StableHlo.after hostOps6_5 (W25 m ρ c) (Proc.devRef .tc main_v151) = _
  generalize hV : W25 m ρ c = V
  after_results_simp
  subst hV
  -- the operands at the stretch's entry are the reference's stages; then both sides are the same operations on them
  rw [v141_W25 m ρ c hf]
  rfl

/-- The negative edges' source rows divided by their norms. -/
theorem v153_W27 (c : Dev nD)
    (hf : W10 m ρ c (Proc.devRef .tc main_v52) = val_main_v80 (F := Ideal) (m ((c : Thread nD τ).loc main_arg0)) (m ((c : Thread nD τ).loc main_arg2)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) :
    W27 m ρ c (Proc.devRef .tc main_v153) = val_main_v208 (F := Ideal) (m ((c : Thread nD τ).loc main_arg0)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  -- the stretch's operations read at the result buffer, over the contents V at its entry
  show StableHlo.after hostOps6_6 (W26 m ρ c) (Proc.devRef .tc main_v153) = _
  generalize hV : W26 m ρ c = V
  after_results_simp
  subst hV
  -- the operands at the stretch's entry are the reference's stages; then both sides are the same operations on them
  rw [W26_of m ρ c main_v141 (by decide), v141_W25 m ρ c hf, v151_W26 m ρ c hf]
  rfl

/-- The Euclidean norms of the negative edges' target rows, as a column. -/
theorem v154_W28 (c : Dev nD)
    (hs : W20 m ρ c (Proc.devRef .tc main_v105) = val_main_v161 (F := Ideal) (m ((c : Thread nD τ).loc main_arg1)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg12)) (m ((c : Thread nD τ).loc main_arg13))) :
    W28 m ρ c (Proc.devRef .tc main_v154) = val_main_v209 (F := Ideal) (m ((c : Thread nD τ).loc main_arg1)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg12)) (m ((c : Thread nD τ).loc main_arg13)) := by
  -- the stretch's operations read at the result buffer, over the contents V at its entry
  show StableHlo.after hostOps6_7 (W27 m ρ c) (Proc.devRef .tc main_v154) = _
  generalize hV : W27 m ρ c = V
  after_results_simp
  subst hV
  -- the operands at the stretch's entry are the reference's stages; then both sides are the same operations on them
  rw [W27_of m ρ c main_v150 (by decide),
    W26_of m ρ c main_v150 (by decide), v150_W25 m ρ c hs]
  rfl

/-- The first embedding is not written after its region. -/
theorem G_hf (c : Dev nD)
    (hf : W10 m ρ c (Proc.devRef .tc main_v52) = val_main_v80 (F := Ideal) (m ((c : Thread nD τ).loc main_arg0)) (m ((c : Thread nD τ).loc main_arg2)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) :
    W29 m ρ c (Proc.devRef .tc main_v52) = val_main_v80 (F := Ideal) (m ((c : Thread nD τ).loc main_arg0)) (m ((c : Thread nD τ).loc main_arg2)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  rw [W29_of m ρ c main_v52 (by decide),
    W28_of m ρ c main_v52 (by decide),
    W27_of m ρ c main_v52 (by decide),
    W26_of m ρ c main_v52 (by decide),
    W25_of m ρ c main_v52 (by decide),
    W24_of m ρ c main_v52 (by decide),
    W23_of m ρ c main_v52 (by decide),
    W22_of m ρ c main_v52 (by decide),
    W21_of m ρ c main_v52 (by decide)]
  exact v52_W20 m ρ c hf

/-- The second embedding is not written after its region. -/
theorem G_hs (c : Dev nD)
    (hs : W20 m ρ c (Proc.devRef .tc main_v105) = val_main_v161 (F := Ideal) (m ((c : Thread nD τ).loc main_arg1)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg12)) (m ((c : Thread nD τ).loc main_arg13))) :
    W29 m ρ c (Proc.devRef .tc main_v105) = val_main_v161 (F := Ideal) (m ((c : Thread nD τ).loc main_arg1)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg12)) (m ((c : Thread nD τ).loc main_arg13)) := by
  rw [W29_of m ρ c main_v105 (by decide),
    W28_of m ρ c main_v105 (by decide),
    W27_of m ρ c main_v105 (by decide),
    W26_of m ρ c main_v105 (by decide),
    W25_of m ρ c main_v105 (by decide),
    W24_of m ρ c main_v105 (by decide),
    W23_of m ρ c main_v105 (by decide),
    W22_of m ρ c main_v105 (by decide),
    W21_of m ρ c main_v105 (by decide)]
  exact hs

/-- The positive edges' scores: the kernel's keepdims sum (a broadcast of the row sums along a new unit axis) reads what the reference's reshape to a column reads. -/
theorem G_pos (c : Dev nD)
    (hf : W10 m ρ c (Proc.devRef .tc main_v52) = val_main_v80 (F := Ideal) (m ((c : Thread nD τ).loc main_arg0)) (m ((c : Thread nD τ).loc main_arg2)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)))
    (hs : W20 m ρ c (Proc.devRef .tc main_v105) = val_main_v161 (F := Ideal) (m ((c : Thread nD τ).loc main_arg1)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg12)) (m ((c : Thread nD τ).loc main_arg13))) :
    W29 m ρ c (Proc.devRef .tc main_v132) = val_main_v214 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  rw [W29_of m ρ c main_v132 (by decide),
    W28_of m ρ c main_v132 (by decide),
    W27_of m ρ c main_v132 (by decide),
    W26_of m ρ c main_v132 (by decide)]
  exact v132_W25 m ρ c hf hs

/-- The negative edges' scores. -/
theorem G_neg (c : Dev nD)
    (hf : W10 m ρ c (Proc.devRef .tc main_v52) = val_main_v80 (F := Ideal) (m ((c : Thread nD τ).loc main_arg0)) (m ((c : Thread nD τ).loc main_arg2)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)))
    (hs : W20 m ρ c (Proc.devRef .tc main_v105) = val_main_v161 (F := Ideal) (m ((c : Thread nD τ).loc main_arg1)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg12)) (m ((c : Thread nD τ).loc main_arg13))) :
    W29 m ρ c (Proc.devRef .tc main_v159) = val_main_v215 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  -- the stretch's operations read at the result buffer, over the contents V at its entry
  show StableHlo.after hostOps6_8 (W28 m ρ c) (Proc.devRef .tc main_v159) = _
  generalize hV : W28 m ρ c = V
  after_results_simp
  subst hV
  -- the operands at the stretch's entry are the reference's stages; then both sides are the same operations on them
  rw [v154_W28 m ρ c hs,
    W28_of m ρ c main_v150 (by decide),
    W27_of m ρ c main_v150 (by decide),
    W26_of m ρ c main_v150 (by decide), v150_W25 m ρ c hs,
    W28_of m ρ c main_v153 (by decide), v153_W27 m ρ c hf]
  refine Eq.trans ?_ (Cert.Bridge.shapeCast_col_eq_broadcastInDim (n := 200000)
    (val_main_v213 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)))
    Cert.ReferenceIdeal.Facts₀.shapeCasts_S200000_S200000x1 bcast_S200000_S200000x1_0).symm
  rfl

end Cert.KernelIdeal.Vals

end
-- ==== Proof.RegionLin.lean ====
/-
  The first dense piece of the graph network, read off the kernel's pipeline: the region that scales each row of the
  node features by that row's source norm and multiplies by the weight leaves, in its output array, the whole-array
  function `Cert.Bridge.linear` of the three arrays it reads.

  Each side is read at an index (r, q) as the sum over k of (X (r, k) · n (r, 0)) · W (k, q): the reference's
  `dot_general` of the scaled features, and, inside the block of 5000 rows that one grid point computes, the kernel's
  matrix product onto zero of the scaled block (the changes of float format are the identity at the extended reals).
  The blocks of the row-blocked windows at grid point t are rows 5000 t … 5000 t + 4999 of their arrays, the weight's
  block is the whole weight, and the ten output blocks tile the output array.
-/
import proofs.«418930_j66125316489906_3_alg».proof.Proof.Gen.KernelIdeal.Frame
import proofs.«418930_j66125316489906_3_alg».proof.Proof.Spec
import proofs.«418930_j66125316489906_3_alg».proof.Proof.Lemmas
import Idealize.ShloMosaic.Lib.Pipeline.Value
import Idealize.ShloMosaic.Lib.ValueIdx
import Idealize.ShloMosaic.PureOps.Ideal.Laws

set_option maxRecDepth 16384

noncomputable section

namespace Cert.KernelIdeal.Vals

open Idealize.ShloMosaic Idealize.ShloMosaic.TcCoe Idealize.SL.Sem Idealize.ShloMosaic.ValueIdx
open Idealize.ShloMosaic.Pipeline (Dat Cfg Window)
open Cert.KernelIdeal Cert.KernelIdeal.Gen

variable (V : (c : Dev nD) → (b : Ref sig .tc) → Buf (Elt Ideal) ((c : Thread nD τ).loc b))

/-! ## The two products' operand indices

Both the kernel's matrix product on a block of 5000 rows and the reference's on all 50000 contract the left
operand's column with the right operand's row: at output index (r, q) and contraction coordinate k the operands are
read at (r, k) and (k, q). -/

/-- The block product reads its left operand in the output's row, -/
theorem blockdot_lhs_row_lin (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- at the contracted column; -/
theorem blockdot_lhs_col_lin (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- its right operand at the contracted row, -/
theorem blockdot_rhs_row_lin (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- in the output's column. -/
theorem blockdot_rhs_col_lin (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The whole-array product likewise: the left operand in the output's row, -/
theorem wholedot_lhs_row_lin (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.lhsIdx i q 0).val = (i 0).val := by
  unfold DotDims.lhsIdx
  rw [dif_neg (show ¬(0 : Fin Cert.ReferenceIdeal.S50000x128.rank) ∈ Cert.ReferenceIdeal.dot_S50000x128_S128x128_S50000x128_1_0_0_1_n_n.lhsBatch by decide), dif_pos (show (0 : Fin Cert.ReferenceIdeal.S50000x128.rank) ∈ Cert.ReferenceIdeal.dot_S50000x128_S128x128_S50000x128_1_0_0_1_n_n.lhsNonContracting by decide)]
  rfl
/-- at the contracted column; -/
theorem wholedot_lhs_col_lin (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.lhsIdx i q 1).val = (q ⟨0, by decide⟩).val :=
  Cert.ReferenceIdeal.dot_S50000x128_S128x128_S50000x128_1_0_0_1_n_n.lhsIdx_val_of_single rfl i q
/-- the right operand at the contracted row, -/
theorem wholedot_rhs_row_lin (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.rhsIdx i q 0).val = (q ⟨0, by decide⟩).val :=
  Cert.ReferenceIdeal.dot_S50000x128_S128x128_S50000x128_1_0_0_1_n_n.rhsIdx_val_of_single rfl i q
/-- in the output's column. -/
theorem wholedot_rhs_col_lin (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.rhsIdx i q 1).val = (i 1).val := by
  unfold DotDims.rhsIdx
  rw [dif_neg (show ¬(1 : Fin Cert.ReferenceIdeal.S128x128.rank) ∈ Cert.ReferenceIdeal.dot_S50000x128_S128x128_S50000x128_1_0_0_1_n_n.rhsBatch by decide), dif_pos (show (1 : Fin Cert.ReferenceIdeal.S128x128.rank) ∈ Cert.ReferenceIdeal.dot_S50000x128_S128x128_S50000x128_1_0_0_1_n_n.rhsNonContracting by decide)]
  rfl

/-! ## Either side at an index -/

/-- THE REFERENCE at row r, column q: the sum over k of (X (r, k) · n (r, 0)) · W (k, q). -/
theorem linear_apply_lin (X : FVec Ideal Cert.ReferenceIdeal.S50000x128 .f32) (n : FVec Ideal Cert.ReferenceIdeal.S50000x1 .f32)
    (W : FVec Ideal Cert.ReferenceIdeal.S128x128 .f32) (r : Fin 50000) (q : Fin 128) :
    Cert.Bridge.linear X n W (ix2 r q) = ∑ k : Fin 128, (X (ix2 r k) * n (ix2 r (0 : Fin 1))) * W (ix2 k q) := by
  unfold Cert.Bridge.linear
  simp only [Host.dotGeneral]
  rw [Ideal.dotGeneral_apply, ← Equiv.sum_comp (ValueIdx.contrEquiv1 Cert.ReferenceIdeal.dot_S50000x128_S128x128_S50000x128_1_0_0_1_n_n 128 rfl rfl).symm]
  refine Finset.sum_congr rfl fun k _ => ?_
  have hk := ValueIdx.contrEquiv1_symm_val Cert.ReferenceIdeal.dot_S50000x128_S128x128_S50000x128_1_0_0_1_n_n 128 rfl rfl k
  have el : Cert.ReferenceIdeal.dot_S50000x128_S128x128_S50000x128_1_0_0_1_n_n.lhsIdx (ix2 r q) ((ValueIdx.contrEquiv1 Cert.ReferenceIdeal.dot_S50000x128_S128x128_S50000x128_1_0_0_1_n_n 128 rfl rfl).symm k) = ix2 r k := funext fun a => Fin.ext (by
    match a with
    | ⟨0, _⟩ => exact wholedot_lhs_row_lin _ _
    | ⟨1, _⟩ => exact (wholedot_lhs_col_lin _ _).trans hk)
  have er : Cert.ReferenceIdeal.dot_S50000x128_S128x128_S50000x128_1_0_0_1_n_n.rhsIdx (ix2 r q) ((ValueIdx.contrEquiv1 Cert.ReferenceIdeal.dot_S50000x128_S128x128_S50000x128_1_0_0_1_n_n 128 rfl rfl).symm k) = ix2 k q := funext fun a => Fin.ext (by
    match a with
    | ⟨0, _⟩ => exact (wholedot_rhs_row_lin _ _).trans hk
    | ⟨1, _⟩ => exact wholedot_rhs_col_lin _ _)
  rw [el, er, mulf_apply]
  congr 2
  exact broadcastInDim_apply _ Cert.ReferenceIdeal.Gen.bcast_S50000x1_S50000x128_0_1 n (ix2 r k) (ix2 r (0 : Fin 1)) (fun a => match a with
    | ⟨0, _⟩ => by show r.val = if (50000 : Nat) = 1 then 0 else r.val; rw [if_neg (by decide)]
    | ⟨1, _⟩ => by show 0 = if (1 : Nat) = 1 then 0 else k.val; rw [if_pos rfl])

/-- THE KERNEL'S BLOCK at row p, column q, from the three loaded blocks: the sum over k of
    (x (p, k) · s (p, 0)) · w (k, q) — the changes of float format are the identity at the extended reals, the
    column of scales is read in the row's own entry, and the product adds onto zero. -/
theorem payload_apply_lin (x0 : Vec Ideal S5000x128 .f32) (x1 : Vec Ideal S5000x1 .f32) (x2 : Vec Ideal S128x128 .f32)
    (p : Fin 5000) (q : Fin 128) :
    k0_pay1 x0 x1 x2 (ix2 p q) = ∑ k : Fin 128, (x0 (ix2 p k) * x1 (ix2 p (0 : Fin 1))) * x2 (ix2 k q) := by
  unfold k0_pay1
  refine (Ideal.matmul_constant_zero_apply dot_S5000x128_S128x128_S5000x128_1_0_0_1_n_n none _ _ (ix2 p q)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact blockdot_lhs_row_lin _ _
    | ⟨1, _⟩ => exact (blockdot_lhs_col_lin _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (blockdot_rhs_row_lin _ _).trans hk
    | ⟨1, _⟩ => exact blockdot_rhs_col_lin _ _)
  rw [el, er, truncf_apply, truncf_apply, mulf_apply, shapeCast_self]
  congr 2
  exact broadcastTo_apply x1 broadcasts_S5000x1_S5000x128 (ix2 p k) (ix2 p (0 : Fin 1)) (fun a => match a with
    | ⟨0, _⟩ => by show p.val = if (5000 : Nat) = 1 then 0 else p.val; rw [if_neg (by decide)]
    | ⟨1, _⟩ => by show 0 = if (1 : Nat) = 1 then 0 else k.val; rw [if_pos rfl])

/-! ## From the blocks to the array -/

theorem zero_offsets_lin : (![0, 0] : Fin 2 → Nat) = fun _ => 0 := funext fun a => by fin_cases a <;> rfl

/-- The printed index maps, decided once over the ten grid points: the row-blocked windows are at block row `t`,
    block column 0; the weight's window is at block (0, 0) at every point. -/
theorem index_facts_lin : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Entry (p, k) of the feature window's block at point `t` is the array's entry (5000 t + p, k). -/
theorem features_block_lin (c : Dev nD) (t : Fin cfg0.N) (p : Fin 5000) (k : Fin 128) (i : Cert.ReferenceIdeal.S50000x128.Idx)
    (hi0 : (i 0).val = 5000 * t.val + p.val) (hi1 : (i 1).val = k.val) :
    (iblk0 V c 0 t : Vec Ideal S5000x128 .f32) (ix2 p k)
      = (V c (Pipeline.arrRef spec0 0) : Cert.ReferenceIdeal.S50000x128.Idx → Elt Ideal .f32) i := by
  obtain ⟨e0, e1, -⟩ := index_facts_lin t
  unfold iblk0
  rw [View.read_apply]
  show (V c (Pipeline.arrRef spec0 0) : Cert.ReferenceIdeal.S50000x128.Idx → Elt Ideal .f32) _ = _
  refine congrArg _ (funext fun a => Fin.ext ?_)
  match a with
  | ⟨0, _⟩ => show win0_0.index t (0 : Fin 2) * 5000 + 1 * p.val = (i 0).val; rw [e0, hi0]; omega
  | ⟨1, _⟩ => show win0_0.index t (1 : Fin 2) * 128 + 1 * k.val = (i 1).val; rw [e1, hi1]; omega

/-- Entry (p, 0) of the scale window's block at point `t` is the column's entry (5000 t + p, 0). -/
theorem scales_block_lin (c : Dev nD) (t : Fin cfg0.N) (p : Fin 5000) (z : Fin 1) (i : Cert.ReferenceIdeal.S50000x1.Idx)
    (hi0 : (i 0).val = 5000 * t.val + p.val) :
    (iblk0 V c 1 t : Vec Ideal S5000x1 .f32) (ix2 p z)
      = (V c (Pipeline.arrRef spec0 1) : Cert.ReferenceIdeal.S50000x1.Idx → Elt Ideal .f32) i := by
  obtain ⟨-, -, e0, e1, -⟩ := index_facts_lin t
  unfold iblk0
  rw [View.read_apply]
  show (V c (Pipeline.arrRef spec0 1) : Cert.ReferenceIdeal.S50000x1.Idx → Elt Ideal .f32) _ = _
  refine congrArg _ (funext fun a => Fin.ext ?_)
  match a with
  | ⟨0, _⟩ => show win0_1.index t (0 : Fin 2) * 5000 + 1 * p.val = (i 0).val; rw [e0, hi0]; omega
  | ⟨1, _⟩ =>
    show win0_1.index t (1 : Fin 2) * 1 + 1 * z.val = (i 1).val
    have h1 : (i 1).val < 1 := (i 1).isLt
    have hz : z.val < 1 := z.isLt
    rw [e1]; omega

/-- The weight window's block at every point is the whole weight. -/
theorem weight_block_lin (c : Dev nD) (t : Fin cfg0.N) (k : Fin 128) (q : Fin 128) :
    (iblk0 V c 2 t : Vec Ideal S128x128 .f32) (ix2 k q)
      = (V c (Pipeline.arrRef spec0 2) : Cert.ReferenceIdeal.S128x128.Idx → Elt Ideal .f32) (ix2 k q) := by
  obtain ⟨-, -, -, -, e0, e1, -⟩ := index_facts_lin t
  unfold iblk0
  rw [View.read_apply]
  show (V c (Pipeline.arrRef spec0 2) : Cert.ReferenceIdeal.S128x128.Idx → Elt Ideal .f32) _ = _
  refine congrArg _ (funext fun a => Fin.ext ?_)
  match a with
  | ⟨0, _⟩ => show win0_2.index t (0 : Fin 2) * 128 + 1 * k.val = k.val; rw [e0]; omega
  | ⟨1, _⟩ => show win0_2.index t (1 : Fin 2) * 128 + 1 * q.val = q.val; rw [e1]; omega

/-- WHAT POINT `t` WRITES BACK is block `t` of `(X ⊙ n) · W` of the arrays as the region finds them: at (p, q) both
    are the sum over k of (X (5000 t + p, k) · n (5000 t + p, 0)) · W (k, q). -/
theorem flushed_lin (c : Dev nD) (t : Fin cfg0.N) :
    (dat0 V c).flushed 3 t = ((cfg0.win 3).blk t).view.read (Elt Ideal)
      (Cert.Bridge.linear (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero zero_offsets_lin]
  simp only [View.ld_unit_zero (S := S5000x128) zero_offsets_lin, View.ld_unit_zero (S := S5000x1) zero_offsets_lin,
    View.ld_unit_zero (S := S128x128) zero_offsets_lin]
  obtain ⟨-, -, -, -, -, -, e0, e1⟩ := index_facts_lin t
  have ht : t.val < 10 := lt_of_lt_of_eq t.isLt N_0
  funext j
  obtain ⟨p, q, rfl⟩ : ∃ (p : Fin 5000) (q : Fin 128), j = ix2 p q := ⟨j 0, j 1, eq_ix2 j⟩
  have hp : p.val < 5000 := p.isLt
  have hemb : ((cfg0.win 3).blk t).view.emb (ix2 p q)
      = (ix2 (⟨5000 * t.val + p.val, by omega⟩ : Fin 50000) q : Cert.ReferenceIdeal.S50000x128.Idx) := by
    funext a; apply Fin.ext
    match a with
    | ⟨0, _⟩ => show win0_3.index t (0 : Fin 2) * 5000 + 1 * p.val = 5000 * t.val + p.val; rw [e0]; omega
    | ⟨1, _⟩ => show win0_3.index t (1 : Fin 2) * 128 + 1 * q.val = q.val; rw [e1]; omega
  rw [View.read_apply, hemb]
  show k0_pay1 (iblk0 V c 0 t) (iblk0 V c 1 t) (iblk0 V c 2 t) (ix2 p q) = Cert.Bridge.linear _ _ _ (ix2 _ q)
  rw [payload_apply_lin, linear_apply_lin]
  refine Finset.sum_congr rfl fun k _ => ?_
  rw [features_block_lin V c t p k (ix2 (⟨5000 * t.val + p.val, by omega⟩ : Fin 50000) k) rfl rfl,
    scales_block_lin V c t p 0 (ix2 (⟨5000 * t.val + p.val, by omega⟩ : Fin 50000) (0 : Fin 1)) rfl,
    weight_block_lin V c t k q]

/-- An index of the array is in point `t`'s block iff each coordinate is in the block's range on its axis. -/
theorem mem_block_lin (t : Fin cfg0.N) (i : Cert.KernelIdeal.S50000x128.Idx) :
    i ∈ ((cfg0.win 3).blk t).view.set ↔ ∀ a : Fin 2, win0_3.index t a * S5000x128.size a ≤ (i a).val ∧ (i a).val < win0_3.index t a * S5000x128.size a + S5000x128.size a := by
  have hset : ((cfg0.win 3).blk t).view.set = (win0_3.rect t).set := View.set_slice_whole _ _
  rw [hset, Rect.mem_set_unit]
  exact Iff.rfl

/-- Every block row is some point's. -/
theorem index_onto_lin : ∀ b : Fin 10, ∃ t : Fin cfg0.N, win0_3.index t = ![b.val, 0] :=
  (by decide +kernel : ∀ b : Fin 10, ∃ t : Fin grid0.N, win0_3.index t = ![b.val, 0])

/-- The ten row blocks tile the array: row r is in the block of the point at block row r / 5000. -/
theorem cover_lin (i : Cert.KernelIdeal.S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ := index_onto_lin ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_block_lin]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- REGION 0. With the region's three input arrays named — the node features `X`, the column of source norms `n`, the
    weight `W` — the array of output window 3 after the region's ten grid points is `(X ⊙ n) · W`, whole: grid point
    `t` computes rows `5000 t … 5000 t + 4999` of it from the same rows of `X` and `n` and all of `W`, and the ten row
    blocks tile the array. -/
theorem region0_value (c : Dev nD)
    (X : FVec Ideal Cert.ReferenceIdeal.S50000x128 .f32) (n : FVec Ideal Cert.ReferenceIdeal.S50000x1 .f32)
    (W : FVec Ideal Cert.ReferenceIdeal.S128x128 .f32)
    (hX : V c (Pipeline.arrRef spec0 0) = X) (hn : V c (Pipeline.arrRef spec0 1) = n)
    (hW : V c (Pipeline.arrRef spec0 2) = W) :
    (dat0 V c).arrAt 3 cfg0.N = Cert.Bridge.linear X n W := by
  subst hX hn hW
  exact (dat0 V c).arrAt_eq_of_cover 3 _ (fun t _ => flushed_lin V c t) cover_lin

end Cert.KernelIdeal.Vals

end
-- ==== Proof.RegionPost.lean ====
import proofs.«418930_j66125316489906_3_alg».proof.Proof.Gen.KernelIdeal.Frame
import proofs.«418930_j66125316489906_3_alg».proof.Proof.Spec
import proofs.«418930_j66125316489906_3_alg».proof.Proof.Lemmas
import Idealize.ShloMosaic.Lib.Pipeline.Value
import Idealize.ShloMosaic.Lib.ValueIdx
import Idealize.ShloMosaic.PureOps.Ideal.Laws

set_option maxRecDepth 16384

noncomputable section

namespace Cert.KernelIdeal.Vals

open Idealize.ShloMosaic Idealize.ShloMosaic.TcCoe Idealize.SL.Sem Idealize.ShloMosaic.ValueIdx
open Idealize.ShloMosaic.Pipeline (Dat Cfg Window)
open Cert.KernelIdeal Cert.KernelIdeal.Gen

variable (V : (c : Dev nD) → (b : Ref sig .tc) → Buf (Elt Ideal) ((c : Thread nD τ).loc b))

/-- The epilogue at an index: row r of A scaled by the norm of row r, the bias of column q added, cut at zero (the
    reference's zero is a rank-0 constant broadcast to the array: it reads the constant's word at every index). -/
theorem epilogue_apply_post (A : FVec Ideal Cert.ReferenceIdeal.S50000x128 .f32) (nd : FVec Ideal Cert.ReferenceIdeal.S50000x1 .f32)
    (b : FVec Ideal Cert.ReferenceIdeal.S1x128 .f32) (r : Fin 50000) (q : Fin 128) :
    Cert.Bridge.epilogue A nd b (ix2 r q)
      = max (A (ix2 r q) * nd (ix2 r (0 : Fin 1)) + b (ix2 (0 : Fin 1) q)) (Ideal.ofBits .f32 0x00000000#32) := by
  unfold Cert.Bridge.epilogue
  rw [maximumf_apply, addf_apply, mulf_apply]
  rw [broadcastInDim_apply ![0, 1] Cert.ReferenceIdeal.Gen.bcast_S50000x1_S50000x128_0_1 nd (ix2 r q) (ix2 r (0 : Fin 1)) (fun a => match a with
    | ⟨0, _⟩ => by show r.val = if (50000 : Nat) = 1 then 0 else r.val; rw [if_neg (by decide)]
    | ⟨1, _⟩ => by show 0 = if (1 : Nat) = 1 then 0 else q.val; rw [if_pos rfl])]
  rw [broadcastInDim_apply ![0, 1] Cert.ReferenceIdeal.Gen.bcast_S1x128_S50000x128_0_1 b (ix2 r q) (ix2 (0 : Fin 1) q) (fun a => match a with
    | ⟨0, _⟩ => by show 0 = if (1 : Nat) = 1 then 0 else r.val; rw [if_pos rfl]
    | ⟨1, _⟩ => by show q.val = if (128 : Nat) = 1 then 0 else q.val; rw [if_neg (by decide)])]
  rw [broadcastInDim_apply ![] Cert.ReferenceIdeal.Gen.bcast_S_S50000x128 (constant (F := Ideal) Cert.ReferenceIdeal.S_ .f32 0x00000000#32) (ix2 r q) ix0 (fun a => a.elim0)]
  rfl

/-- The kernel's first payload at an index of the block: the same expression of the loaded blocks (the kernel's zero is
    a scalar splat of the same word). -/
theorem payH_apply_post (x0 : Vec Ideal S5000x128 .f32) (x1 : Vec Ideal S5000x1 .f32) (x2 : Vec Ideal S1x128 .f32)
    (p : Fin 5000) (q : Fin 128) :
    k1_pay1 x0 x1 x2 (ix2 p q)
      = max (x0 (ix2 p q) * x1 (ix2 p (0 : Fin 1)) + x2 (ix2 (0 : Fin 1) q)) (Ideal.ofBits .f32 0x00000000#32) := by
  unfold k1_pay1
  rw [maximumf_apply, addf_apply, mulf_apply, shapeCast_self, shapeCast_self, shapeCast_self]
  rw [broadcastTo_apply x1 broadcasts_S5000x1_S5000x128 (ix2 p q) (ix2 p (0 : Fin 1)) (fun a => match a with
    | ⟨0, _⟩ => by show p.val = if (5000 : Nat) = 1 then 0 else p.val; rw [if_neg (by decide)]
    | ⟨1, _⟩ => by show 0 = if (1 : Nat) = 1 then 0 else q.val; rw [if_pos rfl])]
  rw [broadcastTo_apply x2 broadcasts_S1x128_S5000x128 (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])]
  rfl

/-! The kernel's matrix product (one contracted axis: columns of the left operand against rows of the right):
    the operand indices at output index (p, q) and contraction coordinate k are (p, k) and (k, q). -/
theorem lhs_mm_post_row (i : S5000x128.Idx) (q : Cert.KernelIdeal.dot_S5000x128_S128x128_S5000x128_1_0_0_1_n_n.contr.Idx) :
    (Cert.KernelIdeal.dot_S5000x128_S128x128_S5000x128_1_0_0_1_n_n.lhsIdx i q 0).val = (i 0).val := by
  unfold DotDims.lhsIdx
  rw [dif_neg (show ¬(0 : Fin S5000x128.rank) ∈ Cert.KernelIdeal.dot_S5000x128_S128x128_S5000x128_1_0_0_1_n_n.lhsBatch by decide), dif_pos (show (0 : Fin S5000x128.rank) ∈ Cert.KernelIdeal.dot_S5000x128_S128x128_S5000x128_1_0_0_1_n_n.lhsNonContracting by decide)]
  rfl
theorem lhs_mm_post_col (i : S5000x128.Idx) (q : Cert.KernelIdeal.dot_S5000x128_S128x128_S5000x128_1_0_0_1_n_n.contr.Idx) :
    (Cert.KernelIdeal.dot_S5000x128_S128x128_S5000x128_1_0_0_1_n_n.lhsIdx i q 1).val = (q ⟨0, by decide⟩).val :=
  Cert.KernelIdeal.dot_S5000x128_S128x128_S5000x128_1_0_0_1_n_n.lhsIdx_val_of_single rfl i q
theorem rhs_mm_post_row (i : S5000x128.Idx) (q : Cert.KernelIdeal.dot_S5000x128_S128x128_S5000x128_1_0_0_1_n_n.contr.Idx) :
    (Cert.KernelIdeal.dot_S5000x128_S128x128_S5000x128_1_0_0_1_n_n.rhsIdx i q 0).val = (q ⟨0, by decide⟩).val :=
  Cert.KernelIdeal.dot_S5000x128_S128x128_S5000x128_1_0_0_1_n_n.rhsIdx_val_of_single rfl i q
theorem rhs_mm_post_col (i : S5000x128.Idx) (q : Cert.KernelIdeal.dot_S5000x128_S128x128_S5000x128_1_0_0_1_n_n.contr.Idx) :
    (Cert.KernelIdeal.dot_S5000x128_S128x128_S5000x128_1_0_0_1_n_n.rhsIdx i q 1).val = (i 1).val := by
  unfold DotDims.rhsIdx
  rw [dif_neg (show ¬(1 : Fin S128x128.rank) ∈ Cert.KernelIdeal.dot_S5000x128_S128x128_S5000x128_1_0_0_1_n_n.rhsBatch by decide), dif_pos (show (1 : Fin S128x128.rank) ∈ Cert.KernelIdeal.dot_S5000x128_S128x128_S5000x128_1_0_0_1_n_n.rhsNonContracting by decide)]
  rfl

/-- The kernel's product into the zero accumulator, at an index: the sum over the contracted axis. -/
theorem matmul_apply_post (l : FVec Ideal S5000x128 .bf16) (r : FVec Ideal S128x128 .bf16) (p : Fin 5000) (q : Fin 128) :
    matmul Cert.KernelIdeal.dot_S5000x128_S128x128_S5000x128_1_0_0_1_n_n none l r (constant S5000x128 .f32 0x00000000#32) (ix2 p q)
      = ∑ k : Fin 128, l (ix2 p k) * r (ix2 k q) := by
  refine (Ideal.matmul_constant_zero_apply Cert.KernelIdeal.dot_S5000x128_S128x128_S5000x128_1_0_0_1_n_n none l r (ix2 p q)).trans ?_
  rw [← Equiv.sum_comp (ValueIdx.contrEquiv1 Cert.KernelIdeal.dot_S5000x128_S128x128_S5000x128_1_0_0_1_n_n 128 rfl rfl).symm]
  refine Finset.sum_congr rfl fun k _ => ?_
  have hk := ValueIdx.contrEquiv1_symm_val Cert.KernelIdeal.dot_S5000x128_S128x128_S5000x128_1_0_0_1_n_n 128 rfl rfl k
  have el : Cert.KernelIdeal.dot_S5000x128_S128x128_S5000x128_1_0_0_1_n_n.lhsIdx (ix2 p q) ((ValueIdx.contrEquiv1 Cert.KernelIdeal.dot_S5000x128_S128x128_S5000x128_1_0_0_1_n_n 128 rfl rfl).symm k) = ix2 p k := funext fun a => Fin.ext (by
    match a with
    | ⟨0, _⟩ => exact lhs_mm_post_row _ _
    | ⟨1, _⟩ => exact (lhs_mm_post_col _ _).trans hk)
  have er : Cert.KernelIdeal.dot_S5000x128_S128x128_S5000x128_1_0_0_1_n_n.rhsIdx (ix2 p q) ((ValueIdx.contrEquiv1 Cert.KernelIdeal.dot_S5000x128_S128x128_S5000x128_1_0_0_1_n_n 128 rfl rfl).symm k) = ix2 k q := funext fun a => Fin.ext (by
    match a with
    | ⟨0, _⟩ => exact (rhs_mm_post_row _ _).trans hk
    | ⟨1, _⟩ => exact rhs_mm_post_col _ _)
  rw [el, er]

/-- The second payload at an index: the epilogue's row scaled by the source norm, times the weight. -/
theorem payX_apply_post (x0 : Vec Ideal S5000x128 .f32) (x1 : Vec Ideal S5000x1 .f32) (x2 : Vec Ideal S1x128 .f32)
    (x3 : Vec Ideal S5000x1 .f32) (x4 : Vec Ideal S128x128 .f32) (p : Fin 5000) (q : Fin 128) :
    k1_pay2 x0 x1 x2 x3 x4 (ix2 p q)
      = ∑ k : Fin 128, (k1_pay1 x0 x1 x2 (ix2 p k) * x3 (ix2 p (0 : Fin 1))) * x4 (ix2 k q) := by
  unfold k1_pay2
  rw [truncf_apply]
  refine (matmul_apply_post _ _ p q).trans ?_
  refine Finset.sum_congr rfl fun k _ => ?_
  rw [truncf_apply, truncf_apply, mulf_apply, shapeCast_self]
  rw [broadcastTo_apply x3 broadcasts_S5000x1_S5000x128 (ix2 p k) (ix2 p (0 : Fin 1)) (fun a => match a with
    | ⟨0, _⟩ => by show p.val = if (5000 : Nat) = 1 then 0 else p.val; rw [if_neg (by decide)]
    | ⟨1, _⟩ => by show 0 = if (1 : Nat) = 1 then 0 else k.val; rw [if_pos rfl])]

/-! The reference's product: the same operand indices over the whole array. -/
theorem lhs_dg_post_row (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.lhsIdx i q 0).val = (i 0).val := by
  unfold DotDims.lhsIdx
  rw [dif_neg (show ¬(0 : Fin Cert.ReferenceIdeal.S50000x128.rank) ∈ Cert.ReferenceIdeal.dot_S50000x128_S128x128_S50000x128_1_0_0_1_n_n.lhsBatch by decide), dif_pos (show (0 : Fin Cert.ReferenceIdeal.S50000x128.rank) ∈ Cert.ReferenceIdeal.dot_S50000x128_S128x128_S50000x128_1_0_0_1_n_n.lhsNonContracting by decide)]
  rfl
theorem lhs_dg_post_col (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.lhsIdx i q 1).val = (q ⟨0, by decide⟩).val :=
  Cert.ReferenceIdeal.dot_S50000x128_S128x128_S50000x128_1_0_0_1_n_n.lhsIdx_val_of_single rfl i q
theorem rhs_dg_post_row (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.rhsIdx i q 0).val = (q ⟨0, by decide⟩).val :=
  Cert.ReferenceIdeal.dot_S50000x128_S128x128_S50000x128_1_0_0_1_n_n.rhsIdx_val_of_single rfl i q
theorem rhs_dg_post_col (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.rhsIdx i q 1).val = (i 1).val := by
  unfold DotDims.rhsIdx
  rw [dif_neg (show ¬(1 : Fin Cert.ReferenceIdeal.S128x128.rank) ∈ Cert.ReferenceIdeal.dot_S50000x128_S128x128_S50000x128_1_0_0_1_n_n.rhsBatch by decide), dif_pos (show (1 : Fin Cert.ReferenceIdeal.S128x128.rank) ∈ Cert.ReferenceIdeal.dot_S50000x128_S128x128_S50000x128_1_0_0_1_n_n.rhsNonContracting by decide)]
  rfl

/-- The next layer's message at an index: row r of X scaled by n r, against column q of W. -/
theorem linear_apply_post (X : FVec Ideal Cert.ReferenceIdeal.S50000x128 .f32) (n : FVec Ideal Cert.ReferenceIdeal.S50000x1 .f32)
    (W : FVec Ideal Cert.ReferenceIdeal.S128x128 .f32) (r : Fin 50000) (q : Fin 128) :
    Cert.Bridge.linear X n W (ix2 r q) = ∑ k : Fin 128, (X (ix2 r k) * n (ix2 r (0 : Fin 1))) * W (ix2 k q) := by
  unfold Cert.Bridge.linear
  simp only [Host.dotGeneral]
  rw [Ideal.dotGeneral_apply, ← Equiv.sum_comp (ValueIdx.contrEquiv1 Cert.ReferenceIdeal.dot_S50000x128_S128x128_S50000x128_1_0_0_1_n_n 128 rfl rfl).symm]
  refine Finset.sum_congr rfl fun k _ => ?_
  have hk := ValueIdx.contrEquiv1_symm_val Cert.ReferenceIdeal.dot_S50000x128_S128x128_S50000x128_1_0_0_1_n_n 128 rfl rfl k
  have el : Cert.ReferenceIdeal.dot_S50000x128_S128x128_S50000x128_1_0_0_1_n_n.lhsIdx (ix2 r q) ((ValueIdx.contrEquiv1 Cert.ReferenceIdeal.dot_S50000x128_S128x128_S50000x128_1_0_0_1_n_n 128 rfl rfl).symm k) = ix2 r k := funext fun a => Fin.ext (by
    match a with
    | ⟨0, _⟩ => exact lhs_dg_post_row _ _
    | ⟨1, _⟩ => exact (lhs_dg_post_col _ _).trans hk)
  have er : Cert.ReferenceIdeal.dot_S50000x128_S128x128_S50000x128_1_0_0_1_n_n.rhsIdx (ix2 r q) ((ValueIdx.contrEquiv1 Cert.ReferenceIdeal.dot_S50000x128_S128x128_S50000x128_1_0_0_1_n_n 128 rfl rfl).symm k) = ix2 k q := funext fun a => Fin.ext (by
    match a with
    | ⟨0, _⟩ => exact (rhs_dg_post_row _ _).trans hk
    | ⟨1, _⟩ => exact rhs_dg_post_col _ _)
  rw [el, er, mulf_apply]
  rw [broadcastInDim_apply ![0, 1] Cert.ReferenceIdeal.Gen.bcast_S50000x1_S50000x128_0_1 n (ix2 r k) (ix2 r (0 : Fin 1)) (fun a => match a with
    | ⟨0, _⟩ => by show r.val = if (50000 : Nat) = 1 then 0 else r.val; rw [if_neg (by decide)]
    | ⟨1, _⟩ => by show 0 = if (1 : Nat) = 1 then 0 else k.val; rw [if_pos rfl])]

theorem hz_post : (![0, 0] : Fin 2 → Nat) = fun _ => 0 := funext fun a => by fin_cases a <;> rfl

/-- The printed index maps, decided over the grid: the row-blocked windows sit at block (t, 0), the whole-array windows at
    block (0, 0); the grid has ten points. -/
theorem idx_facts_post : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0
    ∧ t.val < 10 :=
  (by decide +kernel : ∀ t : Fin grid1.N, _)

/-- Block t of the aggregated messages is rows 5000 t … 5000 t + 4999 of the array. -/
theorem blkA_post (c : Dev nD) (t : Fin cfg1.N) (X : FVec Ideal Cert.KernelIdeal.S50000x128 .f32)
    (hX : V c (Pipeline.arrRef spec1 0) = X) (p : Fin 5000) (q : Fin 128) (r : Fin 50000) (hr : r.val = 5000 * t.val + p.val) :
    (iblk1 V c 0 t : Vec Ideal S5000x128 .f32) (ix2 p q) = X (ix2 r q) := by
  subst hX
  obtain ⟨e0, e1, -⟩ := idx_facts_post t
  unfold iblk1
  rw [View.read_apply]
  show V c (Pipeline.arrRef spec1 0) _ = V c (Pipeline.arrRef spec1 0) _
  congr 1
  funext a; apply Fin.ext
  match a with
  | ⟨0, _⟩ => show win1_0.index t (0 : Fin 2) * 5000 + 1 * p.val = r.val; omega
  | ⟨1, _⟩ => show win1_0.index t (1 : Fin 2) * 128 + 1 * q.val = q.val; omega

/-- Block t of the destination norms is rows 5000 t … of the column. -/
theorem blkNd_post (c : Dev nD) (t : Fin cfg1.N) (X : FVec Ideal Cert.KernelIdeal.S50000x1 .f32)
    (hX : V c (Pipeline.arrRef spec1 1) = X) (p : Fin 5000) (r : Fin 50000) (hr : r.val = 5000 * t.val + p.val) :
    (iblk1 V c 1 t : Vec Ideal S5000x1 .f32) (ix2 p (0 : Fin 1)) = X (ix2 r (0 : Fin 1)) := by
  subst hX
  obtain ⟨-, -, e0, e1, -⟩ := idx_facts_post t
  unfold iblk1
  rw [View.read_apply]
  show V c (Pipeline.arrRef spec1 1) _ = V c (Pipeline.arrRef spec1 1) _
  congr 1
  funext a; apply Fin.ext
  match a with
  | ⟨0, _⟩ => show win1_1.index t (0 : Fin 2) * 5000 + 1 * p.val = r.val; omega
  | ⟨1, _⟩ => show win1_1.index t (1 : Fin 2) * 1 + 1 * 0 = 0; omega

/-- The bias row's one block is the row. -/
theorem blkB_post (c : Dev nD) (t : Fin cfg1.N) (X : FVec Ideal Cert.KernelIdeal.S1x128 .f32)
    (hX : V c (Pipeline.arrRef spec1 2) = X) (q : Fin 128) :
    (iblk1 V c 2 t : Vec Ideal S1x128 .f32) (ix2 (0 : Fin 1) q) = X (ix2 (0 : Fin 1) q) := by
  subst hX
  obtain ⟨-, -, -, -, e0, e1, -⟩ := idx_facts_post t
  unfold iblk1
  rw [View.read_apply]
  show V c (Pipeline.arrRef spec1 2) _ = V c (Pipeline.arrRef spec1 2) _
  congr 1
  funext a; apply Fin.ext
  match a with
  | ⟨0, _⟩ => show win1_2.index t (0 : Fin 2) * 1 + 1 * 0 = 0; omega
  | ⟨1, _⟩ => show win1_2.index t (1 : Fin 2) * 128 + 1 * q.val = q.val; omega

/-- Block t of the source norms is rows 5000 t … of the column. -/
theorem blkNs_post (c : Dev nD) (t : Fin cfg1.N) (X : FVec Ideal Cert.KernelIdeal.S50000x1 .f32)
    (hX : V c (Pipeline.arrRef spec1 3) = X) (p : Fin 5000) (r : Fin 50000) (hr : r.val = 5000 * t.val + p.val) :
    (iblk1 V c 3 t : Vec Ideal S5000x1 .f32) (ix2 p (0 : Fin 1)) = X (ix2 r (0 : Fin 1)) := by
  subst hX
  obtain ⟨-, -, -, -, -, -, e0, e1, -⟩ := idx_facts_post t
  unfold iblk1
  rw [View.read_apply]
  show V c (Pipeline.arrRef spec1 3) _ = V c (Pipeline.arrRef spec1 3) _
  congr 1
  funext a; apply Fin.ext
  match a with
  | ⟨0, _⟩ => show win1_3.index t (0 : Fin 2) * 5000 + 1 * p.val = r.val; omega
  | ⟨1, _⟩ => show win1_3.index t (1 : Fin 2) * 1 + 1 * 0 = 0; omega

/-- The weight's one block is the weight. -/
theorem blkW_post (c : Dev nD) (t : Fin cfg1.N) (X : FVec Ideal Cert.KernelIdeal.S128x128 .f32)
    (hX : V c (Pipeline.arrRef spec1 4) = X) (k : Fin 128) (q : Fin 128) :
    (iblk1 V c 4 t : Vec Ideal S128x128 .f32) (ix2 k q) = X (ix2 k q) := by
  subst hX
  obtain ⟨-, -, -, -, -, -, -, -, e0, e1, -⟩ := idx_facts_post t
  unfold iblk1
  rw [View.read_apply]
  show V c (Pipeline.arrRef spec1 4) _ = V c (Pipeline.arrRef spec1 4) _
  congr 1
  funext a; apply Fin.ext
  match a with
  | ⟨0, _⟩ => show win1_4.index t (0 : Fin 2) * 128 + 1 * k.val = k.val; omega
  | ⟨1, _⟩ => show win1_4.index t (1 : Fin 2) * 128 + 1 * q.val = q.val; omega

/-- The kernel's first payload at block index (p, q) of point t is the epilogue at row 5000 t + p. -/
theorem payH_blk_post (c : Dev nD)
    (A : FVec Ideal Cert.ReferenceIdeal.S50000x128 .f32) (nd : FVec Ideal Cert.ReferenceIdeal.S50000x1 .f32)
    (b : FVec Ideal Cert.ReferenceIdeal.S1x128 .f32)
    (hA : V c (Pipeline.arrRef spec1 0) = A) (hnd : V c (Pipeline.arrRef spec1 1) = nd)
    (hb : V c (Pipeline.arrRef spec1 2) = b) (t : Fin cfg1.N) (p : Fin 5000) (q : Fin 128) (r : Fin 50000)
    (hr : r.val = 5000 * t.val + p.val) :
    k1_pay1 (iblk1 V c 0 t) (iblk1 V c 1 t) (iblk1 V c 2 t) (ix2 p q) = Cert.Bridge.epilogue A nd b (ix2 r q) := by
  refine (payH_apply_post _ _ _ p q).trans ?_
  rw [blkA_post V c t A hA p q r hr, blkNd_post V c t nd hnd p r hr, blkB_post V c t b hb q]
  exact (epilogue_apply_post A nd b r q).symm

/-- Element (p, q) of point t's block of window 5 sits at row 5000 t + p, column q of the array. -/
theorem embH_post (t : Fin cfg1.N) (p : Fin 5000) (q : Fin 128) (r : Fin 50000) (hr : r.val = 5000 * t.val + p.val) :
    ((cfg1.win 5).blk t).view.emb (ix2 p q) = ix2 r q := by
  obtain ⟨-, -, -, -, -, -, -, -, -, -, e0, e1, -⟩ := idx_facts_post t
  funext a; apply Fin.ext
  match a with
  | ⟨0, _⟩ => show win1_5.index t (0 : Fin 2) * 5000 + 1 * p.val = r.val; omega
  | ⟨1, _⟩ => show win1_5.index t (1 : Fin 2) * 128 + 1 * q.val = q.val; omega

/-- The same for window 6. -/
theorem embX_post (t : Fin cfg1.N) (p : Fin 5000) (q : Fin 128) (r : Fin 50000) (hr : r.val = 5000 * t.val + p.val) :
    ((cfg1.win 6).blk t).view.emb (ix2 p q) = ix2 r q := by
  obtain ⟨-, -, -, -, -, -, -, -, -, -, -, -, e0, e1, -⟩ := idx_facts_post t
  funext a; apply Fin.ext
  match a with
  | ⟨0, _⟩ => show win1_6.index t (0 : Fin 2) * 5000 + 1 * p.val = r.val; omega
  | ⟨1, _⟩ => show win1_6.index t (1 : Fin 2) * 128 + 1 * q.val = q.val; omega

/-- WHAT POINT t WRITES BACK through window 5 is block t of the epilogue. -/
theorem flushed_h_post (c : Dev nD)
    (A : FVec Ideal Cert.ReferenceIdeal.S50000x128 .f32) (nd : FVec Ideal Cert.ReferenceIdeal.S50000x1 .f32)
    (b : FVec Ideal Cert.ReferenceIdeal.S1x128 .f32)
    (hA : V c (Pipeline.arrRef spec1 0) = A) (hnd : V c (Pipeline.arrRef spec1 1) = nd)
    (hb : V c (Pipeline.arrRef spec1 2) = b) (t : Fin cfg1.N) :
    (dat1 V c).flushed 5 t = ((cfg1.win 5).blk t).view.read (Elt Ideal) (Cert.Bridge.epilogue A nd b) := by
  show (cfg1.win 5).cut (grid1.coords t) ((dat1 V c).after 5 t) = _
  rw [after1_5]
  unfold out1_5
  rw [View.canon_unit_zero hz_post]
  simp only [View.ld_unit_zero (S := S5000x128) hz_post, View.ld_unit_zero (S := S5000x1) hz_post, View.ld_unit_zero (S := S1x128) hz_post]
  funext j
  obtain ⟨p, q, rfl⟩ : ∃ (p : Fin 5000) (q : Fin 128), j = ix2 p q := ⟨j 0, j 1, eq_ix2 j⟩
  have ht : t.val < 10 := (idx_facts_post t).2.2.2.2.2.2.2.2.2.2.2.2.2.2
  have hp : p.val < 5000 := p.isLt
  obtain ⟨r, hr⟩ : ∃ r : Fin 50000, r.val = 5000 * t.val + p.val := ⟨⟨5000 * t.val + p.val, by omega⟩, rfl⟩
  show k1_pay1 (iblk1 V c 0 t) (iblk1 V c 1 t) (iblk1 V c 2 t) (ix2 p q)
    = Cert.Bridge.epilogue A nd b (((cfg1.win 5).blk t).view.emb (ix2 p q))
  exact (payH_blk_post V c A nd b hA hnd hb t p q r hr).trans
    (congrArg (Cert.Bridge.epilogue A nd b) (embH_post t p q r hr)).symm

/-- WHAT POINT t WRITES BACK through window 6 is block t of the next layer's message. -/
theorem flushed_x_post (c : Dev nD)
    (A : FVec Ideal Cert.ReferenceIdeal.S50000x128 .f32) (nd : FVec Ideal Cert.ReferenceIdeal.S50000x1 .f32)
    (b : FVec Ideal Cert.ReferenceIdeal.S1x128 .f32) (ns : FVec Ideal Cert.ReferenceIdeal.S50000x1 .f32)
    (W : FVec Ideal Cert.ReferenceIdeal.S128x128 .f32)
    (hA : V c (Pipeline.arrRef spec1 0) = A) (hnd : V c (Pipeline.arrRef spec1 1) = nd)
    (hb : V c (Pipeline.arrRef spec1 2) = b) (hns : V c (Pipeline.arrRef spec1 3) = ns)
    (hW : V c (Pipeline.arrRef spec1 4) = W) (t : Fin cfg1.N) :
    (dat1 V c).flushed 6 t
      = ((cfg1.win 6).blk t).view.read (Elt Ideal) (Cert.Bridge.linear (Cert.Bridge.epilogue A nd b) ns W) := by
  show (cfg1.win 6).cut (grid1.coords t) ((dat1 V c).after 6 t) = _
  rw [after1_6]
  unfold out1_6
  rw [View.canon_unit_zero hz_post]
  simp only [View.ld_unit_zero (S := S5000x128) hz_post, View.ld_unit_zero (S := S5000x1) hz_post, View.ld_unit_zero (S := S1x128) hz_post, View.ld_unit_zero (S := S128x128) hz_post]
  funext j
  obtain ⟨p, q, rfl⟩ : ∃ (p : Fin 5000) (q : Fin 128), j = ix2 p q := ⟨j 0, j 1, eq_ix2 j⟩
  have ht : t.val < 10 := (idx_facts_post t).2.2.2.2.2.2.2.2.2.2.2.2.2.2
  have hp : p.val < 5000 := p.isLt
  obtain ⟨r, hr⟩ : ∃ r : Fin 50000, r.val = 5000 * t.val + p.val := ⟨⟨5000 * t.val + p.val, by omega⟩, rfl⟩
  show k1_pay2 (iblk1 V c 0 t) (iblk1 V c 1 t) (iblk1 V c 2 t) (iblk1 V c 3 t) (iblk1 V c 4 t) (ix2 p q)
    = Cert.Bridge.linear (Cert.Bridge.epilogue A nd b) ns W (((cfg1.win 6).blk t).view.emb (ix2 p q))
  refine ((payX_apply_post _ _ _ _ _ p q).trans ?_).trans
    (congrArg (Cert.Bridge.linear (Cert.Bridge.epilogue A nd b) ns W) (embX_post t p q r hr)).symm
  rw [linear_apply_post]
  refine Finset.sum_congr rfl fun k _ => ?_
  rw [payH_blk_post V c A nd b hA hnd hb t p k r hr, blkNs_post V c t ns hns p r hr, blkW_post V c t W hW k q]

/-- The ten row blocks tile the array: row r is row r % 5000 of the block of point r / 5000. -/
theorem coverH_post (i : Cert.KernelIdeal.S50000x128.Idx) :
    ∃ t : Fin cfg1.N, (cfg1.win 5).flush t = true ∧ i ∈ ((cfg1.win 5).blk t).view.set := by
  obtain ⟨r, q, rfl⟩ : ∃ (r : Fin 50000) (q : Fin 128), i = ix2 r q := ⟨i 0, i 1, eq_ix2 i⟩
  have hr : r.val < 50000 := r.isLt
  have hN : grid1.N = 10 := N_1
  obtain ⟨t, ht⟩ : ∃ t : Fin cfg1.N, t.val = r.val / 5000 :=
    ⟨⟨r.val / 5000, by show _ < grid1.N; rw [hN]; omega⟩, rfl⟩
  obtain ⟨p, hp⟩ : ∃ p : Fin 5000, p.val = r.val % 5000 := ⟨⟨r.val % 5000, by omega⟩, rfl⟩
  refine ⟨t, flush1_5 t, ?_⟩
  have h := ((cfg1.win 5).blk t).view.emb_mem_set (ix2 p q)
  rw [embH_post t p q r (by omega)] at h
  exact h

/-- The same for window 6. -/
theorem coverX_post (i : Cert.KernelIdeal.S50000x128.Idx) :
    ∃ t : Fin cfg1.N, (cfg1.win 6).flush t = true ∧ i ∈ ((cfg1.win 6).blk t).view.set := by
  obtain ⟨r, q, rfl⟩ : ∃ (r : Fin 50000) (q : Fin 128), i = ix2 r q := ⟨i 0, i 1, eq_ix2 i⟩
  have hr : r.val < 50000 := r.isLt
  have hN : grid1.N = 10 := N_1
  obtain ⟨t, ht⟩ : ∃ t : Fin cfg1.N, t.val = r.val / 5000 :=
    ⟨⟨r.val / 5000, by show _ < grid1.N; rw [hN]; omega⟩, rfl⟩
  obtain ⟨p, hp⟩ : ∃ p : Fin 5000, p.val = r.val % 5000 := ⟨⟨r.val % 5000, by omega⟩, rfl⟩
  refine ⟨t, flush1_6 t, ?_⟩
  have h := ((cfg1.win 6).blk t).view.emb_mem_set (ix2 p q)
  rw [embX_post t p q r (by omega)] at h
  exact h

/-- REGION 1, first output (window 5): the layer's epilogue `relu (A ⊙ nd + b)` of the aggregated messages `A`, the column
    of destination norms `nd` and the bias row `b`, whole (ten row blocks of 5000 rows). -/
theorem region1_value_h (c : Dev nD)
    (A : FVec Ideal Cert.ReferenceIdeal.S50000x128 .f32) (nd : FVec Ideal Cert.ReferenceIdeal.S50000x1 .f32)
    (b : FVec Ideal Cert.ReferenceIdeal.S1x128 .f32) (ns : FVec Ideal Cert.ReferenceIdeal.S50000x1 .f32)
    (W : FVec Ideal Cert.ReferenceIdeal.S128x128 .f32)
    (hA : V c (Pipeline.arrRef spec1 0) = A) (hnd : V c (Pipeline.arrRef spec1 1) = nd)
    (hb : V c (Pipeline.arrRef spec1 2) = b) (hns : V c (Pipeline.arrRef spec1 3) = ns)
    (hW : V c (Pipeline.arrRef spec1 4) = W) :
    (dat1 V c).arrAt 5 cfg1.N = Cert.Bridge.epilogue A nd b :=
  (dat1 V c).arrAt_eq_of_cover 5 (Cert.Bridge.epilogue A nd b)
    (fun t _ => flushed_h_post V c A nd b hA hnd hb t) coverH_post

/-- REGION 1, second output (window 6): the next layer's message `(h ⊙ ns) · W` of that epilogue `h`, the column of source
    norms `ns` and the weight `W`, whole. -/
theorem region1_value_x (c : Dev nD)
    (A : FVec Ideal Cert.ReferenceIdeal.S50000x128 .f32) (nd : FVec Ideal Cert.ReferenceIdeal.S50000x1 .f32)
    (b : FVec Ideal Cert.ReferenceIdeal.S1x128 .f32) (ns : FVec Ideal Cert.ReferenceIdeal.S50000x1 .f32)
    (W : FVec Ideal Cert.ReferenceIdeal.S128x128 .f32)
    (hA : V c (Pipeline.arrRef spec1 0) = A) (hnd : V c (Pipeline.arrRef spec1 1) = nd)
    (hb : V c (Pipeline.arrRef spec1 2) = b) (hns : V c (Pipeline.arrRef spec1 3) = ns)
    (hW : V c (Pipeline.arrRef spec1 4) = W) :
    (dat1 V c).arrAt 6 cfg1.N = Cert.Bridge.linear (Cert.Bridge.epilogue A nd b) ns W :=
  (dat1 V c).arrAt_eq_of_cover 6 (Cert.Bridge.linear (Cert.Bridge.epilogue A nd b) ns W)
    (fun t _ => flushed_x_post V c A nd b ns W hA hnd hb hns hW t) coverX_post

end Cert.KernelIdeal.Vals

end
-- ==== Proof.RegionProj.lean ====
import proofs.«418930_j66125316489906_3_alg».proof.Proof.Gen.KernelIdeal.Frame
import proofs.«418930_j66125316489906_3_alg».proof.Proof.Spec
import proofs.«418930_j66125316489906_3_alg».proof.Proof.Lemmas
import Idealize.ShloMosaic.Lib.Pipeline.Value
import Idealize.ShloMosaic.Lib.ValueIdx
import Idealize.ShloMosaic.PureOps.Ideal.Laws

set_option maxRecDepth 16384

noncomputable section

namespace Cert.KernelIdeal.Vals

open Idealize.ShloMosaic Idealize.ShloMosaic.TcCoe Idealize.SL.Sem Idealize.ShloMosaic.ValueIdx
open Idealize.ShloMosaic.Pipeline (Dat Cfg Window)
open Cert.KernelIdeal Cert.KernelIdeal.Gen

variable (V : (c : Dev nD) → (b : Ref sig .tc) → Buf (Elt Ideal) ((c : Thread nD τ).loc b))

/-!
  The output projection of one region, from its blocks to the whole array. Each grid point `t` computes, on rows
  `2000 t … 2000 t + 1999`, the product of the joined blocks `[f | h | relu (A ⊙ nd + b)]` (384 columns) with the weight,
  plus the bias row. Read at row `p`, column `q` this is `∑ k, join (p, k) · W (k, q) + bo (0, q)`; the reference's
  projection at row `2000 t + p` is the same sum over the whole arrays' join, and the two joins agree column by column
  because every block is the whole array's rows `2000 t …`. The twenty-five blocks tile the output.
-/

/-- The zero offsets of a whole-block rectangle. -/
theorem hz_proj : (![0, 0] : Fin 2 → Nat) = fun _ => 0 := funext fun a => by fin_cases a <;> rfl

/-! ## The block product read at an index -/

/-- The operand indices of the block product at output index `i` and contraction index `q`, axis by axis: the left
    operand is read at (row of `i`, `q`), the right at (`q`, column of `i`). -/
theorem lhs_blockdot_proj_0 (i : S2000x128.Idx) (q : dot_S2000x384_S384x128_S2000x128_1_0_0_1_n_n.contr.Idx) :
    (dot_S2000x384_S384x128_S2000x128_1_0_0_1_n_n.lhsIdx i q 0).val = (i 0).val := by
  unfold DotDims.lhsIdx
  rw [dif_neg (show ¬(0 : Fin S2000x384.rank) ∈ dot_S2000x384_S384x128_S2000x128_1_0_0_1_n_n.lhsBatch by decide), dif_pos (show (0 : Fin S2000x384.rank) ∈ dot_S2000x384_S384x128_S2000x128_1_0_0_1_n_n.lhsNonContracting by decide)]
  rfl
theorem lhs_blockdot_proj_1 (i : S2000x128.Idx) (q : dot_S2000x384_S384x128_S2000x128_1_0_0_1_n_n.contr.Idx) :
    (dot_S2000x384_S384x128_S2000x128_1_0_0_1_n_n.lhsIdx i q 1).val = (q ⟨0, by decide⟩).val :=
  dot_S2000x384_S384x128_S2000x128_1_0_0_1_n_n.lhsIdx_val_of_single rfl i q
theorem rhs_blockdot_proj_0 (i : S2000x128.Idx) (q : dot_S2000x384_S384x128_S2000x128_1_0_0_1_n_n.contr.Idx) :
    (dot_S2000x384_S384x128_S2000x128_1_0_0_1_n_n.rhsIdx i q 0).val = (q ⟨0, by decide⟩).val :=
  dot_S2000x384_S384x128_S2000x128_1_0_0_1_n_n.rhsIdx_val_of_single rfl i q
theorem rhs_blockdot_proj_1 (i : S2000x128.Idx) (q : dot_S2000x384_S384x128_S2000x128_1_0_0_1_n_n.contr.Idx) :
    (dot_S2000x384_S384x128_S2000x128_1_0_0_1_n_n.rhsIdx i q 1).val = (i 1).val := by
  unfold DotDims.rhsIdx
  rw [dif_neg (show ¬(1 : Fin S384x128.rank) ∈ dot_S2000x384_S384x128_S2000x128_1_0_0_1_n_n.rhsBatch by decide), dif_pos (show (1 : Fin S384x128.rank) ∈ dot_S2000x384_S384x128_S2000x128_1_0_0_1_n_n.rhsNonContracting by decide)]
  rfl

/-- The block's matrix product into a zero accumulator, at row `p` and column `q`: the sum over the 384 joined
    columns. -/
theorem blockdot_apply_proj {φ₁ φ₂ : FTy} (L : FVec Ideal S2000x384 φ₁) (R : FVec Ideal S384x128 φ₂) (p : Fin 2000) (q : Fin 128) :
    matmul dot_S2000x384_S384x128_S2000x128_1_0_0_1_n_n none L R (constant (F := Ideal) S2000x128 .f32 0x00000000#32) (ix2 p q)
      = ∑ k : Fin 384, L (ix2 p k) * R (ix2 k q) := by
  refine (Ideal.matmul_constant_zero_apply dot_S2000x384_S384x128_S2000x128_1_0_0_1_n_n none L R (ix2 p q)).trans ?_
  rw [← Equiv.sum_comp (ValueIdx.contrEquiv1 dot_S2000x384_S384x128_S2000x128_1_0_0_1_n_n 384 rfl rfl).symm]
  refine Finset.sum_congr rfl fun k _ => ?_
  have hk := ValueIdx.contrEquiv1_symm_val dot_S2000x384_S384x128_S2000x128_1_0_0_1_n_n 384 rfl rfl k
  have el : dot_S2000x384_S384x128_S2000x128_1_0_0_1_n_n.lhsIdx (ix2 p q) ((ValueIdx.contrEquiv1 dot_S2000x384_S384x128_S2000x128_1_0_0_1_n_n 384 rfl rfl).symm k) = ix2 p k := funext fun a => Fin.ext (by
    match a with
    | ⟨0, _⟩ => exact lhs_blockdot_proj_0 _ _
    | ⟨1, _⟩ => exact (lhs_blockdot_proj_1 _ _).trans hk)
  have er : dot_S2000x384_S384x128_S2000x128_1_0_0_1_n_n.rhsIdx (ix2 p q) ((ValueIdx.contrEquiv1 dot_S2000x384_S384x128_S2000x128_1_0_0_1_n_n 384 rfl rfl).symm k) = ix2 k q := funext fun a => Fin.ext (by
    match a with
    | ⟨0, _⟩ => exact (rhs_blockdot_proj_0 _ _).trans hk
    | ⟨1, _⟩ => exact rhs_blockdot_proj_1 _ _)
  rw [el, er]

/-! ## Three blocks of 128 columns side by side, read at an index -/

/-- Column `k` of row `r` of `[x | y | z]` (three pieces of 128 columns) is column `k`, `k - 128` or `k - 256` of the
    piece whose span holds `k`. -/
theorem join_apply_proj {α : Type} {n : Nat} (x y z : (⟨2, ![n, 128]⟩ : Shape).Idx → α)
    (hc : Shape.Concatenates [⟨2, ![n, 128]⟩, ⟨2, ![n, 128]⟩, ⟨2, ![n, 128]⟩] ⟨2, ![n, 384]⟩ 1)
    (r : Fin n) (k : Fin 384) :
    concatenate (⟨2, ![n, 384]⟩ : Shape) 1 [⟨⟨2, ![n, 128]⟩, x⟩, ⟨⟨2, ![n, 128]⟩, y⟩, ⟨⟨2, ![n, 128]⟩, z⟩] hc (ix2 r k)
      = if hlo : k.val < 128 then x (ix2 r ⟨k.val, hlo⟩)
        else if hmid : k.val < 256 then y (ix2 r ⟨k.val - 128, by omega⟩)
        else z (ix2 r ⟨k.val - 256, by omega⟩) := by
  have hk := k.isLt
  split
  · rename_i hlo
    refine concatenate_apply_piece (t := ⟨2, ![n, 384]⟩) (1 : Fin 2) [⟨⟨2, ![n, 128]⟩, x⟩, ⟨⟨2, ![n, 128]⟩, y⟩, ⟨⟨2, ![n, 128]⟩, z⟩] hc (ix2 r k) 0 (by show 0 < 3; omega) ⟨2, ![n, 128]⟩ x rfl rfl 0 rfl (ix2 r ⟨k.val, hlo⟩) ?_ ?_
    · intro b hb
      match b with
      | ⟨0, _⟩ => rfl
      | ⟨1, _⟩ => exact absurd rfl hb
    · show 0 + k.val = k.val; omega
  · split
    · rename_i hlo hmid
      refine concatenate_apply_piece (t := ⟨2, ![n, 384]⟩) (1 : Fin 2) [⟨⟨2, ![n, 128]⟩, x⟩, ⟨⟨2, ![n, 128]⟩, y⟩, ⟨⟨2, ![n, 128]⟩, z⟩] hc (ix2 r k) 1 (by show 1 < 3; omega) ⟨2, ![n, 128]⟩ y rfl rfl 128 rfl (ix2 r ⟨k.val - 128, by omega⟩) ?_ ?_
      · intro b hb
        match b with
        | ⟨0, _⟩ => rfl
        | ⟨1, _⟩ => exact absurd rfl hb
      · show 128 + (k.val - 128) = k.val; omega
    · rename_i hlo hmid
      refine concatenate_apply_piece (t := ⟨2, ![n, 384]⟩) (1 : Fin 2) [⟨⟨2, ![n, 128]⟩, x⟩, ⟨⟨2, ![n, 128]⟩, y⟩, ⟨⟨2, ![n, 128]⟩, z⟩] hc (ix2 r k) 2 (by show 2 < 3; omega) ⟨2, ![n, 128]⟩ z rfl rfl 256 rfl (ix2 r ⟨k.val - 256, by omega⟩) ?_ ?_
      · intro b hb
        match b with
        | ⟨0, _⟩ => rfl
        | ⟨1, _⟩ => exact absurd rfl hb
      · show 256 + (k.val - 256) = k.val; omega

/-! ## The reference's product read at an index -/

/-- The operand indices of the reference's product at output index `i` and contraction index `q`, axis by axis: the
    left operand is read at (row of `i`, `q`), the right at (`q`, column of `i`). -/
theorem lhs_wholedot_proj_0 (i : Cert.ReferenceIdeal.S50000x128.Idx) (q : Cert.ReferenceIdeal.dot_S50000x384_S384x128_S50000x128_1_0_0_1_n_n.contr.Idx) :
    (Cert.ReferenceIdeal.dot_S50000x384_S384x128_S50000x128_1_0_0_1_n_n.lhsIdx i q 0).val = (i 0).val := by
  unfold DotDims.lhsIdx
  rw [dif_neg (show ¬(0 : Fin Cert.ReferenceIdeal.S50000x384.rank) ∈ Cert.ReferenceIdeal.dot_S50000x384_S384x128_S50000x128_1_0_0_1_n_n.lhsBatch by decide), dif_pos (show (0 : Fin Cert.ReferenceIdeal.S50000x384.rank) ∈ Cert.ReferenceIdeal.dot_S50000x384_S384x128_S50000x128_1_0_0_1_n_n.lhsNonContracting by decide)]
  rfl
theorem lhs_wholedot_proj_1 (i : Cert.ReferenceIdeal.S50000x128.Idx) (q : Cert.ReferenceIdeal.dot_S50000x384_S384x128_S50000x128_1_0_0_1_n_n.contr.Idx) :
    (Cert.ReferenceIdeal.dot_S50000x384_S384x128_S50000x128_1_0_0_1_n_n.lhsIdx i q 1).val = (q ⟨0, by decide⟩).val :=
  Cert.ReferenceIdeal.dot_S50000x384_S384x128_S50000x128_1_0_0_1_n_n.lhsIdx_val_of_single rfl i q
theorem rhs_wholedot_proj_0 (i : Cert.ReferenceIdeal.S50000x128.Idx) (q : Cert.ReferenceIdeal.dot_S50000x384_S384x128_S50000x128_1_0_0_1_n_n.contr.Idx) :
    (Cert.ReferenceIdeal.dot_S50000x384_S384x128_S50000x128_1_0_0_1_n_n.rhsIdx i q 0).val = (q ⟨0, by decide⟩).val :=
  Cert.ReferenceIdeal.dot_S50000x384_S384x128_S50000x128_1_0_0_1_n_n.rhsIdx_val_of_single rfl i q
theorem rhs_wholedot_proj_1 (i : Cert.ReferenceIdeal.S50000x128.Idx) (q : Cert.ReferenceIdeal.dot_S50000x384_S384x128_S50000x128_1_0_0_1_n_n.contr.Idx) :
    (Cert.ReferenceIdeal.dot_S50000x384_S384x128_S50000x128_1_0_0_1_n_n.rhsIdx i q 1).val = (i 1).val := by
  unfold DotDims.rhsIdx
  rw [dif_neg (show ¬(1 : Fin Cert.ReferenceIdeal.S384x128.rank) ∈ Cert.ReferenceIdeal.dot_S50000x384_S384x128_S50000x128_1_0_0_1_n_n.rhsBatch by decide), dif_pos (show (1 : Fin Cert.ReferenceIdeal.S384x128.rank) ∈ Cert.ReferenceIdeal.dot_S50000x384_S384x128_S50000x128_1_0_0_1_n_n.rhsNonContracting by decide)]
  rfl

/-- The reference's whole matrix product at row `r` and column `q`: the same sum over the 384 joined columns. -/
theorem wholedot_apply_proj (L : FVec Ideal Cert.ReferenceIdeal.S50000x384 .f32) (R : FVec Ideal Cert.ReferenceIdeal.S384x128 .f32) (r : Fin 50000) (q : Fin 128) :
    Host.dotGeneral (F := Ideal) Cert.ReferenceIdeal.dot_S50000x384_S384x128_S50000x128_1_0_0_1_n_n none L R (ix2 r q)
      = ∑ k : Fin 384, L (ix2 r k) * R (ix2 k q) := by
  simp only [Host.dotGeneral]
  rw [Ideal.dotGeneral_apply, ← Equiv.sum_comp (ValueIdx.contrEquiv1 Cert.ReferenceIdeal.dot_S50000x384_S384x128_S50000x128_1_0_0_1_n_n 384 rfl rfl).symm]
  refine Finset.sum_congr rfl fun k _ => ?_
  have hk := ValueIdx.contrEquiv1_symm_val Cert.ReferenceIdeal.dot_S50000x384_S384x128_S50000x128_1_0_0_1_n_n 384 rfl rfl k
  have el : Cert.ReferenceIdeal.dot_S50000x384_S384x128_S50000x128_1_0_0_1_n_n.lhsIdx (ix2 r q) ((ValueIdx.contrEquiv1 Cert.ReferenceIdeal.dot_S50000x384_S384x128_S50000x128_1_0_0_1_n_n 384 rfl rfl).symm k) = ix2 r k := funext fun a => Fin.ext (by
    match a with
    | ⟨0, _⟩ => exact lhs_wholedot_proj_0 _ _
    | ⟨1, _⟩ => exact (lhs_wholedot_proj_1 _ _).trans hk)
  have er : Cert.ReferenceIdeal.dot_S50000x384_S384x128_S50000x128_1_0_0_1_n_n.rhsIdx (ix2 r q) ((ValueIdx.contrEquiv1 Cert.ReferenceIdeal.dot_S50000x384_S384x128_S50000x128_1_0_0_1_n_n 384 rfl rfl).symm k) = ix2 k q := funext fun a => Fin.ext (by
    match a with
    | ⟨0, _⟩ => exact (rhs_wholedot_proj_0 _ _).trans hk
    | ⟨1, _⟩ => exact rhs_wholedot_proj_1 _ _)
  rw [el, er]

/-! ## The kernel's payload read at an index -/

/-- The norms' column spread along the rows of a block: row `p`'s entry, whatever the column. -/
theorem bcast_col_apply_proj (v : Vec Ideal S2000x1 .f32) (p : Fin 2000) (q : Fin 128) :
    broadcastTo S2000x128 (shapeCast S2000x1 v shapeCasts_S2000x1_S2000x1) broadcasts_S2000x1_S2000x128 (ix2 p q) = v (ix2 p 0) := by
  rw [shapeCast_self]
  exact broadcastTo_apply v broadcasts_S2000x1_S2000x128 (ix2 p q) (ix2 p 0) (fun a => match a with
    | ⟨0, _⟩ => by show p.val = if (2000 : Nat) = 1 then 0 else p.val; rw [if_neg (by decide)]
    | ⟨1, _⟩ => by show 0 = if (1 : Nat) = 1 then 0 else q.val; rw [if_pos rfl])

/-- A bias row spread down the rows of a block: column `q`'s entry, whatever the row. -/
theorem bcast_row_apply_proj (v : Vec Ideal S1x128 .f32) (p : Fin 2000) (q : Fin 128) :
    broadcastTo S2000x128 (shapeCast S1x128 v shapeCasts_S1x128_S1x128) broadcasts_S1x128_S2000x128 (ix2 p q) = v (ix2 0 q) := by
  rw [shapeCast_self]
  exact broadcastTo_apply v broadcasts_S1x128_S2000x128 (ix2 p q) (ix2 0 q) (fun a => match a with
    | ⟨0, _⟩ => by show 0 = if (1 : Nat) = 1 then 0 else p.val; rw [if_pos rfl]
    | ⟨1, _⟩ => by show q.val = if (128 : Nat) = 1 then 0 else q.val; rw [if_neg (by decide)])

/-- The block of the second layer's epilogue as the kernel computes it: relu (A ⊙ nd + b) on the block's rows. -/
def epiBlock_proj (vA : Vec Ideal S2000x128 .f32) (vn : Vec Ideal S2000x1 .f32) (vb : Vec Ideal S1x128 .f32) : FVec Ideal S2000x128 .f32 :=
  maximumf
    (addf (mulf (shapeCast S2000x128 vA shapeCasts_S2000x128_S2000x128)
        (broadcastTo S2000x128 (shapeCast S2000x1 vn shapeCasts_S2000x1_S2000x1) broadcasts_S2000x1_S2000x128))
      (broadcastTo S2000x128 (shapeCast S1x128 vb shapeCasts_S1x128_S1x128) broadcasts_S1x128_S2000x128))
    (broadcast S2000x128 (Scalar.ofBits .f32 0x00000000#32))

/-- Its entry at row `p`, column `q`: `max (A ⊙ nd + b) 0` there. -/
theorem epiBlock_apply_proj (vA : Vec Ideal S2000x128 .f32) (vn : Vec Ideal S2000x1 .f32) (vb : Vec Ideal S1x128 .f32) (p : Fin 2000) (q : Fin 128) :
    epiBlock_proj vA vn vb (ix2 p q) = max (vA (ix2 p q) * vn (ix2 p 0) + vb (ix2 0 q)) (Ideal.ofBits .f32 0x00000000#32) := by
  unfold epiBlock_proj
  rw [maximumf_apply, addf_apply, mulf_apply, bcast_col_apply_proj, bcast_row_apply_proj, shapeCast_self]
  rfl

/-- The payload is the product of the three joined blocks with the weight, plus the bias row. -/
theorem pay_eq_proj (vA : Vec Ideal S2000x128 .f32) (vn : Vec Ideal S2000x1 .f32) (vb : Vec Ideal S1x128 .f32) (vf vh : Vec Ideal S2000x128 .f32) (vW : Vec Ideal S384x128 .f32) (vo : Vec Ideal S1x128 .f32) :
    k2_pay1 vA vn vb vf vh vW vo
      = addf (matmul dot_S2000x384_S384x128_S2000x128_1_0_0_1_n_n none
          (truncf .bf16 (concatenate S2000x384 1 [⟨S2000x128, vf⟩, ⟨S2000x128, shapeCast S2000x128 vh shapeCasts_S2000x128_S2000x128⟩, ⟨S2000x128, epiBlock_proj vA vn vb⟩] concatenates_S2000x128_S2000x128_S2000x128_S2000x384_d1) bitsLt_bf16_f32)
          (truncf .bf16 vW bitsLt_bf16_f32) (constant (F := Ideal) S2000x128 .f32 0x00000000#32))
        (broadcastTo S2000x128 (shapeCast S1x128 vo shapeCasts_S1x128_S1x128) broadcasts_S1x128_S2000x128) := rfl

/-- The payload at row `p`, column `q`: the sum over the 384 joined columns, plus the bias. -/
theorem pay_apply_proj (vA : Vec Ideal S2000x128 .f32) (vn : Vec Ideal S2000x1 .f32) (vb : Vec Ideal S1x128 .f32) (vf vh : Vec Ideal S2000x128 .f32) (vW : Vec Ideal S384x128 .f32) (vo : Vec Ideal S1x128 .f32) (p : Fin 2000) (q : Fin 128) :
    k2_pay1 vA vn vb vf vh vW vo (ix2 p q)
      = (∑ k : Fin 384, (concatenate S2000x384 1 [⟨S2000x128, vf⟩, ⟨S2000x128, vh⟩, ⟨S2000x128, epiBlock_proj vA vn vb⟩] concatenates_S2000x128_S2000x128_S2000x128_S2000x384_d1 : FVec Ideal S2000x384 .f32) (ix2 p k) * vW (ix2 k q))
        + vo (ix2 0 q) := by
  rw [pay_eq_proj, addf_apply, blockdot_apply_proj, bcast_row_apply_proj, shapeCast_self]
  rfl

/-! ## The reference's projection read at an index -/

/-- The reference's epilogue at row `r`, column `q`. -/
theorem epilogue_apply_proj (A : FVec Ideal Cert.ReferenceIdeal.S50000x128 .f32) (nd : FVec Ideal Cert.ReferenceIdeal.S50000x1 .f32)
    (b : FVec Ideal Cert.ReferenceIdeal.S1x128 .f32) (r : Fin 50000) (q : Fin 128) :
    Cert.Bridge.epilogue A nd b (ix2 r q) = max (A (ix2 r q) * nd (ix2 r 0) + b (ix2 0 q)) (Ideal.ofBits .f32 0x00000000#32) := by
  unfold Cert.Bridge.epilogue
  rw [maximumf_apply, addf_apply, mulf_apply]
  rw [broadcastInDim_apply ![0, 1] Cert.ReferenceIdeal.Gen.bcast_S50000x1_S50000x128_0_1 nd (ix2 r q) (ix2 r 0) (fun a => match a with
    | ⟨0, _⟩ => by show r.val = if (50000 : Nat) = 1 then 0 else r.val; rw [if_neg (by decide)]
    | ⟨1, _⟩ => by show 0 = if (1 : Nat) = 1 then 0 else q.val; rw [if_pos rfl])]
  rw [broadcastInDim_apply ![0, 1] Cert.ReferenceIdeal.Gen.bcast_S1x128_S50000x128_0_1 b (ix2 r q) (ix2 0 q) (fun a => match a with
    | ⟨0, _⟩ => by show 0 = if (1 : Nat) = 1 then 0 else r.val; rw [if_pos rfl]
    | ⟨1, _⟩ => by show q.val = if (128 : Nat) = 1 then 0 else q.val; rw [if_neg (by decide)])]
  rw [broadcastInDim_apply ![] Cert.ReferenceIdeal.Gen.bcast_S_S50000x128 (constant (F := Ideal) Cert.ReferenceIdeal.S_ .f32 0x00000000#32) (ix2 r q) ix0 (fun a => a.elim0)]
  rfl

/-- The reference's projection at row `r`, column `q`: the sum over the 384 joined columns, plus the bias. -/
theorem project_apply_proj (f h A : FVec Ideal Cert.ReferenceIdeal.S50000x128 .f32) (nd : FVec Ideal Cert.ReferenceIdeal.S50000x1 .f32)
    (b : FVec Ideal Cert.ReferenceIdeal.S1x128 .f32) (W : FVec Ideal Cert.ReferenceIdeal.S384x128 .f32)
    (bo : FVec Ideal Cert.ReferenceIdeal.S1x128 .f32) (r : Fin 50000) (q : Fin 128) :
    Cert.Bridge.project f h A nd b W bo (ix2 r q)
      = (∑ k : Fin 384, (concatenate Cert.ReferenceIdeal.S50000x384 1 [⟨Cert.ReferenceIdeal.S50000x128, f⟩, ⟨Cert.ReferenceIdeal.S50000x128, h⟩, ⟨Cert.ReferenceIdeal.S50000x128, Cert.Bridge.epilogue A nd b⟩] Cert.ReferenceIdeal.Gen.concatenates_S50000x128_S50000x128_S50000x128_S50000x384_d1 : FVec Ideal Cert.ReferenceIdeal.S50000x384 .f32) (ix2 r k) * W (ix2 k q))
        + bo (ix2 0 q) := by
  unfold Cert.Bridge.project
  rw [addf_apply, wholedot_apply_proj]
  rw [broadcastInDim_apply ![0, 1] Cert.ReferenceIdeal.Gen.bcast_S1x128_S50000x128_0_1 bo (ix2 r q) (ix2 0 q) (fun a => match a with
    | ⟨0, _⟩ => by show 0 = if (1 : Nat) = 1 then 0 else r.val; rw [if_pos rfl]
    | ⟨1, _⟩ => by show q.val = if (128 : Nat) = 1 then 0 else q.val; rw [if_neg (by decide)])]

/-! ## A block's payload against the reference at the block's rows -/

/-- When the blocks hold rows `2000 t …` of the row-blocked arrays and the whole small arrays, the payload at row `p`
    of the block is the reference's projection at row `2000 t + p`: the two joins agree column by column, so the two
    sums agree term by term. -/
theorem pay_eq_project_proj
    (xf xh xA : Vec Ideal S2000x128 .f32) (xn : Vec Ideal S2000x1 .f32) (xb : Vec Ideal S1x128 .f32)
    (xW : Vec Ideal S384x128 .f32) (xo : Vec Ideal S1x128 .f32)
    (f h A : FVec Ideal Cert.ReferenceIdeal.S50000x128 .f32) (nd : FVec Ideal Cert.ReferenceIdeal.S50000x1 .f32)
    (b : FVec Ideal Cert.ReferenceIdeal.S1x128 .f32) (W : FVec Ideal Cert.ReferenceIdeal.S384x128 .f32)
    (bo : FVec Ideal Cert.ReferenceIdeal.S1x128 .f32) (t : Nat)
    (hxf : ∀ (p : Fin 2000) (q : Fin 128) (r : Fin 50000), r.val = 2000 * t + p.val → xf (ix2 p q) = f (ix2 r q))
    (hxh : ∀ (p : Fin 2000) (q : Fin 128) (r : Fin 50000), r.val = 2000 * t + p.val → xh (ix2 p q) = h (ix2 r q))
    (hxA : ∀ (p : Fin 2000) (q : Fin 128) (r : Fin 50000), r.val = 2000 * t + p.val → xA (ix2 p q) = A (ix2 r q))
    (hxn : ∀ (p : Fin 2000) (r : Fin 50000), r.val = 2000 * t + p.val → xn (ix2 p 0) = nd (ix2 r 0))
    (hxb : ∀ q : Fin 128, xb (ix2 0 q) = b (ix2 0 q))
    (hxW : ∀ (k : Fin 384) (q : Fin 128), xW (ix2 k q) = W (ix2 k q))
    (hxo : ∀ q : Fin 128, xo (ix2 0 q) = bo (ix2 0 q))
    (p : Fin 2000) (q : Fin 128) (r : Fin 50000) (hr : r.val = 2000 * t + p.val) :
    k2_pay1 xA xn xb xf xh xW xo (ix2 p q) = Cert.Bridge.project f h A nd b W bo (ix2 r q) := by
  rw [pay_apply_proj, project_apply_proj, hxo q]
  refine congrArg (· + bo (ix2 0 q)) (Finset.sum_congr rfl fun k _ => ?_)
  rw [hxW k q]
  refine congrArg (· * W (ix2 k q)) ?_
  refine (join_apply_proj (n := 2000) xf xh (epiBlock_proj xA xn xb) concatenates_S2000x128_S2000x128_S2000x128_S2000x384_d1 p k).trans ?_
  refine Eq.trans ?_ (join_apply_proj (n := 50000) f h (Cert.Bridge.epilogue A nd b) Cert.ReferenceIdeal.Gen.concatenates_S50000x128_S50000x128_S50000x128_S50000x384_d1 r k).symm
  split
  · exact hxf _ _ _ hr
  · split
    · exact hxh _ _ _ hr
    · rw [epiBlock_apply_proj, epilogue_apply_proj, hxA _ _ _ hr, hxn _ _ hr, hxb]

/-! ## The blocks the body reads, as entries of the whole arrays -/

/-- The printed index maps over the grid: the row-blocked windows sit at block row `t`, the whole windows at the origin. -/
theorem idx_facts_proj : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = t.val ∧ win2_2.index t (1 : Fin 2) = 0)
    ∧ (win2_3.index t (0 : Fin 2) = t.val ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = 0 ∧ win2_6.index t (1 : Fin 2) = 0)
    ∧ (win2_7.index t (0 : Fin 2) = t.val ∧ win2_7.index t (1 : Fin 2) = 0) :=
  (by decide +kernel : ∀ t : Fin grid2.N, _)

/-- Block `t` of the features `f` is rows `2000 t …` of the array. -/
theorem iblk_f_proj (c : Dev nD) (t : Fin cfg2.N) (p : Fin 2000) (q : Fin 128) (r : Fin 50000) (hr : r.val = 2000 * t.val + p.val) :
    (iblk2 V c 0 t : Vec Ideal S2000x128 .f32) (ix2 p q) = (V c (Pipeline.arrRef spec2 0) : S50000x128.Idx → Elt Ideal .f32) (ix2 r q) := by
  obtain ⟨⟨e0, e1⟩, -⟩ := idx_facts_proj t
  unfold iblk2
  rw [View.read_apply]
  show V c (Pipeline.arrRef spec2 0) _ = V c (Pipeline.arrRef spec2 0) _
  refine congrArg _ (funext fun a => Fin.ext ?_)
  match a with
  | ⟨0, _⟩ => show win2_0.index t (0 : Fin 2) * 2000 + 1 * p.val = r.val; omega
  | ⟨1, _⟩ => show win2_0.index t (1 : Fin 2) * 128 + 1 * q.val = q.val; omega

/-- Block `t` of the norms `nd` is rows `2000 t …` of the column. -/
theorem iblk_nd_proj (c : Dev nD) (t : Fin cfg2.N) (p : Fin 2000) (r : Fin 50000) (hr : r.val = 2000 * t.val + p.val) :
    (iblk2 V c 3 t : Vec Ideal S2000x1 .f32) (ix2 p 0) = (V c (Pipeline.arrRef spec2 3) : S50000x1.Idx → Elt Ideal .f32) (ix2 r 0) := by
  obtain ⟨-, -, -, ⟨e0, e1⟩, -⟩ := idx_facts_proj t
  unfold iblk2
  rw [View.read_apply]
  show V c (Pipeline.arrRef spec2 3) _ = V c (Pipeline.arrRef spec2 3) _
  refine congrArg _ (funext fun a => Fin.ext ?_)
  match a with
  | ⟨0, _⟩ => show win2_3.index t (0 : Fin 2) * 2000 + 1 * p.val = r.val; omega
  | ⟨1, _⟩ => show win2_3.index t (1 : Fin 2) * 1 + 1 * 0 = 0; omega

/-- The bias row `b` is read whole at every point. -/
theorem iblk_b_proj (c : Dev nD) (t : Fin cfg2.N) (q : Fin 128) :
    (iblk2 V c 4 t : Vec Ideal S1x128 .f32) (ix2 0 q) = (V c (Pipeline.arrRef spec2 4) : S1x128.Idx → Elt Ideal .f32) (ix2 0 q) := by
  obtain ⟨-, -, -, -, ⟨e0, e1⟩, -⟩ := idx_facts_proj t
  unfold iblk2
  rw [View.read_apply]
  show V c (Pipeline.arrRef spec2 4) _ = V c (Pipeline.arrRef spec2 4) _
  refine congrArg _ (funext fun a => Fin.ext ?_)
  match a with
  | ⟨0, _⟩ => show win2_4.index t (0 : Fin 2) * 1 + 1 * 0 = 0; omega
  | ⟨1, _⟩ => show win2_4.index t (1 : Fin 2) * 128 + 1 * q.val = q.val; omega

/-- The weight `W` is read whole at every point. -/
theorem iblk_W_proj (c : Dev nD) (t : Fin cfg2.N) (k : Fin 384) (q : Fin 128) :
    (iblk2 V c 5 t : Vec Ideal S384x128 .f32) (ix2 k q) = (V c (Pipeline.arrRef spec2 5) : S384x128.Idx → Elt Ideal .f32) (ix2 k q) := by
  obtain ⟨-, -, -, -, -, ⟨e0, e1⟩, -⟩ := idx_facts_proj t
  unfold iblk2
  rw [View.read_apply]
  show V c (Pipeline.arrRef spec2 5) _ = V c (Pipeline.arrRef spec2 5) _
  refine congrArg _ (funext fun a => Fin.ext ?_)
  match a with
  | ⟨0, _⟩ => show win2_5.index t (0 : Fin 2) * 384 + 1 * k.val = k.val; omega
  | ⟨1, _⟩ => show win2_5.index t (1 : Fin 2) * 128 + 1 * q.val = q.val; omega

/-- Block `t` of the first layer's output `h` is rows `2000 t …` of the array. -/
theorem iblk_h_proj (c : Dev nD) (t : Fin cfg2.N) (p : Fin 2000) (q : Fin 128) (r : Fin 50000) (hr : r.val = 2000 * t.val + p.val) :
    (iblk2 V c 1 t : Vec Ideal S2000x128 .f32) (ix2 p q) = (V c (Pipeline.arrRef spec2 1) : S50000x128.Idx → Elt Ideal .f32) (ix2 r q) := by
  obtain ⟨-, ⟨e0, e1⟩, -⟩ := idx_facts_proj t
  unfold iblk2
  rw [View.read_apply]
  show V c (Pipeline.arrRef spec2 1) _ = V c (Pipeline.arrRef spec2 1) _
  refine congrArg _ (funext fun a => Fin.ext ?_)
  match a with
  | ⟨0, _⟩ => show win2_1.index t (0 : Fin 2) * 2000 + 1 * p.val = r.val; omega
  | ⟨1, _⟩ => show win2_1.index t (1 : Fin 2) * 128 + 1 * q.val = q.val; omega

/-- Block `t` of the aggregated messages `A` is rows `2000 t …` of the array. -/
theorem iblk_A_proj (c : Dev nD) (t : Fin cfg2.N) (p : Fin 2000) (q : Fin 128) (r : Fin 50000) (hr : r.val = 2000 * t.val + p.val) :
    (iblk2 V c 2 t : Vec Ideal S2000x128 .f32) (ix2 p q) = (V c (Pipeline.arrRef spec2 2) : S50000x128.Idx → Elt Ideal .f32) (ix2 r q) := by
  obtain ⟨-, -, ⟨e0, e1⟩, -⟩ := idx_facts_proj t
  unfold iblk2
  rw [View.read_apply]
  show V c (Pipeline.arrRef spec2 2) _ = V c (Pipeline.arrRef spec2 2) _
  refine congrArg _ (funext fun a => Fin.ext ?_)
  match a with
  | ⟨0, _⟩ => show win2_2.index t (0 : Fin 2) * 2000 + 1 * p.val = r.val; omega
  | ⟨1, _⟩ => show win2_2.index t (1 : Fin 2) * 128 + 1 * q.val = q.val; omega

/-- The output bias row `bo` is read whole at every point. -/
theorem iblk_bo_proj (c : Dev nD) (t : Fin cfg2.N) (q : Fin 128) :
    (iblk2 V c 6 t : Vec Ideal S1x128 .f32) (ix2 0 q) = (V c (Pipeline.arrRef spec2 6) : S1x128.Idx → Elt Ideal .f32) (ix2 0 q) := by
  obtain ⟨-, -, -, -, -, -, ⟨e0, e1⟩, -⟩ := idx_facts_proj t
  unfold iblk2
  rw [View.read_apply]
  show V c (Pipeline.arrRef spec2 6) _ = V c (Pipeline.arrRef spec2 6) _
  refine congrArg _ (funext fun a => Fin.ext ?_)
  match a with
  | ⟨0, _⟩ => show win2_6.index t (0 : Fin 2) * 1 + 1 * 0 = 0; omega
  | ⟨1, _⟩ => show win2_6.index t (1 : Fin 2) * 128 + 1 * q.val = q.val; omega

/-! ## From the blocks to the array -/

/-- What point `t` writes back is block `t` of the reference's projection of the arrays the region finds. -/
theorem flushed_eq_proj (c : Dev nD)
    (f h A : FVec Ideal Cert.ReferenceIdeal.S50000x128 .f32) (nd : FVec Ideal Cert.ReferenceIdeal.S50000x1 .f32)
    (b : FVec Ideal Cert.ReferenceIdeal.S1x128 .f32) (W : FVec Ideal Cert.ReferenceIdeal.S384x128 .f32)
    (bo : FVec Ideal Cert.ReferenceIdeal.S1x128 .f32)
    (hf : V c (Pipeline.arrRef spec2 0) = f) (hh : V c (Pipeline.arrRef spec2 1) = h)
    (hA : V c (Pipeline.arrRef spec2 2) = A) (hnd : V c (Pipeline.arrRef spec2 3) = nd)
    (hb : V c (Pipeline.arrRef spec2 4) = b) (hW : V c (Pipeline.arrRef spec2 5) = W)
    (hbo : V c (Pipeline.arrRef spec2 6) = bo) (t : Fin cfg2.N) :
    (dat2 V c).flushed 7 t = ((cfg2.win 7).blk t).view.read (Elt Ideal) (Cert.Bridge.project f h A nd b W bo) := by
  show (cfg2.win 7).cut (grid2.coords t) ((dat2 V c).after 7 t) = _
  rw [after2_7]
  unfold out2_7
  rw [View.canon_unit_zero hz_proj]
  simp only [View.ld_unit_zero (S := S2000x128) hz_proj, View.ld_unit_zero (S := S2000x1) hz_proj,
    View.ld_unit_zero (S := S1x128) hz_proj, View.ld_unit_zero (S := S384x128) hz_proj]
  obtain ⟨-, -, -, -, -, -, -, ⟨e0, e1⟩⟩ := idx_facts_proj t
  have ht : t.val < 25 := t.isLt
  funext j
  obtain ⟨p, q, rfl⟩ : ∃ (p : Fin 2000) (q : Fin 128), j = ix2 p q := ⟨j 0, j 1, eq_ix2 j⟩
  rw [View.read_apply]
  have hemb : ((cfg2.win 7).blk t).view.emb (ix2 p q) = ix2 (⟨2000 * t.val + p.val, by omega⟩ : Fin 50000) q :=
    funext fun a => Fin.ext (by
      match a with
      | ⟨0, _⟩ => show win2_7.index t (0 : Fin 2) * 2000 + 1 * p.val = 2000 * t.val + p.val; omega
      | ⟨1, _⟩ => show win2_7.index t (1 : Fin 2) * 128 + 1 * q.val = q.val; omega)
  show k2_pay1 (iblk2 V c 2 t) (iblk2 V c 3 t) (iblk2 V c 4 t) (iblk2 V c 0 t) (iblk2 V c 1 t) (iblk2 V c 5 t) (iblk2 V c 6 t) (ix2 p q)
    = Cert.Bridge.project f h A nd b W bo (((cfg2.win 7).blk t).view.emb (ix2 p q))
  rw [hemb]
  exact pay_eq_project_proj (iblk2 V c 0 t) (iblk2 V c 1 t) (iblk2 V c 2 t) (iblk2 V c 3 t) (iblk2 V c 4 t) (iblk2 V c 5 t) (iblk2 V c 6 t)
    f h A nd b W bo t.val
    (fun p q r hr => (iblk_f_proj V c t p q r hr).trans (congrFun hf _))
    (fun p q r hr => (iblk_h_proj V c t p q r hr).trans (congrFun hh _))
    (fun p q r hr => (iblk_A_proj V c t p q r hr).trans (congrFun hA _))
    (fun p r hr => (iblk_nd_proj V c t p r hr).trans (congrFun hnd _))
    (fun q => (iblk_b_proj V c t q).trans (congrFun hb _))
    (fun k q => (iblk_W_proj V c t k q).trans (congrFun hW _))
    (fun q => (iblk_bo_proj V c t q).trans (congrFun hbo _))
    p q _ rfl

/-- An index of the output array is in point `t`'s block iff each coordinate is in the block's range on its axis. -/
theorem mem_blk_proj (t : Fin cfg2.N) (i : S50000x128.Idx) :
    i ∈ ((cfg2.win 7).blk t).view.set ↔ ∀ a : Fin 2, win2_7.index t a * S2000x128.size a ≤ (i a).val ∧ (i a).val < win2_7.index t a * S2000x128.size a + S2000x128.size a := by
  have e : ((cfg2.win 7).blk t).view.set = (win2_7.rect t).set := View.set_slice_whole _ _
  rw [e, Rect.mem_set_unit]
  exact Iff.rfl

/-- The twenty-five row blocks tile the output: row `r` is in the block of point `r / 2000`. -/
theorem cover_proj (i : S50000x128.Idx) :
    ∃ t : Fin cfg2.N, (cfg2.win 7).flush t = true ∧ i ∈ ((cfg2.win 7).blk t).view.set := by
  have hi0 : (i 0).val < 50000 := (i 0).isLt
  have hi1 : (i 1).val < 128 := (i 1).isLt
  have hN : cfg2.N = 25 := N_2
  obtain ⟨t, ht⟩ : ∃ t : Fin cfg2.N, t.val = (i 0).val / 2000 := ⟨⟨(i 0).val / 2000, by rw [hN]; omega⟩, rfl⟩
  obtain ⟨-, -, -, -, -, -, -, ⟨e0, e1⟩⟩ := idx_facts_proj t
  refine ⟨t, flush2_7 t, ?_⟩
  rw [mem_blk_proj]
  intro a
  match a with
  | ⟨0, _⟩ => show win2_7.index t (0 : Fin 2) * 2000 ≤ (i 0).val ∧ (i 0).val < win2_7.index t (0 : Fin 2) * 2000 + 2000; omega
  | ⟨1, _⟩ => show win2_7.index t (1 : Fin 2) * 128 ≤ (i 1).val ∧ (i 1).val < win2_7.index t (1 : Fin 2) * 128 + 128; omega

/-- REGION 2. The output projection `[f | h | relu (A ⊙ nd + b)] · W + bo` of the input features `f`, the first layer's
    output `h`, the second layer's aggregated messages `A` with its norms `nd` and bias `b`, the 384 × 128 weight `W` and
    the output bias row `bo`, whole (twenty-five row blocks of 2000 rows). -/
theorem region2_value (c : Dev nD)
    (f h A : FVec Ideal Cert.ReferenceIdeal.S50000x128 .f32) (nd : FVec Ideal Cert.ReferenceIdeal.S50000x1 .f32)
    (b : FVec Ideal Cert.ReferenceIdeal.S1x128 .f32) (W : FVec Ideal Cert.ReferenceIdeal.S384x128 .f32)
    (bo : FVec Ideal Cert.ReferenceIdeal.S1x128 .f32)
    (hf : V c (Pipeline.arrRef spec2 0) = f) (hh : V c (Pipeline.arrRef spec2 1) = h)
    (hA : V c (Pipeline.arrRef spec2 2) = A) (hnd : V c (Pipeline.arrRef spec2 3) = nd)
    (hb : V c (Pipeline.arrRef spec2 4) = b) (hW : V c (Pipeline.arrRef spec2 5) = W)
    (hbo : V c (Pipeline.arrRef spec2 6) = bo) :
    (dat2 V c).arrAt 7 cfg2.N = Cert.Bridge.project f h A nd b W bo :=
  (dat2 V c).arrAt_eq_of_cover 7 (Cert.Bridge.project f h A nd b W bo)
    (fun t _ => flushed_eq_proj V c f h A nd b W bo hf hh hA hnd hb hW hbo t) cover_proj

end Cert.KernelIdeal.Vals

end
-- ==== Proof.RegionLin3.lean ====
/-
  The first dense piece of the graph network, read off the kernel's pipeline: the region that scales each row of the
  node features by that row's source norm and multiplies by the weight leaves, in its output array, the whole-array
  function `Cert.Bridge.linear` of the three arrays it reads.

  Each side is read at an index (r, q) as the sum over k of (X (r, k) · n (r, 0)) · W (k, q): the reference's
  `dot_general` of the scaled features, and, inside the block of 5000 rows that one grid point computes, the kernel's
  matrix product onto zero of the scaled block (the changes of float format are the identity at the extended reals).
  The blocks of the row-blocked windows at grid point t are rows 5000 t … 5000 t + 4999 of their arrays, the weight's
  block is the whole weight, and the ten output blocks tile the output array.
-/
import proofs.«418930_j66125316489906_3_alg».proof.Proof.Gen.KernelIdeal.Frame
import proofs.«418930_j66125316489906_3_alg».proof.Proof.Spec
import proofs.«418930_j66125316489906_3_alg».proof.Proof.Lemmas
import Idealize.ShloMosaic.Lib.Pipeline.Value
import Idealize.ShloMosaic.Lib.ValueIdx
import Idealize.ShloMosaic.PureOps.Ideal.Laws

set_option maxRecDepth 16384

noncomputable section

namespace Cert.KernelIdeal.Vals

open Idealize.ShloMosaic Idealize.ShloMosaic.TcCoe Idealize.SL.Sem Idealize.ShloMosaic.ValueIdx
open Idealize.ShloMosaic.Pipeline (Dat Cfg Window)
open Cert.KernelIdeal Cert.KernelIdeal.Gen

variable (V : (c : Dev nD) → (b : Ref sig .tc) → Buf (Elt Ideal) ((c : Thread nD τ).loc b))

/-! ## The two products' operand indices

Both the kernel's matrix product on a block of 5000 rows and the reference's on all 50000 contract the left
operand's column with the right operand's row: at output index (r, q) and contraction coordinate k the operands are
read at (r, k) and (k, q). -/

/-- The block product reads its left operand in the output's row, -/
theorem blockdot_lhs_row_lin3 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- at the contracted column; -/
theorem blockdot_lhs_col_lin3 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- its right operand at the contracted row, -/
theorem blockdot_rhs_row_lin3 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- in the output's column. -/
theorem blockdot_rhs_col_lin3 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The whole-array product likewise: the left operand in the output's row, -/
theorem wholedot_lhs_row_lin3 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.lhsIdx i q 0).val = (i 0).val := by
  unfold DotDims.lhsIdx
  rw [dif_neg (show ¬(0 : Fin Cert.ReferenceIdeal.S50000x128.rank) ∈ Cert.ReferenceIdeal.dot_S50000x128_S128x128_S50000x128_1_0_0_1_n_n.lhsBatch by decide), dif_pos (show (0 : Fin Cert.ReferenceIdeal.S50000x128.rank) ∈ Cert.ReferenceIdeal.dot_S50000x128_S128x128_S50000x128_1_0_0_1_n_n.lhsNonContracting by decide)]
  rfl
/-- at the contracted column; -/
theorem wholedot_lhs_col_lin3 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.lhsIdx i q 1).val = (q ⟨0, by decide⟩).val :=
  Cert.ReferenceIdeal.dot_S50000x128_S128x128_S50000x128_1_0_0_1_n_n.lhsIdx_val_of_single rfl i q
/-- the right operand at the contracted row, -/
theorem wholedot_rhs_row_lin3 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.rhsIdx i q 0).val = (q ⟨0, by decide⟩).val :=
  Cert.ReferenceIdeal.dot_S50000x128_S128x128_S50000x128_1_0_0_1_n_n.rhsIdx_val_of_single rfl i q
/-- in the output's column. -/
theorem wholedot_rhs_col_lin3 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.rhsIdx i q 1).val = (i 1).val := by
  unfold DotDims.rhsIdx
  rw [dif_neg (show ¬(1 : Fin Cert.ReferenceIdeal.S128x128.rank) ∈ Cert.ReferenceIdeal.dot_S50000x128_S128x128_S50000x128_1_0_0_1_n_n.rhsBatch by decide), dif_pos (show (1 : Fin Cert.ReferenceIdeal.S128x128.rank) ∈ Cert.ReferenceIdeal.dot_S50000x128_S128x128_S50000x128_1_0_0_1_n_n.rhsNonContracting by decide)]
  rfl

/-! ## Either side at an index -/

/-- THE REFERENCE at row r, column q: the sum over k of (X (r, k) · n (r, 0)) · W (k, q). -/
theorem linear_apply_lin3 (X : FVec Ideal Cert.ReferenceIdeal.S50000x128 .f32) (n : FVec Ideal Cert.ReferenceIdeal.S50000x1 .f32)
    (W : FVec Ideal Cert.ReferenceIdeal.S128x128 .f32) (r : Fin 50000) (q : Fin 128) :
    Cert.Bridge.linear X n W (ix2 r q) = ∑ k : Fin 128, (X (ix2 r k) * n (ix2 r (0 : Fin 1))) * W (ix2 k q) := by
  unfold Cert.Bridge.linear
  simp only [Host.dotGeneral]
  rw [Ideal.dotGeneral_apply, ← Equiv.sum_comp (ValueIdx.contrEquiv1 Cert.ReferenceIdeal.dot_S50000x128_S128x128_S50000x128_1_0_0_1_n_n 128 rfl rfl).symm]
  refine Finset.sum_congr rfl fun k _ => ?_
  have hk := ValueIdx.contrEquiv1_symm_val Cert.ReferenceIdeal.dot_S50000x128_S128x128_S50000x128_1_0_0_1_n_n 128 rfl rfl k
  have el : Cert.ReferenceIdeal.dot_S50000x128_S128x128_S50000x128_1_0_0_1_n_n.lhsIdx (ix2 r q) ((ValueIdx.contrEquiv1 Cert.ReferenceIdeal.dot_S50000x128_S128x128_S50000x128_1_0_0_1_n_n 128 rfl rfl).symm k) = ix2 r k := funext fun a => Fin.ext (by
    match a with
    | ⟨0, _⟩ => exact wholedot_lhs_row_lin3 _ _
    | ⟨1, _⟩ => exact (wholedot_lhs_col_lin3 _ _).trans hk)
  have er : Cert.ReferenceIdeal.dot_S50000x128_S128x128_S50000x128_1_0_0_1_n_n.rhsIdx (ix2 r q) ((ValueIdx.contrEquiv1 Cert.ReferenceIdeal.dot_S50000x128_S128x128_S50000x128_1_0_0_1_n_n 128 rfl rfl).symm k) = ix2 k q := funext fun a => Fin.ext (by
    match a with
    | ⟨0, _⟩ => exact (wholedot_rhs_row_lin3 _ _).trans hk
    | ⟨1, _⟩ => exact wholedot_rhs_col_lin3 _ _)
  rw [el, er, mulf_apply]
  congr 2
  exact broadcastInDim_apply _ Cert.ReferenceIdeal.Gen.bcast_S50000x1_S50000x128_0_1 n (ix2 r k) (ix2 r (0 : Fin 1)) (fun a => match a with
    | ⟨0, _⟩ => by show r.val = if (50000 : Nat) = 1 then 0 else r.val; rw [if_neg (by decide)]
    | ⟨1, _⟩ => by show 0 = if (1 : Nat) = 1 then 0 else k.val; rw [if_pos rfl])

/-- THE KERNEL'S BLOCK at row p, column q, from the three loaded blocks: the sum over k of
    (x (p, k) · s (p, 0)) · w (k, q) — the changes of float format are the identity at the extended reals, the
    column of scales is read in the row's own entry, and the product adds onto zero. -/
theorem payload_apply_lin3 (x0 : Vec Ideal S5000x128 .f32) (x1 : Vec Ideal S5000x1 .f32) (x2 : Vec Ideal S128x128 .f32)
    (p : Fin 5000) (q : Fin 128) :
    k3_pay1 x0 x1 x2 (ix2 p q) = ∑ k : Fin 128, (x0 (ix2 p k) * x1 (ix2 p (0 : Fin 1))) * x2 (ix2 k q) := by
  unfold k3_pay1
  refine (Ideal.matmul_constant_zero_apply dot_S5000x128_S128x128_S5000x128_1_0_0_1_n_n none _ _ (ix2 p q)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact blockdot_lhs_row_lin3 _ _
    | ⟨1, _⟩ => exact (blockdot_lhs_col_lin3 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (blockdot_rhs_row_lin3 _ _).trans hk
    | ⟨1, _⟩ => exact blockdot_rhs_col_lin3 _ _)
  rw [el, er, truncf_apply, truncf_apply, mulf_apply, shapeCast_self]
  congr 2
  exact broadcastTo_apply x1 broadcasts_S5000x1_S5000x128 (ix2 p k) (ix2 p (0 : Fin 1)) (fun a => match a with
    | ⟨0, _⟩ => by show p.val = if (5000 : Nat) = 1 then 0 else p.val; rw [if_neg (by decide)]
    | ⟨1, _⟩ => by show 0 = if (1 : Nat) = 1 then 0 else k.val; rw [if_pos rfl])

/-! ## From the blocks to the array -/

theorem zero_offsets_lin3 : (![0, 0] : Fin 2 → Nat) = fun _ => 0 := funext fun a => by fin_cases a <;> rfl

/-- The printed index maps, decided once over the ten grid points: the row-blocked windows are at block row `t`,
    block column 0; the weight's window is at block (0, 0) at every point. -/
theorem index_facts_lin3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Entry (p, k) of the feature window's block at point `t` is the array's entry (5000 t + p, k). -/
theorem features_block_lin3 (c : Dev nD) (t : Fin cfg3.N) (p : Fin 5000) (k : Fin 128) (i : Cert.ReferenceIdeal.S50000x128.Idx)
    (hi0 : (i 0).val = 5000 * t.val + p.val) (hi1 : (i 1).val = k.val) :
    (iblk3 V c 0 t : Vec Ideal S5000x128 .f32) (ix2 p k)
      = (V c (Pipeline.arrRef spec3 0) : Cert.ReferenceIdeal.S50000x128.Idx → Elt Ideal .f32) i := by
  obtain ⟨e0, e1, -⟩ := index_facts_lin3 t
  unfold iblk3
  rw [View.read_apply]
  show (V c (Pipeline.arrRef spec3 0) : Cert.ReferenceIdeal.S50000x128.Idx → Elt Ideal .f32) _ = _
  refine congrArg _ (funext fun a => Fin.ext ?_)
  match a with
  | ⟨0, _⟩ => show win3_0.index t (0 : Fin 2) * 5000 + 1 * p.val = (i 0).val; rw [e0, hi0]; omega
  | ⟨1, _⟩ => show win3_0.index t (1 : Fin 2) * 128 + 1 * k.val = (i 1).val; rw [e1, hi1]; omega

/-- Entry (p, 0) of the scale window's block at point `t` is the column's entry (5000 t + p, 0). -/
theorem scales_block_lin3 (c : Dev nD) (t : Fin cfg3.N) (p : Fin 5000) (z : Fin 1) (i : Cert.ReferenceIdeal.S50000x1.Idx)
    (hi0 : (i 0).val = 5000 * t.val + p.val) :
    (iblk3 V c 1 t : Vec Ideal S5000x1 .f32) (ix2 p z)
      = (V c (Pipeline.arrRef spec3 1) : Cert.ReferenceIdeal.S50000x1.Idx → Elt Ideal .f32) i := by
  obtain ⟨-, -, e0, e1, -⟩ := index_facts_lin3 t
  unfold iblk3
  rw [View.read_apply]
  show (V c (Pipeline.arrRef spec3 1) : Cert.ReferenceIdeal.S50000x1.Idx → Elt Ideal .f32) _ = _
  refine congrArg _ (funext fun a => Fin.ext ?_)
  match a with
  | ⟨0, _⟩ => show win3_1.index t (0 : Fin 2) * 5000 + 1 * p.val = (i 0).val; rw [e0, hi0]; omega
  | ⟨1, _⟩ =>
    show win3_1.index t (1 : Fin 2) * 1 + 1 * z.val = (i 1).val
    have h1 : (i 1).val < 1 := (i 1).isLt
    have hz : z.val < 1 := z.isLt
    rw [e1]; omega

/-- The weight window's block at every point is the whole weight. -/
theorem weight_block_lin3 (c : Dev nD) (t : Fin cfg3.N) (k : Fin 128) (q : Fin 128) :
    (iblk3 V c 2 t : Vec Ideal S128x128 .f32) (ix2 k q)
      = (V c (Pipeline.arrRef spec3 2) : Cert.ReferenceIdeal.S128x128.Idx → Elt Ideal .f32) (ix2 k q) := by
  obtain ⟨-, -, -, -, e0, e1, -⟩ := index_facts_lin3 t
  unfold iblk3
  rw [View.read_apply]
  show (V c (Pipeline.arrRef spec3 2) : Cert.ReferenceIdeal.S128x128.Idx → Elt Ideal .f32) _ = _
  refine congrArg _ (funext fun a => Fin.ext ?_)
  match a with
  | ⟨0, _⟩ => show win3_2.index t (0 : Fin 2) * 128 + 1 * k.val = k.val; rw [e0]; omega
  | ⟨1, _⟩ => show win3_2.index t (1 : Fin 2) * 128 + 1 * q.val = q.val; rw [e1]; omega

/-- WHAT POINT `t` WRITES BACK is block `t` of `(X ⊙ n) · W` of the arrays as the region finds them: at (p, q) both
    are the sum over k of (X (5000 t + p, k) · n (5000 t + p, 0)) · W (k, q). -/
theorem flushed_lin3 (c : Dev nD) (t : Fin cfg3.N) :
    (dat3 V c).flushed 3 t = ((cfg3.win 3).blk t).view.read (Elt Ideal)
      (Cert.Bridge.linear (V c (Pipeline.arrRef spec3 0)) (V c (Pipeline.arrRef spec3 1)) (V c (Pipeline.arrRef spec3 2))) := by
  show (cfg3.win 3).cut (grid3.coords t) ((dat3 V c).after 3 t) = _
  rw [after3_3]
  unfold out3_3
  rw [View.canon_unit_zero zero_offsets_lin3]
  simp only [View.ld_unit_zero (S := S5000x128) zero_offsets_lin3, View.ld_unit_zero (S := S5000x1) zero_offsets_lin3,
    View.ld_unit_zero (S := S128x128) zero_offsets_lin3]
  obtain ⟨-, -, -, -, -, -, e0, e1⟩ := index_facts_lin3 t
  have ht : t.val < 10 := lt_of_lt_of_eq t.isLt N_3
  funext j
  obtain ⟨p, q, rfl⟩ : ∃ (p : Fin 5000) (q : Fin 128), j = ix2 p q := ⟨j 0, j 1, eq_ix2 j⟩
  have hp : p.val < 5000 := p.isLt
  have hemb : ((cfg3.win 3).blk t).view.emb (ix2 p q)
      = (ix2 (⟨5000 * t.val + p.val, by omega⟩ : Fin 50000) q : Cert.ReferenceIdeal.S50000x128.Idx) := by
    funext a; apply Fin.ext
    match a with
    | ⟨0, _⟩ => show win3_3.index t (0 : Fin 2) * 5000 + 1 * p.val = 5000 * t.val + p.val; rw [e0]; omega
    | ⟨1, _⟩ => show win3_3.index t (1 : Fin 2) * 128 + 1 * q.val = q.val; rw [e1]; omega
  rw [View.read_apply, hemb]
  show k3_pay1 (iblk3 V c 0 t) (iblk3 V c 1 t) (iblk3 V c 2 t) (ix2 p q) = Cert.Bridge.linear _ _ _ (ix2 _ q)
  rw [payload_apply_lin3, linear_apply_lin3]
  refine Finset.sum_congr rfl fun k _ => ?_
  rw [features_block_lin3 V c t p k (ix2 (⟨5000 * t.val + p.val, by omega⟩ : Fin 50000) k) rfl rfl,
    scales_block_lin3 V c t p 0 (ix2 (⟨5000 * t.val + p.val, by omega⟩ : Fin 50000) (0 : Fin 1)) rfl,
    weight_block_lin3 V c t k q]

/-- An index of the array is in point `t`'s block iff each coordinate is in the block's range on its axis. -/
theorem mem_block_lin3 (t : Fin cfg3.N) (i : Cert.KernelIdeal.S50000x128.Idx) :
    i ∈ ((cfg3.win 3).blk t).view.set ↔ ∀ a : Fin 2, win3_3.index t a * S5000x128.size a ≤ (i a).val ∧ (i a).val < win3_3.index t a * S5000x128.size a + S5000x128.size a := by
  have hset : ((cfg3.win 3).blk t).view.set = (win3_3.rect t).set := View.set_slice_whole _ _
  rw [hset, Rect.mem_set_unit]
  exact Iff.rfl

/-- Every block row is some point's. -/
theorem index_onto_lin3 : ∀ b : Fin 10, ∃ t : Fin cfg3.N, win3_3.index t = ![b.val, 0] :=
  (by decide +kernel : ∀ b : Fin 10, ∃ t : Fin grid3.N, win3_3.index t = ![b.val, 0])

/-- The ten row blocks tile the array: row r is in the block of the point at block row r / 5000. -/
theorem cover_lin3 (i : Cert.KernelIdeal.S50000x128.Idx) :
    ∃ t : Fin cfg3.N, (cfg3.win 3).flush t = true ∧ i ∈ ((cfg3.win 3).blk t).view.set := by
  have hi0 : (i 0).val < 50000 := (i 0).isLt
  have hi1 : (i 1).val < 128 := (i 1).isLt
  obtain ⟨t, ht⟩ := index_onto_lin3 ⟨(i 0).val / 5000, by omega⟩
  have q0 : win3_3.index t (0 : Fin 2) = (i 0).val / 5000 := congrFun ht 0
  have q1 : win3_3.index t (1 : Fin 2) = 0 := congrFun ht 1
  refine ⟨t, flush3_3 t, ?_⟩
  rw [mem_block_lin3]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 128 ≤ (i 1).val ∧ (i 1).val < win3_3.index t (1 : Fin 2) * 128 + 128; omega

/-- REGION 3. With the region's three input arrays named — the node features `X`, the column of source norms `n`, the
    weight `W` — the array of output window 3 after the region's ten grid points is `(X ⊙ n) · W`, whole: grid point
    `t` computes rows `5000 t … 5000 t + 4999` of it from the same rows of `X` and `n` and all of `W`, and the ten row
    blocks tile the array. -/
theorem region3_value (c : Dev nD)
    (X : FVec Ideal Cert.ReferenceIdeal.S50000x128 .f32) (n : FVec Ideal Cert.ReferenceIdeal.S50000x1 .f32)
    (W : FVec Ideal Cert.ReferenceIdeal.S128x128 .f32)
    (hX : V c (Pipeline.arrRef spec3 0) = X) (hn : V c (Pipeline.arrRef spec3 1) = n)
    (hW : V c (Pipeline.arrRef spec3 2) = W) :
    (dat3 V c).arrAt 3 cfg3.N = Cert.Bridge.linear X n W := by
  subst hX hn hW
  exact (dat3 V c).arrAt_eq_of_cover 3 _ (fun t _ => flushed_lin3 V c t) cover_lin3

end Cert.KernelIdeal.Vals

end
-- ==== Proof.RegionPost4.lean ====
import proofs.«418930_j66125316489906_3_alg».proof.Proof.Gen.KernelIdeal.Frame
import proofs.«418930_j66125316489906_3_alg».proof.Proof.Spec
import proofs.«418930_j66125316489906_3_alg».proof.Proof.Lemmas
import Idealize.ShloMosaic.Lib.Pipeline.Value
import Idealize.ShloMosaic.Lib.ValueIdx
import Idealize.ShloMosaic.PureOps.Ideal.Laws

set_option maxRecDepth 16384

noncomputable section

namespace Cert.KernelIdeal.Vals

open Idealize.ShloMosaic Idealize.ShloMosaic.TcCoe Idealize.SL.Sem Idealize.ShloMosaic.ValueIdx
open Idealize.ShloMosaic.Pipeline (Dat Cfg Window)
open Cert.KernelIdeal Cert.KernelIdeal.Gen

variable (V : (c : Dev nD) → (b : Ref sig .tc) → Buf (Elt Ideal) ((c : Thread nD τ).loc b))

/-- The epilogue at an index: row r of A scaled by the norm of row r, the bias of column q added, cut at zero (the
    reference's zero is a rank-0 constant broadcast to the array: it reads the constant's word at every index). -/
theorem epilogue_apply_post4 (A : FVec Ideal Cert.ReferenceIdeal.S50000x128 .f32) (nd : FVec Ideal Cert.ReferenceIdeal.S50000x1 .f32)
    (b : FVec Ideal Cert.ReferenceIdeal.S1x128 .f32) (r : Fin 50000) (q : Fin 128) :
    Cert.Bridge.epilogue A nd b (ix2 r q)
      = max (A (ix2 r q) * nd (ix2 r (0 : Fin 1)) + b (ix2 (0 : Fin 1) q)) (Ideal.ofBits .f32 0x00000000#32) := by
  unfold Cert.Bridge.epilogue
  rw [maximumf_apply, addf_apply, mulf_apply]
  rw [broadcastInDim_apply ![0, 1] Cert.ReferenceIdeal.Gen.bcast_S50000x1_S50000x128_0_1 nd (ix2 r q) (ix2 r (0 : Fin 1)) (fun a => match a with
    | ⟨0, _⟩ => by show r.val = if (50000 : Nat) = 1 then 0 else r.val; rw [if_neg (by decide)]
    | ⟨1, _⟩ => by show 0 = if (1 : Nat) = 1 then 0 else q.val; rw [if_pos rfl])]
  rw [broadcastInDim_apply ![0, 1] Cert.ReferenceIdeal.Gen.bcast_S1x128_S50000x128_0_1 b (ix2 r q) (ix2 (0 : Fin 1) q) (fun a => match a with
    | ⟨0, _⟩ => by show 0 = if (1 : Nat) = 1 then 0 else r.val; rw [if_pos rfl]
    | ⟨1, _⟩ => by show q.val = if (128 : Nat) = 1 then 0 else q.val; rw [if_neg (by decide)])]
  rw [broadcastInDim_apply ![] Cert.ReferenceIdeal.Gen.bcast_S_S50000x128 (constant (F := Ideal) Cert.ReferenceIdeal.S_ .f32 0x00000000#32) (ix2 r q) ix0 (fun a => a.elim0)]
  rfl

/-- The kernel's first payload at an index of the block: the same expression of the loaded blocks (the kernel's zero is
    a scalar splat of the same word). -/
theorem payH_apply_post4 (x0 : Vec Ideal S5000x128 .f32) (x1 : Vec Ideal S5000x1 .f32) (x2 : Vec Ideal S1x128 .f32)
    (p : Fin 5000) (q : Fin 128) :
    k4_pay1 x0 x1 x2 (ix2 p q)
      = max (x0 (ix2 p q) * x1 (ix2 p (0 : Fin 1)) + x2 (ix2 (0 : Fin 1) q)) (Ideal.ofBits .f32 0x00000000#32) := by
  unfold k4_pay1
  rw [maximumf_apply, addf_apply, mulf_apply, shapeCast_self, shapeCast_self, shapeCast_self]
  rw [broadcastTo_apply x1 broadcasts_S5000x1_S5000x128 (ix2 p q) (ix2 p (0 : Fin 1)) (fun a => match a with
    | ⟨0, _⟩ => by show p.val = if (5000 : Nat) = 1 then 0 else p.val; rw [if_neg (by decide)]
    | ⟨1, _⟩ => by show 0 = if (1 : Nat) = 1 then 0 else q.val; rw [if_pos rfl])]
  rw [broadcastTo_apply x2 broadcasts_S1x128_S5000x128 (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])]
  rfl

/-! The kernel's matrix product (one contracted axis: columns of the left operand against rows of the right):
    the operand indices at output index (p, q) and contraction coordinate k are (p, k) and (k, q). -/
theorem lhs_mm_post4_row (i : S5000x128.Idx) (q : Cert.KernelIdeal.dot_S5000x128_S128x128_S5000x128_1_0_0_1_n_n.contr.Idx) :
    (Cert.KernelIdeal.dot_S5000x128_S128x128_S5000x128_1_0_0_1_n_n.lhsIdx i q 0).val = (i 0).val := by
  unfold DotDims.lhsIdx
  rw [dif_neg (show ¬(0 : Fin S5000x128.rank) ∈ Cert.KernelIdeal.dot_S5000x128_S128x128_S5000x128_1_0_0_1_n_n.lhsBatch by decide), dif_pos (show (0 : Fin S5000x128.rank) ∈ Cert.KernelIdeal.dot_S5000x128_S128x128_S5000x128_1_0_0_1_n_n.lhsNonContracting by decide)]
  rfl
theorem lhs_mm_post4_col (i : S5000x128.Idx) (q : Cert.KernelIdeal.dot_S5000x128_S128x128_S5000x128_1_0_0_1_n_n.contr.Idx) :
    (Cert.KernelIdeal.dot_S5000x128_S128x128_S5000x128_1_0_0_1_n_n.lhsIdx i q 1).val = (q ⟨0, by decide⟩).val :=
  Cert.KernelIdeal.dot_S5000x128_S128x128_S5000x128_1_0_0_1_n_n.lhsIdx_val_of_single rfl i q
theorem rhs_mm_post4_row (i : S5000x128.Idx) (q : Cert.KernelIdeal.dot_S5000x128_S128x128_S5000x128_1_0_0_1_n_n.contr.Idx) :
    (Cert.KernelIdeal.dot_S5000x128_S128x128_S5000x128_1_0_0_1_n_n.rhsIdx i q 0).val = (q ⟨0, by decide⟩).val :=
  Cert.KernelIdeal.dot_S5000x128_S128x128_S5000x128_1_0_0_1_n_n.rhsIdx_val_of_single rfl i q
theorem rhs_mm_post4_col (i : S5000x128.Idx) (q : Cert.KernelIdeal.dot_S5000x128_S128x128_S5000x128_1_0_0_1_n_n.contr.Idx) :
    (Cert.KernelIdeal.dot_S5000x128_S128x128_S5000x128_1_0_0_1_n_n.rhsIdx i q 1).val = (i 1).val := by
  unfold DotDims.rhsIdx
  rw [dif_neg (show ¬(1 : Fin S128x128.rank) ∈ Cert.KernelIdeal.dot_S5000x128_S128x128_S5000x128_1_0_0_1_n_n.rhsBatch by decide), dif_pos (show (1 : Fin S128x128.rank) ∈ Cert.KernelIdeal.dot_S5000x128_S128x128_S5000x128_1_0_0_1_n_n.rhsNonContracting by decide)]
  rfl

/-- The kernel's product into the zero accumulator, at an index: the sum over the contracted axis. -/
theorem matmul_apply_post4 (l : FVec Ideal S5000x128 .bf16) (r : FVec Ideal S128x128 .bf16) (p : Fin 5000) (q : Fin 128) :
    matmul Cert.KernelIdeal.dot_S5000x128_S128x128_S5000x128_1_0_0_1_n_n none l r (constant S5000x128 .f32 0x00000000#32) (ix2 p q)
      = ∑ k : Fin 128, l (ix2 p k) * r (ix2 k q) := by
  refine (Ideal.matmul_constant_zero_apply Cert.KernelIdeal.dot_S5000x128_S128x128_S5000x128_1_0_0_1_n_n none l r (ix2 p q)).trans ?_
  rw [← Equiv.sum_comp (ValueIdx.contrEquiv1 Cert.KernelIdeal.dot_S5000x128_S128x128_S5000x128_1_0_0_1_n_n 128 rfl rfl).symm]
  refine Finset.sum_congr rfl fun k _ => ?_
  have hk := ValueIdx.contrEquiv1_symm_val Cert.KernelIdeal.dot_S5000x128_S128x128_S5000x128_1_0_0_1_n_n 128 rfl rfl k
  have el : Cert.KernelIdeal.dot_S5000x128_S128x128_S5000x128_1_0_0_1_n_n.lhsIdx (ix2 p q) ((ValueIdx.contrEquiv1 Cert.KernelIdeal.dot_S5000x128_S128x128_S5000x128_1_0_0_1_n_n 128 rfl rfl).symm k) = ix2 p k := funext fun a => Fin.ext (by
    match a with
    | ⟨0, _⟩ => exact lhs_mm_post4_row _ _
    | ⟨1, _⟩ => exact (lhs_mm_post4_col _ _).trans hk)
  have er : Cert.KernelIdeal.dot_S5000x128_S128x128_S5000x128_1_0_0_1_n_n.rhsIdx (ix2 p q) ((ValueIdx.contrEquiv1 Cert.KernelIdeal.dot_S5000x128_S128x128_S5000x128_1_0_0_1_n_n 128 rfl rfl).symm k) = ix2 k q := funext fun a => Fin.ext (by
    match a with
    | ⟨0, _⟩ => exact (rhs_mm_post4_row _ _).trans hk
    | ⟨1, _⟩ => exact rhs_mm_post4_col _ _)
  rw [el, er]

/-- The second payload at an index: the epilogue's row scaled by the source norm, times the weight. -/
theorem payX_apply_post4 (x0 : Vec Ideal S5000x128 .f32) (x1 : Vec Ideal S5000x1 .f32) (x2 : Vec Ideal S1x128 .f32)
    (x3 : Vec Ideal S5000x1 .f32) (x4 : Vec Ideal S128x128 .f32) (p : Fin 5000) (q : Fin 128) :
    k4_pay2 x0 x1 x2 x3 x4 (ix2 p q)
      = ∑ k : Fin 128, (k4_pay1 x0 x1 x2 (ix2 p k) * x3 (ix2 p (0 : Fin 1))) * x4 (ix2 k q) := by
  unfold k4_pay2
  rw [truncf_apply]
  refine (matmul_apply_post4 _ _ p q).trans ?_
  refine Finset.sum_congr rfl fun k _ => ?_
  rw [truncf_apply, truncf_apply, mulf_apply, shapeCast_self]
  rw [broadcastTo_apply x3 broadcasts_S5000x1_S5000x128 (ix2 p k) (ix2 p (0 : Fin 1)) (fun a => match a with
    | ⟨0, _⟩ => by show p.val = if (5000 : Nat) = 1 then 0 else p.val; rw [if_neg (by decide)]
    | ⟨1, _⟩ => by show 0 = if (1 : Nat) = 1 then 0 else k.val; rw [if_pos rfl])]

/-! The reference's product: the same operand indices over the whole array. -/
theorem lhs_dg_post4_row (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.lhsIdx i q 0).val = (i 0).val := by
  unfold DotDims.lhsIdx
  rw [dif_neg (show ¬(0 : Fin Cert.ReferenceIdeal.S50000x128.rank) ∈ Cert.ReferenceIdeal.dot_S50000x128_S128x128_S50000x128_1_0_0_1_n_n.lhsBatch by decide), dif_pos (show (0 : Fin Cert.ReferenceIdeal.S50000x128.rank) ∈ Cert.ReferenceIdeal.dot_S50000x128_S128x128_S50000x128_1_0_0_1_n_n.lhsNonContracting by decide)]
  rfl
theorem lhs_dg_post4_col (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.lhsIdx i q 1).val = (q ⟨0, by decide⟩).val :=
  Cert.ReferenceIdeal.dot_S50000x128_S128x128_S50000x128_1_0_0_1_n_n.lhsIdx_val_of_single rfl i q
theorem rhs_dg_post4_row (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.rhsIdx i q 0).val = (q ⟨0, by decide⟩).val :=
  Cert.ReferenceIdeal.dot_S50000x128_S128x128_S50000x128_1_0_0_1_n_n.rhsIdx_val_of_single rfl i q
theorem rhs_dg_post4_col (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.rhsIdx i q 1).val = (i 1).val := by
  unfold DotDims.rhsIdx
  rw [dif_neg (show ¬(1 : Fin Cert.ReferenceIdeal.S128x128.rank) ∈ Cert.ReferenceIdeal.dot_S50000x128_S128x128_S50000x128_1_0_0_1_n_n.rhsBatch by decide), dif_pos (show (1 : Fin Cert.ReferenceIdeal.S128x128.rank) ∈ Cert.ReferenceIdeal.dot_S50000x128_S128x128_S50000x128_1_0_0_1_n_n.rhsNonContracting by decide)]
  rfl

/-- The next layer's message at an index: row r of X scaled by n r, against column q of W. -/
theorem linear_apply_post4 (X : FVec Ideal Cert.ReferenceIdeal.S50000x128 .f32) (n : FVec Ideal Cert.ReferenceIdeal.S50000x1 .f32)
    (W : FVec Ideal Cert.ReferenceIdeal.S128x128 .f32) (r : Fin 50000) (q : Fin 128) :
    Cert.Bridge.linear X n W (ix2 r q) = ∑ k : Fin 128, (X (ix2 r k) * n (ix2 r (0 : Fin 1))) * W (ix2 k q) := by
  unfold Cert.Bridge.linear
  simp only [Host.dotGeneral]
  rw [Ideal.dotGeneral_apply, ← Equiv.sum_comp (ValueIdx.contrEquiv1 Cert.ReferenceIdeal.dot_S50000x128_S128x128_S50000x128_1_0_0_1_n_n 128 rfl rfl).symm]
  refine Finset.sum_congr rfl fun k _ => ?_
  have hk := ValueIdx.contrEquiv1_symm_val Cert.ReferenceIdeal.dot_S50000x128_S128x128_S50000x128_1_0_0_1_n_n 128 rfl rfl k
  have el : Cert.ReferenceIdeal.dot_S50000x128_S128x128_S50000x128_1_0_0_1_n_n.lhsIdx (ix2 r q) ((ValueIdx.contrEquiv1 Cert.ReferenceIdeal.dot_S50000x128_S128x128_S50000x128_1_0_0_1_n_n 128 rfl rfl).symm k) = ix2 r k := funext fun a => Fin.ext (by
    match a with
    | ⟨0, _⟩ => exact lhs_dg_post4_row _ _
    | ⟨1, _⟩ => exact (lhs_dg_post4_col _ _).trans hk)
  have er : Cert.ReferenceIdeal.dot_S50000x128_S128x128_S50000x128_1_0_0_1_n_n.rhsIdx (ix2 r q) ((ValueIdx.contrEquiv1 Cert.ReferenceIdeal.dot_S50000x128_S128x128_S50000x128_1_0_0_1_n_n 128 rfl rfl).symm k) = ix2 k q := funext fun a => Fin.ext (by
    match a with
    | ⟨0, _⟩ => exact (rhs_dg_post4_row _ _).trans hk
    | ⟨1, _⟩ => exact rhs_dg_post4_col _ _)
  rw [el, er, mulf_apply]
  rw [broadcastInDim_apply ![0, 1] Cert.ReferenceIdeal.Gen.bcast_S50000x1_S50000x128_0_1 n (ix2 r k) (ix2 r (0 : Fin 1)) (fun a => match a with
    | ⟨0, _⟩ => by show r.val = if (50000 : Nat) = 1 then 0 else r.val; rw [if_neg (by decide)]
    | ⟨1, _⟩ => by show 0 = if (1 : Nat) = 1 then 0 else k.val; rw [if_pos rfl])]

theorem hz_post4 : (![0, 0] : Fin 2 → Nat) = fun _ => 0 := funext fun a => by fin_cases a <;> rfl

/-- The printed index maps, decided over the grid: the row-blocked windows sit at block (t, 0), the whole-array windows at
    block (0, 0); the grid has ten points. -/
theorem idx_facts_post4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0
    ∧ win4_6.index t (0 : Fin 2) = t.val ∧ win4_6.index t (1 : Fin 2) = 0
    ∧ t.val < 10 :=
  (by decide +kernel : ∀ t : Fin grid4.N, _)

/-- Block t of the aggregated messages is rows 5000 t … 5000 t + 4999 of the array. -/
theorem blkA_post4 (c : Dev nD) (t : Fin cfg4.N) (X : FVec Ideal Cert.KernelIdeal.S50000x128 .f32)
    (hX : V c (Pipeline.arrRef spec4 0) = X) (p : Fin 5000) (q : Fin 128) (r : Fin 50000) (hr : r.val = 5000 * t.val + p.val) :
    (iblk4 V c 0 t : Vec Ideal S5000x128 .f32) (ix2 p q) = X (ix2 r q) := by
  subst hX
  obtain ⟨e0, e1, -⟩ := idx_facts_post4 t
  unfold iblk4
  rw [View.read_apply]
  show V c (Pipeline.arrRef spec4 0) _ = V c (Pipeline.arrRef spec4 0) _
  congr 1
  funext a; apply Fin.ext
  match a with
  | ⟨0, _⟩ => show win4_0.index t (0 : Fin 2) * 5000 + 1 * p.val = r.val; omega
  | ⟨1, _⟩ => show win4_0.index t (1 : Fin 2) * 128 + 1 * q.val = q.val; omega

/-- Block t of the destination norms is rows 5000 t … of the column. -/
theorem blkNd_post4 (c : Dev nD) (t : Fin cfg4.N) (X : FVec Ideal Cert.KernelIdeal.S50000x1 .f32)
    (hX : V c (Pipeline.arrRef spec4 1) = X) (p : Fin 5000) (r : Fin 50000) (hr : r.val = 5000 * t.val + p.val) :
    (iblk4 V c 1 t : Vec Ideal S5000x1 .f32) (ix2 p (0 : Fin 1)) = X (ix2 r (0 : Fin 1)) := by
  subst hX
  obtain ⟨-, -, e0, e1, -⟩ := idx_facts_post4 t
  unfold iblk4
  rw [View.read_apply]
  show V c (Pipeline.arrRef spec4 1) _ = V c (Pipeline.arrRef spec4 1) _
  congr 1
  funext a; apply Fin.ext
  match a with
  | ⟨0, _⟩ => show win4_1.index t (0 : Fin 2) * 5000 + 1 * p.val = r.val; omega
  | ⟨1, _⟩ => show win4_1.index t (1 : Fin 2) * 1 + 1 * 0 = 0; omega

/-- The bias row's one block is the row. -/
theorem blkB_post4 (c : Dev nD) (t : Fin cfg4.N) (X : FVec Ideal Cert.KernelIdeal.S1x128 .f32)
    (hX : V c (Pipeline.arrRef spec4 2) = X) (q : Fin 128) :
    (iblk4 V c 2 t : Vec Ideal S1x128 .f32) (ix2 (0 : Fin 1) q) = X (ix2 (0 : Fin 1) q) := by
  subst hX
  obtain ⟨-, -, -, -, e0, e1, -⟩ := idx_facts_post4 t
  unfold iblk4
  rw [View.read_apply]
  show V c (Pipeline.arrRef spec4 2) _ = V c (Pipeline.arrRef spec4 2) _
  congr 1
  funext a; apply Fin.ext
  match a with
  | ⟨0, _⟩ => show win4_2.index t (0 : Fin 2) * 1 + 1 * 0 = 0; omega
  | ⟨1, _⟩ => show win4_2.index t (1 : Fin 2) * 128 + 1 * q.val = q.val; omega

/-- Block t of the source norms is rows 5000 t … of the column. -/
theorem blkNs_post4 (c : Dev nD) (t : Fin cfg4.N) (X : FVec Ideal Cert.KernelIdeal.S50000x1 .f32)
    (hX : V c (Pipeline.arrRef spec4 3) = X) (p : Fin 5000) (r : Fin 50000) (hr : r.val = 5000 * t.val + p.val) :
    (iblk4 V c 3 t : Vec Ideal S5000x1 .f32) (ix2 p (0 : Fin 1)) = X (ix2 r (0 : Fin 1)) := by
  subst hX
  obtain ⟨-, -, -, -, -, -, e0, e1, -⟩ := idx_facts_post4 t
  unfold iblk4
  rw [View.read_apply]
  show V c (Pipeline.arrRef spec4 3) _ = V c (Pipeline.arrRef spec4 3) _
  congr 1
  funext a; apply Fin.ext
  match a with
  | ⟨0, _⟩ => show win4_3.index t (0 : Fin 2) * 5000 + 1 * p.val = r.val; omega
  | ⟨1, _⟩ => show win4_3.index t (1 : Fin 2) * 1 + 1 * 0 = 0; omega

/-- The weight's one block is the weight. -/
theorem blkW_post4 (c : Dev nD) (t : Fin cfg4.N) (X : FVec Ideal Cert.KernelIdeal.S128x128 .f32)
    (hX : V c (Pipeline.arrRef spec4 4) = X) (k : Fin 128) (q : Fin 128) :
    (iblk4 V c 4 t : Vec Ideal S128x128 .f32) (ix2 k q) = X (ix2 k q) := by
  subst hX
  obtain ⟨-, -, -, -, -, -, -, -, e0, e1, -⟩ := idx_facts_post4 t
  unfold iblk4
  rw [View.read_apply]
  show V c (Pipeline.arrRef spec4 4) _ = V c (Pipeline.arrRef spec4 4) _
  congr 1
  funext a; apply Fin.ext
  match a with
  | ⟨0, _⟩ => show win4_4.index t (0 : Fin 2) * 128 + 1 * k.val = k.val; omega
  | ⟨1, _⟩ => show win4_4.index t (1 : Fin 2) * 128 + 1 * q.val = q.val; omega

/-- The kernel's first payload at block index (p, q) of point t is the epilogue at row 5000 t + p. -/
theorem payH_blk_post4 (c : Dev nD)
    (A : FVec Ideal Cert.ReferenceIdeal.S50000x128 .f32) (nd : FVec Ideal Cert.ReferenceIdeal.S50000x1 .f32)
    (b : FVec Ideal Cert.ReferenceIdeal.S1x128 .f32)
    (hA : V c (Pipeline.arrRef spec4 0) = A) (hnd : V c (Pipeline.arrRef spec4 1) = nd)
    (hb : V c (Pipeline.arrRef spec4 2) = b) (t : Fin cfg4.N) (p : Fin 5000) (q : Fin 128) (r : Fin 50000)
    (hr : r.val = 5000 * t.val + p.val) :
    k4_pay1 (iblk4 V c 0 t) (iblk4 V c 1 t) (iblk4 V c 2 t) (ix2 p q) = Cert.Bridge.epilogue A nd b (ix2 r q) := by
  refine (payH_apply_post4 _ _ _ p q).trans ?_
  rw [blkA_post4 V c t A hA p q r hr, blkNd_post4 V c t nd hnd p r hr, blkB_post4 V c t b hb q]
  exact (epilogue_apply_post4 A nd b r q).symm

/-- Element (p, q) of point t's block of window 5 sits at row 5000 t + p, column q of the array. -/
theorem embH_post4 (t : Fin cfg4.N) (p : Fin 5000) (q : Fin 128) (r : Fin 50000) (hr : r.val = 5000 * t.val + p.val) :
    ((cfg4.win 5).blk t).view.emb (ix2 p q) = ix2 r q := by
  obtain ⟨-, -, -, -, -, -, -, -, -, -, e0, e1, -⟩ := idx_facts_post4 t
  funext a; apply Fin.ext
  match a with
  | ⟨0, _⟩ => show win4_5.index t (0 : Fin 2) * 5000 + 1 * p.val = r.val; omega
  | ⟨1, _⟩ => show win4_5.index t (1 : Fin 2) * 128 + 1 * q.val = q.val; omega

/-- The same for window 6. -/
theorem embX_post4 (t : Fin cfg4.N) (p : Fin 5000) (q : Fin 128) (r : Fin 50000) (hr : r.val = 5000 * t.val + p.val) :
    ((cfg4.win 6).blk t).view.emb (ix2 p q) = ix2 r q := by
  obtain ⟨-, -, -, -, -, -, -, -, -, -, -, -, e0, e1, -⟩ := idx_facts_post4 t
  funext a; apply Fin.ext
  match a with
  | ⟨0, _⟩ => show win4_6.index t (0 : Fin 2) * 5000 + 1 * p.val = r.val; omega
  | ⟨1, _⟩ => show win4_6.index t (1 : Fin 2) * 128 + 1 * q.val = q.val; omega

/-- WHAT POINT t WRITES BACK through window 5 is block t of the epilogue. -/
theorem flushed_h_post4 (c : Dev nD)
    (A : FVec Ideal Cert.ReferenceIdeal.S50000x128 .f32) (nd : FVec Ideal Cert.ReferenceIdeal.S50000x1 .f32)
    (b : FVec Ideal Cert.ReferenceIdeal.S1x128 .f32)
    (hA : V c (Pipeline.arrRef spec4 0) = A) (hnd : V c (Pipeline.arrRef spec4 1) = nd)
    (hb : V c (Pipeline.arrRef spec4 2) = b) (t : Fin cfg4.N) :
    (dat4 V c).flushed 5 t = ((cfg4.win 5).blk t).view.read (Elt Ideal) (Cert.Bridge.epilogue A nd b) := by
  show (cfg4.win 5).cut (grid4.coords t) ((dat4 V c).after 5 t) = _
  rw [after4_5]
  unfold out4_5
  rw [View.canon_unit_zero hz_post4]
  simp only [View.ld_unit_zero (S := S5000x128) hz_post4, View.ld_unit_zero (S := S5000x1) hz_post4, View.ld_unit_zero (S := S1x128) hz_post4]
  funext j
  obtain ⟨p, q, rfl⟩ : ∃ (p : Fin 5000) (q : Fin 128), j = ix2 p q := ⟨j 0, j 1, eq_ix2 j⟩
  have ht : t.val < 10 := (idx_facts_post4 t).2.2.2.2.2.2.2.2.2.2.2.2.2.2
  have hp : p.val < 5000 := p.isLt
  obtain ⟨r, hr⟩ : ∃ r : Fin 50000, r.val = 5000 * t.val + p.val := ⟨⟨5000 * t.val + p.val, by omega⟩, rfl⟩
  show k4_pay1 (iblk4 V c 0 t) (iblk4 V c 1 t) (iblk4 V c 2 t) (ix2 p q)
    = Cert.Bridge.epilogue A nd b (((cfg4.win 5).blk t).view.emb (ix2 p q))
  exact (payH_blk_post4 V c A nd b hA hnd hb t p q r hr).trans
    (congrArg (Cert.Bridge.epilogue A nd b) (embH_post4 t p q r hr)).symm

/-- WHAT POINT t WRITES BACK through window 6 is block t of the next layer's message. -/
theorem flushed_x_post4 (c : Dev nD)
    (A : FVec Ideal Cert.ReferenceIdeal.S50000x128 .f32) (nd : FVec Ideal Cert.ReferenceIdeal.S50000x1 .f32)
    (b : FVec Ideal Cert.ReferenceIdeal.S1x128 .f32) (ns : FVec Ideal Cert.ReferenceIdeal.S50000x1 .f32)
    (W : FVec Ideal Cert.ReferenceIdeal.S128x128 .f32)
    (hA : V c (Pipeline.arrRef spec4 0) = A) (hnd : V c (Pipeline.arrRef spec4 1) = nd)
    (hb : V c (Pipeline.arrRef spec4 2) = b) (hns : V c (Pipeline.arrRef spec4 3) = ns)
    (hW : V c (Pipeline.arrRef spec4 4) = W) (t : Fin cfg4.N) :
    (dat4 V c).flushed 6 t
      = ((cfg4.win 6).blk t).view.read (Elt Ideal) (Cert.Bridge.linear (Cert.Bridge.epilogue A nd b) ns W) := by
  show (cfg4.win 6).cut (grid4.coords t) ((dat4 V c).after 6 t) = _
  rw [after4_6]
  unfold out4_6
  rw [View.canon_unit_zero hz_post4]
  simp only [View.ld_unit_zero (S := S5000x128) hz_post4, View.ld_unit_zero (S := S5000x1) hz_post4, View.ld_unit_zero (S := S1x128) hz_post4, View.ld_unit_zero (S := S128x128) hz_post4]
  funext j
  obtain ⟨p, q, rfl⟩ : ∃ (p : Fin 5000) (q : Fin 128), j = ix2 p q := ⟨j 0, j 1, eq_ix2 j⟩
  have ht : t.val < 10 := (idx_facts_post4 t).2.2.2.2.2.2.2.2.2.2.2.2.2.2
  have hp : p.val < 5000 := p.isLt
  obtain ⟨r, hr⟩ : ∃ r : Fin 50000, r.val = 5000 * t.val + p.val := ⟨⟨5000 * t.val + p.val, by omega⟩, rfl⟩
  show k4_pay2 (iblk4 V c 0 t) (iblk4 V c 1 t) (iblk4 V c 2 t) (iblk4 V c 3 t) (iblk4 V c 4 t) (ix2 p q)
    = Cert.Bridge.linear (Cert.Bridge.epilogue A nd b) ns W (((cfg4.win 6).blk t).view.emb (ix2 p q))
  refine ((payX_apply_post4 _ _ _ _ _ p q).trans ?_).trans
    (congrArg (Cert.Bridge.linear (Cert.Bridge.epilogue A nd b) ns W) (embX_post4 t p q r hr)).symm
  rw [linear_apply_post4]
  refine Finset.sum_congr rfl fun k _ => ?_
  rw [payH_blk_post4 V c A nd b hA hnd hb t p k r hr, blkNs_post4 V c t ns hns p r hr, blkW_post4 V c t W hW k q]

/-- The ten row blocks tile the array: row r is row r % 5000 of the block of point r / 5000. -/
theorem coverH_post4 (i : Cert.KernelIdeal.S50000x128.Idx) :
    ∃ t : Fin cfg4.N, (cfg4.win 5).flush t = true ∧ i ∈ ((cfg4.win 5).blk t).view.set := by
  obtain ⟨r, q, rfl⟩ : ∃ (r : Fin 50000) (q : Fin 128), i = ix2 r q := ⟨i 0, i 1, eq_ix2 i⟩
  have hr : r.val < 50000 := r.isLt
  have hN : grid4.N = 10 := N_4
  obtain ⟨t, ht⟩ : ∃ t : Fin cfg4.N, t.val = r.val / 5000 :=
    ⟨⟨r.val / 5000, by show _ < grid4.N; rw [hN]; omega⟩, rfl⟩
  obtain ⟨p, hp⟩ : ∃ p : Fin 5000, p.val = r.val % 5000 := ⟨⟨r.val % 5000, by omega⟩, rfl⟩
  refine ⟨t, flush4_5 t, ?_⟩
  have h := ((cfg4.win 5).blk t).view.emb_mem_set (ix2 p q)
  rw [embH_post4 t p q r (by omega)] at h
  exact h

/-- The same for window 6. -/
theorem coverX_post4 (i : Cert.KernelIdeal.S50000x128.Idx) :
    ∃ t : Fin cfg4.N, (cfg4.win 6).flush t = true ∧ i ∈ ((cfg4.win 6).blk t).view.set := by
  obtain ⟨r, q, rfl⟩ : ∃ (r : Fin 50000) (q : Fin 128), i = ix2 r q := ⟨i 0, i 1, eq_ix2 i⟩
  have hr : r.val < 50000 := r.isLt
  have hN : grid4.N = 10 := N_4
  obtain ⟨t, ht⟩ : ∃ t : Fin cfg4.N, t.val = r.val / 5000 :=
    ⟨⟨r.val / 5000, by show _ < grid4.N; rw [hN]; omega⟩, rfl⟩
  obtain ⟨p, hp⟩ : ∃ p : Fin 5000, p.val = r.val % 5000 := ⟨⟨r.val % 5000, by omega⟩, rfl⟩
  refine ⟨t, flush4_6 t, ?_⟩
  have h := ((cfg4.win 6).blk t).view.emb_mem_set (ix2 p q)
  rw [embX_post4 t p q r (by omega)] at h
  exact h

/-- REGION 4, first output (window 5): the layer's epilogue `relu (A ⊙ nd + b)` of the aggregated messages `A`, the column
    of destination norms `nd` and the bias row `b`, whole (ten row blocks of 5000 rows). -/
theorem region4_value_h (c : Dev nD)
    (A : FVec Ideal Cert.ReferenceIdeal.S50000x128 .f32) (nd : FVec Ideal Cert.ReferenceIdeal.S50000x1 .f32)
    (b : FVec Ideal Cert.ReferenceIdeal.S1x128 .f32) (ns : FVec Ideal Cert.ReferenceIdeal.S50000x1 .f32)
    (W : FVec Ideal Cert.ReferenceIdeal.S128x128 .f32)
    (hA : V c (Pipeline.arrRef spec4 0) = A) (hnd : V c (Pipeline.arrRef spec4 1) = nd)
    (hb : V c (Pipeline.arrRef spec4 2) = b) (hns : V c (Pipeline.arrRef spec4 3) = ns)
    (hW : V c (Pipeline.arrRef spec4 4) = W) :
    (dat4 V c).arrAt 5 cfg4.N = Cert.Bridge.epilogue A nd b :=
  (dat4 V c).arrAt_eq_of_cover 5 (Cert.Bridge.epilogue A nd b)
    (fun t _ => flushed_h_post4 V c A nd b hA hnd hb t) coverH_post4

/-- REGION 4, second output (window 6): the next layer's message `(h ⊙ ns) · W` of that epilogue `h`, the column of source
    norms `ns` and the weight `W`, whole. -/
theorem region4_value_x (c : Dev nD)
    (A : FVec Ideal Cert.ReferenceIdeal.S50000x128 .f32) (nd : FVec Ideal Cert.ReferenceIdeal.S50000x1 .f32)
    (b : FVec Ideal Cert.ReferenceIdeal.S1x128 .f32) (ns : FVec Ideal Cert.ReferenceIdeal.S50000x1 .f32)
    (W : FVec Ideal Cert.ReferenceIdeal.S128x128 .f32)
    (hA : V c (Pipeline.arrRef spec4 0) = A) (hnd : V c (Pipeline.arrRef spec4 1) = nd)
    (hb : V c (Pipeline.arrRef spec4 2) = b) (hns : V c (Pipeline.arrRef spec4 3) = ns)
    (hW : V c (Pipeline.arrRef spec4 4) = W) :
    (dat4 V c).arrAt 6 cfg4.N = Cert.Bridge.linear (Cert.Bridge.epilogue A nd b) ns W :=
  (dat4 V c).arrAt_eq_of_cover 6 (Cert.Bridge.linear (Cert.Bridge.epilogue A nd b) ns W)
    (fun t _ => flushed_x_post4 V c A nd b ns W hA hnd hb hns hW t) coverX_post4

end Cert.KernelIdeal.Vals

end
-- ==== Proof.RegionProj5.lean ====
import proofs.«418930_j66125316489906_3_alg».proof.Proof.Gen.KernelIdeal.Frame
import proofs.«418930_j66125316489906_3_alg».proof.Proof.Spec
import proofs.«418930_j66125316489906_3_alg».proof.Proof.Lemmas
import Idealize.ShloMosaic.Lib.Pipeline.Value
import Idealize.ShloMosaic.Lib.ValueIdx
import Idealize.ShloMosaic.PureOps.Ideal.Laws

set_option maxRecDepth 16384

noncomputable section

namespace Cert.KernelIdeal.Vals

open Idealize.ShloMosaic Idealize.ShloMosaic.TcCoe Idealize.SL.Sem Idealize.ShloMosaic.ValueIdx
open Idealize.ShloMosaic.Pipeline (Dat Cfg Window)
open Cert.KernelIdeal Cert.KernelIdeal.Gen

variable (V : (c : Dev nD) → (b : Ref sig .tc) → Buf (Elt Ideal) ((c : Thread nD τ).loc b))

/-!
  The output projection of one region, from its blocks to the whole array. Each grid point `t` computes, on rows
  `2000 t … 2000 t + 1999`, the product of the joined blocks `[f | h | relu (A ⊙ nd + b)]` (384 columns) with the weight,
  plus the bias row. Read at row `p`, column `q` this is `∑ k, join (p, k) · W (k, q) + bo (0, q)`; the reference's
  projection at row `2000 t + p` is the same sum over the whole arrays' join, and the two joins agree column by column
  because every block is the whole array's rows `2000 t …`. The twenty-five blocks tile the output.
-/

/-- The zero offsets of a whole-block rectangle. -/
theorem hz_proj5 : (![0, 0] : Fin 2 → Nat) = fun _ => 0 := funext fun a => by fin_cases a <;> rfl

/-! ## The block product read at an index -/

/-- The operand indices of the block product at output index `i` and contraction index `q`, axis by axis: the left
    operand is read at (row of `i`, `q`), the right at (`q`, column of `i`). -/
theorem lhs_blockdot_proj_0 (i : S2000x128.Idx) (q : dot_S2000x384_S384x128_S2000x128_1_0_0_1_n_n.contr.Idx) :
    (dot_S2000x384_S384x128_S2000x128_1_0_0_1_n_n.lhsIdx i q 0).val = (i 0).val := by
  unfold DotDims.lhsIdx
  rw [dif_neg (show ¬(0 : Fin S2000x384.rank) ∈ dot_S2000x384_S384x128_S2000x128_1_0_0_1_n_n.lhsBatch by decide), dif_pos (show (0 : Fin S2000x384.rank) ∈ dot_S2000x384_S384x128_S2000x128_1_0_0_1_n_n.lhsNonContracting by decide)]
  rfl
theorem lhs_blockdot_proj_1 (i : S2000x128.Idx) (q : dot_S2000x384_S384x128_S2000x128_1_0_0_1_n_n.contr.Idx) :
    (dot_S2000x384_S384x128_S2000x128_1_0_0_1_n_n.lhsIdx i q 1).val = (q ⟨0, by decide⟩).val :=
  dot_S2000x384_S384x128_S2000x128_1_0_0_1_n_n.lhsIdx_val_of_single rfl i q
theorem rhs_blockdot_proj_0 (i : S2000x128.Idx) (q : dot_S2000x384_S384x128_S2000x128_1_0_0_1_n_n.contr.Idx) :
    (dot_S2000x384_S384x128_S2000x128_1_0_0_1_n_n.rhsIdx i q 0).val = (q ⟨0, by decide⟩).val :=
  dot_S2000x384_S384x128_S2000x128_1_0_0_1_n_n.rhsIdx_val_of_single rfl i q
theorem rhs_blockdot_proj_1 (i : S2000x128.Idx) (q : dot_S2000x384_S384x128_S2000x128_1_0_0_1_n_n.contr.Idx) :
    (dot_S2000x384_S384x128_S2000x128_1_0_0_1_n_n.rhsIdx i q 1).val = (i 1).val := by
  unfold DotDims.rhsIdx
  rw [dif_neg (show ¬(1 : Fin S384x128.rank) ∈ dot_S2000x384_S384x128_S2000x128_1_0_0_1_n_n.rhsBatch by decide), dif_pos (show (1 : Fin S384x128.rank) ∈ dot_S2000x384_S384x128_S2000x128_1_0_0_1_n_n.rhsNonContracting by decide)]
  rfl

/-- The block's matrix product into a zero accumulator, at row `p` and column `q`: the sum over the 384 joined
    columns. -/
theorem blockdot_apply_proj5 {φ₁ φ₂ : FTy} (L : FVec Ideal S2000x384 φ₁) (R : FVec Ideal S384x128 φ₂) (p : Fin 2000) (q : Fin 128) :
    matmul dot_S2000x384_S384x128_S2000x128_1_0_0_1_n_n none L R (constant (F := Ideal) S2000x128 .f32 0x00000000#32) (ix2 p q)
      = ∑ k : Fin 384, L (ix2 p k) * R (ix2 k q) := by
  refine (Ideal.matmul_constant_zero_apply dot_S2000x384_S384x128_S2000x128_1_0_0_1_n_n none L R (ix2 p q)).trans ?_
  rw [← Equiv.sum_comp (ValueIdx.contrEquiv1 dot_S2000x384_S384x128_S2000x128_1_0_0_1_n_n 384 rfl rfl).symm]
  refine Finset.sum_congr rfl fun k _ => ?_
  have hk := ValueIdx.contrEquiv1_symm_val dot_S2000x384_S384x128_S2000x128_1_0_0_1_n_n 384 rfl rfl k
  have el : dot_S2000x384_S384x128_S2000x128_1_0_0_1_n_n.lhsIdx (ix2 p q) ((ValueIdx.contrEquiv1 dot_S2000x384_S384x128_S2000x128_1_0_0_1_n_n 384 rfl rfl).symm k) = ix2 p k := funext fun a => Fin.ext (by
    match a with
    | ⟨0, _⟩ => exact lhs_blockdot_proj_0 _ _
    | ⟨1, _⟩ => exact (lhs_blockdot_proj_1 _ _).trans hk)
  have er : dot_S2000x384_S384x128_S2000x128_1_0_0_1_n_n.rhsIdx (ix2 p q) ((ValueIdx.contrEquiv1 dot_S2000x384_S384x128_S2000x128_1_0_0_1_n_n 384 rfl rfl).symm k) = ix2 k q := funext fun a => Fin.ext (by
    match a with
    | ⟨0, _⟩ => exact (rhs_blockdot_proj_0 _ _).trans hk
    | ⟨1, _⟩ => exact rhs_blockdot_proj_1 _ _)
  rw [el, er]

/-! ## Three blocks of 128 columns side by side, read at an index -/

/-- Column `k` of row `r` of `[x | y | z]` (three pieces of 128 columns) is column `k`, `k - 128` or `k - 256` of the
    piece whose span holds `k`. -/
theorem join_apply_proj5 {α : Type} {n : Nat} (x y z : (⟨2, ![n, 128]⟩ : Shape).Idx → α)
    (hc : Shape.Concatenates [⟨2, ![n, 128]⟩, ⟨2, ![n, 128]⟩, ⟨2, ![n, 128]⟩] ⟨2, ![n, 384]⟩ 1)
    (r : Fin n) (k : Fin 384) :
    concatenate (⟨2, ![n, 384]⟩ : Shape) 1 [⟨⟨2, ![n, 128]⟩, x⟩, ⟨⟨2, ![n, 128]⟩, y⟩, ⟨⟨2, ![n, 128]⟩, z⟩] hc (ix2 r k)
      = if hlo : k.val < 128 then x (ix2 r ⟨k.val, hlo⟩)
        else if hmid : k.val < 256 then y (ix2 r ⟨k.val - 128, by omega⟩)
        else z (ix2 r ⟨k.val - 256, by omega⟩) := by
  have hk := k.isLt
  split
  · rename_i hlo
    refine concatenate_apply_piece (t := ⟨2, ![n, 384]⟩) (1 : Fin 2) [⟨⟨2, ![n, 128]⟩, x⟩, ⟨⟨2, ![n, 128]⟩, y⟩, ⟨⟨2, ![n, 128]⟩, z⟩] hc (ix2 r k) 0 (by show 0 < 3; omega) ⟨2, ![n, 128]⟩ x rfl rfl 0 rfl (ix2 r ⟨k.val, hlo⟩) ?_ ?_
    · intro b hb
      match b with
      | ⟨0, _⟩ => rfl
      | ⟨1, _⟩ => exact absurd rfl hb
    · show 0 + k.val = k.val; omega
  · split
    · rename_i hlo hmid
      refine concatenate_apply_piece (t := ⟨2, ![n, 384]⟩) (1 : Fin 2) [⟨⟨2, ![n, 128]⟩, x⟩, ⟨⟨2, ![n, 128]⟩, y⟩, ⟨⟨2, ![n, 128]⟩, z⟩] hc (ix2 r k) 1 (by show 1 < 3; omega) ⟨2, ![n, 128]⟩ y rfl rfl 128 rfl (ix2 r ⟨k.val - 128, by omega⟩) ?_ ?_
      · intro b hb
        match b with
        | ⟨0, _⟩ => rfl
        | ⟨1, _⟩ => exact absurd rfl hb
      · show 128 + (k.val - 128) = k.val; omega
    · rename_i hlo hmid
      refine concatenate_apply_piece (t := ⟨2, ![n, 384]⟩) (1 : Fin 2) [⟨⟨2, ![n, 128]⟩, x⟩, ⟨⟨2, ![n, 128]⟩, y⟩, ⟨⟨2, ![n, 128]⟩, z⟩] hc (ix2 r k) 2 (by show 2 < 3; omega) ⟨2, ![n, 128]⟩ z rfl rfl 256 rfl (ix2 r ⟨k.val - 256, by omega⟩) ?_ ?_
      · intro b hb
        match b with
        | ⟨0, _⟩ => rfl
        | ⟨1, _⟩ => exact absurd rfl hb
      · show 256 + (k.val - 256) = k.val; omega

/-! ## The reference's product read at an index -/

/-- The operand indices of the reference's product at output index `i` and contraction index `q`, axis by axis: the
    left operand is read at (row of `i`, `q`), the right at (`q`, column of `i`). -/
theorem lhs_wholedot_proj_0 (i : Cert.ReferenceIdeal.S50000x128.Idx) (q : Cert.ReferenceIdeal.dot_S50000x384_S384x128_S50000x128_1_0_0_1_n_n.contr.Idx) :
    (Cert.ReferenceIdeal.dot_S50000x384_S384x128_S50000x128_1_0_0_1_n_n.lhsIdx i q 0).val = (i 0).val := by
  unfold DotDims.lhsIdx
  rw [dif_neg (show ¬(0 : Fin Cert.ReferenceIdeal.S50000x384.rank) ∈ Cert.ReferenceIdeal.dot_S50000x384_S384x128_S50000x128_1_0_0_1_n_n.lhsBatch by decide), dif_pos (show (0 : Fin Cert.ReferenceIdeal.S50000x384.rank) ∈ Cert.ReferenceIdeal.dot_S50000x384_S384x128_S50000x128_1_0_0_1_n_n.lhsNonContracting by decide)]
  rfl
theorem lhs_wholedot_proj_1 (i : Cert.ReferenceIdeal.S50000x128.Idx) (q : Cert.ReferenceIdeal.dot_S50000x384_S384x128_S50000x128_1_0_0_1_n_n.contr.Idx) :
    (Cert.ReferenceIdeal.dot_S50000x384_S384x128_S50000x128_1_0_0_1_n_n.lhsIdx i q 1).val = (q ⟨0, by decide⟩).val :=
  Cert.ReferenceIdeal.dot_S50000x384_S384x128_S50000x128_1_0_0_1_n_n.lhsIdx_val_of_single rfl i q
theorem rhs_wholedot_proj_0 (i : Cert.ReferenceIdeal.S50000x128.Idx) (q : Cert.ReferenceIdeal.dot_S50000x384_S384x128_S50000x128_1_0_0_1_n_n.contr.Idx) :
    (Cert.ReferenceIdeal.dot_S50000x384_S384x128_S50000x128_1_0_0_1_n_n.rhsIdx i q 0).val = (q ⟨0, by decide⟩).val :=
  Cert.ReferenceIdeal.dot_S50000x384_S384x128_S50000x128_1_0_0_1_n_n.rhsIdx_val_of_single rfl i q
theorem rhs_wholedot_proj_1 (i : Cert.ReferenceIdeal.S50000x128.Idx) (q : Cert.ReferenceIdeal.dot_S50000x384_S384x128_S50000x128_1_0_0_1_n_n.contr.Idx) :
    (Cert.ReferenceIdeal.dot_S50000x384_S384x128_S50000x128_1_0_0_1_n_n.rhsIdx i q 1).val = (i 1).val := by
  unfold DotDims.rhsIdx
  rw [dif_neg (show ¬(1 : Fin Cert.ReferenceIdeal.S384x128.rank) ∈ Cert.ReferenceIdeal.dot_S50000x384_S384x128_S50000x128_1_0_0_1_n_n.rhsBatch by decide), dif_pos (show (1 : Fin Cert.ReferenceIdeal.S384x128.rank) ∈ Cert.ReferenceIdeal.dot_S50000x384_S384x128_S50000x128_1_0_0_1_n_n.rhsNonContracting by decide)]
  rfl

/-- The reference's whole matrix product at row `r` and column `q`: the same sum over the 384 joined columns. -/
theorem wholedot_apply_proj5 (L : FVec Ideal Cert.ReferenceIdeal.S50000x384 .f32) (R : FVec Ideal Cert.ReferenceIdeal.S384x128 .f32) (r : Fin 50000) (q : Fin 128) :
    Host.dotGeneral (F := Ideal) Cert.ReferenceIdeal.dot_S50000x384_S384x128_S50000x128_1_0_0_1_n_n none L R (ix2 r q)
      = ∑ k : Fin 384, L (ix2 r k) * R (ix2 k q) := by
  simp only [Host.dotGeneral]
  rw [Ideal.dotGeneral_apply, ← Equiv.sum_comp (ValueIdx.contrEquiv1 Cert.ReferenceIdeal.dot_S50000x384_S384x128_S50000x128_1_0_0_1_n_n 384 rfl rfl).symm]
  refine Finset.sum_congr rfl fun k _ => ?_
  have hk := ValueIdx.contrEquiv1_symm_val Cert.ReferenceIdeal.dot_S50000x384_S384x128_S50000x128_1_0_0_1_n_n 384 rfl rfl k
  have el : Cert.ReferenceIdeal.dot_S50000x384_S384x128_S50000x128_1_0_0_1_n_n.lhsIdx (ix2 r q) ((ValueIdx.contrEquiv1 Cert.ReferenceIdeal.dot_S50000x384_S384x128_S50000x128_1_0_0_1_n_n 384 rfl rfl).symm k) = ix2 r k := funext fun a => Fin.ext (by
    match a with
    | ⟨0, _⟩ => exact lhs_wholedot_proj_0 _ _
    | ⟨1, _⟩ => exact (lhs_wholedot_proj_1 _ _).trans hk)
  have er : Cert.ReferenceIdeal.dot_S50000x384_S384x128_S50000x128_1_0_0_1_n_n.rhsIdx (ix2 r q) ((ValueIdx.contrEquiv1 Cert.ReferenceIdeal.dot_S50000x384_S384x128_S50000x128_1_0_0_1_n_n 384 rfl rfl).symm k) = ix2 k q := funext fun a => Fin.ext (by
    match a with
    | ⟨0, _⟩ => exact (rhs_wholedot_proj_0 _ _).trans hk
    | ⟨1, _⟩ => exact rhs_wholedot_proj_1 _ _)
  rw [el, er]

/-! ## The kernel's payload read at an index -/

/-- The norms' column spread along the rows of a block: row `p`'s entry, whatever the column. -/
theorem bcast_col_apply_proj5 (v : Vec Ideal S2000x1 .f32) (p : Fin 2000) (q : Fin 128) :
    broadcastTo S2000x128 (shapeCast S2000x1 v shapeCasts_S2000x1_S2000x1) broadcasts_S2000x1_S2000x128 (ix2 p q) = v (ix2 p 0) := by
  rw [shapeCast_self]
  exact broadcastTo_apply v broadcasts_S2000x1_S2000x128 (ix2 p q) (ix2 p 0) (fun a => match a with
    | ⟨0, _⟩ => by show p.val = if (2000 : Nat) = 1 then 0 else p.val; rw [if_neg (by decide)]
    | ⟨1, _⟩ => by show 0 = if (1 : Nat) = 1 then 0 else q.val; rw [if_pos rfl])

/-- A bias row spread down the rows of a block: column `q`'s entry, whatever the row. -/
theorem bcast_row_apply_proj5 (v : Vec Ideal S1x128 .f32) (p : Fin 2000) (q : Fin 128) :
    broadcastTo S2000x128 (shapeCast S1x128 v shapeCasts_S1x128_S1x128) broadcasts_S1x128_S2000x128 (ix2 p q) = v (ix2 0 q) := by
  rw [shapeCast_self]
  exact broadcastTo_apply v broadcasts_S1x128_S2000x128 (ix2 p q) (ix2 0 q) (fun a => match a with
    | ⟨0, _⟩ => by show 0 = if (1 : Nat) = 1 then 0 else p.val; rw [if_pos rfl]
    | ⟨1, _⟩ => by show q.val = if (128 : Nat) = 1 then 0 else q.val; rw [if_neg (by decide)])

/-- The block of the second layer's epilogue as the kernel computes it: relu (A ⊙ nd + b) on the block's rows. -/
def epiBlock_proj5 (vA : Vec Ideal S2000x128 .f32) (vn : Vec Ideal S2000x1 .f32) (vb : Vec Ideal S1x128 .f32) : FVec Ideal S2000x128 .f32 :=
  maximumf
    (addf (mulf (shapeCast S2000x128 vA shapeCasts_S2000x128_S2000x128)
        (broadcastTo S2000x128 (shapeCast S2000x1 vn shapeCasts_S2000x1_S2000x1) broadcasts_S2000x1_S2000x128))
      (broadcastTo S2000x128 (shapeCast S1x128 vb shapeCasts_S1x128_S1x128) broadcasts_S1x128_S2000x128))
    (broadcast S2000x128 (Scalar.ofBits .f32 0x00000000#32))

/-- Its entry at row `p`, column `q`: `max (A ⊙ nd + b) 0` there. -/
theorem epiBlock_apply_proj5 (vA : Vec Ideal S2000x128 .f32) (vn : Vec Ideal S2000x1 .f32) (vb : Vec Ideal S1x128 .f32) (p : Fin 2000) (q : Fin 128) :
    epiBlock_proj5 vA vn vb (ix2 p q) = max (vA (ix2 p q) * vn (ix2 p 0) + vb (ix2 0 q)) (Ideal.ofBits .f32 0x00000000#32) := by
  unfold epiBlock_proj5
  rw [maximumf_apply, addf_apply, mulf_apply, bcast_col_apply_proj5, bcast_row_apply_proj5, shapeCast_self]
  rfl

/-- The payload is the product of the three joined blocks with the weight, plus the bias row. -/
theorem pay_eq_proj5 (vA : Vec Ideal S2000x128 .f32) (vn : Vec Ideal S2000x1 .f32) (vb : Vec Ideal S1x128 .f32) (vf vh : Vec Ideal S2000x128 .f32) (vW : Vec Ideal S384x128 .f32) (vo : Vec Ideal S1x128 .f32) :
    k5_pay1 vA vn vb vf vh vW vo
      = addf (matmul dot_S2000x384_S384x128_S2000x128_1_0_0_1_n_n none
          (truncf .bf16 (concatenate S2000x384 1 [⟨S2000x128, vf⟩, ⟨S2000x128, shapeCast S2000x128 vh shapeCasts_S2000x128_S2000x128⟩, ⟨S2000x128, epiBlock_proj5 vA vn vb⟩] concatenates_S2000x128_S2000x128_S2000x128_S2000x384_d1) bitsLt_bf16_f32)
          (truncf .bf16 vW bitsLt_bf16_f32) (constant (F := Ideal) S2000x128 .f32 0x00000000#32))
        (broadcastTo S2000x128 (shapeCast S1x128 vo shapeCasts_S1x128_S1x128) broadcasts_S1x128_S2000x128) := rfl

/-- The payload at row `p`, column `q`: the sum over the 384 joined columns, plus the bias. -/
theorem pay_apply_proj5 (vA : Vec Ideal S2000x128 .f32) (vn : Vec Ideal S2000x1 .f32) (vb : Vec Ideal S1x128 .f32) (vf vh : Vec Ideal S2000x128 .f32) (vW : Vec Ideal S384x128 .f32) (vo : Vec Ideal S1x128 .f32) (p : Fin 2000) (q : Fin 128) :
    k5_pay1 vA vn vb vf vh vW vo (ix2 p q)
      = (∑ k : Fin 384, (concatenate S2000x384 1 [⟨S2000x128, vf⟩, ⟨S2000x128, vh⟩, ⟨S2000x128, epiBlock_proj5 vA vn vb⟩] concatenates_S2000x128_S2000x128_S2000x128_S2000x384_d1 : FVec Ideal S2000x384 .f32) (ix2 p k) * vW (ix2 k q))
        + vo (ix2 0 q) := by
  rw [pay_eq_proj5, addf_apply, blockdot_apply_proj5, bcast_row_apply_proj5, shapeCast_self]
  rfl

/-! ## The reference's projection read at an index -/

/-- The reference's epilogue at row `r`, column `q`. -/
theorem epilogue_apply_proj5 (A : FVec Ideal Cert.ReferenceIdeal.S50000x128 .f32) (nd : FVec Ideal Cert.ReferenceIdeal.S50000x1 .f32)
    (b : FVec Ideal Cert.ReferenceIdeal.S1x128 .f32) (r : Fin 50000) (q : Fin 128) :
    Cert.Bridge.epilogue A nd b (ix2 r q) = max (A (ix2 r q) * nd (ix2 r 0) + b (ix2 0 q)) (Ideal.ofBits .f32 0x00000000#32) := by
  unfold Cert.Bridge.epilogue
  rw [maximumf_apply, addf_apply, mulf_apply]
  rw [broadcastInDim_apply ![0, 1] Cert.ReferenceIdeal.Gen.bcast_S50000x1_S50000x128_0_1 nd (ix2 r q) (ix2 r 0) (fun a => match a with
    | ⟨0, _⟩ => by show r.val = if (50000 : Nat) = 1 then 0 else r.val; rw [if_neg (by decide)]
    | ⟨1, _⟩ => by show 0 = if (1 : Nat) = 1 then 0 else q.val; rw [if_pos rfl])]
  rw [broadcastInDim_apply ![0, 1] Cert.ReferenceIdeal.Gen.bcast_S1x128_S50000x128_0_1 b (ix2 r q) (ix2 0 q) (fun a => match a with
    | ⟨0, _⟩ => by show 0 = if (1 : Nat) = 1 then 0 else r.val; rw [if_pos rfl]
    | ⟨1, _⟩ => by show q.val = if (128 : Nat) = 1 then 0 else q.val; rw [if_neg (by decide)])]
  rw [broadcastInDim_apply ![] Cert.ReferenceIdeal.Gen.bcast_S_S50000x128 (constant (F := Ideal) Cert.ReferenceIdeal.S_ .f32 0x00000000#32) (ix2 r q) ix0 (fun a => a.elim0)]
  rfl

/-- The reference's projection at row `r`, column `q`: the sum over the 384 joined columns, plus the bias. -/
theorem project_apply_proj5 (f h A : FVec Ideal Cert.ReferenceIdeal.S50000x128 .f32) (nd : FVec Ideal Cert.ReferenceIdeal.S50000x1 .f32)
    (b : FVec Ideal Cert.ReferenceIdeal.S1x128 .f32) (W : FVec Ideal Cert.ReferenceIdeal.S384x128 .f32)
    (bo : FVec Ideal Cert.ReferenceIdeal.S1x128 .f32) (r : Fin 50000) (q : Fin 128) :
    Cert.Bridge.project f h A nd b W bo (ix2 r q)
      = (∑ k : Fin 384, (concatenate Cert.ReferenceIdeal.S50000x384 1 [⟨Cert.ReferenceIdeal.S50000x128, f⟩, ⟨Cert.ReferenceIdeal.S50000x128, h⟩, ⟨Cert.ReferenceIdeal.S50000x128, Cert.Bridge.epilogue A nd b⟩] Cert.ReferenceIdeal.Gen.concatenates_S50000x128_S50000x128_S50000x128_S50000x384_d1 : FVec Ideal Cert.ReferenceIdeal.S50000x384 .f32) (ix2 r k) * W (ix2 k q))
        + bo (ix2 0 q) := by
  unfold Cert.Bridge.project
  rw [addf_apply, wholedot_apply_proj5]
  rw [broadcastInDim_apply ![0, 1] Cert.ReferenceIdeal.Gen.bcast_S1x128_S50000x128_0_1 bo (ix2 r q) (ix2 0 q) (fun a => match a with
    | ⟨0, _⟩ => by show 0 = if (1 : Nat) = 1 then 0 else r.val; rw [if_pos rfl]
    | ⟨1, _⟩ => by show q.val = if (128 : Nat) = 1 then 0 else q.val; rw [if_neg (by decide)])]

/-! ## A block's payload against the reference at the block's rows -/

/-- When the blocks hold rows `2000 t …` of the row-blocked arrays and the whole small arrays, the payload at row `p`
    of the block is the reference's projection at row `2000 t + p`: the two joins agree column by column, so the two
    sums agree term by term. -/
theorem pay_eq_project_proj5
    (xf xh xA : Vec Ideal S2000x128 .f32) (xn : Vec Ideal S2000x1 .f32) (xb : Vec Ideal S1x128 .f32)
    (xW : Vec Ideal S384x128 .f32) (xo : Vec Ideal S1x128 .f32)
    (f h A : FVec Ideal Cert.ReferenceIdeal.S50000x128 .f32) (nd : FVec Ideal Cert.ReferenceIdeal.S50000x1 .f32)
    (b : FVec Ideal Cert.ReferenceIdeal.S1x128 .f32) (W : FVec Ideal Cert.ReferenceIdeal.S384x128 .f32)
    (bo : FVec Ideal Cert.ReferenceIdeal.S1x128 .f32) (t : Nat)
    (hxf : ∀ (p : Fin 2000) (q : Fin 128) (r : Fin 50000), r.val = 2000 * t + p.val → xf (ix2 p q) = f (ix2 r q))
    (hxh : ∀ (p : Fin 2000) (q : Fin 128) (r : Fin 50000), r.val = 2000 * t + p.val → xh (ix2 p q) = h (ix2 r q))
    (hxA : ∀ (p : Fin 2000) (q : Fin 128) (r : Fin 50000), r.val = 2000 * t + p.val → xA (ix2 p q) = A (ix2 r q))
    (hxn : ∀ (p : Fin 2000) (r : Fin 50000), r.val = 2000 * t + p.val → xn (ix2 p 0) = nd (ix2 r 0))
    (hxb : ∀ q : Fin 128, xb (ix2 0 q) = b (ix2 0 q))
    (hxW : ∀ (k : Fin 384) (q : Fin 128), xW (ix2 k q) = W (ix2 k q))
    (hxo : ∀ q : Fin 128, xo (ix2 0 q) = bo (ix2 0 q))
    (p : Fin 2000) (q : Fin 128) (r : Fin 50000) (hr : r.val = 2000 * t + p.val) :
    k5_pay1 xA xn xb xf xh xW xo (ix2 p q) = Cert.Bridge.project f h A nd b W bo (ix2 r q) := by
  rw [pay_apply_proj5, project_apply_proj5, hxo q]
  refine congrArg (· + bo (ix2 0 q)) (Finset.sum_congr rfl fun k _ => ?_)
  rw [hxW k q]
  refine congrArg (· * W (ix2 k q)) ?_
  refine (join_apply_proj5 (n := 2000) xf xh (epiBlock_proj5 xA xn xb) concatenates_S2000x128_S2000x128_S2000x128_S2000x384_d1 p k).trans ?_
  refine Eq.trans ?_ (join_apply_proj5 (n := 50000) f h (Cert.Bridge.epilogue A nd b) Cert.ReferenceIdeal.Gen.concatenates_S50000x128_S50000x128_S50000x128_S50000x384_d1 r k).symm
  split
  · exact hxf _ _ _ hr
  · split
    · exact hxh _ _ _ hr
    · rw [epiBlock_apply_proj5, epilogue_apply_proj5, hxA _ _ _ hr, hxn _ _ hr, hxb]

/-! ## The blocks the body reads, as entries of the whole arrays -/

/-- The printed index maps over the grid: the row-blocked windows sit at block row `t`, the whole windows at the origin. -/
theorem idx_facts_proj5 : ∀ t : Fin cfg5.N,
    (win5_0.index t (0 : Fin 2) = t.val ∧ win5_0.index t (1 : Fin 2) = 0)
    ∧ (win5_1.index t (0 : Fin 2) = t.val ∧ win5_1.index t (1 : Fin 2) = 0)
    ∧ (win5_2.index t (0 : Fin 2) = t.val ∧ win5_2.index t (1 : Fin 2) = 0)
    ∧ (win5_3.index t (0 : Fin 2) = t.val ∧ win5_3.index t (1 : Fin 2) = 0)
    ∧ (win5_4.index t (0 : Fin 2) = 0 ∧ win5_4.index t (1 : Fin 2) = 0)
    ∧ (win5_5.index t (0 : Fin 2) = 0 ∧ win5_5.index t (1 : Fin 2) = 0)
    ∧ (win5_6.index t (0 : Fin 2) = 0 ∧ win5_6.index t (1 : Fin 2) = 0)
    ∧ (win5_7.index t (0 : Fin 2) = t.val ∧ win5_7.index t (1 : Fin 2) = 0) :=
  (by decide +kernel : ∀ t : Fin grid5.N, _)

/-- Block `t` of the features `f` is rows `2000 t …` of the array. -/
theorem iblk_f_proj5 (c : Dev nD) (t : Fin cfg5.N) (p : Fin 2000) (q : Fin 128) (r : Fin 50000) (hr : r.val = 2000 * t.val + p.val) :
    (iblk5 V c 0 t : Vec Ideal S2000x128 .f32) (ix2 p q) = (V c (Pipeline.arrRef spec5 0) : S50000x128.Idx → Elt Ideal .f32) (ix2 r q) := by
  obtain ⟨⟨e0, e1⟩, -⟩ := idx_facts_proj5 t
  unfold iblk5
  rw [View.read_apply]
  show V c (Pipeline.arrRef spec5 0) _ = V c (Pipeline.arrRef spec5 0) _
  refine congrArg _ (funext fun a => Fin.ext ?_)
  match a with
  | ⟨0, _⟩ => show win5_0.index t (0 : Fin 2) * 2000 + 1 * p.val = r.val; omega
  | ⟨1, _⟩ => show win5_0.index t (1 : Fin 2) * 128 + 1 * q.val = q.val; omega

/-- Block `t` of the norms `nd` is rows `2000 t …` of the column. -/
theorem iblk_nd_proj5 (c : Dev nD) (t : Fin cfg5.N) (p : Fin 2000) (r : Fin 50000) (hr : r.val = 2000 * t.val + p.val) :
    (iblk5 V c 3 t : Vec Ideal S2000x1 .f32) (ix2 p 0) = (V c (Pipeline.arrRef spec5 3) : S50000x1.Idx → Elt Ideal .f32) (ix2 r 0) := by
  obtain ⟨-, -, -, ⟨e0, e1⟩, -⟩ := idx_facts_proj5 t
  unfold iblk5
  rw [View.read_apply]
  show V c (Pipeline.arrRef spec5 3) _ = V c (Pipeline.arrRef spec5 3) _
  refine congrArg _ (funext fun a => Fin.ext ?_)
  match a with
  | ⟨0, _⟩ => show win5_3.index t (0 : Fin 2) * 2000 + 1 * p.val = r.val; omega
  | ⟨1, _⟩ => show win5_3.index t (1 : Fin 2) * 1 + 1 * 0 = 0; omega

/-- The bias row `b` is read whole at every point. -/
theorem iblk_b_proj5 (c : Dev nD) (t : Fin cfg5.N) (q : Fin 128) :
    (iblk5 V c 4 t : Vec Ideal S1x128 .f32) (ix2 0 q) = (V c (Pipeline.arrRef spec5 4) : S1x128.Idx → Elt Ideal .f32) (ix2 0 q) := by
  obtain ⟨-, -, -, -, ⟨e0, e1⟩, -⟩ := idx_facts_proj5 t
  unfold iblk5
  rw [View.read_apply]
  show V c (Pipeline.arrRef spec5 4) _ = V c (Pipeline.arrRef spec5 4) _
  refine congrArg _ (funext fun a => Fin.ext ?_)
  match a with
  | ⟨0, _⟩ => show win5_4.index t (0 : Fin 2) * 1 + 1 * 0 = 0; omega
  | ⟨1, _⟩ => show win5_4.index t (1 : Fin 2) * 128 + 1 * q.val = q.val; omega

/-- The weight `W` is read whole at every point. -/
theorem iblk_W_proj5 (c : Dev nD) (t : Fin cfg5.N) (k : Fin 384) (q : Fin 128) :
    (iblk5 V c 5 t : Vec Ideal S384x128 .f32) (ix2 k q) = (V c (Pipeline.arrRef spec5 5) : S384x128.Idx → Elt Ideal .f32) (ix2 k q) := by
  obtain ⟨-, -, -, -, -, ⟨e0, e1⟩, -⟩ := idx_facts_proj5 t
  unfold iblk5
  rw [View.read_apply]
  show V c (Pipeline.arrRef spec5 5) _ = V c (Pipeline.arrRef spec5 5) _
  refine congrArg _ (funext fun a => Fin.ext ?_)
  match a with
  | ⟨0, _⟩ => show win5_5.index t (0 : Fin 2) * 384 + 1 * k.val = k.val; omega
  | ⟨1, _⟩ => show win5_5.index t (1 : Fin 2) * 128 + 1 * q.val = q.val; omega

/-- Block `t` of the first layer's output `h` is rows `2000 t …` of the array. -/
theorem iblk_h_proj5 (c : Dev nD) (t : Fin cfg5.N) (p : Fin 2000) (q : Fin 128) (r : Fin 50000) (hr : r.val = 2000 * t.val + p.val) :
    (iblk5 V c 1 t : Vec Ideal S2000x128 .f32) (ix2 p q) = (V c (Pipeline.arrRef spec5 1) : S50000x128.Idx → Elt Ideal .f32) (ix2 r q) := by
  obtain ⟨-, ⟨e0, e1⟩, -⟩ := idx_facts_proj5 t
  unfold iblk5
  rw [View.read_apply]
  show V c (Pipeline.arrRef spec5 1) _ = V c (Pipeline.arrRef spec5 1) _
  refine congrArg _ (funext fun a => Fin.ext ?_)
  match a with
  | ⟨0, _⟩ => show win5_1.index t (0 : Fin 2) * 2000 + 1 * p.val = r.val; omega
  | ⟨1, _⟩ => show win5_1.index t (1 : Fin 2) * 128 + 1 * q.val = q.val; omega

/-- Block `t` of the aggregated messages `A` is rows `2000 t …` of the array. -/
theorem iblk_A_proj5 (c : Dev nD) (t : Fin cfg5.N) (p : Fin 2000) (q : Fin 128) (r : Fin 50000) (hr : r.val = 2000 * t.val + p.val) :
    (iblk5 V c 2 t : Vec Ideal S2000x128 .f32) (ix2 p q) = (V c (Pipeline.arrRef spec5 2) : S50000x128.Idx → Elt Ideal .f32) (ix2 r q) := by
  obtain ⟨-, -, ⟨e0, e1⟩, -⟩ := idx_facts_proj5 t
  unfold iblk5
  rw [View.read_apply]
  show V c (Pipeline.arrRef spec5 2) _ = V c (Pipeline.arrRef spec5 2) _
  refine congrArg _ (funext fun a => Fin.ext ?_)
  match a with
  | ⟨0, _⟩ => show win5_2.index t (0 : Fin 2) * 2000 + 1 * p.val = r.val; omega
  | ⟨1, _⟩ => show win5_2.index t (1 : Fin 2) * 128 + 1 * q.val = q.val; omega

/-- The output bias row `bo` is read whole at every point. -/
theorem iblk_bo_proj5 (c : Dev nD) (t : Fin cfg5.N) (q : Fin 128) :
    (iblk5 V c 6 t : Vec Ideal S1x128 .f32) (ix2 0 q) = (V c (Pipeline.arrRef spec5 6) : S1x128.Idx → Elt Ideal .f32) (ix2 0 q) := by
  obtain ⟨-, -, -, -, -, -, ⟨e0, e1⟩, -⟩ := idx_facts_proj5 t
  unfold iblk5
  rw [View.read_apply]
  show V c (Pipeline.arrRef spec5 6) _ = V c (Pipeline.arrRef spec5 6) _
  refine congrArg _ (funext fun a => Fin.ext ?_)
  match a with
  | ⟨0, _⟩ => show win5_6.index t (0 : Fin 2) * 1 + 1 * 0 = 0; omega
  | ⟨1, _⟩ => show win5_6.index t (1 : Fin 2) * 128 + 1 * q.val = q.val; omega

/-! ## From the blocks to the array -/

/-- What point `t` writes back is block `t` of the reference's projection of the arrays the region finds. -/
theorem flushed_eq_proj5 (c : Dev nD)
    (f h A : FVec Ideal Cert.ReferenceIdeal.S50000x128 .f32) (nd : FVec Ideal Cert.ReferenceIdeal.S50000x1 .f32)
    (b : FVec Ideal Cert.ReferenceIdeal.S1x128 .f32) (W : FVec Ideal Cert.ReferenceIdeal.S384x128 .f32)
    (bo : FVec Ideal Cert.ReferenceIdeal.S1x128 .f32)
    (hf : V c (Pipeline.arrRef spec5 0) = f) (hh : V c (Pipeline.arrRef spec5 1) = h)
    (hA : V c (Pipeline.arrRef spec5 2) = A) (hnd : V c (Pipeline.arrRef spec5 3) = nd)
    (hb : V c (Pipeline.arrRef spec5 4) = b) (hW : V c (Pipeline.arrRef spec5 5) = W)
    (hbo : V c (Pipeline.arrRef spec5 6) = bo) (t : Fin cfg5.N) :
    (dat5 V c).flushed 7 t = ((cfg5.win 7).blk t).view.read (Elt Ideal) (Cert.Bridge.project f h A nd b W bo) := by
  show (cfg5.win 7).cut (grid5.coords t) ((dat5 V c).after 7 t) = _
  rw [after5_7]
  unfold out5_7
  rw [View.canon_unit_zero hz_proj5]
  simp only [View.ld_unit_zero (S := S2000x128) hz_proj5, View.ld_unit_zero (S := S2000x1) hz_proj5,
    View.ld_unit_zero (S := S1x128) hz_proj5, View.ld_unit_zero (S := S384x128) hz_proj5]
  obtain ⟨-, -, -, -, -, -, -, ⟨e0, e1⟩⟩ := idx_facts_proj5 t
  have ht : t.val < 25 := t.isLt
  funext j
  obtain ⟨p, q, rfl⟩ : ∃ (p : Fin 2000) (q : Fin 128), j = ix2 p q := ⟨j 0, j 1, eq_ix2 j⟩
  rw [View.read_apply]
  have hemb : ((cfg5.win 7).blk t).view.emb (ix2 p q) = ix2 (⟨2000 * t.val + p.val, by omega⟩ : Fin 50000) q :=
    funext fun a => Fin.ext (by
      match a with
      | ⟨0, _⟩ => show win5_7.index t (0 : Fin 2) * 2000 + 1 * p.val = 2000 * t.val + p.val; omega
      | ⟨1, _⟩ => show win5_7.index t (1 : Fin 2) * 128 + 1 * q.val = q.val; omega)
  show k5_pay1 (iblk5 V c 2 t) (iblk5 V c 3 t) (iblk5 V c 4 t) (iblk5 V c 0 t) (iblk5 V c 1 t) (iblk5 V c 5 t) (iblk5 V c 6 t) (ix2 p q)
    = Cert.Bridge.project f h A nd b W bo (((cfg5.win 7).blk t).view.emb (ix2 p q))
  rw [hemb]
  exact pay_eq_project_proj5 (iblk5 V c 0 t) (iblk5 V c 1 t) (iblk5 V c 2 t) (iblk5 V c 3 t) (iblk5 V c 4 t) (iblk5 V c 5 t) (iblk5 V c 6 t)
    f h A nd b W bo t.val
    (fun p q r hr => (iblk_f_proj5 V c t p q r hr).trans (congrFun hf _))
    (fun p q r hr => (iblk_h_proj5 V c t p q r hr).trans (congrFun hh _))
    (fun p q r hr => (iblk_A_proj5 V c t p q r hr).trans (congrFun hA _))
    (fun p r hr => (iblk_nd_proj5 V c t p r hr).trans (congrFun hnd _))
    (fun q => (iblk_b_proj5 V c t q).trans (congrFun hb _))
    (fun k q => (iblk_W_proj5 V c t k q).trans (congrFun hW _))
    (fun q => (iblk_bo_proj5 V c t q).trans (congrFun hbo _))
    p q _ rfl

/-- An index of the output array is in point `t`'s block iff each coordinate is in the block's range on its axis. -/
theorem mem_blk_proj5 (t : Fin cfg5.N) (i : S50000x128.Idx) :
    i ∈ ((cfg5.win 7).blk t).view.set ↔ ∀ a : Fin 2, win5_7.index t a * S2000x128.size a ≤ (i a).val ∧ (i a).val < win5_7.index t a * S2000x128.size a + S2000x128.size a := by
  have e : ((cfg5.win 7).blk t).view.set = (win5_7.rect t).set := View.set_slice_whole _ _
  rw [e, Rect.mem_set_unit]
  exact Iff.rfl

/-- The twenty-five row blocks tile the output: row `r` is in the block of point `r / 2000`. -/
theorem cover_proj5 (i : S50000x128.Idx) :
    ∃ t : Fin cfg5.N, (cfg5.win 7).flush t = true ∧ i ∈ ((cfg5.win 7).blk t).view.set := by
  have hi0 : (i 0).val < 50000 := (i 0).isLt
  have hi1 : (i 1).val < 128 := (i 1).isLt
  have hN : cfg5.N = 25 := N_5
  obtain ⟨t, ht⟩ : ∃ t : Fin cfg5.N, t.val = (i 0).val / 2000 := ⟨⟨(i 0).val / 2000, by rw [hN]; omega⟩, rfl⟩
  obtain ⟨-, -, -, -, -, -, -, ⟨e0, e1⟩⟩ := idx_facts_proj5 t
  refine ⟨t, flush5_7 t, ?_⟩
  rw [mem_blk_proj5]
  intro a
  match a with
  | ⟨0, _⟩ => show win5_7.index t (0 : Fin 2) * 2000 ≤ (i 0).val ∧ (i 0).val < win5_7.index t (0 : Fin 2) * 2000 + 2000; omega
  | ⟨1, _⟩ => show win5_7.index t (1 : Fin 2) * 128 ≤ (i 1).val ∧ (i 1).val < win5_7.index t (1 : Fin 2) * 128 + 128; omega

/-- REGION 5. The output projection `[f | h | relu (A ⊙ nd + b)] · W + bo` of the input features `f`, the first layer's
    output `h`, the second layer's aggregated messages `A` with its norms `nd` and bias `b`, the 384 × 128 weight `W` and
    the output bias row `bo`, whole (twenty-five row blocks of 2000 rows). -/
theorem region5_value (c : Dev nD)
    (f h A : FVec Ideal Cert.ReferenceIdeal.S50000x128 .f32) (nd : FVec Ideal Cert.ReferenceIdeal.S50000x1 .f32)
    (b : FVec Ideal Cert.ReferenceIdeal.S1x128 .f32) (W : FVec Ideal Cert.ReferenceIdeal.S384x128 .f32)
    (bo : FVec Ideal Cert.ReferenceIdeal.S1x128 .f32)
    (hf : V c (Pipeline.arrRef spec5 0) = f) (hh : V c (Pipeline.arrRef spec5 1) = h)
    (hA : V c (Pipeline.arrRef spec5 2) = A) (hnd : V c (Pipeline.arrRef spec5 3) = nd)
    (hb : V c (Pipeline.arrRef spec5 4) = b) (hW : V c (Pipeline.arrRef spec5 5) = W)
    (hbo : V c (Pipeline.arrRef spec5 6) = bo) :
    (dat5 V c).arrAt 7 cfg5.N = Cert.Bridge.project f h A nd b W bo :=
  (dat5 V c).arrAt_eq_of_cover 7 (Cert.Bridge.project f h A nd b W bo)
    (fun t _ => flushed_eq_proj5 V c f h A nd b W bo hf hh hA hnd hb hW hbo t) cover_proj5

end Cert.KernelIdeal.Vals

end
-- ==== Proof.RegionStages.lean ====
/-
  Each dense region's output array, read at the boundary after the region, is the reference program's own stage: the
  region's whole-array value (the linear map, the epilogue, the projection) at the operands the boundary before the
  region holds, which are the reference's stages of the same arguments.
-/
import proofs.«418930_j66125316489906_3_alg».proof.Proof.Gen.KernelIdeal.Frame
import proofs.«418930_j66125316489906_3_alg».proof.Proof.Gen.ReferenceIdeal.Read
import proofs.«418930_j66125316489906_3_alg».proof.Proof.Carry
import proofs.«418930_j66125316489906_3_alg».proof.Proof.Spec
import proofs.«418930_j66125316489906_3_alg».proof.Proof.Lemmas
import proofs.«418930_j66125316489906_3_alg».proof.Proof.RegionLin
import proofs.«418930_j66125316489906_3_alg».proof.Proof.RegionPost
import proofs.«418930_j66125316489906_3_alg».proof.Proof.RegionProj
import proofs.«418930_j66125316489906_3_alg».proof.Proof.RegionLin3
import proofs.«418930_j66125316489906_3_alg».proof.Proof.RegionPost4
import proofs.«418930_j66125316489906_3_alg».proof.Proof.RegionProj5
import Idealize.ShloMosaic.Lib.StableHlo.Run

set_option maxRecDepth 16384

noncomputable section

namespace Cert.KernelIdeal.Vals

open Idealize.ShloMosaic Idealize.ShloMosaic.TcCoe Idealize.SL.Sem Idealize.ShloMosaic.StableHlo
open Cert.KernelIdeal Cert.KernelIdeal.Gen
open Cert.ReferenceIdeal.Read

variable (m : (ℓ : Loc nD τ sig) → Buf (Elt Ideal) ℓ) (ρ : Dev nD → PrngReg)

/-- Region 0's output is the first layer's message of the first graph. -/
theorem R0_x (c : Dev nD)
    (hns2 : W5 m ρ c (Proc.devRef .tc main_v21) = val_main_v17 (F := Ideal) (m ((c : Thread nD τ).loc main_arg2))) :
    W6 m ρ c (Proc.devRef .tc main_v22) = val_main_v20 (F := Ideal) (m ((c : Thread nD τ).loc main_arg0)) (m ((c : Thread nD τ).loc main_arg2)) (m ((c : Thread nD τ).loc main_arg6)) :=
  (W6_out3 m ρ c).trans ((region0_value (V5 m ρ) c _ _ _ (W5_arg0 m ρ c) hns2 (W5_arg6 m ρ c)).trans rfl)

/-- Region 1's first output is the first layer's output of the first graph. -/
theorem R1_h (c : Dev nD)
    (hagg : W7 m ρ c (Proc.devRef .tc main_v33) = val_main_v30 (F := Ideal) (m ((c : Thread nD τ).loc main_arg0)) (m ((c : Thread nD τ).loc main_arg2)) (m ((c : Thread nD τ).loc main_arg6)))
    (hnd2 : W7 m ρ c (Proc.devRef .tc main_v34) = val_main_v31 (F := Ideal) (m ((c : Thread nD τ).loc main_arg2)))
    (hb2 : W7 m ρ c (Proc.devRef .tc main_v36) = val_main_v34 (F := Ideal) (m ((c : Thread nD τ).loc main_arg7)))
    (hns2 : W7 m ρ c (Proc.devRef .tc main_v35) = val_main_v55 (F := Ideal) (m ((c : Thread nD τ).loc main_arg2))) :
    W8 m ρ c (Proc.devRef .tc main_v37_0) = val_main_v37 (F := Ideal) (m ((c : Thread nD τ).loc main_arg0)) (m ((c : Thread nD τ).loc main_arg2)) (m ((c : Thread nD τ).loc main_arg6)) (m ((c : Thread nD τ).loc main_arg7)) :=
  (W8_out5 m ρ c).trans ((region1_value_h (V7 m ρ) c _ _ _ _ _ hagg hnd2 hb2 hns2 (W7_arg8 m ρ c)).trans rfl)

/-- Region 1's second output is the second layer's message of the first graph. -/
theorem R1_x (c : Dev nD)
    (hagg : W7 m ρ c (Proc.devRef .tc main_v33) = val_main_v30 (F := Ideal) (m ((c : Thread nD τ).loc main_arg0)) (m ((c : Thread nD τ).loc main_arg2)) (m ((c : Thread nD τ).loc main_arg6)))
    (hnd2 : W7 m ρ c (Proc.devRef .tc main_v34) = val_main_v31 (F := Ideal) (m ((c : Thread nD τ).loc main_arg2)))
    (hb2 : W7 m ρ c (Proc.devRef .tc main_v36) = val_main_v34 (F := Ideal) (m ((c : Thread nD τ).loc main_arg7)))
    (hns2 : W7 m ρ c (Proc.devRef .tc main_v35) = val_main_v55 (F := Ideal) (m ((c : Thread nD τ).loc main_arg2))) :
    W8 m ρ c (Proc.devRef .tc main_v37_1) = val_main_v58 (F := Ideal) (m ((c : Thread nD τ).loc main_arg0)) (m ((c : Thread nD τ).loc main_arg2)) (m ((c : Thread nD τ).loc main_arg6)) (m ((c : Thread nD τ).loc main_arg7)) (m ((c : Thread nD τ).loc main_arg8)) :=
  (W8_out6 m ρ c).trans ((region1_value_x (V7 m ρ) c _ _ _ _ _ hagg hnd2 hb2 hns2 (W7_arg8 m ρ c)).trans rfl)

/-- Region 2's output is the first embedding. -/
theorem R2_out (c : Dev nD)
    (hh : W9 m ρ c (Proc.devRef .tc main_v37_0) = val_main_v37 (F := Ideal) (m ((c : Thread nD τ).loc main_arg0)) (m ((c : Thread nD τ).loc main_arg2)) (m ((c : Thread nD τ).loc main_arg6)) (m ((c : Thread nD τ).loc main_arg7)))
    (hagg : W9 m ρ c (Proc.devRef .tc main_v48) = val_main_v68 (F := Ideal) (m ((c : Thread nD τ).loc main_arg0)) (m ((c : Thread nD τ).loc main_arg2)) (m ((c : Thread nD τ).loc main_arg6)) (m ((c : Thread nD τ).loc main_arg7)) (m ((c : Thread nD τ).loc main_arg8)))
    (hnd2 : W9 m ρ c (Proc.devRef .tc main_v49) = val_main_v69 (F := Ideal) (m ((c : Thread nD τ).loc main_arg2)))
    (hb2 : W9 m ρ c (Proc.devRef .tc main_v50) = val_main_v72 (F := Ideal) (m ((c : Thread nD τ).loc main_arg9)))
    (hbo2 : W9 m ρ c (Proc.devRef .tc main_v51) = val_main_v78 (F := Ideal) (m ((c : Thread nD τ).loc main_arg11))) :
    W10 m ρ c (Proc.devRef .tc main_v52) = val_main_v80 (F := Ideal) (m ((c : Thread nD τ).loc main_arg0)) (m ((c : Thread nD τ).loc main_arg2)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  (W10_out7 m ρ c).trans ((region2_value (V9 m ρ) c _ _ _ _ _ _ _ (W9_arg0 m ρ c) hh hagg hnd2 hb2 (W9_arg10 m ρ c) hbo2).trans rfl)

/-- Region 3's output is the first layer's message of the second graph. -/
theorem R3_x (c : Dev nD)
    (hns2 : W15 m ρ c (Proc.devRef .tc main_v74) = val_main_v98 (F := Ideal) (m ((c : Thread nD τ).loc main_arg3))) :
    W16 m ρ c (Proc.devRef .tc main_v75) = val_main_v101 (F := Ideal) (m ((c : Thread nD τ).loc main_arg1)) (m ((c : Thread nD τ).loc main_arg3)) (m ((c : Thread nD τ).loc main_arg6)) :=
  (W16_out3 m ρ c).trans ((region3_value (V15 m ρ) c _ _ _ (W15_arg1 m ρ c) hns2 (W15_arg6 m ρ c)).trans rfl)

/-- Region 4's first output is the first layer's output of the second graph. -/
theorem R4_h (c : Dev nD)
    (hagg : W17 m ρ c (Proc.devRef .tc main_v86) = val_main_v111 (F := Ideal) (m ((c : Thread nD τ).loc main_arg1)) (m ((c : Thread nD τ).loc main_arg3)) (m ((c : Thread nD τ).loc main_arg6)))
    (hnd2 : W17 m ρ c (Proc.devRef .tc main_v87) = val_main_v112 (F := Ideal) (m ((c : Thread nD τ).loc main_arg3)))
    (hb2 : W17 m ρ c (Proc.devRef .tc main_v89) = val_main_v115 (F := Ideal) (m ((c : Thread nD τ).loc main_arg7)))
    (hns2 : W17 m ρ c (Proc.devRef .tc main_v88) = val_main_v136 (F := Ideal) (m ((c : Thread nD τ).loc main_arg3))) :
    W18 m ρ c (Proc.devRef .tc main_v90_0) = val_main_v118 (F := Ideal) (m ((c : Thread nD τ).loc main_arg1)) (m ((c : Thread nD τ).loc main_arg3)) (m ((c : Thread nD τ).loc main_arg6)) (m ((c : Thread nD τ).loc main_arg7)) :=
  (W18_out5 m ρ c).trans ((region4_value_h (V17 m ρ) c _ _ _ _ _ hagg hnd2 hb2 hns2 (W17_arg8 m ρ c)).trans rfl)

/-- Region 4's second output is the second layer's message of the second graph. -/
theorem R4_x (c : Dev nD)
    (hagg : W17 m ρ c (Proc.devRef .tc main_v86) = val_main_v111 (F := Ideal) (m ((c : Thread nD τ).loc main_arg1)) (m ((c : Thread nD τ).loc main_arg3)) (m ((c : Thread nD τ).loc main_arg6)))
    (hnd2 : W17 m ρ c (Proc.devRef .tc main_v87) = val_main_v112 (F := Ideal) (m ((c : Thread nD τ).loc main_arg3)))
    (hb2 : W17 m ρ c (Proc.devRef .tc main_v89) = val_main_v115 (F := Ideal) (m ((c : Thread nD τ).loc main_arg7)))
    (hns2 : W17 m ρ c (Proc.devRef .tc main_v88) = val_main_v136 (F := Ideal) (m ((c : Thread nD τ).loc main_arg3))) :
    W18 m ρ c (Proc.devRef .tc main_v90_1) = val_main_v139 (F := Ideal) (m ((c : Thread nD τ).loc main_arg1)) (m ((c : Thread nD τ).loc main_arg3)) (m ((c : Thread nD τ).loc main_arg6)) (m ((c : Thread nD τ).loc main_arg7)) (m ((c : Thread nD τ).loc main_arg8)) :=
  (W18_out6 m ρ c).trans ((region4_value_x (V17 m ρ) c _ _ _ _ _ hagg hnd2 hb2 hns2 (W17_arg8 m ρ c)).trans rfl)

/-- Region 5's output is the second embedding. -/
theorem R5_out (c : Dev nD)
    (hh : W19 m ρ c (Proc.devRef .tc main_v90_0) = val_main_v118 (F := Ideal) (m ((c : Thread nD τ).loc main_arg1)) (m ((c : Thread nD τ).loc main_arg3)) (m ((c : Thread nD τ).loc main_arg6)) (m ((c : Thread nD τ).loc main_arg7)))
    (hagg : W19 m ρ c (Proc.devRef .tc main_v101) = val_main_v149 (F := Ideal) (m ((c : Thread nD τ).loc main_arg1)) (m ((c : Thread nD τ).loc main_arg3)) (m ((c : Thread nD τ).loc main_arg6)) (m ((c : Thread nD τ).loc main_arg7)) (m ((c : Thread nD τ).loc main_arg8)))
    (hnd2 : W19 m ρ c (Proc.devRef .tc main_v102) = val_main_v150 (F := Ideal) (m ((c : Thread nD τ).loc main_arg3)))
    (hb2 : W19 m ρ c (Proc.devRef .tc main_v103) = val_main_v153 (F := Ideal) (m ((c : Thread nD τ).loc main_arg9)))
    (hbo2 : W19 m ρ c (Proc.devRef .tc main_v104) = val_main_v159 (F := Ideal) (m ((c : Thread nD τ).loc main_arg13))) :
    W20 m ρ c (Proc.devRef .tc main_v105) = val_main_v161 (F := Ideal) (m ((c : Thread nD τ).loc main_arg1)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg12)) (m ((c : Thread nD τ).loc main_arg13)) :=
  (W20_out7 m ρ c).trans ((region5_value (V19 m ρ) c _ _ _ _ _ _ _ (W19_arg1 m ρ c) hh hagg hnd2 hb2 (W19_arg12 m ρ c) hbo2).trans rfl)

end Cert.KernelIdeal.Vals

end
-- ==== Proof.Assembly.lean ====
/-
  The kernel's four results, read at the end of @main, are the reference program's own result stages of the same
  arguments: the stages are chained boundary by boundary, each host stretch and each dense region handing the next its
  operands as the reference's stages.
-/
import proofs.«418930_j66125316489906_3_alg».proof.Proof.Gen.KernelIdeal.Frame
import proofs.«418930_j66125316489906_3_alg».proof.Proof.Gen.ReferenceIdeal.Read
import proofs.«418930_j66125316489906_3_alg».proof.Proof.Carry
import proofs.«418930_j66125316489906_3_alg».proof.Proof.Spec
import proofs.«418930_j66125316489906_3_alg».proof.Proof.Lemmas
import proofs.«418930_j66125316489906_3_alg».proof.Proof.HostA
import proofs.«418930_j66125316489906_3_alg».proof.Proof.HostB
import proofs.«418930_j66125316489906_3_alg».proof.Proof.HostC
import proofs.«418930_j66125316489906_3_alg».proof.Proof.HostD
import proofs.«418930_j66125316489906_3_alg».proof.Proof.HostE
import proofs.«418930_j66125316489906_3_alg».proof.Proof.HostF
import proofs.«418930_j66125316489906_3_alg».proof.Proof.HostG
import proofs.«418930_j66125316489906_3_alg».proof.Proof.RegionStages
import Idealize.ShloMosaic.Lib.StableHlo.Run

set_option maxRecDepth 16384

noncomputable section

namespace Cert.KernelIdeal.Vals

open Idealize.ShloMosaic Idealize.ShloMosaic.TcCoe Idealize.SL.Sem Idealize.ShloMosaic.StableHlo
open Cert.KernelIdeal Cert.KernelIdeal.Gen
open Cert.ReferenceIdeal.Read

variable (m : (ℓ : Loc nD τ sig) → Buf (Elt Ideal) ℓ) (ρ : Dev nD → PrngReg)

/-- The first embedding (region 2's output, at the boundary after it). -/
theorem first_embedding (c : Dev nD) : W10 m ρ c (Proc.devRef .tc main_v52) = val_main_v80 (F := Ideal) (m ((c : Thread nD τ).loc main_arg0)) (m ((c : Thread nD τ).loc main_arg2)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  have src := A_src m ρ c
  have dst := A_dst m ρ c
  have ns := A_ns m ρ c
  have nd := A_nd m ρ c
  have x0 := R0_x m ρ c (A_ns2 m ρ c)
  have agg := B_agg m ρ c x0 src dst
  have nd2 := B_nd2 m ρ c nd
  have ns2 := B_ns2 m ρ c ns
  have b2 := B_b2 m ρ c
  have h1 := R1_h m ρ c agg nd2 b2 ns2
  have x1 := R1_x m ρ c agg nd2 b2 ns2
  exact R2_out m ρ c (C_h1 m ρ c h1) (C_agg m ρ c x1 src dst) (C_nd2 m ρ c nd) (C_b2 m ρ c) (C_bo2 m ρ c)

/-- The second embedding (region 5's output, at the boundary after it). -/
theorem second_embedding (c : Dev nD) : W20 m ρ c (Proc.devRef .tc main_v105) = val_main_v161 (F := Ideal) (m ((c : Thread nD τ).loc main_arg1)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg12)) (m ((c : Thread nD τ).loc main_arg13)) := by
  have src := D_src m ρ c
  have dst := D_dst m ρ c
  have ns := D_ns m ρ c
  have nd := D_nd m ρ c
  have x0 := R3_x m ρ c (D_ns2 m ρ c)
  have agg := E_agg m ρ c x0 src dst
  have nd2 := E_nd2 m ρ c nd
  have ns2 := E_ns2 m ρ c ns
  have b2 := E_b2 m ρ c
  have h1 := R4_h m ρ c agg nd2 b2 ns2
  have x1 := R4_x m ρ c agg nd2 b2 ns2
  exact R5_out m ρ c (F_h1 m ρ c h1) (F_agg m ρ c x1 src dst) (F_nd2 m ρ c nd) (F_b2 m ρ c) (F_bo2 m ρ c)

/-- The positive edges' scores at the end of @main. -/
theorem result_pos (c : Dev nD) : W29 m ρ c (Proc.devRef .tc main_v132) = val_main_v214 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) :=
  G_pos m ρ c (first_embedding m ρ c) (second_embedding m ρ c)

/-- The negative edges' scores at the end of @main. -/
theorem result_neg (c : Dev nD) : W29 m ρ c (Proc.devRef .tc main_v159) = val_main_v215 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) :=
  G_neg m ρ c (first_embedding m ρ c) (second_embedding m ρ c)

/-- The first embedding at the end of @main. -/
theorem result_first (c : Dev nD) : W29 m ρ c (Proc.devRef .tc main_v52) = val_main_v80 (F := Ideal) (m ((c : Thread nD τ).loc main_arg0)) (m ((c : Thread nD τ).loc main_arg2)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  G_hf m ρ c (first_embedding m ρ c)

/-- The second embedding at the end of @main. -/
theorem result_second (c : Dev nD) : W29 m ρ c (Proc.devRef .tc main_v105) = val_main_v161 (F := Ideal) (m ((c : Thread nD τ).loc main_arg1)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg12)) (m ((c : Thread nD τ).loc main_arg13)) :=
  G_hs m ρ c (second_embedding m ρ c)

end Cert.KernelIdeal.Vals

end
-- ==== Proof.lean ====
/-
  A two-layer graph network with a dot-product link predictor, computed twice (once per graph) and scored on two
  lists of supervised edges. Per graph: the degree norms n_src = max(deg_out, 1)^(-1/2), n_dst = max(deg_in, 1)^(-1/2);
  layer ℓ: x = (h ⊙ n_src) · W_ℓ, the rows of x gathered along the edges' sources and summed into their destinations,
  h' = relu (agg ⊙ n_dst + b_ℓ); the embedding [feat | h₁ | h₂] · W_out + b_out; a score is the dot product of two
  embedding rows, each divided by its Euclidean norm.

  The kernel computes the three dense pieces — the linear map, the epilogue fused with the next linear map, the
  epilogue fused with the projection — in kernel regions over row blocks (5000 or 2000 rows a grid point), rounding the
  matrix products' operands and the messages to bf16, and leaves the gathers, the scatter-adds, the degree norms and
  the predictor to the same host operations the reference uses. At the extended reals a change of float format is
  the identity and a row block of a matrix product is the matrix product of the row block, so each region's output
  array is the reference's whole-array stage (Proof/RegionLin, RegionPost, RegionProj and their second-graph
  layouts); the host stretches between the regions are the reference's own operations on corresponding buffers, up
  to a reshape where the reference broadcasts along a unit axis (Proof/HostA … HostG). Chained from the launch memory
  to the end of @main (Proof/Assembly), the kernel's four results are the reference's four result stages of the same
  arguments, which is the algebraic claim; no step uses finiteness of the inputs. The frames of the two kernel
  programs are the generated ones, the reference's is its generated run with the results dropped, and the ideal pass
  rewrote nothing, so the preservation claim is trivial.
-/
import proofs.«418930_j66125316489906_3_alg».proof.Defs
import proofs.«418930_j66125316489906_3_alg».proof.Proof.Gen.Kernel
import proofs.«418930_j66125316489906_3_alg».proof.Proof.Gen.Kernel.Frame
import proofs.«418930_j66125316489906_3_alg».proof.Proof.Gen.KernelIdeal
import proofs.«418930_j66125316489906_3_alg».proof.Proof.Gen.KernelIdeal.Frame
import proofs.«418930_j66125316489906_3_alg».proof.Proof.Gen.ReferenceIdeal
import proofs.«418930_j66125316489906_3_alg».proof.Proof.Gen.ReferenceIdeal.Run
import proofs.«418930_j66125316489906_3_alg».proof.Proof.Gen.ReferenceIdeal.Read
import proofs.«418930_j66125316489906_3_alg».proof.Proof.Gen.Pre_finite_inputs
import proofs.«418930_j66125316489906_3_alg».proof.Proof.KernelRun
import proofs.«418930_j66125316489906_3_alg».proof.Proof.Assembly
import Idealize.ShloMosaic.Adequacy
import Idealize.ShloMosaic.Init

noncomputable section

namespace Cert.Proof

open Idealize.ShloMosaic Idealize.SL.Sem

/-- The word-level kernel program runs and keeps its arguments: the generated frame. -/
theorem frame_kernel : Cert.frame_Kernel := fun m ρ _ => Cert.Kernel.Gen.frame m ρ

/-- The idealized kernel program runs and keeps its arguments: the generated frame. -/
theorem frame_kernelIdeal : Cert.frame_KernelIdeal := fun m ρ _ => Cert.KernelIdeal.Gen.frame m ρ

/-- The idealized reference runs and keeps its arguments: its generated run, the four results dropped. -/
theorem frame_referenceIdeal : Cert.frame_ReferenceIdeal := fun m ρ _ =>
  (θ_run Cert.ReferenceIdeal.defs _ _).mono (fun _ h c => (h c).2.2.2.2) (Cert.ReferenceIdeal.Value.run (F := Ideal) m ρ)

/-- The two idealized programs, run from memories that agree on the fourteen arguments, end with equal results:
    both end with the reference's result stages of the kernel's arguments. -/
theorem algebraic : Cert.algebraic_KernelIdeal_ReferenceIdeal := by
  intro m ρ m' ρ' _ hagree
  refine ⟨fun c => Cert.ReferenceIdeal.Read.val_main_v214 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)),
    fun c => Cert.ReferenceIdeal.Read.val_main_v215 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)),
    fun c => Cert.ReferenceIdeal.Read.val_main_v80 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    fun c => Cert.ReferenceIdeal.Read.val_main_v161 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · exact (θ_run Cert.KernelIdeal.defs _ _).mono (fun _ h c =>
      ⟨(h c).1.trans (Cert.KernelIdeal.Vals.result_pos m ρ c),
       (h c).2.1.trans (Cert.KernelIdeal.Vals.result_neg m ρ c),
       (h c).2.2.1.trans (Cert.KernelIdeal.Vals.result_first m ρ c),
       (h c).2.2.2.1.trans (Cert.KernelIdeal.Vals.result_second m ρ c),
       (h c).2.2.2.2⟩) (Cert.KernelIdeal.Vals.run_vals (F := Ideal) m ρ)
  · refine (θ_run Cert.ReferenceIdeal.defs _ _).mono (fun _ h c =>
      ⟨(h c).1.trans ?_, (h c).2.1.trans ?_, (h c).2.2.1.trans ?_, (h c).2.2.2.1.trans ?_, (h c).2.2.2.2⟩)
      (Cert.ReferenceIdeal.Value.run (F := Ideal) m' ρ')
    · rw [Cert.ReferenceIdeal.Read.val_main_v214_eq]; rw [(hagree c).1, (hagree c).2.1, (hagree c).2.2.1, (hagree c).2.2.2.1, (hagree c).2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2]
    · rw [Cert.ReferenceIdeal.Read.val_main_v215_eq]; rw [(hagree c).1, (hagree c).2.1, (hagree c).2.2.1, (hagree c).2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2]
    · rw [Cert.ReferenceIdeal.Read.val_main_v80_eq]; rw [(hagree c).1, (hagree c).2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1]
    · rw [Cert.ReferenceIdeal.Read.val_main_v161_eq]; rw [(hagree c).2.1, (hagree c).2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.2.2.1, (hagree c).2.2.2.2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
